-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v23) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1x128x128x128 : Shape := ⟨5, ![2, 1, 128, 128, 128]⟩
abbrev S4096x4096 : Shape := ⟨2, ![4096, 4096]⟩
abbrev S4096 : Shape := ⟨1, ![4096]⟩
abbrev S_ : Shape := ⟨0, ![]⟩

class Facts : Prop where
  bcast_S_S2x1x128x128x128 : S_.BroadcastsInDim S2x1x128x128x128 (![] : Fin 0 → Fin S2x1x128x128x128.rank)
  reducesTo_S2x1x128x128x128_S_d0_1_2_3_4 : S2x1x128x128x128.ReducesTo [0, 1, 2, 3, 4] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part2 {F : FTy → Type} [FloatOps F] (main_arg7 : FVec F S4096 .f32) (main_arg8 : FVec F S4096x4096 .f32) (main_arg9 : FVec F S4096 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S4096x4096 .f32 := Host.absf main_arg8
  let main_cst_14 : FVec F S_ .f32 := constant S_ .f32 0x7F800000#32
  let main_v40 : FVec F S4096x4096 .f32 := broadcastInDim S4096x4096 ![] bcast_S_S4096x4096 main_cst_14
  let main_v41 : IVec S4096x4096 1 := cmpf .olt main_v39 main_v40
  let main_c_15 : IVec S_ 1 := constantI S_ 1 1#1
  let main_v42 : IVec S_ 1 := (fun x v => Host.reduce IntOp.andi x v reducesTo_S4096x4096_S_d0_1 h_S_) main_v41 main_c_15
  let main_v43 : IVec S_ 1 := andi main_v38 main_v42
  let main_v44 : FVec F S4096 .f32 := Host.absf main_arg9
  let main_cst_16 : FVec F S_ .f32 := constant S_ .f32 0x7F800000#32
  let main_v45 : FVec F S4096 .f32 := broadcastInDim S4096 ![] bcast_S_S4096 main_cst_16
  let main_v46 : IVec S4096 1 := cmpf .olt main_v44 main_v45
  let main_c_17 : IVec S_ 1 := constantI S_ 1 1#1
  let main_v47 : IVec S_ 1 := (fun x v => Host.reduce IntOp.andi x v reducesTo_S4096_S_d0 h_S_) main_v46 main_c_17
  let main_v48 : IVec S_ 1 := andi main_v43 main_v47
  main_v48

def fn_part1 {F : FTy → Type} [FloatOps F] (main_arg4 : FVec F S4096x4096 .f32) (main_arg5 : FVec F S4096 .f32) (main_arg6 : FVec F S4096x4096 .f32) (main_arg7 : FVec F S4096 .f32) (main_arg8 : FVec F S4096x4096 .f32) (main_arg9 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096x4096 .f32 := Host.absf main_arg6
  let main_cst_10 : FVec F S_ .f32 := constant S_ .f32 0x7F800000#32
  let main_v30 : FVec F S4096x4096 .f32 := broadcastInDim S4096x4096 ![] bcast_S_S4096x4096 main_cst_10
  let main_v31 : IVec S4096x4096 1 := cmpf .olt main_v29 main_v30
  let main_c_11 : IVec S_ 1 := constantI S_ 1 1#1
  let main_v32 : IVec S_ 1 := (fun x v => Host.reduce IntOp.andi x v reducesTo_S4096x4096_S_d0_1 h_S_) main_v31 main_c_11
  let main_v33 : IVec S_ 1 := andi main_v28 main_v32
  fn_part2 (F := F) main_arg7 main_arg8 main_arg9 main_v33

def fn {F : FTy → Type} [FloatOps F] (main_arg0 : FVec F S2x1x128x128x128 .f32) (main_arg1 : FVec F S2x1x128x128x128 .f32) (main_arg2 : FVec F S4096x4096 .f32) (main_arg3 : FVec F S4096 .f32) (main_arg4 : FVec F S4096x4096 .f32) (main_arg5 : FVec F S4096 .f32) (main_arg6 : FVec F S4096x4096 .f32) (main_arg7 : FVec F S4096 .f32) (main_arg8 : FVec F S4096x4096 .f32) (main_arg9 : FVec F S4096 .f32) : IVec S_ 1 :=
  let main_v0 : FVec F S2x1x128x128x128 .f32 := Host.absf main_arg0
  let main_cst : FVec F S_ .f32 := constant S_ .f32 0x7F800000#32
  let main_v1 : FVec F S2x1x128x128x128 .f32 := broadcastInDim S2x1x128x128x128 ![] bcast_S_S2x1x128x128x128 main_cst
  let main_v2 : IVec S2x1x128x128x128 1 := cmpf .olt main_v0 main_v1
  let main_c : IVec S_ 1 := constantI S_ 1 1#1
  let main_v3 : IVec S_ 1 := (fun x v => Host.reduce IntOp.andi x v reducesTo_S2x1x128x128x128_S_d0_1_2_3_4 h_S_) main_v2 main_c
  let main_v4 : FVec F S2x1x128x128x128 .f32 := Host.absf main_arg1
  let main_cst_0 : FVec F S_ .f32 := constant S_ .f32 0x7F800000#32
  let main_v5 : FVec F S2x1x128x128x128 .f32 := broadcastInDim S2x1x128x128x128 ![] bcast_S_S2x1x128x128x128 main_cst_0
  let main_v6 : IVec S2x1x128x128x128 1 := cmpf .olt main_v4 main_v5
  let main_c_1 : IVec S_ 1 := constantI S_ 1 1#1
  let main_v7 : IVec S_ 1 := (fun x v => Host.reduce IntOp.andi x v reducesTo_S2x1x128x128x128_S_d0_1_2_3_4 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_arg7 main_arg8 main_arg9 main_v13 main_v16
-- ==== Kernel.lean ====
abbrev S2x1x128x128x128 : Shape := ⟨5, ![2, 1, 128, 128, 128]⟩
abbrev S4096x4096 : Shape := ⟨2, ![4096, 4096]⟩
abbrev S4096 : Shape := ⟨1, ![4096]⟩
abbrev S2x128x128x128 : Shape := ⟨4, ![2, 128, 128, 128]⟩
abbrev S2x8x16x8x16x8x16 : Shape := ⟨7, ![2, 8, 16, 8, 16, 8, 16]⟩
abbrev S2x8x8x8x16x16x16 : Shape := ⟨7, ![2, 8, 8, 8, 16, 16, 16]⟩
abbrev S1024x4096 : Shape := ⟨2, ![1024, 4096]⟩
abbrev S1x4096 : Shape := ⟨2, ![1, 4096]⟩
abbrev S512x1024 : Shape := ⟨2, ![512, 1024]⟩
abbrev S1024x1024 : Shape := ⟨2, ![1024, 1024]⟩
abbrev S1x1024 : Shape := ⟨2, ![1, 1024]⟩

abbrev nBuf : Space → Nat
  | .hbm => 34
  | .vmem => 36
  | .smem => 0
  | _ => 0

abbrev bufTy : (tb : Table) → Fin (tcTables nBuf tb) → BufTy
  | .hbm, ⟨0, _⟩ => ⟨S2x1x128x128x128, .f32⟩
  | .hbm, ⟨1, _⟩ => ⟨S2x1x128x128x128, .f32⟩
  | .hbm, ⟨2, _⟩ => ⟨S4096x4096, .f32⟩
  | .hbm, ⟨3, _⟩ => ⟨S4096, .f32⟩
  | .hbm, ⟨4, _⟩ => ⟨S4096x4096, .f32⟩
  | .hbm, ⟨5, _⟩ => ⟨S4096, .f32⟩
  | .hbm, ⟨6, _⟩ => ⟨S4096x4096, .f32⟩
  | .hbm, ⟨7, _⟩ => ⟨S4096, .f32⟩
  | .hbm, ⟨8, _⟩ => ⟨S4096x4096, .f32⟩
  | .hbm, ⟨9, _⟩ => ⟨S4096, .f32⟩
  | .hbm, ⟨10, _⟩ => ⟨S2x128x128x128, .f32⟩
  | .hbm, ⟨11, _⟩ => ⟨S2x8x16x8x16x8x16, .f32⟩
  | .hbm, ⟨12, _⟩ => ⟨S2x8x8x8x16x16x16, .f32⟩
  | .hbm, ⟨13, _⟩ => ⟨S1024x4096, .f32⟩
  | .hbm, ⟨14, _⟩ => ⟨S2x128x128x128, .f32⟩
  | .hbm, ⟨15, _⟩ => ⟨S2x8x16x8x16x8x16, .f32⟩
  | .hbm, ⟨16, _⟩ => ⟨S2x8x8x8x16x16x16, .f32⟩
  | .hbm, ⟨17, _⟩ => ⟨S1024x4096, .f32⟩
  | .hbm, ⟨18, _⟩ => ⟨S1x4096, .f32⟩
  | .hbm, ⟨19, _⟩ => ⟨S1024x4096, .f32⟩
  | .hbm, ⟨20, _⟩ => ⟨S1x4096, .f32⟩
  | .hbm, ⟨21, _⟩ => ⟨S1024x4096, .f32⟩
  | .hbm, ⟨22, _⟩ => ⟨S1x4096, .f32⟩
  | .hbm, ⟨23, _⟩ => ⟨S1024x4096, .f32⟩
  | .hbm, ⟨24, _⟩ => ⟨S1x4096, .f32⟩
  | .hbm, ⟨25, _⟩ => ⟨S1024x4096, .f32⟩
  | .hbm, ⟨26, _⟩ => ⟨S1024x4096, .f32⟩
  | .hbm, ⟨27, _⟩ => ⟨S1024x4096, .f32⟩
  | .hbm, ⟨28, _⟩ => ⟨S2x8x8x8x16x16x16, .f32⟩
  | .hbm, ⟨29, _⟩ => ⟨S2x8x16x8x16x8x16, .f32⟩
  | .hbm, ⟨30, _⟩ => ⟨S2x1x128x128x128, .f32⟩
  | .hbm, ⟨31, _⟩ => ⟨S2x8x8x8x16x16x16, .f32⟩
  | .hbm, ⟨32, _⟩ => ⟨S2x8x16x8x16x8x16, .f32⟩
  | .hbm, ⟨33, _⟩ => ⟨S2x1x128x128x128, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1024x1024, .f32⟩
  | .local _ .vmem, ⟨12, _⟩ => ⟨S1024x1024, .f32⟩
  | .local _ .vmem, ⟨13, _⟩ => ⟨S1x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S1024x1024, .f32⟩
  | .local _ .vmem, ⟨21, _⟩ => ⟨S1024x1024, .f32⟩
  | .local _ .vmem, ⟨22, _⟩ => ⟨S1x1024, .f32⟩
  | .local _ .vmem, ⟨23, _⟩ => ⟨S1x1024, .f32⟩
  | .local _ .vmem, ⟨24, _⟩ => ⟨S512x1024, .f32⟩
  | .local _ .vmem, ⟨25, _⟩ => ⟨S512x1024, .f32⟩
  | .local _ .vmem, ⟨26, _⟩ => ⟨S512x1024, .f32⟩
  | .local _ .vmem, ⟨27, _⟩ => ⟨S512x1024, .f32⟩
  | .local _ .vmem, ⟨28, _⟩ => ⟨S512x1024, .f32⟩
  | .local _ .vmem, ⟨29, _⟩ => ⟨S1024x1024, .f32⟩
  | .local _ .vmem, ⟨30, _⟩ => ⟨S1024x1024, .f32⟩
  | .local _ .vmem, ⟨31, _⟩ => ⟨S1x1024, .f32⟩
  | .local _ .vmem, ⟨32, _⟩ => ⟨S1x1024, .f32⟩
  | .local _ .vmem, ⟨33, _⟩ => ⟨S512x1024, .f32⟩
  | .local _ .vmem, ⟨34, _⟩ => ⟨S512x1024, .f32⟩
  | .local _ .vmem, ⟨35, _⟩ => ⟨S512x1024, .f32⟩
  | _, _ => ⟨S2x1x128x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_scratch0 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg3_1 : Ref sig .tc := ⟨.vmem, 34, rfl⟩
abbrev cc3_scratch0 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31

abbrev nD : Nat := 1
abbrev τ : Topo := Topo.v7x

variable {F : FTy → Type} [FloatOps F]

abbrev grid0 : Pipeline.Grid := ⟨3, ![2, 4, 4], ![false, false, false]⟩

def k0_cond2 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![2, 4, 4], ![false, false, false]⟩

def k1_cond2 (i : grid1.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![2, 4, 4], ![false, false, false]⟩

def k2_cond2 (i : grid2.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨3, ![2, 4, 4], ![false, false, false]⟩

def k3_cond2 (i : grid3.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S512x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1024x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true, false]

abbrev stage3_3 : Fin 2 → Memref sig .tc .vmem S512x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

class Facts₀ : Prop where
  shapeCasts_S2x1x128x128x128_S2x128x128x128 : S2x1x128x128x128.ShapeCasts S2x128x128x128
  shapeCasts_S2x128x128x128_S2x8x16x8x16x8x16 : S2x128x128x128.ShapeCasts S2x8x16x8x16x8x16
  transposes_S2x8x16x8x16x8x16_S2x8x8x8x16x16x16_0_1_3_5_2_4_6 : S2x8x16x8x16x8x16.Transposes [0, 1, 3, 5, 2, 4, 6] S2x8x8x8x16x16x16
  shapeCasts_S2x8x8x8x16x16x16_S1024x4096 : S2x8x8x8x16x16x16.ShapeCasts S1024x4096
  shapeCasts_S4096_S1x4096 : S4096.ShapeCasts S1x4096
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S1024x4096_S2x8x8x8x16x16x16 : S1024x4096.ShapeCasts S2x8x8x8x16x16x16
  transposes_S2x8x8x8x16x16x16_S2x8x16x8x16x8x16_0_1_4_2_5_3_6 : S2x8x8x8x16x16x16.Transposes [0, 1, 4, 2, 5, 3, 6] S2x8x16x8x16x8x16
  shapeCasts_S2x8x16x8x16x8x16_S2x1x128x128x128 : S2x8x16x8x16x8x16.ShapeCasts S2x1x128x128x128
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S1024x4096.size a
  hwx0_0 : ∀ i : grid0.Coords, EltTy.bits .f32 = 32 ∨ (Rect.block (s := S1024x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S1024x4096.size a
  hwx0_3 : ∀ i : grid0.Coords, EltTy.bits .f32 = 32 ∨ (Rect.block (s := S1024x4096) S512x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S1024x4096.size a
  hwx1_0 : ∀ i : grid1.Coords, EltTy.bits .f32 = 32 ∨ (Rect.block (s := S1024x4096) S512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .f32 = 32 ∨ (Rect.block (s := S4096x4096) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S1024x4096.size a
  hwx1_3 : ∀ i : grid1.Coords, EltTy.bits .f32 = 32 ∨ (Rect.block (s := S1024x4096) S512x1024.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S1024x4096.size a
  hwx2_0 : ∀ i : grid2.Coords, EltTy.bits .f32 = 32 ∨ (Rect.block (s := S1024x4096) S512x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S4096x4096.size a
  hwx2_1 : ∀ i : grid2.Coords, EltTy.bits .f32 = 32 ∨ (Rect.block (s := S4096x4096) S1024x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x4096.size a
  hwx2_2 : ∀ i : grid2.Coords, EltTy.bits .f32 = 32 ∨ (Rect.block (s := S1x4096) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S1024x4096.size a
  hwx2_3 : ∀ i : grid2.Coords, EltTy.bits .f32 = 32 ∨ (Rect.block (s := S1024x4096) S512x1024.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x1024.size a ≤ S1024x4096.size a
  hwx3_0 : ∀ i : grid3.Coords, EltTy.bits .f32 = 32 ∨ (Rect.block (s := S1024x4096) S512x1024.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x1024.size a ≤ S4096x4096.size a
  hwx3_1 : ∀ i : grid3.Coords, EltTy.bits .f32 = 32 ∨ (Rect.block (s := S4096x4096) S1024x1024.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x1024.size a ≤ S1x4096.size a
  hwx3_2 : ∀ i : grid3.Coords, EltTy.bits .f32 = 32 ∨ (Rect.block (s := S1x4096) S1x1024.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S512x1024.size a ≤ S1024x4096.size a
  hwx3_3 : ∀ i : grid3.Coords, EltTy.bits .f32 = 32 ∨ (Rect.block (s := S1024x4096) S512x1024.size (cc3_transform_3 i) (hinb3_3 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_v3) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v3) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v7) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S1x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v13) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v7) S512x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S1024x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v14) S1x1024.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v15) S512x1024.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

class Facts : Prop extends Facts₀ where

variable [Facts]
-- ==== ReferenceIdeal.lean ====
abbrev S2x1x128x128x128 : Shape := ⟨5, ![2, 1, 128, 128, 128]⟩
abbrev S4096x4096 : Shape := ⟨2, ![4096, 4096]⟩
abbrev S4096 : Shape := ⟨1, ![4096]⟩
abbrev S2x128x128x128 : Shape := ⟨4, ![2, 128, 128, 128]⟩
abbrev S2x8x16x8x16x8x16 : Shape := ⟨7, ![2, 8, 16, 8, 16, 8, 16]⟩
abbrev S2x8x8x8x16x16x16 : Shape := ⟨7, ![2, 8, 8, 8, 16, 16, 16]⟩
abbrev S2x512x4096 : Shape := ⟨3, ![2, 512, 4096]⟩
abbrev S1x1x4096 : Shape := ⟨3, ![1, 1, 4096]⟩

abbrev nBuf : Space → Nat
  | .hbm => 56
  | .vmem => 0
  | .smem => 0
  | _ => 0

abbrev bufTy : (tb : Table) → Fin (tcTables nBuf tb) → BufTy
  | .hbm, ⟨0, _⟩ => ⟨S2x1x128x128x128, .f32⟩
  | .hbm, ⟨1, _⟩ => ⟨S2x1x128x128x128, .f32⟩
  | .hbm, ⟨2, _⟩ => ⟨S4096x4096, .f32⟩
  | .hbm, ⟨3, _⟩ => ⟨S4096, .f32⟩
  | .hbm, ⟨4, _⟩ => ⟨S4096x4096, .f32⟩
  | .hbm, ⟨5, _⟩ => ⟨S4096, .f32⟩
  | .hbm, ⟨6, _⟩ => ⟨S4096x4096, .f32⟩
  | .hbm, ⟨7, _⟩ => ⟨S4096, .f32⟩
  | .hbm, ⟨8, _⟩ => ⟨S4096x4096, .f32⟩
  | .hbm, ⟨9, _⟩ => ⟨S4096, .f32⟩
  | .hbm, ⟨10, _⟩ => ⟨S2x128x128x128, .f32⟩
  | .hbm, ⟨11, _⟩ => ⟨S2x8x16x8x16x8x16, .f32⟩
  | .hbm, ⟨12, _⟩ => ⟨S2x8x8x8x16x16x16, .f32⟩
  | .hbm, ⟨13, _⟩ => ⟨S2x512x4096, .f32⟩
  | .hbm, ⟨14, _⟩ => ⟨S2x512x4096, .f32⟩
  | .hbm, ⟨15, _⟩ => ⟨S1x1x4096, .f32⟩
  | .hbm, ⟨16, _⟩ => ⟨S2x512x4096, .f32⟩
  | .hbm, ⟨17, _⟩ => ⟨S2x512x4096, .f32⟩
  | .hbm, ⟨18, _⟩ => ⟨S2x8x8x8x16x16x16, .f32⟩
  | .hbm, ⟨19, _⟩ => ⟨S2x8x16x8x16x8x16, .f32⟩
  | .hbm, ⟨20, _⟩ => ⟨S2x1x128x128x128, .f32⟩
  | .hbm, ⟨21, _⟩ => ⟨S2x128x128x128, .f32⟩
  | .hbm, ⟨22, _⟩ => ⟨S2x8x16x8x16x8x16, .f32⟩
  | .hbm, ⟨23, _⟩ => ⟨S2x8x8x8x16x16x16, .f32⟩
  | .hbm, ⟨24, _⟩ => ⟨S2x512x4096, .f32⟩
  | .hbm, ⟨25, _⟩ => ⟨S2x512x4096, .f32⟩
  | .hbm, ⟨26, _⟩ => ⟨S1x1x4096, .f32⟩
  | .hbm, ⟨27, _⟩ => ⟨S2x512x4096, .f32⟩
  | .hbm, ⟨28, _⟩ => ⟨S2x512x4096, .f32⟩
  | .hbm, ⟨29, _⟩ => ⟨S2x8x8x8x16x16x16, .f32⟩
  | .hbm, ⟨30, _⟩ => ⟨S2x8x16x8x16x8x16, .f32⟩
  | .hbm, ⟨31, _⟩ => ⟨S2x1x128x128x128, .f32⟩
  | .hbm, ⟨32, _⟩ => ⟨S2x128x128x128, .f32⟩
  | .hbm, ⟨33, _⟩ => ⟨S2x8x16x8x16x8x16, .f32⟩
  | .hbm, ⟨34, _⟩ => ⟨S2x8x8x8x16x16x16, .f32⟩
  | .hbm, ⟨35, _⟩ => ⟨S2x512x4096, .f32⟩
  | .hbm, ⟨36, _⟩ => ⟨S2x512x4096, .f32⟩
  | .hbm, ⟨37, _⟩ => ⟨S1x1x4096, .f32⟩
  | .hbm, ⟨38, _⟩ => ⟨S2x512x4096, .f32⟩
  | .hbm, ⟨39, _⟩ => ⟨S2x512x4096, .f32⟩
  | .hbm, ⟨40, _⟩ => ⟨S2x8x8x8x16x16x16, .f32⟩
  | .hbm, ⟨41, _⟩ => ⟨S2x8x16x8x16x8x16, .f32⟩
  | .hbm, ⟨42, _⟩ => ⟨S2x1x128x128x128, .f32⟩
  | .hbm, ⟨43, _⟩ => ⟨S2x128x128x128, .f32⟩
  | .hbm, ⟨44, _⟩ => ⟨S2x8x16x8x16x8x16, .f32⟩
  | .hbm, ⟨45, _⟩ => ⟨S2x8x8x8x16x16x16, .f32⟩
  | .hbm, ⟨46, _⟩ => ⟨S2x512x4096, .f32⟩
  | .hbm, ⟨47, _⟩ => ⟨S2x512x4096, .f32⟩
  | .hbm, ⟨48, _⟩ => ⟨S1x1x4096, .f32⟩
  | .hbm, ⟨49, _⟩ => ⟨S2x512x4096, .f32⟩
  | .hbm, ⟨50, _⟩ => ⟨S2x512x4096, .f32⟩
  | .hbm, ⟨51, _⟩ => ⟨S2x8x8x8x16x16x16, .f32⟩
  | .hbm, ⟨52, _⟩ => ⟨S2x8x16x8x16x8x16, .f32⟩
  | .hbm, ⟨53, _⟩ => ⟨S2x1x128x128x128, .f32⟩
  | .hbm, ⟨54, _⟩ => ⟨S2x1x128x128x128, .f32⟩
  | .hbm, ⟨55, _⟩ => ⟨S2x1x128x128x128, .f32⟩
  | _, _ => ⟨S2x1x128x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩

abbrev nD : Nat := 1
abbrev τ : Topo := Topo.v7x

variable {F : FTy → Type} [FloatOps F]

class Facts₀ : Prop where
  shapeCasts_S2x1x128x128x128_S2x128x128x128 : S2x1x128x128x128.ShapeCasts S2x128x128x128
  shapeCasts_S2x128x128x128_S2x8x16x8x16x8x16 : S2x128x128x128.ShapeCasts S2x8x16x8x16x8x16
  transposes_S2x8x16x8x16x8x16_S2x8x8x8x16x16x16_0_1_3_5_2_4_6 : S2x8x16x8x16x8x16.Transposes [0, 1, 3, 5, 2, 4, 6] S2x8x8x8x16x16x16
  shapeCasts_S2x8x8x8x16x16x16_S2x512x4096 : S2x8x8x8x16x16x16.ShapeCasts S2x512x4096
  bcast_S4096_S1x1x4096_2 : S4096.BroadcastsInDim S1x1x4096 (![2] : Fin 1 → Fin S1x1x4096.rank)
  bcast_S1x1x4096_S2x512x4096_0_1_2 : S1x1x4096.BroadcastsInDim S2x512x4096 (![0, 1, 2] : Fin 3 → Fin S2x512x4096.rank)
  shapeCasts_S2x512x4096_S2x8x8x8x16x16x16 : S2x512x4096.ShapeCasts S2x8x8x8x16x16x16
  transposes_S2x8x8x8x16x16x16_S2x8x16x8x16x8x16_0_1_4_2_5_3_6 : S2x8x8x8x16x16x16.Transposes [0, 1, 4, 2, 5, 3, 6] S2x8x16x8x16x8x16
  shapeCasts_S2x8x16x8x16x8x16_S2x1x128x128x128 : S2x8x16x8x16x8x16.ShapeCasts S2x1x128x128x128
  dot_S2x512x4096_S4096x4096_S2x512x4096_2_1_01_0_n_n_wf : DotDims.WF S2x512x4096 S4096x4096 S2x512x4096 [2] [1] [0, 1] [0] [] []

variable [Facts₀]

def dot_S2x512x4096_S4096x4096_S2x512x4096_2_1_01_0_n_n : DotDims S2x512x4096 S4096x4096 S2x512x4096 where
  lhsContracting := [2]
  rhsContracting := [1]
  lhsNonContracting := [0, 1]
  rhsNonContracting := [0]
  lhsBatch := []
  rhsBatch := []
  wf := dot_S2x512x4096_S4096x4096_S2x512x4096_2_1_01_0_n_n_wf

class Facts : Prop extends Facts₀ where

variable [Facts]
-- ==== Proof.LibWholeBuffer.lean ====
/-
  Loads and stores through the rectangle that is a buffer's WHOLE shape at zero offsets.

  A kernel body that treats a staging buffer or a scratch accumulator as one value loads it and stores it
  through the rectangle of the buffer's own sizes at offset zero. Through that rectangle a load of a whole
  buffer reads its contents, a store LAST in a list of stores leaves exactly its payload (whatever the
  earlier stores and the prior contents were), and a load placed after such a store reads the payload back.
  Stated over an abstract shape, so that no statement here ever computes with a concrete extent.
-/
import Idealize.ShloMosaic.Lib.Pipeline.FrameBody
import Idealize.ShloMosaic.Lib.Pipeline.Frame
import Idealize.ShloMosaic.Lib.Pipeline.Value

noncomputable section

namespace Cert.LibWholeBuffer

open Idealize.ShloMosaic

variable {sig : RefSig} {κ : Kind} {sp : Space} {Val : EltTy → Type} {S : Shape} {e : EltTy}

/-- After a list of stores whose LAST one (the head) goes through the whole-shape rectangle, the buffer reads
    as that store's payload. -/
theorem read_after_whole_store [∀ e, Nonempty (Val e)] (v : View sig κ sp S e) (f : v.ty.Contents Val)
    {off : Fin S.rank → Nat} (h : off = fun _ => 0) (inb : ∀ a, off a + S.size a ≤ S.size a)
    (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h]

/-- A load through the whole-shape rectangle of a whole buffer holding `X` reads `X`. -/
theorem load_whole {m : Memref sig κ sp S e} (hm : m.IsWhole) {off : Fin S.rank → Nat} (h : off = fun _ => 0)
    (inb : ∀ a, off a + S.size a ≤ S.size a) (X : S.Idx → Val e) :
    m.view.readAt Val (Rect.unit off S.size inb).toLoadRect (hm.unread X) = X := by
  rw [View.readAt_eq_ld, hm.read_unread, View.ld_unit_zero h]

/-- A load through the whole-shape rectangle placed after ONE store through it reads that store's payload. -/
theorem load_after_whole_store [∀ e, Nonempty (Val e)] (v : View sig κ sp S e)
    {off : Fin S.rank → Nat} (h : off = fun _ => 0) (inb : ∀ a, off a + S.size a ≤ S.size a) (w : S.Idx → Val e) :
    v.readCov [(⟨Rect.unit off S.size inb, w⟩ : View.Piece Val S e)] (Rect.unit off S.size inb).toLoadRect = w :=
  View.readCov_unit_zero v h inb w

/-- The offsets `![0, 0]` of a rank-two rectangle are the zero offsets. -/
theorem zeros2 : (![0, 0] : Fin 2 → Nat) = fun _ => 0 := by
  funext a; fin_cases a <;> rfl

end Cert.LibWholeBuffer

end
-- ==== Proof.Kernel.Body0.lean ====
/-
  The matmul kernel's body at one grid point of the first call, in its three control cases.

  The body keeps a running block product in a scratch accumulator. At a point where the reduction coordinate
  `k` is 0 it first zeroes the accumulator; at every point it adds the product of the current activation block
  and weight block to it; at the point where `k` is the last (3) it also stores accumulator + bias row into the
  output block. So with `x`, `w`, `b` the three input blocks and `a` what the accumulator held:
    first  point (k = 0):       accumulator ends at  step x w zero;                 output block untouched
    middle point (0 < k < 3):   accumulator ends at  step x w a;                    output block untouched
    last   point (k = 3):       accumulator ends at  step x w a, and the output block at  (step x w a) + b
  where `step` is the printed payload `k0_pay2`, `zero` is `k0_pay1`, and the biased sum is `k0_pay3`.
  Each case is one run of the symbolic executor over the printed body; what the run leaves in a buffer is a
  list of whole-buffer stores, read back by the lemmas on whole-buffer rectangles.
-/
import proofs.«109952_j48137993453602_1_alg».proof.Proof.Gen.Kernel.Launch
import proofs.«109952_j48137993453602_1_alg».proof.Proof.Gen.Kernel.Skeleton
import proofs.«109952_j48137993453602_1_alg».proof.Proof.Gen.Kernel.Points
import proofs.«109952_j48137993453602_1_alg».proof.Proof.LibWholeBuffer
import Idealize.ShloMosaic.Lib.Pipeline.FrameBody
import Idealize.ShloMosaic.Lib.Tactic

set_option maxRecDepth 16384

noncomputable section

namespace Cert.Kernel.Hand

open Cert.Kernel Cert.Kernel.Gen Cert.LibWholeBuffer
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The reduction coordinate is 0: the accumulator is zeroed at this point (the body's first conditional). -/
abbrev condFirst0 (i : grid0.Coords) : Prop := (Scalar.cmpi .ne (Scalar.extui (Scalar.cmpi .eq (BitVec.ofNat 32 (i 2).val) 0#32)) 0#32) = 1#1
/-- The reduction coordinate is the last: the output block is stored at this point (the body's second conditional). -/
abbrev condLast0 (i : grid0.Coords) : Prop := k0_cond2 i = 1#1

/-- A middle point: the accumulator goes from `xs` to `step x0 w0 xs`; every other buffer is handed back as found. -/
theorem bodyMid0 (c : Dev nD) (i : grid0.Coords)
    (arg3 : Memref sig .tc .vmem S512x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S512x1024 .f32) (harg6 : arg6.IsWhole)
    (arg7 : Memref sig .tc .vmem S512x1024 .f32) (harg7 : arg7.IsWhole)
    (hc0 : ¬condFirst0 i) (hc1 : ¬condLast0 i)
    (x0 : Vec F S512x1024 .f32) (w0 : Vec F S1024x1024 .f32) (b0 : Vec F S1x1024 .f32) (xi : Vec F S512x1024 .f32) (xs : Vec F S512x1024 .f32)
    (E : Set ℕ) (K : PUnit → sProp 𝕄) :
    iprop(owns (c : Thread nD τ) arg3 fullShare x0 ∗ owns (c : Thread nD τ) arg4 fullShare w0 ∗ owns (c : Thread nD τ) arg5 fullShare b0
        ∗ owns (c : Thread nD τ) arg6 fullShare xi ∗ owns (c : Thread nD τ) arg7 fullShare xs
        ∗ (iprop(owns (c : Thread nD τ) arg3 fullShare x0 ∗ owns (c : Thread nD τ) arg4 fullShare w0 ∗ owns (c : Thread nD τ) arg5 fullShare b0
            ∗ owns (c : Thread nD τ) arg6 fullShare xi ∗ owns (c : Thread nD τ) arg7 fullShare (k0_pay2 x0 w0 xs)) -∗ K ⟨⟩))
      ⊢ wp frame (wpE (defs₀ (F := F)) Variants.none c none) E (cc0__patch_matmul_kernel i arg3 harg3 arg4 harg4 arg5 harg5 arg6 harg6 arg7 harg7) K := by
  simp only [cc0__patch_matmul_kernel_eq_skeleton]; unfold cc0__patch_matmul_kernel_skel
  unfold owns
  iintro ⟨⟨%f3, %hf3, H3⟩, ⟨%f4, %hf4, H4⟩, ⟨%f5, %hf5, H5⟩, ⟨%f6, %hf6, H6⟩, ⟨%f7, %hf7, H7⟩, Hk⟩
  obtain rfl := harg3.eq_unread hf3; obtain rfl := harg4.eq_unread hf4; obtain rfl := harg5.eq_unread hf5
  obtain rfl := harg6.eq_unread hf6; obtain rfl := harg7.eq_unread hf7
  sl_exec (disch := first | exact hc0 | exact hc1)
  sl_step
  iapply Hk
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  iexists _; isplitr; swap; · iexact H7
  ipureintro
  refine (read_after_whole_store (S := S512x1024) _ _ zeros2 _ _ _).trans ?_
  exact congr (congr (congrArg k0_pay2 (load_whole harg3 zeros2 _ x0)) (load_whole harg4 zeros2 _ w0)) (load_whole harg7 zeros2 _ xs)

/-- A first point: whatever the accumulator held, it ends at `step x0 w0 zero`; every other buffer is handed back as found. -/
theorem bodyFirst0 (c : Dev nD) (i : grid0.Coords)
    (arg3 : Memref sig .tc .vmem S512x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S512x1024 .f32) (harg6 : arg6.IsWhole)
    (arg7 : Memref sig .tc .vmem S512x1024 .f32) (harg7 : arg7.IsWhole)
    (hc0 : condFirst0 i) (hc1 : ¬condLast0 i)
    (x0 : Vec F S512x1024 .f32) (w0 : Vec F S1024x1024 .f32) (b0 : Vec F S1x1024 .f32) (xi : Vec F S512x1024 .f32)
    (E : Set ℕ) (K : PUnit → sProp 𝕄) :
    iprop(owns (c : Thread nD τ) arg3 fullShare x0 ∗ owns (c : Thread nD τ) arg4 fullShare w0 ∗ owns (c : Thread nD τ) arg5 fullShare b0
        ∗ owns (c : Thread nD τ) arg6 fullShare xi ∗ (∃ d, owns (c : Thread nD τ) arg7 fullShare d)
        ∗ (iprop(owns (c : Thread nD τ) arg3 fullShare x0 ∗ owns (c : Thread nD τ) arg4 fullShare w0 ∗ owns (c : Thread nD τ) arg5 fullShare b0
            ∗ owns (c : Thread nD τ) arg6 fullShare xi ∗ owns (c : Thread nD τ) arg7 fullShare (k0_pay2 x0 w0 (k0_pay1 (F := F)))) -∗ K ⟨⟩))
      ⊢ wp frame (wpE (defs₀ (F := F)) Variants.none c none) E (cc0__patch_matmul_kernel i arg3 harg3 arg4 harg4 arg5 harg5 arg6 harg6 arg7 harg7) K := by
  simp only [cc0__patch_matmul_kernel_eq_skeleton]; unfold cc0__patch_matmul_kernel_skel
  unfold owns
  iintro ⟨⟨%f3, %hf3, H3⟩, ⟨%f4, %hf4, H4⟩, ⟨%f5, %hf5, H5⟩, ⟨%f6, %hf6, H6⟩, ⟨%d7, %f7, %hf7, H7⟩, Hk⟩
  obtain rfl := harg3.eq_unread hf3; obtain rfl := harg4.eq_unread hf4; obtain rfl := harg5.eq_unread hf5
  obtain rfl := harg6.eq_unread hf6
  sl_exec (disch := first | exact hc0 | exact hc1)
  sl_step
  iapply Hk
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  iexists _; isplitr; swap; · iexact H7
  ipureintro
  sl_unfold_run_names
  refine (read_after_whole_store (S := S512x1024) _ _ zeros2 _ _ _).trans ?_
  exact congr (congr (congrArg k0_pay2 (load_whole harg3 zeros2 _ x0)) (load_whole harg4 zeros2 _ w0)) (load_after_whole_store (S := S512x1024) _ zeros2 _ _)

/-- A last point: the accumulator goes from `xs` to `step x0 w0 xs`, and the output block, whatever it held, ends at that plus the bias row. -/
theorem bodyLast0 (c : Dev nD) (i : grid0.Coords)
    (arg3 : Memref sig .tc .vmem S512x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S512x1024 .f32) (harg6 : arg6.IsWhole)
    (arg7 : Memref sig .tc .vmem S512x1024 .f32) (harg7 : arg7.IsWhole)
    (hc0 : ¬condFirst0 i) (hc1 : condLast0 i)
    (x0 : Vec F S512x1024 .f32) (w0 : Vec F S1024x1024 .f32) (b0 : Vec F S1x1024 .f32) (xs : Vec F S512x1024 .f32)
    (E : Set ℕ) (K : PUnit → sProp 𝕄) :
    iprop(owns (c : Thread nD τ) arg3 fullShare x0 ∗ owns (c : Thread nD τ) arg4 fullShare w0 ∗ owns (c : Thread nD τ) arg5 fullShare b0
        ∗ (∃ d, owns (c : Thread nD τ) arg6 fullShare d) ∗ owns (c : Thread nD τ) arg7 fullShare xs
        ∗ (iprop(owns (c : Thread nD τ) arg3 fullShare x0 ∗ owns (c : Thread nD τ) arg4 fullShare w0 ∗ owns (c : Thread nD τ) arg5 fullShare b0
            ∗ owns (c : Thread nD τ) arg6 fullShare (k0_pay3 (k0_pay2 x0 w0 xs) b0) ∗ owns (c : Thread nD τ) arg7 fullShare (k0_pay2 x0 w0 xs)) -∗ K ⟨⟩))
      ⊢ wp frame (wpE (defs₀ (F := F)) Variants.none c none) E (cc0__patch_matmul_kernel i arg3 harg3 arg4 harg4 arg5 harg5 arg6 harg6 arg7 harg7) K := by
  simp only [cc0__patch_matmul_kernel_eq_skeleton]; unfold cc0__patch_matmul_kernel_skel
  unfold owns
  iintro ⟨⟨%f3, %hf3, H3⟩, ⟨%f4, %hf4, H4⟩, ⟨%f5, %hf5, H5⟩, ⟨%d6, %f6, %hf6, H6⟩, ⟨%f7, %hf7, H7⟩, Hk⟩
  obtain rfl := harg3.eq_unread hf3; obtain rfl := harg4.eq_unread hf4; obtain rfl := harg5.eq_unread hf5
  obtain rfl := harg7.eq_unread hf7
  sl_exec (disch := first | exact hc0 | exact hc1)
  sl_step
  iapply Hk
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  have hacc : k0_pay2 (View.readAt (Elt F) arg3.view (Rect.unit ![0, 0] S512x1024.size inb_S512x1024_S512x1024_0_0).toLoadRect (harg3.unread x0))
      (View.readAt (Elt F) arg4.view (Rect.unit ![0, 0] S1024x1024.size inb_S1024x1024_S1024x1024_0_0).toLoadRect (harg4.unread w0))
      (View.readAt (Elt F) arg7.view (Rect.unit ![0, 0] S512x1024.size inb_S512x1024_S512x1024_0_0).toLoadRect (harg7.unread xs))
      = k0_pay2 x0 w0 xs :=
    congr (congr (congrArg k0_pay2 (load_whole harg3 zeros2 _ x0)) (load_whole harg4 zeros2 _ w0)) (load_whole harg7 zeros2 _ xs)
  isplitl [H6]
  · iexists _; isplitr; swap; · iexact H6
    ipureintro
    sl_unfold_run_names
    refine (read_after_whole_store (S := S512x1024) _ _ zeros2 _ _ _).trans ?_
    exact congr (congrArg k0_pay3 ((load_after_whole_store (S := S512x1024) _ zeros2 _ _).trans hacc)) (load_whole harg5 zeros2 _ b0)
  iexists _; isplitr; swap; · iexact H7
  ipureintro
  sl_unfold_run_names
  exact (read_after_whole_store (S := S512x1024) _ _ zeros2 _ _ _).trans hacc

end Cert.Kernel.Hand

end
-- ==== Proof.Kernel.Region0.lean ====
/-
  The first call's pipeline: what the scratch accumulator and the output block hold point by point, the proof
  data, and the body obligation.

  The grid is 2 x 4 x 4 (row block i, column block j, reduction block k, k fastest): position n has k = n mod 4.
  The accumulator after position n is the sum of the block products of the reduction blocks 0..k of its (i, j);
  the output block is stored, as accumulator + bias row, at the positions with k = 3 and is idle elsewhere (the
  pipeline neither writes it back nor refetches it there). The body obligation at a point is the matching case
  of the body's three runs, the invariant handing the accumulator over at what the point before left.
-/
import proofs.«109952_j48137993453602_1_alg».proof.Proof.Kernel.Body0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## When the two conditions hold, decided over the grid; where the windows are idle -/

theorem hcondFirst0 : ∀ t : Fin cfg0.N, condFirst0 (grid0.coords t) ↔ t.val % 4 = 0 :=
  (by decide +kernel : ∀ t : Fin grid0.N, condFirst0 (grid0.coords t) ↔ t.val % 4 = 0)
theorem hcondLast0 : ∀ t : Fin cfg0.N, condLast0 (grid0.coords t) ↔ t.val % 4 = 3 :=
  (by decide +kernel : ∀ t : Fin grid0.N, condLast0 (grid0.coords t) ↔ t.val % 4 = 3)

/-- The three input windows are never idle. -/
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
/-- Away from a last point the output window is idle and is not written back; at a last point it is live. -/
theorem idle0_3 : ∀ t : Fin cfg0.N, ¬condLast0 (grid0.coords t) → cfg0.idle 3 (grid0.coords t) = true := by decide +kernel
theorem noFlush0_3 : ∀ t : Fin cfg0.N, ¬condLast0 (grid0.coords t) → (cfg0.win 3).flush t = false := by decide +kernel
theorem live0_3 : ∀ t : Fin cfg0.N, condLast0 (grid0.coords t) → cfg0.idle 3 (grid0.coords t) = false := by decide +kernel

section Region

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activation block, the weight block and the bias row at point `t`, at their literal shapes. -/
abbrev xblk0 (c : Dev nD) (t : Fin cfg0.N) : Vec F S512x1024 .f32 := iblk0 V c 0 t
abbrev wblk0 (c : Dev nD) (t : Fin cfg0.N) : Vec F S1024x1024 .f32 := iblk0 V c 1 t
abbrev bblk0 (c : Dev nD) (t : Fin cfg0.N) : Vec F S1x1024 .f32 := iblk0 V c 2 t

/-! ## The running block product -/

/-- What the scratch accumulator holds after the body at position `n`: one more block product added to what
    the position before left, restarting from zero wherever the reduction coordinate is 0 (every fourth position). -/
def accAt0 (c : Dev nD) : (n : ℕ) → n < cfg0.N → Vec F S512x1024 .f32
  | 0, hn => k0_pay2 (xblk0 V c ⟨0, hn⟩) (wblk0 V c ⟨0, hn⟩) (k0_pay1 (F := F))
  | n + 1, hn => k0_pay2 (xblk0 V c ⟨n + 1, hn⟩) (wblk0 V c ⟨n + 1, hn⟩)
      (if (n + 1) % 4 = 0 then k0_pay1 (F := F) else accAt0 c n (Nat.lt_of_succ_lt hn))

theorem accAt0_first (c : Dev nD) (t : Fin cfg0.N) (h0 : t.val % 4 = 0) :
    accAt0 V c t.val t.isLt = k0_pay2 (xblk0 V c t) (wblk0 V c t) (k0_pay1 (F := F)) := by
  obtain ⟨n, hn⟩ := t
  cases n with
  | zero => rfl
  | succ n => exact congrArg (k0_pay2 (xblk0 V c ⟨n + 1, hn⟩) (wblk0 V c ⟨n + 1, hn⟩)) (if_pos h0)

theorem accAt0_next (c : Dev nD) (t : Fin cfg0.N) (h0 : ¬t.val % 4 = 0) :
    accAt0 V c t.val t.isLt = k0_pay2 (xblk0 V c t) (wblk0 V c t)
      (accAt0 V c (t.val - 1) (Nat.lt_of_le_of_lt (Nat.sub_le _ _) t.isLt)) := by
  obtain ⟨n, hn⟩ := t
  cases n with
  | zero => exact absurd (Nat.zero_mod _) h0
  | succ n => exact congrArg (k0_pay2 (xblk0 V c ⟨n + 1, hn⟩) (wblk0 V c ⟨n + 1, hn⟩)) (if_neg h0)

/-- What a last point stores into the output block: the accumulator's block product plus the bias row. -/
def outAt0 (c : Dev nD) (t : Fin cfg0.N) : Vec F S512x1024 .f32 := k0_pay3 (accAt0 V c t.val t.isLt) (bblk0 V c t)

/-! ## The invariant between points -/

/-- The kernel's scratch accumulator, as a whole-buffer memref. -/
abbrev scM0 : Memref sig .tc .vmem S512x1024 .f32 := Memref.whole cc0_scratch0

/-- Before position `n`: at the first position every scoped buffer no window stages is at anything; afterwards the
    accumulator holds the running block product of the position before, the other such buffers anything. -/
def Phi0 (c : Dev nD) : (n : ℕ) → n ≤ cfg0.N → sProp 𝕄
  | 0, _ => Pipeline.scopedRest spec0 c
  | n + 1, hn => iprop(owns (c : Thread nD τ) scM0 fullShare (accAt0 V c n hn)
      ∗ Pipeline.scopedRestBut (Ix := Unit) (Name := ℕ) (U := UR sig nD τ) (Lvl := ℕ) (Val := Elt F) spec0 c [cc0_scratch0])

theorem Phi0_zero (c : Dev nD) (n : ℕ) (h : n ≤ cfg0.N) (hz : n = 0) :
    Phi0 V c n h = iprop(iprop(∃ d, owns (c : Thread nD τ) scM0 fullShare d)
      ∗ Pipeline.scopedRestBut (Ix := Unit) (Name := ℕ) (U := UR sig nD τ) (Lvl := ℕ) (Val := Elt F) spec0 c [cc0_scratch0]) := by
  subst hz
  show Pipeline.scopedRest spec0 c = _
  rw [scopedRest0_split]; simp only [scM0, owns_whole]; try rfl

theorem Phi0_succ (c : Dev nD) (n : ℕ) (hn : n < cfg0.N) :
    Phi0 V c (n + 1) hn = iprop(owns (c : Thread nD τ) scM0 fullShare (accAt0 V c n hn)
      ∗ Pipeline.scopedRestBut (Ix := Unit) (Name := ℕ) (U := UR sig nD τ) (Lvl := ℕ) (Val := Elt F) spec0 c [cc0_scratch0]) := rfl

theorem Phi0_pos (c : Dev nD) (n : ℕ) (h : n ≤ cfg0.N) (hz : n ≠ 0) :
    Phi0 V c n h = iprop(owns (c : Thread nD τ) scM0 fullShare (accAt0 V c (n - 1) (by omega))
      ∗ Pipeline.scopedRestBut (Ix := Unit) (Name := ℕ) (U := UR sig nD τ) (Lvl := ℕ) (Val := Elt F) spec0 c [cc0_scratch0]) := by
  cases n with
  | zero => exact absurd rfl hz
  | succ n => rfl

/-! ## The pipeline's proof data -/

/-- The first call's proof data on core `c`: the arrays as the region finds them; after the body each input's
    buffer still at its block, the output's at accumulator + bias (consulted at last points only); the invariant
    above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outAt0 V c t
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) :
    (dat0 V c).Φ t.castSucc = Phi0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outAt0 V c t := by dsimp only [dat0]

/-- Each input's current staging buffer holds its block at every point, fetched there or not: an input that is
    not fetched has not moved, and the body leaves it in place. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t)

theorem leaves0_0 (c : Dev nD) (t : Fin cfg0.N) :
    (dat0 V c).leavesExact 0 t = owns (c : Thread nD τ) (st0_0 t) fullShare (xblk0 V c t) := by
  unfold Dat.leavesExact; rw [live0_0 t, after0_0]
theorem leaves0_1 (c : Dev nD) (t : Fin cfg0.N) :
    (dat0 V c).leavesExact 1 t = owns (c : Thread nD τ) (st0_1 t) fullShare (wblk0 V c t) := by
  unfold Dat.leavesExact; rw [live0_1 t, after0_1]
theorem leaves0_2 (c : Dev nD) (t : Fin cfg0.N) :
    (dat0 V c).leavesExact 2 t = owns (c : Thread nD τ) (st0_2 t) fullShare (bblk0 V c t) := by
  unfold Dat.leavesExact; rw [live0_2 t, after0_2]

set_option maxHeartbeats 1600000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = Phi0 V c (t.val + 1) t.isLt from rfl, Phi0_succ]
  rw [leaves0_0, leaves0_1, leaves0_2, Phi0_castSucc]
  have hN : t.val < 32 := lt_of_lt_of_eq t.isLt (show cfg0.N = 32 from N_0)
  by_cases h1 : t.val % 4 = 3
  · -- a last point
    have h0 : ¬t.val % 4 = 0 := by omega
    have hz : t.val ≠ 0 := by omega
    have hL : condLast0 (grid0.coords t) := (hcondLast0 t).mpr h1
    have hF : ¬condFirst0 (grid0.coords t) := fun h => h0 ((hcondFirst0 t).mp h)
    rw [show (dat0 V c).leavesExact 3 t = owns (c : Thread nD τ) (st0_3 t) fullShare ((dat0 V c).after 3 t) from by
      unfold Dat.leavesExact; rw [live0_3 t hL], after0_3]
    unfold outAt0
    rw [accAt0_next V c t h0, Phi0_pos V c _ _ hz]
    iintro ⟨⟨HS, Hr⟩, Ho, ⟨%d0, H0⟩, ⟨%d1, H1⟩, ⟨%d2, H2⟩, ⟨%d3, H3⟩⟩
    iapply (bodyLast0 c (grid0.coords t) _ _ _ _ _ _ _ _ scM0 (Memref.isWhole_whole _) hF hL (xblk0 V c t) (wblk0 V c t) (bblk0 V c t)
      (accAt0 V c (t.val - 1) (Nat.lt_of_le_of_lt (Nat.sub_le _ _) t.isLt)) Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hr]
    · isplitl [HS]; · iexact HS
      iexact Hr
    isplitl [Ho]; · iexact Ho
    isplitl [H0]; · iexact H0
    isplitl [H1]; · iexact H1
    isplitl [H2]; · iexact H2
    iexact H3
  · have hL : ¬condLast0 (grid0.coords t) := fun h => h1 ((hcondLast0 t).mp h)
    rw [Dat.leavesExact_idle (dat0 V c) 3 t (idle0_3 t hL) (noFlush0_3 t hL)]
    by_cases h0 : t.val % 4 = 0
    · -- a first point
      have hF : condFirst0 (grid0.coords t) := (hcondFirst0 t).mpr h0
      rw [accAt0_first V c t h0]
      have hS : Phi0 V c t.val (Nat.le_of_lt t.isLt) ⊢ iprop(iprop(∃ d, owns (c : Thread nD τ) scM0 fullShare d)
          ∗ Pipeline.scopedRestBut (Ix := Unit) (Name := ℕ) (U := UR sig nD τ) (Lvl := ℕ) (Val := Elt F) spec0 c [cc0_scratch0]) := by
        by_cases hz : t.val = 0
        · rw [Phi0_zero V c _ _ hz]
        · rw [Phi0_pos V c _ _ hz]
          iintro ⟨HS, Hr⟩
          isplitl [HS]; · iexists _; iexact HS
          iexact Hr
      iintro ⟨HP, Ho, ⟨%d0, H0⟩, ⟨%d1, H1⟩, ⟨%d2, H2⟩, ⟨%d3, H3⟩⟩
      ihave HP' := hS $$ HP
      icases HP' with ⟨HS, Hr⟩
      iapply (bodyFirst0 c (grid0.coords t) _ _ _ _ _ _ _ _ scM0 (Memref.isWhole_whole _) hF hL (xblk0 V c t) (wblk0 V c t) (bblk0 V c t)
        ((dat0 V c).before 3 t d3) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr]
      · isplitl [HS]; · iexact HS
        iexact Hr
      isplitl [Ho]; · iexact Ho
      isplitl [H0]; · iexact H0
      isplitl [H1]; · iexact H1
      isplitl [H2]; · iexact H2
      iexists _; iexact H3
    · -- a middle point
      have hz : t.val ≠ 0 := fun e => h0 (by rw [e])
      have hF : ¬condFirst0 (grid0.coords t) := fun h => h0 ((hcondFirst0 t).mp h)
      rw [accAt0_next V c t h0, Phi0_pos V c _ _ hz]
      iintro ⟨⟨HS, Hr⟩, Ho, ⟨%d0, H0⟩, ⟨%d1, H1⟩, ⟨%d2, H2⟩, ⟨%d3, H3⟩⟩
      iapply (bodyMid0 c (grid0.coords t) _ _ _ _ _ _ _ _ scM0 (Memref.isWhole_whole _) hF hL (xblk0 V c t) (wblk0 V c t) (bblk0 V c t)
        ((dat0 V c).before 3 t d3) (accAt0 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr]
      · isplitl [HS]; · iexact HS
        iexact Hr
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- After any point but none the invariant gives the scoped rest back: the accumulator's named contents are forgotten. -/
theorem Phi0_out (c : Dev nD) : (dat0 V c).Φ (Fin.last cfg0.N) ⊢ (Pipeline.scopedRest spec0 c : sProp 𝕄) := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 32 := N_0; omega), scopedRest0_split]
  iintro ⟨HS, Hr⟩
  isplitl [HS]
  · simp only [scM0, owns_whole]; iexists _; iexact HS
  iexact Hr

end Region

end Cert.Kernel.Hand

end
-- ==== Proof.Kernel.Body1.lean ====
/-
  The matmul kernel's body at one grid point of the second call, in its three control cases.

  The body keeps a running block product in a scratch accumulator. At a point where the reduction coordinate
  `k` is 0 it first zeroes the accumulator; at every point it adds the product of the current activation block
  and weight block to it; at the point where `k` is the last (3) it also stores accumulator + bias row into the
  output block. So with `x`, `w`, `b` the three input blocks and `a` what the accumulator held:
    first  point (k = 0):       accumulator ends at  step x w zero;                 output block untouched
    middle point (0 < k < 3):   accumulator ends at  step x w a;                    output block untouched
    last   point (k = 3):       accumulator ends at  step x w a, and the output block at  (step x w a) + b
  where `step` is the printed payload `k1_pay2`, `zero` is `k1_pay1`, and the biased sum is `k1_pay3`.
  Each case is one run of the symbolic executor over the printed body; what the run leaves in a buffer is a
  list of whole-buffer stores, read back by the lemmas on whole-buffer rectangles.
-/
import proofs.«109952_j48137993453602_1_alg».proof.Proof.Gen.Kernel.Launch
import proofs.«109952_j48137993453602_1_alg».proof.Proof.Gen.Kernel.Skeleton
import proofs.«109952_j48137993453602_1_alg».proof.Proof.Gen.Kernel.Points
import proofs.«109952_j48137993453602_1_alg».proof.Proof.LibWholeBuffer
import Idealize.ShloMosaic.Lib.Pipeline.FrameBody
import Idealize.ShloMosaic.Lib.Tactic

set_option maxRecDepth 16384

noncomputable section

namespace Cert.Kernel.Hand

open Cert.Kernel Cert.Kernel.Gen Cert.LibWholeBuffer
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The reduction coordinate is 0: the accumulator is zeroed at this point (the body's first conditional). -/
abbrev condFirst1 (i : grid1.Coords) : Prop := (Scalar.cmpi .ne (Scalar.extui (Scalar.cmpi .eq (BitVec.ofNat 32 (i 2).val) 0#32)) 0#32) = 1#1
/-- The reduction coordinate is the last: the output block is stored at this point (the body's second conditional). -/
abbrev condLast1 (i : grid1.Coords) : Prop := k1_cond2 i = 1#1

/-- A middle point: the accumulator goes from `xs` to `step x0 w0 xs`; every other buffer is handed back as found. -/
theorem bodyMid1 (c : Dev nD) (i : grid1.Coords)
    (arg3 : Memref sig .tc .vmem S512x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S512x1024 .f32) (harg6 : arg6.IsWhole)
    (arg7 : Memref sig .tc .vmem S512x1024 .f32) (harg7 : arg7.IsWhole)
    (hc0 : ¬condFirst1 i) (hc1 : ¬condLast1 i)
    (x0 : Vec F S512x1024 .f32) (w0 : Vec F S1024x1024 .f32) (b0 : Vec F S1x1024 .f32) (xi : Vec F S512x1024 .f32) (xs : Vec F S512x1024 .f32)
    (E : Set ℕ) (K : PUnit → sProp 𝕄) :
    iprop(owns (c : Thread nD τ) arg3 fullShare x0 ∗ owns (c : Thread nD τ) arg4 fullShare w0 ∗ owns (c : Thread nD τ) arg5 fullShare b0
        ∗ owns (c : Thread nD τ) arg6 fullShare xi ∗ owns (c : Thread nD τ) arg7 fullShare xs
        ∗ (iprop(owns (c : Thread nD τ) arg3 fullShare x0 ∗ owns (c : Thread nD τ) arg4 fullShare w0 ∗ owns (c : Thread nD τ) arg5 fullShare b0
            ∗ owns (c : Thread nD τ) arg6 fullShare xi ∗ owns (c : Thread nD τ) arg7 fullShare (k1_pay2 x0 w0 xs)) -∗ K ⟨⟩))
      ⊢ wp frame (wpE (defs₀ (F := F)) Variants.none c none) E (cc1__patch_matmul_kernel i arg3 harg3 arg4 harg4 arg5 harg5 arg6 harg6 arg7 harg7) K := by
  simp only [cc1__patch_matmul_kernel_eq_skeleton]; unfold cc1__patch_matmul_kernel_skel
  unfold owns
  iintro ⟨⟨%f3, %hf3, H3⟩, ⟨%f4, %hf4, H4⟩, ⟨%f5, %hf5, H5⟩, ⟨%f6, %hf6, H6⟩, ⟨%f7, %hf7, H7⟩, Hk⟩
  obtain rfl := harg3.eq_unread hf3; obtain rfl := harg4.eq_unread hf4; obtain rfl := harg5.eq_unread hf5
  obtain rfl := harg6.eq_unread hf6; obtain rfl := harg7.eq_unread hf7
  sl_exec (disch := first | exact hc0 | exact hc1)
  sl_step
  iapply Hk
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  iexists _; isplitr; swap; · iexact H7
  ipureintro
  refine (read_after_whole_store (S := S512x1024) _ _ zeros2 _ _ _).trans ?_
  exact congr (congr (congrArg k1_pay2 (load_whole harg3 zeros2 _ x0)) (load_whole harg4 zeros2 _ w0)) (load_whole harg7 zeros2 _ xs)

/-- A first point: whatever the accumulator held, it ends at `step x0 w0 zero`; every other buffer is handed back as found. -/
theorem bodyFirst1 (c : Dev nD) (i : grid1.Coords)
    (arg3 : Memref sig .tc .vmem S512x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S512x1024 .f32) (harg6 : arg6.IsWhole)
    (arg7 : Memref sig .tc .vmem S512x1024 .f32) (harg7 : arg7.IsWhole)
    (hc0 : condFirst1 i) (hc1 : ¬condLast1 i)
    (x0 : Vec F S512x1024 .f32) (w0 : Vec F S1024x1024 .f32) (b0 : Vec F S1x1024 .f32) (xi : Vec F S512x1024 .f32)
    (E : Set ℕ) (K : PUnit → sProp 𝕄) :
    iprop(owns (c : Thread nD τ) arg3 fullShare x0 ∗ owns (c : Thread nD τ) arg4 fullShare w0 ∗ owns (c : Thread nD τ) arg5 fullShare b0
        ∗ owns (c : Thread nD τ) arg6 fullShare xi ∗ (∃ d, owns (c : Thread nD τ) arg7 fullShare d)
        ∗ (iprop(owns (c : Thread nD τ) arg3 fullShare x0 ∗ owns (c : Thread nD τ) arg4 fullShare w0 ∗ owns (c : Thread nD τ) arg5 fullShare b0
            ∗ owns (c : Thread nD τ) arg6 fullShare xi ∗ owns (c : Thread nD τ) arg7 fullShare (k1_pay2 x0 w0 (k1_pay1 (F := F)))) -∗ K ⟨⟩))
      ⊢ wp frame (wpE (defs₀ (F := F)) Variants.none c none) E (cc1__patch_matmul_kernel i arg3 harg3 arg4 harg4 arg5 harg5 arg6 harg6 arg7 harg7) K := by
  simp only [cc1__patch_matmul_kernel_eq_skeleton]; unfold cc1__patch_matmul_kernel_skel
  unfold owns
  iintro ⟨⟨%f3, %hf3, H3⟩, ⟨%f4, %hf4, H4⟩, ⟨%f5, %hf5, H5⟩, ⟨%f6, %hf6, H6⟩, ⟨%d7, %f7, %hf7, H7⟩, Hk⟩
  obtain rfl := harg3.eq_unread hf3; obtain rfl := harg4.eq_unread hf4; obtain rfl := harg5.eq_unread hf5
  obtain rfl := harg6.eq_unread hf6
  sl_exec (disch := first | exact hc0 | exact hc1)
  sl_step
  iapply Hk
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  iexists _; isplitr; swap; · iexact H7
  ipureintro
  sl_unfold_run_names
  refine (read_after_whole_store (S := S512x1024) _ _ zeros2 _ _ _).trans ?_
  exact congr (congr (congrArg k1_pay2 (load_whole harg3 zeros2 _ x0)) (load_whole harg4 zeros2 _ w0)) (load_after_whole_store (S := S512x1024) _ zeros2 _ _)

/-- A last point: the accumulator goes from `xs` to `step x0 w0 xs`, and the output block, whatever it held, ends at that plus the bias row. -/
theorem bodyLast1 (c : Dev nD) (i : grid1.Coords)
    (arg3 : Memref sig .tc .vmem S512x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S512x1024 .f32) (harg6 : arg6.IsWhole)
    (arg7 : Memref sig .tc .vmem S512x1024 .f32) (harg7 : arg7.IsWhole)
    (hc0 : ¬condFirst1 i) (hc1 : condLast1 i)
    (x0 : Vec F S512x1024 .f32) (w0 : Vec F S1024x1024 .f32) (b0 : Vec F S1x1024 .f32) (xs : Vec F S512x1024 .f32)
    (E : Set ℕ) (K : PUnit → sProp 𝕄) :
    iprop(owns (c : Thread nD τ) arg3 fullShare x0 ∗ owns (c : Thread nD τ) arg4 fullShare w0 ∗ owns (c : Thread nD τ) arg5 fullShare b0
        ∗ (∃ d, owns (c : Thread nD τ) arg6 fullShare d) ∗ owns (c : Thread nD τ) arg7 fullShare xs
        ∗ (iprop(owns (c : Thread nD τ) arg3 fullShare x0 ∗ owns (c : Thread nD τ) arg4 fullShare w0 ∗ owns (c : Thread nD τ) arg5 fullShare b0
            ∗ owns (c : Thread nD τ) arg6 fullShare (k1_pay3 (k1_pay2 x0 w0 xs) b0) ∗ owns (c : Thread nD τ) arg7 fullShare (k1_pay2 x0 w0 xs)) -∗ K ⟨⟩))
      ⊢ wp frame (wpE (defs₀ (F := F)) Variants.none c none) E (cc1__patch_matmul_kernel i arg3 harg3 arg4 harg4 arg5 harg5 arg6 harg6 arg7 harg7) K := by
  simp only [cc1__patch_matmul_kernel_eq_skeleton]; unfold cc1__patch_matmul_kernel_skel
  unfold owns
  iintro ⟨⟨%f3, %hf3, H3⟩, ⟨%f4, %hf4, H4⟩, ⟨%f5, %hf5, H5⟩, ⟨%d6, %f6, %hf6, H6⟩, ⟨%f7, %hf7, H7⟩, Hk⟩
  obtain rfl := harg3.eq_unread hf3; obtain rfl := harg4.eq_unread hf4; obtain rfl := harg5.eq_unread hf5
  obtain rfl := harg7.eq_unread hf7
  sl_exec (disch := first | exact hc0 | exact hc1)
  sl_step
  iapply Hk
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  have hacc : k1_pay2 (View.readAt (Elt F) arg3.view (Rect.unit ![0, 0] S512x1024.size inb_S512x1024_S512x1024_0_0).toLoadRect (harg3.unread x0))
      (View.readAt (Elt F) arg4.view (Rect.unit ![0, 0] S1024x1024.size inb_S1024x1024_S1024x1024_0_0).toLoadRect (harg4.unread w0))
      (View.readAt (Elt F) arg7.view (Rect.unit ![0, 0] S512x1024.size inb_S512x1024_S512x1024_0_0).toLoadRect (harg7.unread xs))
      = k1_pay2 x0 w0 xs :=
    congr (congr (congrArg k1_pay2 (load_whole harg3 zeros2 _ x0)) (load_whole harg4 zeros2 _ w0)) (load_whole harg7 zeros2 _ xs)
  isplitl [H6]
  · iexists _; isplitr; swap; · iexact H6
    ipureintro
    sl_unfold_run_names
    refine (read_after_whole_store (S := S512x1024) _ _ zeros2 _ _ _).trans ?_
    exact congr (congrArg k1_pay3 ((load_after_whole_store (S := S512x1024) _ zeros2 _ _).trans hacc)) (load_whole harg5 zeros2 _ b0)
  iexists _; isplitr; swap; · iexact H7
  ipureintro
  sl_unfold_run_names
  exact (read_after_whole_store (S := S512x1024) _ _ zeros2 _ _ _).trans hacc

end Cert.Kernel.Hand

end
-- ==== Proof.Kernel.Region1.lean ====
/-
  The second call's pipeline: what the scratch accumulator and the output block hold point by point, the proof
  data, and the body obligation.

  The grid is 2 x 4 x 4 (row block i, column block j, reduction block k, k fastest): position n has k = n mod 4.
  The accumulator after position n is the sum of the block products of the reduction blocks 0..k of its (i, j);
  the output block is stored, as accumulator + bias row, at the positions with k = 3 and is idle elsewhere (the
  pipeline neither writes it back nor refetches it there). The body obligation at a point is the matching case
  of the body's three runs, the invariant handing the accumulator over at what the point before left.
-/
import proofs.«109952_j48137993453602_1_alg».proof.Proof.Kernel.Body1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## When the two conditions hold, decided over the grid; where the windows are idle -/

theorem hcondFirst1 : ∀ t : Fin cfg1.N, condFirst1 (grid1.coords t) ↔ t.val % 4 = 0 :=
  (by decide +kernel : ∀ t : Fin grid1.N, condFirst1 (grid1.coords t) ↔ t.val % 4 = 0)
theorem hcondLast1 : ∀ t : Fin cfg1.N, condLast1 (grid1.coords t) ↔ t.val % 4 = 3 :=
  (by decide +kernel : ∀ t : Fin grid1.N, condLast1 (grid1.coords t) ↔ t.val % 4 = 3)

/-- The three input windows are never idle. -/
theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
/-- Away from a last point the output window is idle and is not written back; at a last point it is live. -/
theorem idle1_3 : ∀ t : Fin cfg1.N, ¬condLast1 (grid1.coords t) → cfg1.idle 3 (grid1.coords t) = true := by decide +kernel
theorem noFlush1_3 : ∀ t : Fin cfg1.N, ¬condLast1 (grid1.coords t) → (cfg1.win 3).flush t = false := by decide +kernel
theorem live1_3 : ∀ t : Fin cfg1.N, condLast1 (grid1.coords t) → cfg1.idle 3 (grid1.coords t) = false := by decide +kernel

section Region

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activation block, the weight block and the bias row at point `t`, at their literal shapes. -/
abbrev xblk1 (c : Dev nD) (t : Fin cfg1.N) : Vec F S512x1024 .f32 := iblk1 V c 0 t
abbrev wblk1 (c : Dev nD) (t : Fin cfg1.N) : Vec F S1024x1024 .f32 := iblk1 V c 1 t
abbrev bblk1 (c : Dev nD) (t : Fin cfg1.N) : Vec F S1x1024 .f32 := iblk1 V c 2 t

/-! ## The running block product -/

/-- What the scratch accumulator holds after the body at position `n`: one more block product added to what
    the position before left, restarting from zero wherever the reduction coordinate is 0 (every fourth position). -/
def accAt1 (c : Dev nD) : (n : ℕ) → n < cfg1.N → Vec F S512x1024 .f32
  | 0, hn => k1_pay2 (xblk1 V c ⟨0, hn⟩) (wblk1 V c ⟨0, hn⟩) (k1_pay1 (F := F))
  | n + 1, hn => k1_pay2 (xblk1 V c ⟨n + 1, hn⟩) (wblk1 V c ⟨n + 1, hn⟩)
      (if (n + 1) % 4 = 0 then k1_pay1 (F := F) else accAt1 c n (Nat.lt_of_succ_lt hn))

theorem accAt1_first (c : Dev nD) (t : Fin cfg1.N) (h0 : t.val % 4 = 0) :
    accAt1 V c t.val t.isLt = k1_pay2 (xblk1 V c t) (wblk1 V c t) (k1_pay1 (F := F)) := by
  obtain ⟨n, hn⟩ := t
  cases n with
  | zero => rfl
  | succ n => exact congrArg (k1_pay2 (xblk1 V c ⟨n + 1, hn⟩) (wblk1 V c ⟨n + 1, hn⟩)) (if_pos h0)

theorem accAt1_next (c : Dev nD) (t : Fin cfg1.N) (h0 : ¬t.val % 4 = 0) :
    accAt1 V c t.val t.isLt = k1_pay2 (xblk1 V c t) (wblk1 V c t)
      (accAt1 V c (t.val - 1) (Nat.lt_of_le_of_lt (Nat.sub_le _ _) t.isLt)) := by
  obtain ⟨n, hn⟩ := t
  cases n with
  | zero => exact absurd (Nat.zero_mod _) h0
  | succ n => exact congrArg (k1_pay2 (xblk1 V c ⟨n + 1, hn⟩) (wblk1 V c ⟨n + 1, hn⟩)) (if_neg h0)

/-- What a last point stores into the output block: the accumulator's block product plus the bias row. -/
def outAt1 (c : Dev nD) (t : Fin cfg1.N) : Vec F S512x1024 .f32 := k1_pay3 (accAt1 V c t.val t.isLt) (bblk1 V c t)

/-! ## The invariant between points -/

/-- The kernel's scratch accumulator, as a whole-buffer memref. -/
abbrev scM1 : Memref sig .tc .vmem S512x1024 .f32 := Memref.whole cc1_scratch0

/-- Before position `n`: at the first position every scoped buffer no window stages is at anything; afterwards the
    accumulator holds the running block product of the position before, the other such buffers anything. -/
def Phi1 (c : Dev nD) : (n : ℕ) → n ≤ cfg1.N → sProp 𝕄
  | 0, _ => Pipeline.scopedRest spec1 c
  | n + 1, hn => iprop(owns (c : Thread nD τ) scM1 fullShare (accAt1 V c n hn)
      ∗ Pipeline.scopedRestBut (Ix := Unit) (Name := ℕ) (U := UR sig nD τ) (Lvl := ℕ) (Val := Elt F) spec1 c [cc1_scratch0])

theorem Phi1_zero (c : Dev nD) (n : ℕ) (h : n ≤ cfg1.N) (hz : n = 0) :
    Phi1 V c n h = iprop(iprop(∃ d, owns (c : Thread nD τ) scM1 fullShare d)
      ∗ Pipeline.scopedRestBut (Ix := Unit) (Name := ℕ) (U := UR sig nD τ) (Lvl := ℕ) (Val := Elt F) spec1 c [cc1_scratch0]) := by
  subst hz
  show Pipeline.scopedRest spec1 c = _
  rw [scopedRest1_split]; simp only [scM1, owns_whole]; try rfl

theorem Phi1_succ (c : Dev nD) (n : ℕ) (hn : n < cfg1.N) :
    Phi1 V c (n + 1) hn = iprop(owns (c : Thread nD τ) scM1 fullShare (accAt1 V c n hn)
      ∗ Pipeline.scopedRestBut (Ix := Unit) (Name := ℕ) (U := UR sig nD τ) (Lvl := ℕ) (Val := Elt F) spec1 c [cc1_scratch0]) := rfl

theorem Phi1_pos (c : Dev nD) (n : ℕ) (h : n ≤ cfg1.N) (hz : n ≠ 0) :
    Phi1 V c n h = iprop(owns (c : Thread nD τ) scM1 fullShare (accAt1 V c (n - 1) (by omega))
      ∗ Pipeline.scopedRestBut (Ix := Unit) (Name := ℕ) (U := UR sig nD τ) (Lvl := ℕ) (Val := Elt F) spec1 c [cc1_scratch0]) := by
  cases n with
  | zero => exact absurd rfl hz
  | succ n => rfl

/-! ## The pipeline's proof data -/

/-- The second call's proof data on core `c`: the arrays as the region finds them; after the body each input's
    buffer still at its block, the output's at accumulator + bias (consulted at last points only); the invariant
    above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt1 V c t
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt1 V c t := by dsimp only [dat1]

/-- Each input's current staging buffer holds its block at every point, fetched there or not: an input that is
    not fetched has not moved, and the body leaves it in place. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

theorem leaves1_0 (c : Dev nD) (t : Fin cfg1.N) :
    (dat1 V c).leavesExact 0 t = owns (c : Thread nD τ) (st1_0 t) fullShare (xblk1 V c t) := by
  unfold Dat.leavesExact; rw [live1_0 t, after1_0]
theorem leaves1_1 (c : Dev nD) (t : Fin cfg1.N) :
    (dat1 V c).leavesExact 1 t = owns (c : Thread nD τ) (st1_1 t) fullShare (wblk1 V c t) := by
  unfold Dat.leavesExact; rw [live1_1 t, after1_1]
theorem leaves1_2 (c : Dev nD) (t : Fin cfg1.N) :
    (dat1 V c).leavesExact 2 t = owns (c : Thread nD τ) (st1_2 t) fullShare (bblk1 V c t) := by
  unfold Dat.leavesExact; rw [live1_2 t, after1_2]

set_option maxHeartbeats 1600000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = Phi1 V c (t.val + 1) t.isLt from rfl, Phi1_succ]
  rw [leaves1_0, leaves1_1, leaves1_2, Phi1_castSucc]
  have hN : t.val < 32 := lt_of_lt_of_eq t.isLt (show cfg1.N = 32 from N_1)
  by_cases h1 : t.val % 4 = 3
  · -- a last point
    have h0 : ¬t.val % 4 = 0 := by omega
    have hz : t.val ≠ 0 := by omega
    have hL : condLast1 (grid1.coords t) := (hcondLast1 t).mpr h1
    have hF : ¬condFirst1 (grid1.coords t) := fun h => h0 ((hcondFirst1 t).mp h)
    rw [show (dat1 V c).leavesExact 3 t = owns (c : Thread nD τ) (st1_3 t) fullShare ((dat1 V c).after 3 t) from by
      unfold Dat.leavesExact; rw [live1_3 t hL], after1_3]
    unfold outAt1
    rw [accAt1_next V c t h0, Phi1_pos V c _ _ hz]
    iintro ⟨⟨HS, Hr⟩, Ho, ⟨%d0, H0⟩, ⟨%d1, H1⟩, ⟨%d2, H2⟩, ⟨%d3, H3⟩⟩
    iapply (bodyLast1 c (grid1.coords t) _ _ _ _ _ _ _ _ scM1 (Memref.isWhole_whole _) hF hL (xblk1 V c t) (wblk1 V c t) (bblk1 V c t)
      (accAt1 V c (t.val - 1) (Nat.lt_of_le_of_lt (Nat.sub_le _ _) t.isLt)) Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hr]
    · isplitl [HS]; · iexact HS
      iexact Hr
    isplitl [Ho]; · iexact Ho
    isplitl [H0]; · iexact H0
    isplitl [H1]; · iexact H1
    isplitl [H2]; · iexact H2
    iexact H3
  · have hL : ¬condLast1 (grid1.coords t) := fun h => h1 ((hcondLast1 t).mp h)
    rw [Dat.leavesExact_idle (dat1 V c) 3 t (idle1_3 t hL) (noFlush1_3 t hL)]
    by_cases h0 : t.val % 4 = 0
    · -- a first point
      have hF : condFirst1 (grid1.coords t) := (hcondFirst1 t).mpr h0
      rw [accAt1_first V c t h0]
      have hS : Phi1 V c t.val (Nat.le_of_lt t.isLt) ⊢ iprop(iprop(∃ d, owns (c : Thread nD τ) scM1 fullShare d)
          ∗ Pipeline.scopedRestBut (Ix := Unit) (Name := ℕ) (U := UR sig nD τ) (Lvl := ℕ) (Val := Elt F) spec1 c [cc1_scratch0]) := by
        by_cases hz : t.val = 0
        · rw [Phi1_zero V c _ _ hz]
        · rw [Phi1_pos V c _ _ hz]
          iintro ⟨HS, Hr⟩
          isplitl [HS]; · iexists _; iexact HS
          iexact Hr
      iintro ⟨HP, Ho, ⟨%d0, H0⟩, ⟨%d1, H1⟩, ⟨%d2, H2⟩, ⟨%d3, H3⟩⟩
      ihave HP' := hS $$ HP
      icases HP' with ⟨HS, Hr⟩
      iapply (bodyFirst1 c (grid1.coords t) _ _ _ _ _ _ _ _ scM1 (Memref.isWhole_whole _) hF hL (xblk1 V c t) (wblk1 V c t) (bblk1 V c t)
        ((dat1 V c).before 3 t d3) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr]
      · isplitl [HS]; · iexact HS
        iexact Hr
      isplitl [Ho]; · iexact Ho
      isplitl [H0]; · iexact H0
      isplitl [H1]; · iexact H1
      isplitl [H2]; · iexact H2
      iexists _; iexact H3
    · -- a middle point
      have hz : t.val ≠ 0 := fun e => h0 (by rw [e])
      have hF : ¬condFirst1 (grid1.coords t) := fun h => h0 ((hcondFirst1 t).mp h)
      rw [accAt1_next V c t h0, Phi1_pos V c _ _ hz]
      iintro ⟨⟨HS, Hr⟩, Ho, ⟨%d0, H0⟩, ⟨%d1, H1⟩, ⟨%d2, H2⟩, ⟨%d3, H3⟩⟩
      iapply (bodyMid1 c (grid1.coords t) _ _ _ _ _ _ _ _ scM1 (Memref.isWhole_whole _) hF hL (xblk1 V c t) (wblk1 V c t) (bblk1 V c t)
        ((dat1 V c).before 3 t d3) (accAt1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr]
      · isplitl [HS]; · iexact HS
        iexact Hr
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- After any point but none the invariant gives the scoped rest back: the accumulator's named contents are forgotten. -/
theorem Phi1_out (c : Dev nD) : (dat1 V c).Φ (Fin.last cfg1.N) ⊢ (Pipeline.scopedRest spec1 c : sProp 𝕄) := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 32 := N_1; omega), scopedRest1_split]
  iintro ⟨HS, Hr⟩
  isplitl [HS]
  · simp only [scM1, owns_whole]; iexists _; iexact HS
  iexact Hr

end Region

end Cert.Kernel.Hand

end
-- ==== Proof.Kernel.Body2.lean ====
/-
  The matmul kernel's body at one grid point of the third call, in its three control cases.

  The body keeps a running block product in a scratch accumulator. At a point where the reduction coordinate
  `k` is 0 it first zeroes the accumulator; at every point it adds the product of the current activation block
  and weight block to it; at the point where `k` is the last (3) it also stores accumulator + bias row into the
  output block. So with `x`, `w`, `b` the three input blocks and `a` what the accumulator held:
    first  point (k = 0):       accumulator ends at  step x w zero;                 output block untouched
    middle point (0 < k < 3):   accumulator ends at  step x w a;                    output block untouched
    last   point (k = 3):       accumulator ends at  step x w a, and the output block at  (step x w a) + b
  where `step` is the printed payload `k2_pay2`, `zero` is `k2_pay1`, and the biased sum is `k2_pay3`.
  Each case is one run of the symbolic executor over the printed body; what the run leaves in a buffer is a
  list of whole-buffer stores, read back by the lemmas on whole-buffer rectangles.
-/
import proofs.«109952_j48137993453602_1_alg».proof.Proof.Gen.Kernel.Launch
import proofs.«109952_j48137993453602_1_alg».proof.Proof.Gen.Kernel.Skeleton
import proofs.«109952_j48137993453602_1_alg».proof.Proof.Gen.Kernel.Points
import proofs.«109952_j48137993453602_1_alg».proof.Proof.LibWholeBuffer
import Idealize.ShloMosaic.Lib.Pipeline.FrameBody
import Idealize.ShloMosaic.Lib.Tactic

set_option maxRecDepth 16384

noncomputable section

namespace Cert.Kernel.Hand

open Cert.Kernel Cert.Kernel.Gen Cert.LibWholeBuffer
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The reduction coordinate is 0: the accumulator is zeroed at this point (the body's first conditional). -/
abbrev condFirst2 (i : grid2.Coords) : Prop := (Scalar.cmpi .ne (Scalar.extui (Scalar.cmpi .eq (BitVec.ofNat 32 (i 2).val) 0#32)) 0#32) = 1#1
/-- The reduction coordinate is the last: the output block is stored at this point (the body's second conditional). -/
abbrev condLast2 (i : grid2.Coords) : Prop := k2_cond2 i = 1#1

/-- A middle point: the accumulator goes from `xs` to `step x0 w0 xs`; every other buffer is handed back as found. -/
theorem bodyMid2 (c : Dev nD) (i : grid2.Coords)
    (arg3 : Memref sig .tc .vmem S512x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S512x1024 .f32) (harg6 : arg6.IsWhole)
    (arg7 : Memref sig .tc .vmem S512x1024 .f32) (harg7 : arg7.IsWhole)
    (hc0 : ¬condFirst2 i) (hc1 : ¬condLast2 i)
    (x0 : Vec F S512x1024 .f32) (w0 : Vec F S1024x1024 .f32) (b0 : Vec F S1x1024 .f32) (xi : Vec F S512x1024 .f32) (xs : Vec F S512x1024 .f32)
    (E : Set ℕ) (K : PUnit → sProp 𝕄) :
    iprop(owns (c : Thread nD τ) arg3 fullShare x0 ∗ owns (c : Thread nD τ) arg4 fullShare w0 ∗ owns (c : Thread nD τ) arg5 fullShare b0
        ∗ owns (c : Thread nD τ) arg6 fullShare xi ∗ owns (c : Thread nD τ) arg7 fullShare xs
        ∗ (iprop(owns (c : Thread nD τ) arg3 fullShare x0 ∗ owns (c : Thread nD τ) arg4 fullShare w0 ∗ owns (c : Thread nD τ) arg5 fullShare b0
            ∗ owns (c : Thread nD τ) arg6 fullShare xi ∗ owns (c : Thread nD τ) arg7 fullShare (k2_pay2 x0 w0 xs)) -∗ K ⟨⟩))
      ⊢ wp frame (wpE (defs₀ (F := F)) Variants.none c none) E (cc2__patch_matmul_kernel i arg3 harg3 arg4 harg4 arg5 harg5 arg6 harg6 arg7 harg7) K := by
  simp only [cc2__patch_matmul_kernel_eq_skeleton]; unfold cc2__patch_matmul_kernel_skel
  unfold owns
  iintro ⟨⟨%f3, %hf3, H3⟩, ⟨%f4, %hf4, H4⟩, ⟨%f5, %hf5, H5⟩, ⟨%f6, %hf6, H6⟩, ⟨%f7, %hf7, H7⟩, Hk⟩
  obtain rfl := harg3.eq_unread hf3; obtain rfl := harg4.eq_unread hf4; obtain rfl := harg5.eq_unread hf5
  obtain rfl := harg6.eq_unread hf6; obtain rfl := harg7.eq_unread hf7
  sl_exec (disch := first | exact hc0 | exact hc1)
  sl_step
  iapply Hk
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  iexists _; isplitr; swap; · iexact H7
  ipureintro
  refine (read_after_whole_store (S := S512x1024) _ _ zeros2 _ _ _).trans ?_
  exact congr (congr (congrArg k2_pay2 (load_whole harg3 zeros2 _ x0)) (load_whole harg4 zeros2 _ w0)) (load_whole harg7 zeros2 _ xs)

/-- A first point: whatever the accumulator held, it ends at `step x0 w0 zero`; every other buffer is handed back as found. -/
theorem bodyFirst2 (c : Dev nD) (i : grid2.Coords)
    (arg3 : Memref sig .tc .vmem S512x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S512x1024 .f32) (harg6 : arg6.IsWhole)
    (arg7 : Memref sig .tc .vmem S512x1024 .f32) (harg7 : arg7.IsWhole)
    (hc0 : condFirst2 i) (hc1 : ¬condLast2 i)
    (x0 : Vec F S512x1024 .f32) (w0 : Vec F S1024x1024 .f32) (b0 : Vec F S1x1024 .f32) (xi : Vec F S512x1024 .f32)
    (E : Set ℕ) (K : PUnit → sProp 𝕄) :
    iprop(owns (c : Thread nD τ) arg3 fullShare x0 ∗ owns (c : Thread nD τ) arg4 fullShare w0 ∗ owns (c : Thread nD τ) arg5 fullShare b0
        ∗ owns (c : Thread nD τ) arg6 fullShare xi ∗ (∃ d, owns (c : Thread nD τ) arg7 fullShare d)
        ∗ (iprop(owns (c : Thread nD τ) arg3 fullShare x0 ∗ owns (c : Thread nD τ) arg4 fullShare w0 ∗ owns (c : Thread nD τ) arg5 fullShare b0
            ∗ owns (c : Thread nD τ) arg6 fullShare xi ∗ owns (c : Thread nD τ) arg7 fullShare (k2_pay2 x0 w0 (k2_pay1 (F := F)))) -∗ K ⟨⟩))
      ⊢ wp frame (wpE (defs₀ (F := F)) Variants.none c none) E (cc2__patch_matmul_kernel i arg3 harg3 arg4 harg4 arg5 harg5 arg6 harg6 arg7 harg7) K := by
  simp only [cc2__patch_matmul_kernel_eq_skeleton]; unfold cc2__patch_matmul_kernel_skel
  unfold owns
  iintro ⟨⟨%f3, %hf3, H3⟩, ⟨%f4, %hf4, H4⟩, ⟨%f5, %hf5, H5⟩, ⟨%f6, %hf6, H6⟩, ⟨%d7, %f7, %hf7, H7⟩, Hk⟩
  obtain rfl := harg3.eq_unread hf3; obtain rfl := harg4.eq_unread hf4; obtain rfl := harg5.eq_unread hf5
  obtain rfl := harg6.eq_unread hf6
  sl_exec (disch := first | exact hc0 | exact hc1)
  sl_step
  iapply Hk
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  iexists _; isplitr; swap; · iexact H7
  ipureintro
  sl_unfold_run_names
  refine (read_after_whole_store (S := S512x1024) _ _ zeros2 _ _ _).trans ?_
  exact congr (congr (congrArg k2_pay2 (load_whole harg3 zeros2 _ x0)) (load_whole harg4 zeros2 _ w0)) (load_after_whole_store (S := S512x1024) _ zeros2 _ _)

/-- A last point: the accumulator goes from `xs` to `step x0 w0 xs`, and the output block, whatever it held, ends at that plus the bias row. -/
theorem bodyLast2 (c : Dev nD) (i : grid2.Coords)
    (arg3 : Memref sig .tc .vmem S512x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S512x1024 .f32) (harg6 : arg6.IsWhole)
    (arg7 : Memref sig .tc .vmem S512x1024 .f32) (harg7 : arg7.IsWhole)
    (hc0 : ¬condFirst2 i) (hc1 : condLast2 i)
    (x0 : Vec F S512x1024 .f32) (w0 : Vec F S1024x1024 .f32) (b0 : Vec F S1x1024 .f32) (xs : Vec F S512x1024 .f32)
    (E : Set ℕ) (K : PUnit → sProp 𝕄) :
    iprop(owns (c : Thread nD τ) arg3 fullShare x0 ∗ owns (c : Thread nD τ) arg4 fullShare w0 ∗ owns (c : Thread nD τ) arg5 fullShare b0
        ∗ (∃ d, owns (c : Thread nD τ) arg6 fullShare d) ∗ owns (c : Thread nD τ) arg7 fullShare xs
        ∗ (iprop(owns (c : Thread nD τ) arg3 fullShare x0 ∗ owns (c : Thread nD τ) arg4 fullShare w0 ∗ owns (c : Thread nD τ) arg5 fullShare b0
            ∗ owns (c : Thread nD τ) arg6 fullShare (k2_pay3 (k2_pay2 x0 w0 xs) b0) ∗ owns (c : Thread nD τ) arg7 fullShare (k2_pay2 x0 w0 xs)) -∗ K ⟨⟩))
      ⊢ wp frame (wpE (defs₀ (F := F)) Variants.none c none) E (cc2__patch_matmul_kernel i arg3 harg3 arg4 harg4 arg5 harg5 arg6 harg6 arg7 harg7) K := by
  simp only [cc2__patch_matmul_kernel_eq_skeleton]; unfold cc2__patch_matmul_kernel_skel
  unfold owns
  iintro ⟨⟨%f3, %hf3, H3⟩, ⟨%f4, %hf4, H4⟩, ⟨%f5, %hf5, H5⟩, ⟨%d6, %f6, %hf6, H6⟩, ⟨%f7, %hf7, H7⟩, Hk⟩
  obtain rfl := harg3.eq_unread hf3; obtain rfl := harg4.eq_unread hf4; obtain rfl := harg5.eq_unread hf5
  obtain rfl := harg7.eq_unread hf7
  sl_exec (disch := first | exact hc0 | exact hc1)
  sl_step
  iapply Hk
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  have hacc : k2_pay2 (View.readAt (Elt F) arg3.view (Rect.unit ![0, 0] S512x1024.size inb_S512x1024_S512x1024_0_0).toLoadRect (harg3.unread x0))
      (View.readAt (Elt F) arg4.view (Rect.unit ![0, 0] S1024x1024.size inb_S1024x1024_S1024x1024_0_0).toLoadRect (harg4.unread w0))
      (View.readAt (Elt F) arg7.view (Rect.unit ![0, 0] S512x1024.size inb_S512x1024_S512x1024_0_0).toLoadRect (harg7.unread xs))
      = k2_pay2 x0 w0 xs :=
    congr (congr (congrArg k2_pay2 (load_whole harg3 zeros2 _ x0)) (load_whole harg4 zeros2 _ w0)) (load_whole harg7 zeros2 _ xs)
  isplitl [H6]
  · iexists _; isplitr; swap; · iexact H6
    ipureintro
    sl_unfold_run_names
    refine (read_after_whole_store (S := S512x1024) _ _ zeros2 _ _ _).trans ?_
    exact congr (congrArg k2_pay3 ((load_after_whole_store (S := S512x1024) _ zeros2 _ _).trans hacc)) (load_whole harg5 zeros2 _ b0)
  iexists _; isplitr; swap; · iexact H7
  ipureintro
  sl_unfold_run_names
  exact (read_after_whole_store (S := S512x1024) _ _ zeros2 _ _ _).trans hacc

end Cert.Kernel.Hand

end
-- ==== Proof.Kernel.Region2.lean ====
/-
  The third call's pipeline: what the scratch accumulator and the output block hold point by point, the proof
  data, and the body obligation.

  The grid is 2 x 4 x 4 (row block i, column block j, reduction block k, k fastest): position n has k = n mod 4.
  The accumulator after position n is the sum of the block products of the reduction blocks 0..k of its (i, j);
  the output block is stored, as accumulator + bias row, at the positions with k = 3 and is idle elsewhere (the
  pipeline neither writes it back nor refetches it there). The body obligation at a point is the matching case
  of the body's three runs, the invariant handing the accumulator over at what the point before left.
-/
import proofs.«109952_j48137993453602_1_alg».proof.Proof.Kernel.Body2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## When the two conditions hold, decided over the grid; where the windows are idle -/

theorem hcondFirst2 : ∀ t : Fin cfg2.N, condFirst2 (grid2.coords t) ↔ t.val % 4 = 0 :=
  (by decide +kernel : ∀ t : Fin grid2.N, condFirst2 (grid2.coords t) ↔ t.val % 4 = 0)
theorem hcondLast2 : ∀ t : Fin cfg2.N, condLast2 (grid2.coords t) ↔ t.val % 4 = 3 :=
  (by decide +kernel : ∀ t : Fin grid2.N, condLast2 (grid2.coords t) ↔ t.val % 4 = 3)

/-- The three input windows are never idle. -/
theorem live2_0 : ∀ t : Fin cfg2.N, cfg2.idle 0 (grid2.coords t) = false := by decide +kernel
theorem live2_1 : ∀ t : Fin cfg2.N, cfg2.idle 1 (grid2.coords t) = false := by decide +kernel
theorem live2_2 : ∀ t : Fin cfg2.N, cfg2.idle 2 (grid2.coords t) = false := by decide +kernel
/-- Away from a last point the output window is idle and is not written back; at a last point it is live. -/
theorem idle2_3 : ∀ t : Fin cfg2.N, ¬condLast2 (grid2.coords t) → cfg2.idle 3 (grid2.coords t) = true := by decide +kernel
theorem noFlush2_3 : ∀ t : Fin cfg2.N, ¬condLast2 (grid2.coords t) → (cfg2.win 3).flush t = false := by decide +kernel
theorem live2_3 : ∀ t : Fin cfg2.N, condLast2 (grid2.coords t) → cfg2.idle 3 (grid2.coords t) = false := by decide +kernel

section Region

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The activation block, the weight block and the bias row at point `t`, at their literal shapes. -/
abbrev xblk2 (c : Dev nD) (t : Fin cfg2.N) : Vec F S512x1024 .f32 := iblk2 V c 0 t
abbrev wblk2 (c : Dev nD) (t : Fin cfg2.N) : Vec F S1024x1024 .f32 := iblk2 V c 1 t
abbrev bblk2 (c : Dev nD) (t : Fin cfg2.N) : Vec F S1x1024 .f32 := iblk2 V c 2 t

/-! ## The running block product -/

/-- What the scratch accumulator holds after the body at position `n`: one more block product added to what
    the position before left, restarting from zero wherever the reduction coordinate is 0 (every fourth position). -/
def accAt2 (c : Dev nD) : (n : ℕ) → n < cfg2.N → Vec F S512x1024 .f32
  | 0, hn => k2_pay2 (xblk2 V c ⟨0, hn⟩) (wblk2 V c ⟨0, hn⟩) (k2_pay1 (F := F))
  | n + 1, hn => k2_pay2 (xblk2 V c ⟨n + 1, hn⟩) (wblk2 V c ⟨n + 1, hn⟩)
      (if (n + 1) % 4 = 0 then k2_pay1 (F := F) else accAt2 c n (Nat.lt_of_succ_lt hn))

theorem accAt2_first (c : Dev nD) (t : Fin cfg2.N) (h0 : t.val % 4 = 0) :
    accAt2 V c t.val t.isLt = k2_pay2 (xblk2 V c t) (wblk2 V c t) (k2_pay1 (F := F)) := by
  obtain ⟨n, hn⟩ := t
  cases n with
  | zero => rfl
  | succ n => exact congrArg (k2_pay2 (xblk2 V c ⟨n + 1, hn⟩) (wblk2 V c ⟨n + 1, hn⟩)) (if_pos h0)

theorem accAt2_next (c : Dev nD) (t : Fin cfg2.N) (h0 : ¬t.val % 4 = 0) :
    accAt2 V c t.val t.isLt = k2_pay2 (xblk2 V c t) (wblk2 V c t)
      (accAt2 V c (t.val - 1) (Nat.lt_of_le_of_lt (Nat.sub_le _ _) t.isLt)) := by
  obtain ⟨n, hn⟩ := t
  cases n with
  | zero => exact absurd (Nat.zero_mod _) h0
  | succ n => exact congrArg (k2_pay2 (xblk2 V c ⟨n + 1, hn⟩) (wblk2 V c ⟨n + 1, hn⟩)) (if_neg h0)

/-- What a last point stores into the output block: the accumulator's block product plus the bias row. -/
def outAt2 (c : Dev nD) (t : Fin cfg2.N) : Vec F S512x1024 .f32 := k2_pay3 (accAt2 V c t.val t.isLt) (bblk2 V c t)

/-! ## The invariant between points -/

/-- The kernel's scratch accumulator, as a whole-buffer memref. -/
abbrev scM2 : Memref sig .tc .vmem S512x1024 .f32 := Memref.whole cc2_scratch0

/-- Before position `n`: at the first position every scoped buffer no window stages is at anything; afterwards the
    accumulator holds the running block product of the position before, the other such buffers anything. -/
def Phi2 (c : Dev nD) : (n : ℕ) → n ≤ cfg2.N → sProp 𝕄
  | 0, _ => Pipeline.scopedRest spec2 c
  | n + 1, hn => iprop(owns (c : Thread nD τ) scM2 fullShare (accAt2 V c n hn)
      ∗ Pipeline.scopedRestBut (Ix := Unit) (Name := ℕ) (U := UR sig nD τ) (Lvl := ℕ) (Val := Elt F) spec2 c [cc2_scratch0])

theorem Phi2_zero (c : Dev nD) (n : ℕ) (h : n ≤ cfg2.N) (hz : n = 0) :
    Phi2 V c n h = iprop(iprop(∃ d, owns (c : Thread nD τ) scM2 fullShare d)
      ∗ Pipeline.scopedRestBut (Ix := Unit) (Name := ℕ) (U := UR sig nD τ) (Lvl := ℕ) (Val := Elt F) spec2 c [cc2_scratch0]) := by
  subst hz
  show Pipeline.scopedRest spec2 c = _
  rw [scopedRest2_split]; simp only [scM2, owns_whole]; try rfl

theorem Phi2_succ (c : Dev nD) (n : ℕ) (hn : n < cfg2.N) :
    Phi2 V c (n + 1) hn = iprop(owns (c : Thread nD τ) scM2 fullShare (accAt2 V c n hn)
      ∗ Pipeline.scopedRestBut (Ix := Unit) (Name := ℕ) (U := UR sig nD τ) (Lvl := ℕ) (Val := Elt F) spec2 c [cc2_scratch0]) := rfl

theorem Phi2_pos (c : Dev nD) (n : ℕ) (h : n ≤ cfg2.N) (hz : n ≠ 0) :
    Phi2 V c n h = iprop(owns (c : Thread nD τ) scM2 fullShare (accAt2 V c (n - 1) (by omega))
      ∗ Pipeline.scopedRestBut (Ix := Unit) (Name := ℕ) (U := UR sig nD τ) (Lvl := ℕ) (Val := Elt F) spec2 c [cc2_scratch0]) := by
  cases n with
  | zero => exact absurd rfl hz
  | succ n => rfl

/-! ## The pipeline's proof data -/

/-- The third call's proof data on core `c`: the arrays as the region finds them; after the body each input's
    buffer still at its block, the output's at accumulator + bias (consulted at last points only); the invariant
    above; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => outAt2 V c t
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem Phi2_castSucc (c : Dev nD) (t : Fin cfg2.N) :
    (dat2 V c).Φ t.castSucc = Phi2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = outAt2 V c t := by dsimp only [dat2]

/-- Each input's current staging buffer holds its block at every point, fetched there or not: an input that is
    not fetched has not moved, and the body leaves it in place. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t ∗ (dat2 V c).leavesExact 3 t)

theorem leaves2_0 (c : Dev nD) (t : Fin cfg2.N) :
    (dat2 V c).leavesExact 0 t = owns (c : Thread nD τ) (st2_0 t) fullShare (xblk2 V c t) := by
  unfold Dat.leavesExact; rw [live2_0 t, after2_0]
theorem leaves2_1 (c : Dev nD) (t : Fin cfg2.N) :
    (dat2 V c).leavesExact 1 t = owns (c : Thread nD τ) (st2_1 t) fullShare (wblk2 V c t) := by
  unfold Dat.leavesExact; rw [live2_1 t, after2_1]
theorem leaves2_2 (c : Dev nD) (t : Fin cfg2.N) :
    (dat2 V c).leavesExact 2 t = owns (c : Thread nD τ) (st2_2 t) fullShare (bblk2 V c t) := by
  unfold Dat.leavesExact; rw [live2_2 t, after2_2]

set_option maxHeartbeats 1600000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = Phi2 V c (t.val + 1) t.isLt from rfl, Phi2_succ]
  rw [leaves2_0, leaves2_1, leaves2_2, Phi2_castSucc]
  have hN : t.val < 32 := lt_of_lt_of_eq t.isLt (show cfg2.N = 32 from N_2)
  by_cases h1 : t.val % 4 = 3
  · -- a last point
    have h0 : ¬t.val % 4 = 0 := by omega
    have hz : t.val ≠ 0 := by omega
    have hL : condLast2 (grid2.coords t) := (hcondLast2 t).mpr h1
    have hF : ¬condFirst2 (grid2.coords t) := fun h => h0 ((hcondFirst2 t).mp h)
    rw [show (dat2 V c).leavesExact 3 t = owns (c : Thread nD τ) (st2_3 t) fullShare ((dat2 V c).after 3 t) from by
      unfold Dat.leavesExact; rw [live2_3 t hL], after2_3]
    unfold outAt2
    rw [accAt2_next V c t h0, Phi2_pos V c _ _ hz]
    iintro ⟨⟨HS, Hr⟩, Ho, ⟨%d0, H0⟩, ⟨%d1, H1⟩, ⟨%d2, H2⟩, ⟨%d3, H3⟩⟩
    iapply (bodyLast2 c (grid2.coords t) _ _ _ _ _ _ _ _ scM2 (Memref.isWhole_whole _) hF hL (xblk2 V c t) (wblk2 V c t) (bblk2 V c t)
      (accAt2 V c (t.val - 1) (Nat.lt_of_le_of_lt (Nat.sub_le _ _) t.isLt)) Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hr]
    · isplitl [HS]; · iexact HS
      iexact Hr
    isplitl [Ho]; · iexact Ho
    isplitl [H0]; · iexact H0
    isplitl [H1]; · iexact H1
    isplitl [H2]; · iexact H2
    iexact H3
  · have hL : ¬condLast2 (grid2.coords t) := fun h => h1 ((hcondLast2 t).mp h)
    rw [Dat.leavesExact_idle (dat2 V c) 3 t (idle2_3 t hL) (noFlush2_3 t hL)]
    by_cases h0 : t.val % 4 = 0
    · -- a first point
      have hF : condFirst2 (grid2.coords t) := (hcondFirst2 t).mpr h0
      rw [accAt2_first V c t h0]
      have hS : Phi2 V c t.val (Nat.le_of_lt t.isLt) ⊢ iprop(iprop(∃ d, owns (c : Thread nD τ) scM2 fullShare d)
          ∗ Pipeline.scopedRestBut (Ix := Unit) (Name := ℕ) (U := UR sig nD τ) (Lvl := ℕ) (Val := Elt F) spec2 c [cc2_scratch0]) := by
        by_cases hz : t.val = 0
        · rw [Phi2_zero V c _ _ hz]
        · rw [Phi2_pos V c _ _ hz]
          iintro ⟨HS, Hr⟩
          isplitl [HS]; · iexists _; iexact HS
          iexact Hr
      iintro ⟨HP, Ho, ⟨%d0, H0⟩, ⟨%d1, H1⟩, ⟨%d2, H2⟩, ⟨%d3, H3⟩⟩
      ihave HP' := hS $$ HP
      icases HP' with ⟨HS, Hr⟩
      iapply (bodyFirst2 c (grid2.coords t) _ _ _ _ _ _ _ _ scM2 (Memref.isWhole_whole _) hF hL (xblk2 V c t) (wblk2 V c t) (bblk2 V c t)
        ((dat2 V c).before 3 t d3) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr]
      · isplitl [HS]; · iexact HS
        iexact Hr
      isplitl [Ho]; · iexact Ho
      isplitl [H0]; · iexact H0
      isplitl [H1]; · iexact H1
      isplitl [H2]; · iexact H2
      iexists _; iexact H3
    · -- a middle point
      have hz : t.val ≠ 0 := fun e => h0 (by rw [e])
      have hF : ¬condFirst2 (grid2.coords t) := fun h => h0 ((hcondFirst2 t).mp h)
      rw [accAt2_next V c t h0, Phi2_pos V c _ _ hz]
      iintro ⟨⟨HS, Hr⟩, Ho, ⟨%d0, H0⟩, ⟨%d1, H1⟩, ⟨%d2, H2⟩, ⟨%d3, H3⟩⟩
      iapply (bodyMid2 c (grid2.coords t) _ _ _ _ _ _ _ _ scM2 (Memref.isWhole_whole _) hF hL (xblk2 V c t) (wblk2 V c t) (bblk2 V c t)
        ((dat2 V c).before 3 t d3) (accAt2 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr]
      · isplitl [HS]; · iexact HS
        iexact Hr
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- After any point but none the invariant gives the scoped rest back: the accumulator's named contents are forgotten. -/
theorem Phi2_out (c : Dev nD) : (dat2 V c).Φ (Fin.last cfg2.N) ⊢ (Pipeline.scopedRest spec2 c : sProp 𝕄) := by
  rw [show (dat2 V c).Φ (Fin.last cfg2.N) = Phi2 V c (Fin.last cfg2.N).val (Nat.le_of_lt_succ (Fin.last cfg2.N).isLt) from rfl,
    Phi2_pos V c _ _ (by rw [Fin.val_last]; have : cfg2.N = 32 := N_2; omega), scopedRest2_split]
  iintro ⟨HS, Hr⟩
  isplitl [HS]
  · simp only [scM2, owns_whole]; iexists _; iexact HS
  iexact Hr

end Region

end Cert.Kernel.Hand

end
-- ==== Proof.Kernel.Body3.lean ====
/-
  The matmul kernel's body at one grid point of the fourth call, in its three control cases.

  The body keeps a running block product in a scratch accumulator. At a point where the reduction coordinate
  `k` is 0 it first zeroes the accumulator; at every point it adds the product of the current activation block
  and weight block to it; at the point where `k` is the last (3) it also stores accumulator + bias row into the
  output block. So with `x`, `w`, `b` the three input blocks and `a` what the accumulator held:
    first  point (k = 0):       accumulator ends at  step x w zero;                 output block untouched
    middle point (0 < k < 3):   accumulator ends at  step x w a;                    output block untouched
    last   point (k = 3):       accumulator ends at  step x w a, and the output block at  (step x w a) + b
  where `step` is the printed payload `k3_pay2`, `zero` is `k3_pay1`, and the biased sum is `k3_pay3`.
  Each case is one run of the symbolic executor over the printed body; what the run leaves in a buffer is a
  list of whole-buffer stores, read back by the lemmas on whole-buffer rectangles.
-/
import proofs.«109952_j48137993453602_1_alg».proof.Proof.Gen.Kernel.Launch
import proofs.«109952_j48137993453602_1_alg».proof.Proof.Gen.Kernel.Skeleton
import proofs.«109952_j48137993453602_1_alg».proof.Proof.Gen.Kernel.Points
import proofs.«109952_j48137993453602_1_alg».proof.Proof.LibWholeBuffer
import Idealize.ShloMosaic.Lib.Pipeline.FrameBody
import Idealize.ShloMosaic.Lib.Tactic

set_option maxRecDepth 16384

noncomputable section

namespace Cert.Kernel.Hand

open Cert.Kernel Cert.Kernel.Gen Cert.LibWholeBuffer
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The reduction coordinate is 0: the accumulator is zeroed at this point (the body's first conditional). -/
abbrev condFirst3 (i : grid3.Coords) : Prop := (Scalar.cmpi .ne (Scalar.extui (Scalar.cmpi .eq (BitVec.ofNat 32 (i 2).val) 0#32)) 0#32) = 1#1
/-- The reduction coordinate is the last: the output block is stored at this point (the body's second conditional). -/
abbrev condLast3 (i : grid3.Coords) : Prop := k3_cond2 i = 1#1

/-- A middle point: the accumulator goes from `xs` to `step x0 w0 xs`; every other buffer is handed back as found. -/
theorem bodyMid3 (c : Dev nD) (i : grid3.Coords)
    (arg3 : Memref sig .tc .vmem S512x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S512x1024 .f32) (harg6 : arg6.IsWhole)
    (arg7 : Memref sig .tc .vmem S512x1024 .f32) (harg7 : arg7.IsWhole)
    (hc0 : ¬condFirst3 i) (hc1 : ¬condLast3 i)
    (x0 : Vec F S512x1024 .f32) (w0 : Vec F S1024x1024 .f32) (b0 : Vec F S1x1024 .f32) (xi : Vec F S512x1024 .f32) (xs : Vec F S512x1024 .f32)
    (E : Set ℕ) (K : PUnit → sProp 𝕄) :
    iprop(owns (c : Thread nD τ) arg3 fullShare x0 ∗ owns (c : Thread nD τ) arg4 fullShare w0 ∗ owns (c : Thread nD τ) arg5 fullShare b0
        ∗ owns (c : Thread nD τ) arg6 fullShare xi ∗ owns (c : Thread nD τ) arg7 fullShare xs
        ∗ (iprop(owns (c : Thread nD τ) arg3 fullShare x0 ∗ owns (c : Thread nD τ) arg4 fullShare w0 ∗ owns (c : Thread nD τ) arg5 fullShare b0
            ∗ owns (c : Thread nD τ) arg6 fullShare xi ∗ owns (c : Thread nD τ) arg7 fullShare (k3_pay2 x0 w0 xs)) -∗ K ⟨⟩))
      ⊢ wp frame (wpE (defs₀ (F := F)) Variants.none c none) E (cc3__patch_matmul_kernel i arg3 harg3 arg4 harg4 arg5 harg5 arg6 harg6 arg7 harg7) K := by
  simp only [cc3__patch_matmul_kernel_eq_skeleton]; unfold cc3__patch_matmul_kernel_skel
  unfold owns
  iintro ⟨⟨%f3, %hf3, H3⟩, ⟨%f4, %hf4, H4⟩, ⟨%f5, %hf5, H5⟩, ⟨%f6, %hf6, H6⟩, ⟨%f7, %hf7, H7⟩, Hk⟩
  obtain rfl := harg3.eq_unread hf3; obtain rfl := harg4.eq_unread hf4; obtain rfl := harg5.eq_unread hf5
  obtain rfl := harg6.eq_unread hf6; obtain rfl := harg7.eq_unread hf7
  sl_exec (disch := first | exact hc0 | exact hc1)
  sl_step
  iapply Hk
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  iexists _; isplitr; swap; · iexact H7
  ipureintro
  refine (read_after_whole_store (S := S512x1024) _ _ zeros2 _ _ _).trans ?_
  exact congr (congr (congrArg k3_pay2 (load_whole harg3 zeros2 _ x0)) (load_whole harg4 zeros2 _ w0)) (load_whole harg7 zeros2 _ xs)

/-- A first point: whatever the accumulator held, it ends at `step x0 w0 zero`; every other buffer is handed back as found. -/
theorem bodyFirst3 (c : Dev nD) (i : grid3.Coords)
    (arg3 : Memref sig .tc .vmem S512x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S512x1024 .f32) (harg6 : arg6.IsWhole)
    (arg7 : Memref sig .tc .vmem S512x1024 .f32) (harg7 : arg7.IsWhole)
    (hc0 : condFirst3 i) (hc1 : ¬condLast3 i)
    (x0 : Vec F S512x1024 .f32) (w0 : Vec F S1024x1024 .f32) (b0 : Vec F S1x1024 .f32) (xi : Vec F S512x1024 .f32)
    (E : Set ℕ) (K : PUnit → sProp 𝕄) :
    iprop(owns (c : Thread nD τ) arg3 fullShare x0 ∗ owns (c : Thread nD τ) arg4 fullShare w0 ∗ owns (c : Thread nD τ) arg5 fullShare b0
        ∗ owns (c : Thread nD τ) arg6 fullShare xi ∗ (∃ d, owns (c : Thread nD τ) arg7 fullShare d)
        ∗ (iprop(owns (c : Thread nD τ) arg3 fullShare x0 ∗ owns (c : Thread nD τ) arg4 fullShare w0 ∗ owns (c : Thread nD τ) arg5 fullShare b0
            ∗ owns (c : Thread nD τ) arg6 fullShare xi ∗ owns (c : Thread nD τ) arg7 fullShare (k3_pay2 x0 w0 (k3_pay1 (F := F)))) -∗ K ⟨⟩))
      ⊢ wp frame (wpE (defs₀ (F := F)) Variants.none c none) E (cc3__patch_matmul_kernel i arg3 harg3 arg4 harg4 arg5 harg5 arg6 harg6 arg7 harg7) K := by
  simp only [cc3__patch_matmul_kernel_eq_skeleton]; unfold cc3__patch_matmul_kernel_skel
  unfold owns
  iintro ⟨⟨%f3, %hf3, H3⟩, ⟨%f4, %hf4, H4⟩, ⟨%f5, %hf5, H5⟩, ⟨%f6, %hf6, H6⟩, ⟨%d7, %f7, %hf7, H7⟩, Hk⟩
  obtain rfl := harg3.eq_unread hf3; obtain rfl := harg4.eq_unread hf4; obtain rfl := harg5.eq_unread hf5
  obtain rfl := harg6.eq_unread hf6
  sl_exec (disch := first | exact hc0 | exact hc1)
  sl_step
  iapply Hk
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  iexists _; isplitr; swap; · iexact H7
  ipureintro
  sl_unfold_run_names
  refine (read_after_whole_store (S := S512x1024) _ _ zeros2 _ _ _).trans ?_
  exact congr (congr (congrArg k3_pay2 (load_whole harg3 zeros2 _ x0)) (load_whole harg4 zeros2 _ w0)) (load_after_whole_store (S := S512x1024) _ zeros2 _ _)

/-- A last point: the accumulator goes from `xs` to `step x0 w0 xs`, and the output block, whatever it held, ends at that plus the bias row. -/
theorem bodyLast3 (c : Dev nD) (i : grid3.Coords)
    (arg3 : Memref sig .tc .vmem S512x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S512x1024 .f32) (harg6 : arg6.IsWhole)
    (arg7 : Memref sig .tc .vmem S512x1024 .f32) (harg7 : arg7.IsWhole)
    (hc0 : ¬condFirst3 i) (hc1 : condLast3 i)
    (x0 : Vec F S512x1024 .f32) (w0 : Vec F S1024x1024 .f32) (b0 : Vec F S1x1024 .f32) (xs : Vec F S512x1024 .f32)
    (E : Set ℕ) (K : PUnit → sProp 𝕄) :
    iprop(owns (c : Thread nD τ) arg3 fullShare x0 ∗ owns (c : Thread nD τ) arg4 fullShare w0 ∗ owns (c : Thread nD τ) arg5 fullShare b0
        ∗ (∃ d, owns (c : Thread nD τ) arg6 fullShare d) ∗ owns (c : Thread nD τ) arg7 fullShare xs
        ∗ (iprop(owns (c : Thread nD τ) arg3 fullShare x0 ∗ owns (c : Thread nD τ) arg4 fullShare w0 ∗ owns (c : Thread nD τ) arg5 fullShare b0
            ∗ owns (c : Thread nD τ) arg6 fullShare (k3_pay3 (k3_pay2 x0 w0 xs) b0) ∗ owns (c : Thread nD τ) arg7 fullShare (k3_pay2 x0 w0 xs)) -∗ K ⟨⟩))
      ⊢ wp frame (wpE (defs₀ (F := F)) Variants.none c none) E (cc3__patch_matmul_kernel i arg3 harg3 arg4 harg4 arg5 harg5 arg6 harg6 arg7 harg7) K := by
  simp only [cc3__patch_matmul_kernel_eq_skeleton]; unfold cc3__patch_matmul_kernel_skel
  unfold owns
  iintro ⟨⟨%f3, %hf3, H3⟩, ⟨%f4, %hf4, H4⟩, ⟨%f5, %hf5, H5⟩, ⟨%d6, %f6, %hf6, H6⟩, ⟨%f7, %hf7, H7⟩, Hk⟩
  obtain rfl := harg3.eq_unread hf3; obtain rfl := harg4.eq_unread hf4; obtain rfl := harg5.eq_unread hf5
  obtain rfl := harg7.eq_unread hf7
  sl_exec (disch := first | exact hc0 | exact hc1)
  sl_step
  iapply Hk
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  have hacc : k3_pay2 (View.readAt (Elt F) arg3.view (Rect.unit ![0, 0] S512x1024.size inb_S512x1024_S512x1024_0_0).toLoadRect (harg3.unread x0))
      (View.readAt (Elt F) arg4.view (Rect.unit ![0, 0] S1024x1024.size inb_S1024x1024_S1024x1024_0_0).toLoadRect (harg4.unread w0))
      (View.readAt (Elt F) arg7.view (Rect.unit ![0, 0] S512x1024.size inb_S512x1024_S512x1024_0_0).toLoadRect (harg7.unread xs))
      = k3_pay2 x0 w0 xs :=
    congr (congr (congrArg k3_pay2 (load_whole harg3 zeros2 _ x0)) (load_whole harg4 zeros2 _ w0)) (load_whole harg7 zeros2 _ xs)
  isplitl [H6]
  · iexists _; isplitr; swap; · iexact H6
    ipureintro
    sl_unfold_run_names
    refine (read_after_whole_store (S := S512x1024) _ _ zeros2 _ _ _).trans ?_
    exact congr (congrArg k3_pay3 ((load_after_whole_store (S := S512x1024) _ zeros2 _ _).trans hacc)) (load_whole harg5 zeros2 _ b0)
  iexists _; isplitr; swap; · iexact H7
  ipureintro
  sl_unfold_run_names
  exact (read_after_whole_store (S := S512x1024) _ _ zeros2 _ _ _).trans hacc

end Cert.Kernel.Hand

end
-- ==== Proof.Kernel.Region3.lean ====
/-
  The fourth call's pipeline: what the scratch accumulator and the output block hold point by point, the proof
  data, and the body obligation.

  The grid is 2 x 4 x 4 (row block i, column block j, reduction block k, k fastest): position n has k = n mod 4.
  The accumulator after position n is the sum of the block products of the reduction blocks 0..k of its (i, j);
  the output block is stored, as accumulator + bias row, at the positions with k = 3 and is idle elsewhere (the
  pipeline neither writes it back nor refetches it there). The body obligation at a point is the matching case
  of the body's three runs, the invariant handing the accumulator over at what the point before left.
-/
import proofs.«109952_j48137993453602_1_alg».proof.Proof.Kernel.Body3

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## When the two conditions hold, decided over the grid; where the windows are idle -/

theorem hcondFirst3 : ∀ t : Fin cfg3.N, condFirst3 (grid3.coords t) ↔ t.val % 4 = 0 :=
  (by decide +kernel : ∀ t : Fin grid3.N, condFirst3 (grid3.coords t) ↔ t.val % 4 = 0)
theorem hcondLast3 : ∀ t : Fin cfg3.N, condLast3 (grid3.coords t) ↔ t.val % 4 = 3 :=
  (by decide +kernel : ∀ t : Fin grid3.N, condLast3 (grid3.coords t) ↔ t.val % 4 = 3)

/-- The three input windows are never idle. -/
theorem live3_0 : ∀ t : Fin cfg3.N, cfg3.idle 0 (grid3.coords t) = false := by decide +kernel
theorem live3_1 : ∀ t : Fin cfg3.N, cfg3.idle 1 (grid3.coords t) = false := by decide +kernel
theorem live3_2 : ∀ t : Fin cfg3.N, cfg3.idle 2 (grid3.coords t) = false := by decide +kernel
/-- Away from a last point the output window is idle and is not written back; at a last point it is live. -/
theorem idle3_3 : ∀ t : Fin cfg3.N, ¬condLast3 (grid3.coords t) → cfg3.idle 3 (grid3.coords t) = true := by decide +kernel
theorem noFlush3_3 : ∀ t : Fin cfg3.N, ¬condLast3 (grid3.coords t) → (cfg3.win 3).flush t = false := by decide +kernel
theorem live3_3 : ∀ t : Fin cfg3.N, condLast3 (grid3.coords t) → cfg3.idle 3 (grid3.coords t) = false := by decide +kernel

section Region

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The activation block, the weight block and the bias row at point `t`, at their literal shapes. -/
abbrev xblk3 (c : Dev nD) (t : Fin cfg3.N) : Vec F S512x1024 .f32 := iblk3 V c 0 t
abbrev wblk3 (c : Dev nD) (t : Fin cfg3.N) : Vec F S1024x1024 .f32 := iblk3 V c 1 t
abbrev bblk3 (c : Dev nD) (t : Fin cfg3.N) : Vec F S1x1024 .f32 := iblk3 V c 2 t

/-! ## The running block product -/

/-- What the scratch accumulator holds after the body at position `n`: one more block product added to what
    the position before left, restarting from zero wherever the reduction coordinate is 0 (every fourth position). -/
def accAt3 (c : Dev nD) : (n : ℕ) → n < cfg3.N → Vec F S512x1024 .f32
  | 0, hn => k3_pay2 (xblk3 V c ⟨0, hn⟩) (wblk3 V c ⟨0, hn⟩) (k3_pay1 (F := F))
  | n + 1, hn => k3_pay2 (xblk3 V c ⟨n + 1, hn⟩) (wblk3 V c ⟨n + 1, hn⟩)
      (if (n + 1) % 4 = 0 then k3_pay1 (F := F) else accAt3 c n (Nat.lt_of_succ_lt hn))

theorem accAt3_first (c : Dev nD) (t : Fin cfg3.N) (h0 : t.val % 4 = 0) :
    accAt3 V c t.val t.isLt = k3_pay2 (xblk3 V c t) (wblk3 V c t) (k3_pay1 (F := F)) := by
  obtain ⟨n, hn⟩ := t
  cases n with
  | zero => rfl
  | succ n => exact congrArg (k3_pay2 (xblk3 V c ⟨n + 1, hn⟩) (wblk3 V c ⟨n + 1, hn⟩)) (if_pos h0)

theorem accAt3_next (c : Dev nD) (t : Fin cfg3.N) (h0 : ¬t.val % 4 = 0) :
    accAt3 V c t.val t.isLt = k3_pay2 (xblk3 V c t) (wblk3 V c t)
      (accAt3 V c (t.val - 1) (Nat.lt_of_le_of_lt (Nat.sub_le _ _) t.isLt)) := by
  obtain ⟨n, hn⟩ := t
  cases n with
  | zero => exact absurd (Nat.zero_mod _) h0
  | succ n => exact congrArg (k3_pay2 (xblk3 V c ⟨n + 1, hn⟩) (wblk3 V c ⟨n + 1, hn⟩)) (if_neg h0)

/-- What a last point stores into the output block: the accumulator's block product plus the bias row. -/
def outAt3 (c : Dev nD) (t : Fin cfg3.N) : Vec F S512x1024 .f32 := k3_pay3 (accAt3 V c t.val t.isLt) (bblk3 V c t)

/-! ## The invariant between points -/

/-- The kernel's scratch accumulator, as a whole-buffer memref. -/
abbrev scM3 : Memref sig .tc .vmem S512x1024 .f32 := Memref.whole cc3_scratch0

/-- Before position `n`: at the first position every scoped buffer no window stages is at anything; afterwards the
    accumulator holds the running block product of the position before, the other such buffers anything. -/
def Phi3 (c : Dev nD) : (n : ℕ) → n ≤ cfg3.N → sProp 𝕄
  | 0, _ => Pipeline.scopedRest spec3 c
  | n + 1, hn => iprop(owns (c : Thread nD τ) scM3 fullShare (accAt3 V c n hn)
      ∗ Pipeline.scopedRestBut (Ix := Unit) (Name := ℕ) (U := UR sig nD τ) (Lvl := ℕ) (Val := Elt F) spec3 c [cc3_scratch0])

theorem Phi3_zero (c : Dev nD) (n : ℕ) (h : n ≤ cfg3.N) (hz : n = 0) :
    Phi3 V c n h = iprop(iprop(∃ d, owns (c : Thread nD τ) scM3 fullShare d)
      ∗ Pipeline.scopedRestBut (Ix := Unit) (Name := ℕ) (U := UR sig nD τ) (Lvl := ℕ) (Val := Elt F) spec3 c [cc3_scratch0]) := by
  subst hz
  show Pipeline.scopedRest spec3 c = _
  rw [scopedRest3_split]; simp only [scM3, owns_whole]; try rfl

theorem Phi3_succ (c : Dev nD) (n : ℕ) (hn : n < cfg3.N) :
    Phi3 V c (n + 1) hn = iprop(owns (c : Thread nD τ) scM3 fullShare (accAt3 V c n hn)
      ∗ Pipeline.scopedRestBut (Ix := Unit) (Name := ℕ) (U := UR sig nD τ) (Lvl := ℕ) (Val := Elt F) spec3 c [cc3_scratch0]) := rfl

theorem Phi3_pos (c : Dev nD) (n : ℕ) (h : n ≤ cfg3.N) (hz : n ≠ 0) :
    Phi3 V c n h = iprop(owns (c : Thread nD τ) scM3 fullShare (accAt3 V c (n - 1) (by omega))
      ∗ Pipeline.scopedRestBut (Ix := Unit) (Name := ℕ) (U := UR sig nD τ) (Lvl := ℕ) (Val := Elt F) spec3 c [cc3_scratch0]) := by
  cases n with
  | zero => exact absurd rfl hz
  | succ n => rfl

/-! ## The pipeline's proof data -/

/-- The fourth call's proof data on core `c`: the arrays as the region finds them; after the body each input's
    buffer still at its block, the output's at accumulator + bias (consulted at last points only); the invariant
    above; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => outAt3 V c t
  Φ t := Phi3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem Phi3_castSucc (c : Dev nD) (t : Fin cfg3.N) :
    (dat3 V c).Φ t.castSucc = Phi3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = outAt3 V c t := by dsimp only [dat3]

/-- Each input's current staging buffer holds its block at every point, fetched there or not: an input that is
    not fetched has not moved, and the body leaves it in place. -/
theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t ∗ (dat3 V c).leavesExact 1 t ∗ (dat3 V c).leavesExact 2 t ∗ (dat3 V c).leavesExact 3 t)

theorem leaves3_0 (c : Dev nD) (t : Fin cfg3.N) :
    (dat3 V c).leavesExact 0 t = owns (c : Thread nD τ) (st3_0 t) fullShare (xblk3 V c t) := by
  unfold Dat.leavesExact; rw [live3_0 t, after3_0]
theorem leaves3_1 (c : Dev nD) (t : Fin cfg3.N) :
    (dat3 V c).leavesExact 1 t = owns (c : Thread nD τ) (st3_1 t) fullShare (wblk3 V c t) := by
  unfold Dat.leavesExact; rw [live3_1 t, after3_1]
theorem leaves3_2 (c : Dev nD) (t : Fin cfg3.N) :
    (dat3 V c).leavesExact 2 t = owns (c : Thread nD τ) (st3_2 t) fullShare (bblk3 V c t) := by
  unfold Dat.leavesExact; rw [live3_2 t, after3_2]

set_option maxHeartbeats 1600000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = Phi3 V c (t.val + 1) t.isLt from rfl, Phi3_succ]
  rw [leaves3_0, leaves3_1, leaves3_2, Phi3_castSucc]
  have hN : t.val < 32 := lt_of_lt_of_eq t.isLt (show cfg3.N = 32 from N_3)
  by_cases h1 : t.val % 4 = 3
  · -- a last point
    have h0 : ¬t.val % 4 = 0 := by omega
    have hz : t.val ≠ 0 := by omega
    have hL : condLast3 (grid3.coords t) := (hcondLast3 t).mpr h1
    have hF : ¬condFirst3 (grid3.coords t) := fun h => h0 ((hcondFirst3 t).mp h)
    rw [show (dat3 V c).leavesExact 3 t = owns (c : Thread nD τ) (st3_3 t) fullShare ((dat3 V c).after 3 t) from by
      unfold Dat.leavesExact; rw [live3_3 t hL], after3_3]
    unfold outAt3
    rw [accAt3_next V c t h0, Phi3_pos V c _ _ hz]
    iintro ⟨⟨HS, Hr⟩, Ho, ⟨%d0, H0⟩, ⟨%d1, H1⟩, ⟨%d2, H2⟩, ⟨%d3, H3⟩⟩
    iapply (bodyLast3 c (grid3.coords t) _ _ _ _ _ _ _ _ scM3 (Memref.isWhole_whole _) hF hL (xblk3 V c t) (wblk3 V c t) (bblk3 V c t)
      (accAt3 V c (t.val - 1) (Nat.lt_of_le_of_lt (Nat.sub_le _ _) t.isLt)) Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hr]
    · isplitl [HS]; · iexact HS
      iexact Hr
    isplitl [Ho]; · iexact Ho
    isplitl [H0]; · iexact H0
    isplitl [H1]; · iexact H1
    isplitl [H2]; · iexact H2
    iexact H3
  · have hL : ¬condLast3 (grid3.coords t) := fun h => h1 ((hcondLast3 t).mp h)
    rw [Dat.leavesExact_idle (dat3 V c) 3 t (idle3_3 t hL) (noFlush3_3 t hL)]
    by_cases h0 : t.val % 4 = 0
    · -- a first point
      have hF : condFirst3 (grid3.coords t) := (hcondFirst3 t).mpr h0
      rw [accAt3_first V c t h0]
      have hS : Phi3 V c t.val (Nat.le_of_lt t.isLt) ⊢ iprop(iprop(∃ d, owns (c : Thread nD τ) scM3 fullShare d)
          ∗ Pipeline.scopedRestBut (Ix := Unit) (Name := ℕ) (U := UR sig nD τ) (Lvl := ℕ) (Val := Elt F) spec3 c [cc3_scratch0]) := by
        by_cases hz : t.val = 0
        · rw [Phi3_zero V c _ _ hz]
        · rw [Phi3_pos V c _ _ hz]
          iintro ⟨HS, Hr⟩
          isplitl [HS]; · iexists _; iexact HS
          iexact Hr
      iintro ⟨HP, Ho, ⟨%d0, H0⟩, ⟨%d1, H1⟩, ⟨%d2, H2⟩, ⟨%d3, H3⟩⟩
      ihave HP' := hS $$ HP
      icases HP' with ⟨HS, Hr⟩
      iapply (bodyFirst3 c (grid3.coords t) _ _ _ _ _ _ _ _ scM3 (Memref.isWhole_whole _) hF hL (xblk3 V c t) (wblk3 V c t) (bblk3 V c t)
        ((dat3 V c).before 3 t d3) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr]
      · isplitl [HS]; · iexact HS
        iexact Hr
      isplitl [Ho]; · iexact Ho
      isplitl [H0]; · iexact H0
      isplitl [H1]; · iexact H1
      isplitl [H2]; · iexact H2
      iexists _; iexact H3
    · -- a middle point
      have hz : t.val ≠ 0 := fun e => h0 (by rw [e])
      have hF : ¬condFirst3 (grid3.coords t) := fun h => h0 ((hcondFirst3 t).mp h)
      rw [accAt3_next V c t h0, Phi3_pos V c _ _ hz]
      iintro ⟨⟨HS, Hr⟩, Ho, ⟨%d0, H0⟩, ⟨%d1, H1⟩, ⟨%d2, H2⟩, ⟨%d3, H3⟩⟩
      iapply (bodyMid3 c (grid3.coords t) _ _ _ _ _ _ _ _ scM3 (Memref.isWhole_whole _) hF hL (xblk3 V c t) (wblk3 V c t) (bblk3 V c t)
        ((dat3 V c).before 3 t d3) (accAt3 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr]
      · isplitl [HS]; · iexact HS
        iexact Hr
      isplitl [Ho]; · iexact Ho
      isplitl [H0]; · iexact H0
      isplitl [H1]; · iexact H1
      isplitl [H2]; · iexact H2
      iexists _; iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- After any point but none the invariant gives the scoped rest back: the accumulator's named contents are forgotten. -/
theorem Phi3_out (c : Dev nD) : (dat3 V c).Φ (Fin.last cfg3.N) ⊢ (Pipeline.scopedRest spec3 c : sProp 𝕄) := by
  rw [show (dat3 V c).Φ (Fin.last cfg3.N) = Phi3 V c (Fin.last cfg3.N).val (Nat.le_of_lt_succ (Fin.last cfg3.N).isLt) from rfl,
    Phi3_pos V c _ _ (by rw [Fin.val_last]; have : cfg3.N = 32 := N_3; omega), scopedRest3_split]
  iintro ⟨HS, Hr⟩
  isplitl [HS]
  · simp only [scM3, owns_whole]; iexists _; iexact HS
  iexact Hr

end Region

end Cert.Kernel.Hand

end
-- ==== Proof.Kernel.Chain.lean ====
/-
  What the TensorCore's unscoped buffers hold between the items of @main, and every pipeline's proof data.

  @main is: nine host operations (the two patch matrices and the first bias row), then four times a matmul call
  followed by host operations (the next call's bias row; after the last call the two sums and the two
  re-assemblies). The contents fold through it: a host stretch applies its operations; a call leaves its three
  input arrays as they were and its output array at what the pipeline's write-backs make of it
  (`Dat.arrAt` at the last point), every other buffer untouched.
-/
import proofs.«109952_j48137993453602_1_alg».proof.Proof.Kernel.Region0
import proofs.«109952_j48137993453602_1_alg».proof.Proof.Kernel.Region1
import proofs.«109952_j48137993453602_1_alg».proof.Proof.Kernel.Region2
import proofs.«109952_j48137993453602_1_alg».proof.Proof.Kernel.Region3
import proofs.«109952_j48137993453602_1_alg».proof.Proof.Gen.Kernel.Regions
import Idealize.ShloMosaic.Lib.Pipeline.FrameSuffix
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev Ulaunch : Dev nD → Valuation τ sig (Elt F) := fun c b => m (c, b)

/-- When the first call is entered: the first nine host operations have run. -/
abbrev Uin0 : Dev nD → Valuation τ sig (Elt F) := fun c => StableHlo.after hostOps0 (Ulaunch m c)
abbrev Rin0 : (c : Dev nD) → (b : Ref sig .tc) → Buf (Elt F) ((c : Thread nD τ).loc b) := fun c b => Uin0 m c b
/-- When the first call returns. -/
def Uout0 (c : Dev nD) : Valuation τ sig (Elt F) :=
  Pipeline.withArrays spec0 c (Uin0 m c) fun w => (dat0 (Rin0 m) c).arrAt w cfg0.N

abbrev Uin1 : Dev nD → Valuation τ sig (Elt F) := fun c => StableHlo.after hostOps1 (Uout0 m c)
abbrev Rin1 : (c : Dev nD) → (b : Ref sig .tc) → Buf (Elt F) ((c : Thread nD τ).loc b) := fun c b => Uin1 m c b
def Uout1 (c : Dev nD) : Valuation τ sig (Elt F) :=
  Pipeline.withArrays spec1 c (Uin1 m c) fun w => (dat1 (Rin1 m) c).arrAt w cfg1.N

abbrev Uin2 : Dev nD → Valuation τ sig (Elt F) := fun c => StableHlo.after hostOps2 (Uout1 m c)
abbrev Rin2 : (c : Dev nD) → (b : Ref sig .tc) → Buf (Elt F) ((c : Thread nD τ).loc b) := fun c b => Uin2 m c b
def Uout2 (c : Dev nD) : Valuation τ sig (Elt F) :=
  Pipeline.withArrays spec2 c (Uin2 m c) fun w => (dat2 (Rin2 m) c).arrAt w cfg2.N

abbrev Uin3 : Dev nD → Valuation τ sig (Elt F) := fun c => StableHlo.after hostOps3 (Uout2 m c)
abbrev Rin3 : (c : Dev nD) → (b : Ref sig .tc) → Buf (Elt F) ((c : Thread nD τ).loc b) := fun c b => Uin3 m c b
def Uout3 (c : Dev nD) : Valuation τ sig (Elt F) :=
  Pipeline.withArrays spec3 c (Uin3 m c) fun w => (dat3 (Rin3 m) c).arrAt w cfg3.N

/-- At the return: the last eight host operations have run. -/
abbrev Uend : Dev nD → Valuation τ sig (Elt F) := fun c => StableHlo.after hostOps4 (Uout3 m c)

/-- Every pipeline's proof data, each at its call's entry contents (a literal match on the pipeline, so that the
    launch theorem's configuration at a numeral reduces to the printed one). -/
def pdats : (p : Fin 4) → (c : Dev nD) → Dat τ (Elt F) Unit ℕ (UR sig nD τ) ℕ (Pipeline.pin (pcfgs (F := F)) adm p) c
  | ⟨0, _⟩ => fun c => dat0 (Rin0 m) c
  | ⟨1, _⟩ => fun c => dat1 (Rin1 m) c
  | ⟨2, _⟩ => fun c => dat2 (Rin2 m) c
  | ⟨3, _⟩ => fun c => dat3 (Rin3 m) c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every item: the core's generator register at some state and its debts, none. -/
abbrev Ride (c : Dev nD) : sProp 𝕄 := iprop((∃ r, prngReg c r) ∗ ∃ W, owes (c : Thread nD τ) (0 : CellTallies nD τ sig Unit) W)

/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Ride

end Cert.Kernel.Hand

end
-- ==== Proof.Kernel.Seg0.lean ====
/-
  The first call as a segment of @main: entered with every unscoped buffer at the entry contents, left with the
  call's output array replaced by what the pipeline's write-backs make of it and every other buffer as entered.
  Entry sorts the call's four arrays out of the unscoped buffers; the rest, and the generator register, pass the
  call by. The kernel's invariant starts from the scoped buffers no window stages (its scratch accumulator among
  them) and hands them back at the end. The kernel has no semaphore of its own and owes nothing.
-/
import proofs.«109952_j48137993453602_1_alg».proof.Proof.Kernel.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- After the call each of its arrays holds what the pipeline leaves there, every other buffer what it held. -/
theorem Uout0_arr (c : Dev nD) (w : Fin cfg0.W) :
    Uout0 m c (Proc.devRef .tc (Pipeline.arrRef spec0 w)) = (dat0 (Rin0 m) c).arrAt w cfg0.N := by
  unfold Uout0; exact Pipeline.withArrays_arr spec0 launch0.win.arr_inj c _ _ w
theorem Uout0_of_ne (c : Dev nD) (b : Ref sig .tc) (hb : ∀ w, Pipeline.arrRef spec0 w ≠ b) :
    Uout0 m c (Proc.devRef .tc b) = Uin0 m c (Proc.devRef .tc b) := by
  unfold Uout0; exact Pipeline.withArrays_of_ne spec0 c _ _ b hb

abbrev Rout0 : (c : Dev nD) → (b : Ref sig .tc) → Buf (Elt F) ((c : Thread nD τ).loc b) := fun c b => Uout0 m c b

theorem hF0 (c : Dev nD) (w : Fin cfg0.W) : (dat0 (Rin0 m) c).arrAt w cfg0.N = Rout0 m c (Pipeline.arrRef spec0 w) :=
  (Uout0_arr m c w).symm
theorem hrest0 (c : Dev nD) : ∀ b, b ∉ Finset.univ.image (Pipeline.arrRef spec0) → Rout0 m c b = Rin0 m c b :=
  fun b hb => Uout0_of_ne m c b fun w e => hb (Finset.mem_image.mpr ⟨w, Finset.mem_univ _, e⟩)

/-- The call changes only its output array: an input array ends as the pipeline's account of an input says (as entered),
    and a buffer that is no array of the call is not touched. -/
theorem Uout0_keep (c : Dev nD) (r : Ref sig .tc) (h : r ≠ Pipeline.arrRef spec0 3) : Uout0 m c r = Uin0 m c r := by
  by_cases hw : ∃ w, Pipeline.arrRef spec0 w = r
  · obtain ⟨w, rfl⟩ := hw
    have hin : (cfg0.win w).isOut = false := by
      fin_cases w
      · rfl
      · rfl
      · rfl
      · exact absurd rfl h
    exact (Uout0_arr m c w).trans (((dat0 (Rin0 m) c).arrAt_in w hin _).trans (A_eq0 (Rin0 m) c w))
  · exact Uout0_of_ne m c r fun w e => hw ⟨w, e⟩

-- a library lemma stated over the pinned configuration unifies with the printed one only when unification may unfold
-- plain definitions in a metavariable's type
set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Rin0 m) c).loose
  hwaits := Pipeline.hwaits_of_owed_zero _ _ _ _ L lv 0 fun _ _ => rfl
  pre c := iprop(StableHlo.held (c : Thread nD τ) (Pipeline.ucRefs τ sig) (Uin0 m c) ∗ Ride c)
  post c := iprop(StableHlo.held (c : Thread nD τ) (Pipeline.ucRefs τ sig) (Uout0 m c) ∗ Ride c)
  X c := iprop(emp)
  Y c := iprop(emp)
  Z c := iprop(Pipeline.unscopedRest (Ix := Unit) (Name := ℕ) (U := UR sig nD τ) (Lvl := ℕ) spec0 c (Rin0 m c) ∗ ∃ r, prngReg c r)
  hentry c := by
    rw [Pipeline.ownSems0_none]
    have hsplit := Pipeline.arrays_of_unscopedBufs (p := 0) (pcfgs (F := F)) adm (pdats m) launch0.win launch0.arr_whole c
      ((pdats m 0 c).share_full fun _ => rfl) (Rin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 0 c).Φ 0 = (Pipeline.scopedRest spec0 c : sProp 𝕄) from rfl]
    iintro ⟨-, -, Hr⟩
    iexact Hr
  hout c := by
    rw [Pipeline.ownSems0_none]
    refine (show (pdats m 0 c).Φ (Fin.last _) ⊢ (Pipeline.scopedRest spec0 c : sProp 𝕄) from Phi0_out (Rin0 m) c).trans ?_
    iintro Hr
    isplitr; · iempintro
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Rin0 m c) (Rout0 m c) ((pdats m 0 c).arrAt · cfg0.N) (hF0 m c) (hrest0 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.Kernel.Hand

end
-- ==== Proof.Kernel.Seg1.lean ====
/-
  The second call as a segment of @main: entered with every unscoped buffer at the entry contents, left with the
  call's output array replaced by what the pipeline's write-backs make of it and every other buffer as entered.
  Entry sorts the call's four arrays out of the unscoped buffers; the rest, and the generator register, pass the
  call by. The kernel's invariant starts from the scoped buffers no window stages (its scratch accumulator among
  them) and hands them back at the end. The kernel has no semaphore of its own and owes nothing.
-/
import proofs.«109952_j48137993453602_1_alg».proof.Proof.Kernel.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- After the call each of its arrays holds what the pipeline leaves there, every other buffer what it held. -/
theorem Uout1_arr (c : Dev nD) (w : Fin cfg1.W) :
    Uout1 m c (Proc.devRef .tc (Pipeline.arrRef spec1 w)) = (dat1 (Rin1 m) c).arrAt w cfg1.N := by
  unfold Uout1; exact Pipeline.withArrays_arr spec1 launch1.win.arr_inj c _ _ w
theorem Uout1_of_ne (c : Dev nD) (b : Ref sig .tc) (hb : ∀ w, Pipeline.arrRef spec1 w ≠ b) :
    Uout1 m c (Proc.devRef .tc b) = Uin1 m c (Proc.devRef .tc b) := by
  unfold Uout1; exact Pipeline.withArrays_of_ne spec1 c _ _ b hb

abbrev Rout1 : (c : Dev nD) → (b : Ref sig .tc) → Buf (Elt F) ((c : Thread nD τ).loc b) := fun c b => Uout1 m c b

theorem hF1 (c : Dev nD) (w : Fin cfg1.W) : (dat1 (Rin1 m) c).arrAt w cfg1.N = Rout1 m c (Pipeline.arrRef spec1 w) :=
  (Uout1_arr m c w).symm
theorem hrest1 (c : Dev nD) : ∀ b, b ∉ Finset.univ.image (Pipeline.arrRef spec1) → Rout1 m c b = Rin1 m c b :=
  fun b hb => Uout1_of_ne m c b fun w e => hb (Finset.mem_image.mpr ⟨w, Finset.mem_univ _, e⟩)

/-- The call changes only its output array: an input array ends as the pipeline's account of an input says (as entered),
    and a buffer that is no array of the call is not touched. -/
theorem Uout1_keep (c : Dev nD) (r : Ref sig .tc) (h : r ≠ Pipeline.arrRef spec1 3) : Uout1 m c r = Uin1 m c r := by
  by_cases hw : ∃ w, Pipeline.arrRef spec1 w = r
  · obtain ⟨w, rfl⟩ := hw
    have hin : (cfg1.win w).isOut = false := by
      fin_cases w
      · rfl
      · rfl
      · rfl
      · exact absurd rfl h
    exact (Uout1_arr m c w).trans (((dat1 (Rin1 m) c).arrAt_in w hin _).trans (A_eq1 (Rin1 m) c w))
  · exact Uout1_of_ne m c r fun w e => hw ⟨w, e⟩

-- a library lemma stated over the pinned configuration unifies with the printed one only when unification may unfold
-- plain definitions in a metavariable's type
set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Rin1 m) c).loose
  hwaits := Pipeline.hwaits_of_owed_zero _ _ _ _ L lv 1 fun _ _ => rfl
  pre c := iprop(StableHlo.held (c : Thread nD τ) (Pipeline.ucRefs τ sig) (Uin1 m c) ∗ Ride c)
  post c := iprop(StableHlo.held (c : Thread nD τ) (Pipeline.ucRefs τ sig) (Uout1 m c) ∗ Ride c)
  X c := iprop(emp)
  Y c := iprop(emp)
  Z c := iprop(Pipeline.unscopedRest (Ix := Unit) (Name := ℕ) (U := UR sig nD τ) (Lvl := ℕ) spec1 c (Rin1 m c) ∗ ∃ r, prngReg c r)
  hentry c := by
    rw [Pipeline.ownSems0_none]
    have hsplit := Pipeline.arrays_of_unscopedBufs (p := 1) (pcfgs (F := F)) adm (pdats m) launch1.win launch1.arr_whole c
      ((pdats m 1 c).share_full fun _ => rfl) (Rin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 1 c).Φ 0 = (Pipeline.scopedRest spec1 c : sProp 𝕄) from rfl]
    iintro ⟨-, -, Hr⟩
    iexact Hr
  hout c := by
    rw [Pipeline.ownSems0_none]
    refine (show (pdats m 1 c).Φ (Fin.last _) ⊢ (Pipeline.scopedRest spec1 c : sProp 𝕄) from Phi1_out (Rin1 m) c).trans ?_
    iintro Hr
    isplitr; · iempintro
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Rin1 m c) (Rout1 m c) ((pdats m 1 c).arrAt · cfg1.N) (hF1 m c) (hrest1 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.Kernel.Hand

end
-- ==== Proof.Kernel.Seg2.lean ====
/-
  The third call as a segment of @main: entered with every unscoped buffer at the entry contents, left with the
  call's output array replaced by what the pipeline's write-backs make of it and every other buffer as entered.
  Entry sorts the call's four arrays out of the unscoped buffers; the rest, and the generator register, pass the
  call by. The kernel's invariant starts from the scoped buffers no window stages (its scratch accumulator among
  them) and hands them back at the end. The kernel has no semaphore of its own and owes nothing.
-/
import proofs.«109952_j48137993453602_1_alg».proof.Proof.Kernel.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- After the call each of its arrays holds what the pipeline leaves there, every other buffer what it held. -/
theorem Uout2_arr (c : Dev nD) (w : Fin cfg2.W) :
    Uout2 m c (Proc.devRef .tc (Pipeline.arrRef spec2 w)) = (dat2 (Rin2 m) c).arrAt w cfg2.N := by
  unfold Uout2; exact Pipeline.withArrays_arr spec2 launch2.win.arr_inj c _ _ w
theorem Uout2_of_ne (c : Dev nD) (b : Ref sig .tc) (hb : ∀ w, Pipeline.arrRef spec2 w ≠ b) :
    Uout2 m c (Proc.devRef .tc b) = Uin2 m c (Proc.devRef .tc b) := by
  unfold Uout2; exact Pipeline.withArrays_of_ne spec2 c _ _ b hb

abbrev Rout2 : (c : Dev nD) → (b : Ref sig .tc) → Buf (Elt F) ((c : Thread nD τ).loc b) := fun c b => Uout2 m c b

theorem hF2 (c : Dev nD) (w : Fin cfg2.W) : (dat2 (Rin2 m) c).arrAt w cfg2.N = Rout2 m c (Pipeline.arrRef spec2 w) :=
  (Uout2_arr m c w).symm
theorem hrest2 (c : Dev nD) : ∀ b, b ∉ Finset.univ.image (Pipeline.arrRef spec2) → Rout2 m c b = Rin2 m c b :=
  fun b hb => Uout2_of_ne m c b fun w e => hb (Finset.mem_image.mpr ⟨w, Finset.mem_univ _, e⟩)

/-- The call changes only its output array: an input array ends as the pipeline's account of an input says (as entered),
    and a buffer that is no array of the call is not touched. -/
theorem Uout2_keep (c : Dev nD) (r : Ref sig .tc) (h : r ≠ Pipeline.arrRef spec2 3) : Uout2 m c r = Uin2 m c r := by
  by_cases hw : ∃ w, Pipeline.arrRef spec2 w = r
  · obtain ⟨w, rfl⟩ := hw
    have hin : (cfg2.win w).isOut = false := by
      fin_cases w
      · rfl
      · rfl
      · rfl
      · exact absurd rfl h
    exact (Uout2_arr m c w).trans (((dat2 (Rin2 m) c).arrAt_in w hin _).trans (A_eq2 (Rin2 m) c w))
  · exact Uout2_of_ne m c r fun w e => hw ⟨w, e⟩

-- a library lemma stated over the pinned configuration unifies with the printed one only when unification may unfold
-- plain definitions in a metavariable's type
set_option backward.isDefEq.respectTransparency.types false in
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Rin2 m) c).loose
  hwaits := Pipeline.hwaits_of_owed_zero _ _ _ _ L lv 2 fun _ _ => rfl
  pre c := iprop(StableHlo.held (c : Thread nD τ) (Pipeline.ucRefs τ sig) (Uin2 m c) ∗ Ride c)
  post c := iprop(StableHlo.held (c : Thread nD τ) (Pipeline.ucRefs τ sig) (Uout2 m c) ∗ Ride c)
  X c := iprop(emp)
  Y c := iprop(emp)
  Z c := iprop(Pipeline.unscopedRest (Ix := Unit) (Name := ℕ) (U := UR sig nD τ) (Lvl := ℕ) spec2 c (Rin2 m c) ∗ ∃ r, prngReg c r)
  hentry c := by
    rw [Pipeline.ownSems0_none]
    have hsplit := Pipeline.arrays_of_unscopedBufs (p := 2) (pcfgs (F := F)) adm (pdats m) launch2.win launch2.arr_whole c
      ((pdats m 2 c).share_full fun _ => rfl) (Rin2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 2 c).Φ 0 = (Pipeline.scopedRest spec2 c : sProp 𝕄) from rfl]
    iintro ⟨-, -, Hr⟩
    iexact Hr
  hout c := by
    rw [Pipeline.ownSems0_none]
    refine (show (pdats m 2 c).Φ (Fin.last _) ⊢ (Pipeline.scopedRest spec2 c : sProp 𝕄) from Phi2_out (Rin2 m) c).trans ?_
    iintro Hr
    isplitr; · iempintro
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Rin2 m c) (Rout2 m c) ((pdats m 2 c).arrAt · cfg2.N) (hF2 m c) (hrest2 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.Kernel.Hand

end
-- ==== Proof.Kernel.Seg3.lean ====
/-
  The fourth call as a segment of @main: entered with every unscoped buffer at the entry contents, left with the
  call's output array replaced by what the pipeline's write-backs make of it and every other buffer as entered.
  Entry sorts the call's four arrays out of the unscoped buffers; the rest, and the generator register, pass the
  call by. The kernel's invariant starts from the scoped buffers no window stages (its scratch accumulator among
  them) and hands them back at the end. The kernel has no semaphore of its own and owes nothing.
-/
import proofs.«109952_j48137993453602_1_alg».proof.Proof.Kernel.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- After the call each of its arrays holds what the pipeline leaves there, every other buffer what it held. -/
theorem Uout3_arr (c : Dev nD) (w : Fin cfg3.W) :
    Uout3 m c (Proc.devRef .tc (Pipeline.arrRef spec3 w)) = (dat3 (Rin3 m) c).arrAt w cfg3.N := by
  unfold Uout3; exact Pipeline.withArrays_arr spec3 launch3.win.arr_inj c _ _ w
theorem Uout3_of_ne (c : Dev nD) (b : Ref sig .tc) (hb : ∀ w, Pipeline.arrRef spec3 w ≠ b) :
    Uout3 m c (Proc.devRef .tc b) = Uin3 m c (Proc.devRef .tc b) := by
  unfold Uout3; exact Pipeline.withArrays_of_ne spec3 c _ _ b hb

abbrev Rout3 : (c : Dev nD) → (b : Ref sig .tc) → Buf (Elt F) ((c : Thread nD τ).loc b) := fun c b => Uout3 m c b

theorem hF3 (c : Dev nD) (w : Fin cfg3.W) : (dat3 (Rin3 m) c).arrAt w cfg3.N = Rout3 m c (Pipeline.arrRef spec3 w) :=
  (Uout3_arr m c w).symm
theorem hrest3 (c : Dev nD) : ∀ b, b ∉ Finset.univ.image (Pipeline.arrRef spec3) → Rout3 m c b = Rin3 m c b :=
  fun b hb => Uout3_of_ne m c b fun w e => hb (Finset.mem_image.mpr ⟨w, Finset.mem_univ _, e⟩)

/-- The call changes only its output array: an input array ends as the pipeline's account of an input says (as entered),
    and a buffer that is no array of the call is not touched. -/
theorem Uout3_keep (c : Dev nD) (r : Ref sig .tc) (h : r ≠ Pipeline.arrRef spec3 3) : Uout3 m c r = Uin3 m c r := by
  by_cases hw : ∃ w, Pipeline.arrRef spec3 w = r
  · obtain ⟨w, rfl⟩ := hw
    have hin : (cfg3.win w).isOut = false := by
      fin_cases w
      · rfl
      · rfl
      · rfl
      · exact absurd rfl h
    exact (Uout3_arr m c w).trans (((dat3 (Rin3 m) c).arrAt_in w hin _).trans (A_eq3 (Rin3 m) c w))
  · exact Uout3_of_ne m c r fun w e => hw ⟨w, e⟩

-- a library lemma stated over the pinned configuration unifies with the printed one only when unification may unfold
-- plain definitions in a metavariable's type
set_option backward.isDefEq.respectTransparency.types false in
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Rin3 m) c).loose
  hwaits := Pipeline.hwaits_of_owed_zero _ _ _ _ L lv 3 fun _ _ => rfl
  pre c := iprop(StableHlo.held (c : Thread nD τ) (Pipeline.ucRefs τ sig) (Uin3 m c) ∗ Ride c)
  post c := iprop(StableHlo.held (c : Thread nD τ) (Pipeline.ucRefs τ sig) (Uout3 m c) ∗ Ride c)
  X c := iprop(emp)
  Y c := iprop(emp)
  Z c := iprop(Pipeline.unscopedRest (Ix := Unit) (Name := ℕ) (U := UR sig nD τ) (Lvl := ℕ) spec3 c (Rin3 m c) ∗ ∃ r, prngReg c r)
  hentry c := by
    rw [Pipeline.ownSems0_none]
    have hsplit := Pipeline.arrays_of_unscopedBufs (p := 3) (pcfgs (F := F)) adm (pdats m) launch3.win launch3.arr_whole c
      ((pdats m 3 c).share_full fun _ => rfl) (Rin3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 3 c).Φ 0 = (Pipeline.scopedRest spec3 c : sProp 𝕄) from rfl]
    iintro ⟨-, -, Hr⟩
    iexact Hr
  hout c := by
    rw [Pipeline.ownSems0_none]
    refine (show (pdats m 3 c).Φ (Fin.last _) ⊢ (Pipeline.scopedRest spec3 c : sProp 𝕄) from Phi3_out (Rin3 m) c).trans ?_
    iintro Hr
    isplitr; · iempintro
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (Rin3 m c) (Rout3 m c) ((pdats m 3 c).arrAt · cfg3.N) (hF3 m c) (hrest3 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.Kernel.Hand

end
-- ==== Proof.Kernel.Run.lean ====
/-
  The run of @main: the four matmul calls and the host operations around them as the launch theorem's list of
  segments, from the launch to the return. Its conclusion reads EVERY unscoped buffer at the end against the fold
  of the contents through @main (`Uend`); the frame claim (each argument ends as launched) follows because no host
  operation writes an argument and a call changes only its own output array.
-/
import proofs.«109952_j48137993453602_1_alg».proof.Proof.Kernel.Seg0
import proofs.«109952_j48137993453602_1_alg».proof.Proof.Kernel.Seg1
import proofs.«109952_j48137993453602_1_alg».proof.Proof.Kernel.Seg2
import proofs.«109952_j48137993453602_1_alg».proof.Proof.Kernel.Seg3

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's nine items in order. -/
abbrev segs : List (Pipeline.Seg (pcfgs (F := F)) adm (pdats m) () defs₀ 𝒱₀ L lv) :=
  [ .host (hseg hostOps0 hostOps0_sub hostOps0_fresh (Ulaunch m)),
    .region (reg0 m),
    .host (hseg hostOps1 hostOps1_sub hostOps1_fresh (Uout0 m)),
    .region (reg1 m),
    .host (hseg hostOps2 hostOps2_sub hostOps2_fresh (Uout1 m)),
    .region (reg2 m),
    .host (hseg hostOps3 hostOps3_sub hostOps3_fresh (Uout2 m)),
    .region (reg3 m),
    .host (hseg hostOps4 hostOps4_sub hostOps4_fresh (Uout3 m)) ]

/-- @main IS the run of those segments. -/
theorem main_run (c : Dev nD) : main (F := F) c = Pipeline.Seg.run (segs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state, without the debts: every unscoped buffer at the final contents, the generator register. -/
abbrev Tend (c : Dev nD) : sProp 𝕄 := iprop(StableHlo.held (c : Thread nD τ) (Pipeline.ucRefs τ sig) (Uend m c) ∗ ∃ r, prngReg c r)

-- the launch theorem's implicit arguments are found by unifying its conclusion with this one, which takes unfolding
-- plain definitions in a metavariable's type
set_option backward.isDefEq.respectTransparency.types false in
/-- From any memory with zero counters every weakly fair execution of @main terminates, nothing faulting, and every
    unscoped buffer ends at the fold of the contents through @main. -/
theorem run_all : θ_run defs (onTc (τ := τ) (main (F := F))) ⟨m, fun _ => 0, ρ⟩
    (fun r => ∀ c : Dev nD, ∀ b ∈ Pipeline.ucRefs τ sig, r.2.mem (((c : Thread nD τ)).1, b) = Uend m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Ulaunch m c) ∗ Ride c)) (Tₙ := Tend m)
    (hch := ⟨fun _ => .rfl, fun _ => .rfl, fun _ => .rfl, fun _ => .rfl, fun _ => .rfl, fun _ => .rfl, fun _ => .rfl,
      fun _ => .rfl, fun _ => .rfl, fun c => by
        show iprop(StableHlo.held (c : Thread nD τ) (Pipeline.ucRefs τ sig) (Uend m c) ∗ Ride c)
          ⊢ iprop(Tend m c ∗ ∃ W, owes (c : Thread nD τ) (0 : CellTallies nD τ sig Unit) W)
        iintro ⟨Hh, Hp, HO⟩
        isplitr [HO]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (Ulaunch m c)
        from Pipeline.unscopedBufs_held c (Ulaunch m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Uend m c b)
    (hfin := fun c s' => by
      iintro ⟨⟨Hh, -⟩, HSI⟩
      unfold StableHlo.held
      imodintro
      iapply (pointsTo_read_all (Pipeline.ucRefs τ sig) (fun b => (((c : Thread nD τ)).1, b)) (Uend m c) s')
      isplitl [Hh] <;> iassumption)
    (hQ := fun s h => h)

/-- A buffer that no host operation writes and that is no call's output array ends as launched. -/
theorem Uend_keep (c : Dev nD) (r : Ref sig .tc)
    (h0 : r ∉ hostOps0_W) (h1 : r ∉ hostOps1_W) (h2 : r ∉ hostOps2_W) (h3 : r ∉ hostOps3_W) (h4 : r ∉ hostOps4_W)
    (k0 : r ≠ Pipeline.arrRef spec0 3) (k1 : r ≠ Pipeline.arrRef spec1 3) (k2 : r ≠ Pipeline.arrRef spec2 3) (k3 : r ≠ Pipeline.arrRef spec3 3) :
    Uend m c r = m ((c : Thread nD τ).loc r) :=
  (StableHlo.after_of_writes_sub hostOps4 _ hostOps4_writes h4).trans <| (Uout3_keep m c r k3).trans <|
  (StableHlo.after_of_writes_sub hostOps3 _ hostOps3_writes h3).trans <| (Uout2_keep m c r k2).trans <|
  (StableHlo.after_of_writes_sub hostOps2 _ hostOps2_writes h2).trans <| (Uout1_keep m c r k1).trans <|
  (StableHlo.after_of_writes_sub hostOps1 _ hostOps1_writes h1).trans <| (Uout0_keep m c r k0).trans <|
  (StableHlo.after_of_writes_sub hostOps0 _ hostOps0_writes h0).trans rfl

/-- A final memory that holds every unscoped buffer at the fold of the contents holds each argument as launched. -/
theorem args_of_all (r : MemSt nD τ sig (Elt F))
    (h : ∀ c : Dev nD, ∀ b ∈ Pipeline.ucRefs τ sig, r.mem (((c : Thread nD τ)).1, b) = Uend m c b) (c : Dev nD) :
      r.mem ((c.tc : Thread nD τ).loc main_arg0) = m ((c.tc : Thread nD τ).loc main_arg0)
      ∧ r.mem ((c.tc : Thread nD τ).loc main_arg1) = m ((c.tc : Thread nD τ).loc main_arg1)
      ∧ r.mem ((c.tc : Thread nD τ).loc main_arg2) = m ((c.tc : Thread nD τ).loc main_arg2)
      ∧ r.mem ((c.tc : Thread nD τ).loc main_arg3) = m ((c.tc : Thread nD τ).loc main_arg3)
      ∧ r.mem ((c.tc : Thread nD τ).loc main_arg4) = m ((c.tc : Thread nD τ).loc main_arg4)
      ∧ r.mem ((c.tc : Thread nD τ).loc main_arg5) = m ((c.tc : Thread nD τ).loc main_arg5)
      ∧ r.mem ((c.tc : Thread nD τ).loc main_arg6) = m ((c.tc : Thread nD τ).loc main_arg6)
      ∧ r.mem ((c.tc : Thread nD τ).loc main_arg7) = m ((c.tc : Thread nD τ).loc main_arg7)
      ∧ r.mem ((c.tc : Thread nD τ).loc main_arg8) = m ((c.tc : Thread nD τ).loc main_arg8)
      ∧ r.mem ((c.tc : Thread nD τ).loc main_arg9) = m ((c.tc : Thread nD τ).loc main_arg9) :=
  ⟨(h c _ (mem_uc main_arg0 (by decide))).trans (Uend_keep m c main_arg0 (by decide) (by decide) (by decide) (by decide) (by decide) (by decide) (by decide) (by decide) (by decide)),
   (h c _ (mem_uc main_arg1 (by decide))).trans (Uend_keep m c main_arg1 (by decide) (by decide) (by decide) (by decide) (by decide) (by decide) (by decide) (by decide) (by decide)),
   (h c _ (mem_uc main_arg2 (by decide))).trans (Uend_keep m c main_arg2 (by decide) (by decide) (by decide) (by decide) (by decide) (by decide) (by decide) (by decide) (by decide)),
   (h c _ (mem_uc main_arg3 (by decide))).trans (Uend_keep m c main_arg3 (by decide) (by decide) (by decide) (by decide) (by decide) (by decide) (by decide) (by decide) (by decide)),
   (h c _ (mem_uc main_arg4 (by decide))).trans (Uend_keep m c main_arg4 (by decide) (by decide) (by decide) (by decide) (by decide) (by decide) (by decide) (by decide) (by decide)),
   (h c _ (mem_uc main_arg5 (by decide))).trans (Uend_keep m c main_arg5 (by decide) (by decide) (by decide) (by decide) (by decide) (by decide) (by decide) (by decide) (by decide)),
   (h c _ (mem_uc main_arg6 (by decide))).trans (Uend_keep m c main_arg6 (by decide) (by decide) (by decide) (by decide) (by decide) (by decide) (by decide) (by decide) (by decide)),
   (h c _ (mem_uc main_arg7 (by decide))).trans (Uend_keep m c main_arg7 (by decide) (by decide) (by decide) (by decide) (by decide) (by decide) (by decide) (by decide) (by decide)),
   (h c _ (mem_uc main_arg8 (by decide))).trans (Uend_keep m c main_arg8 (by decide) (by decide) (by decide) (by decide) (by decide) (by decide) (by decide) (by decide) (by decide)),
   (h c _ (mem_uc main_arg9 (by decide))).trans (Uend_keep m c main_arg9 (by decide) (by decide) (by decide) (by decide) (by decide) (by decide) (by decide) (by decide) (by decide))⟩

/-- THE FRAME: every weakly fair execution of @main terminates, nothing faulting, and every argument array ends as launched. -/
theorem frame_run : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => args_of_all m r.2 h c) (run_all m ρ)

end Cert.Kernel.Hand

end
-- ==== Proof.KernelIdeal.Body0.lean ====
/-
  The matmul kernel's body at one grid point of the first call, in its three control cases.

  The body keeps a running block product in a scratch accumulator. At a point where the reduction coordinate
  `k` is 0 it first zeroes the accumulator; at every point it adds the product of the current activation block
  and weight block to it; at the point where `k` is the last (3) it also stores accumulator + bias row into the
  output block. So with `x`, `w`, `b` the three input blocks and `a` what the accumulator held:
    first  point (k = 0):       accumulator ends at  step x w zero;                 output block untouched
    middle point (0 < k < 3):   accumulator ends at  step x w a;                    output block untouched
    last   point (k = 3):       accumulator ends at  step x w a, and the output block at  (step x w a) + b
  where `step` is the printed payload `k0_pay2`, `zero` is `k0_pay1`, and the biased sum is `k0_pay3`.
  Each case is one run of the symbolic executor over the printed body; what the run leaves in a buffer is a
  list of whole-buffer stores, read back by the lemmas on whole-buffer rectangles.
-/
import proofs.«109952_j48137993453602_1_alg».proof.Proof.Gen.KernelIdeal.Launch
import proofs.«109952_j48137993453602_1_alg».proof.Proof.Gen.KernelIdeal.Skeleton
import proofs.«109952_j48137993453602_1_alg».proof.Proof.Gen.KernelIdeal.Points
import proofs.«109952_j48137993453602_1_alg».proof.Proof.LibWholeBuffer
import Idealize.ShloMosaic.Lib.Pipeline.FrameBody
import Idealize.ShloMosaic.Lib.Tactic

set_option maxRecDepth 16384

noncomputable section

namespace Cert.KernelIdeal.Hand

open Cert.KernelIdeal Cert.KernelIdeal.Gen Cert.LibWholeBuffer
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The reduction coordinate is 0: the accumulator is zeroed at this point (the body's first conditional). -/
abbrev condFirst0 (i : grid0.Coords) : Prop := (Scalar.cmpi .ne (Scalar.extui (Scalar.cmpi .eq (BitVec.ofNat 32 (i 2).val) 0#32)) 0#32) = 1#1
/-- The reduction coordinate is the last: the output block is stored at this point (the body's second conditional). -/
abbrev condLast0 (i : grid0.Coords) : Prop := k0_cond2 i = 1#1

/-- A middle point: the accumulator goes from `xs` to `step x0 w0 xs`; every other buffer is handed back as found. -/
theorem bodyMid0 (c : Dev nD) (i : grid0.Coords)
    (arg3 : Memref sig .tc .vmem S512x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S512x1024 .f32) (harg6 : arg6.IsWhole)
    (arg7 : Memref sig .tc .vmem S512x1024 .f32) (harg7 : arg7.IsWhole)
    (hc0 : ¬condFirst0 i) (hc1 : ¬condLast0 i)
    (x0 : Vec F S512x1024 .f32) (w0 : Vec F S1024x1024 .f32) (b0 : Vec F S1x1024 .f32) (xi : Vec F S512x1024 .f32) (xs : Vec F S512x1024 .f32)
    (E : Set ℕ) (K : PUnit → sProp 𝕄) :
    iprop(owns (c : Thread nD τ) arg3 fullShare x0 ∗ owns (c : Thread nD τ) arg4 fullShare w0 ∗ owns (c : Thread nD τ) arg5 fullShare b0
        ∗ owns (c : Thread nD τ) arg6 fullShare xi ∗ owns (c : Thread nD τ) arg7 fullShare xs
        ∗ (iprop(owns (c : Thread nD τ) arg3 fullShare x0 ∗ owns (c : Thread nD τ) arg4 fullShare w0 ∗ owns (c : Thread nD τ) arg5 fullShare b0
            ∗ owns (c : Thread nD τ) arg6 fullShare xi ∗ owns (c : Thread nD τ) arg7 fullShare (k0_pay2 x0 w0 xs)) -∗ K ⟨⟩))
      ⊢ wp frame (wpE (defs₀ (F := F)) Variants.none c none) E (cc0__patch_matmul_kernel i arg3 harg3 arg4 harg4 arg5 harg5 arg6 harg6 arg7 harg7) K := by
  simp only [cc0__patch_matmul_kernel_eq_skeleton]; unfold cc0__patch_matmul_kernel_skel
  unfold owns
  iintro ⟨⟨%f3, %hf3, H3⟩, ⟨%f4, %hf4, H4⟩, ⟨%f5, %hf5, H5⟩, ⟨%f6, %hf6, H6⟩, ⟨%f7, %hf7, H7⟩, Hk⟩
  obtain rfl := harg3.eq_unread hf3; obtain rfl := harg4.eq_unread hf4; obtain rfl := harg5.eq_unread hf5
  obtain rfl := harg6.eq_unread hf6; obtain rfl := harg7.eq_unread hf7
  sl_exec (disch := first | exact hc0 | exact hc1)
  sl_step
  iapply Hk
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  iexists _; isplitr; swap; · iexact H7
  ipureintro
  refine (read_after_whole_store (S := S512x1024) _ _ zeros2 _ _ _).trans ?_
  exact congr (congr (congrArg k0_pay2 (load_whole harg3 zeros2 _ x0)) (load_whole harg4 zeros2 _ w0)) (load_whole harg7 zeros2 _ xs)

/-- A first point: whatever the accumulator held, it ends at `step x0 w0 zero`; every other buffer is handed back as found. -/
theorem bodyFirst0 (c : Dev nD) (i : grid0.Coords)
    (arg3 : Memref sig .tc .vmem S512x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S512x1024 .f32) (harg6 : arg6.IsWhole)
    (arg7 : Memref sig .tc .vmem S512x1024 .f32) (harg7 : arg7.IsWhole)
    (hc0 : condFirst0 i) (hc1 : ¬condLast0 i)
    (x0 : Vec F S512x1024 .f32) (w0 : Vec F S1024x1024 .f32) (b0 : Vec F S1x1024 .f32) (xi : Vec F S512x1024 .f32)
    (E : Set ℕ) (K : PUnit → sProp 𝕄) :
    iprop(owns (c : Thread nD τ) arg3 fullShare x0 ∗ owns (c : Thread nD τ) arg4 fullShare w0 ∗ owns (c : Thread nD τ) arg5 fullShare b0
        ∗ owns (c : Thread nD τ) arg6 fullShare xi ∗ (∃ d, owns (c : Thread nD τ) arg7 fullShare d)
        ∗ (iprop(owns (c : Thread nD τ) arg3 fullShare x0 ∗ owns (c : Thread nD τ) arg4 fullShare w0 ∗ owns (c : Thread nD τ) arg5 fullShare b0
            ∗ owns (c : Thread nD τ) arg6 fullShare xi ∗ owns (c : Thread nD τ) arg7 fullShare (k0_pay2 x0 w0 (k0_pay1 (F := F)))) -∗ K ⟨⟩))
      ⊢ wp frame (wpE (defs₀ (F := F)) Variants.none c none) E (cc0__patch_matmul_kernel i arg3 harg3 arg4 harg4 arg5 harg5 arg6 harg6 arg7 harg7) K := by
  simp only [cc0__patch_matmul_kernel_eq_skeleton]; unfold cc0__patch_matmul_kernel_skel
  unfold owns
  iintro ⟨⟨%f3, %hf3, H3⟩, ⟨%f4, %hf4, H4⟩, ⟨%f5, %hf5, H5⟩, ⟨%f6, %hf6, H6⟩, ⟨%d7, %f7, %hf7, H7⟩, Hk⟩
  obtain rfl := harg3.eq_unread hf3; obtain rfl := harg4.eq_unread hf4; obtain rfl := harg5.eq_unread hf5
  obtain rfl := harg6.eq_unread hf6
  sl_exec (disch := first | exact hc0 | exact hc1)
  sl_step
  iapply Hk
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  iexists _; isplitr; swap; · iexact H7
  ipureintro
  sl_unfold_run_names
  refine (read_after_whole_store (S := S512x1024) _ _ zeros2 _ _ _).trans ?_
  exact congr (congr (congrArg k0_pay2 (load_whole harg3 zeros2 _ x0)) (load_whole harg4 zeros2 _ w0)) (load_after_whole_store (S := S512x1024) _ zeros2 _ _)

/-- A last point: the accumulator goes from `xs` to `step x0 w0 xs`, and the output block, whatever it held, ends at that plus the bias row. -/
theorem bodyLast0 (c : Dev nD) (i : grid0.Coords)
    (arg3 : Memref sig .tc .vmem S512x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S512x1024 .f32) (harg6 : arg6.IsWhole)
    (arg7 : Memref sig .tc .vmem S512x1024 .f32) (harg7 : arg7.IsWhole)
    (hc0 : ¬condFirst0 i) (hc1 : condLast0 i)
    (x0 : Vec F S512x1024 .f32) (w0 : Vec F S1024x1024 .f32) (b0 : Vec F S1x1024 .f32) (xs : Vec F S512x1024 .f32)
    (E : Set ℕ) (K : PUnit → sProp 𝕄) :
    iprop(owns (c : Thread nD τ) arg3 fullShare x0 ∗ owns (c : Thread nD τ) arg4 fullShare w0 ∗ owns (c : Thread nD τ) arg5 fullShare b0
        ∗ (∃ d, owns (c : Thread nD τ) arg6 fullShare d) ∗ owns (c : Thread nD τ) arg7 fullShare xs
        ∗ (iprop(owns (c : Thread nD τ) arg3 fullShare x0 ∗ owns (c : Thread nD τ) arg4 fullShare w0 ∗ owns (c : Thread nD τ) arg5 fullShare b0
            ∗ owns (c : Thread nD τ) arg6 fullShare (k0_pay3 (k0_pay2 x0 w0 xs) b0) ∗ owns (c : Thread nD τ) arg7 fullShare (k0_pay2 x0 w0 xs)) -∗ K ⟨⟩))
      ⊢ wp frame (wpE (defs₀ (F := F)) Variants.none c none) E (cc0__patch_matmul_kernel i arg3 harg3 arg4 harg4 arg5 harg5 arg6 harg6 arg7 harg7) K := by
  simp only [cc0__patch_matmul_kernel_eq_skeleton]; unfold cc0__patch_matmul_kernel_skel
  unfold owns
  iintro ⟨⟨%f3, %hf3, H3⟩, ⟨%f4, %hf4, H4⟩, ⟨%f5, %hf5, H5⟩, ⟨%d6, %f6, %hf6, H6⟩, ⟨%f7, %hf7, H7⟩, Hk⟩
  obtain rfl := harg3.eq_unread hf3; obtain rfl := harg4.eq_unread hf4; obtain rfl := harg5.eq_unread hf5
  obtain rfl := harg7.eq_unread hf7
  sl_exec (disch := first | exact hc0 | exact hc1)
  sl_step
  iapply Hk
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  have hacc : k0_pay2 (View.readAt (Elt F) arg3.view (Rect.unit ![0, 0] S512x1024.size inb_S512x1024_S512x1024_0_0).toLoadRect (harg3.unread x0))
      (View.readAt (Elt F) arg4.view (Rect.unit ![0, 0] S1024x1024.size inb_S1024x1024_S1024x1024_0_0).toLoadRect (harg4.unread w0))
      (View.readAt (Elt F) arg7.view (Rect.unit ![0, 0] S512x1024.size inb_S512x1024_S512x1024_0_0).toLoadRect (harg7.unread xs))
      = k0_pay2 x0 w0 xs :=
    congr (congr (congrArg k0_pay2 (load_whole harg3 zeros2 _ x0)) (load_whole harg4 zeros2 _ w0)) (load_whole harg7 zeros2 _ xs)
  isplitl [H6]
  · iexists _; isplitr; swap; · iexact H6
    ipureintro
    sl_unfold_run_names
    refine (read_after_whole_store (S := S512x1024) _ _ zeros2 _ _ _).trans ?_
    exact congr (congrArg k0_pay3 ((load_after_whole_store (S := S512x1024) _ zeros2 _ _).trans hacc)) (load_whole harg5 zeros2 _ b0)
  iexists _; isplitr; swap; · iexact H7
  ipureintro
  sl_unfold_run_names
  exact (read_after_whole_store (S := S512x1024) _ _ zeros2 _ _ _).trans hacc

end Cert.KernelIdeal.Hand

end
-- ==== Proof.KernelIdeal.Region0.lean ====
/-
  The first call's pipeline: what the scratch accumulator and the output block hold point by point, the proof
  data, and the body obligation.

  The grid is 2 x 4 x 4 (row block i, column block j, reduction block k, k fastest): position n has k = n mod 4.
  The accumulator after position n is the sum of the block products of the reduction blocks 0..k of its (i, j);
  the output block is stored, as accumulator + bias row, at the positions with k = 3 and is idle elsewhere (the
  pipeline neither writes it back nor refetches it there). The body obligation at a point is the matching case
  of the body's three runs, the invariant handing the accumulator over at what the point before left.
-/
import proofs.«109952_j48137993453602_1_alg».proof.Proof.KernelIdeal.Body0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## When the two conditions hold, decided over the grid; where the windows are idle -/

theorem hcondFirst0 : ∀ t : Fin cfg0.N, condFirst0 (grid0.coords t) ↔ t.val % 4 = 0 :=
  (by decide +kernel : ∀ t : Fin grid0.N, condFirst0 (grid0.coords t) ↔ t.val % 4 = 0)
theorem hcondLast0 : ∀ t : Fin cfg0.N, condLast0 (grid0.coords t) ↔ t.val % 4 = 3 :=
  (by decide +kernel : ∀ t : Fin grid0.N, condLast0 (grid0.coords t) ↔ t.val % 4 = 3)

/-- The three input windows are never idle. -/
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
/-- Away from a last point the output window is idle and is not written back; at a last point it is live. -/
theorem idle0_3 : ∀ t : Fin cfg0.N, ¬condLast0 (grid0.coords t) → cfg0.idle 3 (grid0.coords t) = true := by decide +kernel
theorem noFlush0_3 : ∀ t : Fin cfg0.N, ¬condLast0 (grid0.coords t) → (cfg0.win 3).flush t = false := by decide +kernel
theorem live0_3 : ∀ t : Fin cfg0.N, condLast0 (grid0.coords t) → cfg0.idle 3 (grid0.coords t) = false := by decide +kernel

section Region

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activation block, the weight block and the bias row at point `t`, at their literal shapes. -/
abbrev xblk0 (c : Dev nD) (t : Fin cfg0.N) : Vec F S512x1024 .f32 := iblk0 V c 0 t
abbrev wblk0 (c : Dev nD) (t : Fin cfg0.N) : Vec F S1024x1024 .f32 := iblk0 V c 1 t
abbrev bblk0 (c : Dev nD) (t : Fin cfg0.N) : Vec F S1x1024 .f32 := iblk0 V c 2 t

/-! ## The running block product -/

/-- What the scratch accumulator holds after the body at position `n`: one more block product added to what
    the position before left, restarting from zero wherever the reduction coordinate is 0 (every fourth position). -/
def accAt0 (c : Dev nD) : (n : ℕ) → n < cfg0.N → Vec F S512x1024 .f32
  | 0, hn => k0_pay2 (xblk0 V c ⟨0, hn⟩) (wblk0 V c ⟨0, hn⟩) (k0_pay1 (F := F))
  | n + 1, hn => k0_pay2 (xblk0 V c ⟨n + 1, hn⟩) (wblk0 V c ⟨n + 1, hn⟩)
      (if (n + 1) % 4 = 0 then k0_pay1 (F := F) else accAt0 c n (Nat.lt_of_succ_lt hn))

theorem accAt0_first (c : Dev nD) (t : Fin cfg0.N) (h0 : t.val % 4 = 0) :
    accAt0 V c t.val t.isLt = k0_pay2 (xblk0 V c t) (wblk0 V c t) (k0_pay1 (F := F)) := by
  obtain ⟨n, hn⟩ := t
  cases n with
  | zero => rfl
  | succ n => exact congrArg (k0_pay2 (xblk0 V c ⟨n + 1, hn⟩) (wblk0 V c ⟨n + 1, hn⟩)) (if_pos h0)

theorem accAt0_next (c : Dev nD) (t : Fin cfg0.N) (h0 : ¬t.val % 4 = 0) :
    accAt0 V c t.val t.isLt = k0_pay2 (xblk0 V c t) (wblk0 V c t)
      (accAt0 V c (t.val - 1) (Nat.lt_of_le_of_lt (Nat.sub_le _ _) t.isLt)) := by
  obtain ⟨n, hn⟩ := t
  cases n with
  | zero => exact absurd (Nat.zero_mod _) h0
  | succ n => exact congrArg (k0_pay2 (xblk0 V c ⟨n + 1, hn⟩) (wblk0 V c ⟨n + 1, hn⟩)) (if_neg h0)

/-- What a last point stores into the output block: the accumulator's block product plus the bias row. -/
def outAt0 (c : Dev nD) (t : Fin cfg0.N) : Vec F S512x1024 .f32 := k0_pay3 (accAt0 V c t.val t.isLt) (bblk0 V c t)

/-! ## The invariant between points -/

/-- The kernel's scratch accumulator, as a whole-buffer memref. -/
abbrev scM0 : Memref sig .tc .vmem S512x1024 .f32 := Memref.whole cc0_scratch0

/-- Before position `n`: at the first position every scoped buffer no window stages is at anything; afterwards the
    accumulator holds the running block product of the position before, the other such buffers anything. -/
def Phi0 (c : Dev nD) : (n : ℕ) → n ≤ cfg0.N → sProp 𝕄
  | 0, _ => Pipeline.scopedRest spec0 c
  | n + 1, hn => iprop(owns (c : Thread nD τ) scM0 fullShare (accAt0 V c n hn)
      ∗ Pipeline.scopedRestBut (Ix := Unit) (Name := ℕ) (U := UR sig nD τ) (Lvl := ℕ) (Val := Elt F) spec0 c [cc0_scratch0])

theorem Phi0_zero (c : Dev nD) (n : ℕ) (h : n ≤ cfg0.N) (hz : n = 0) :
    Phi0 V c n h = iprop(iprop(∃ d, owns (c : Thread nD τ) scM0 fullShare d)
      ∗ Pipeline.scopedRestBut (Ix := Unit) (Name := ℕ) (U := UR sig nD τ) (Lvl := ℕ) (Val := Elt F) spec0 c [cc0_scratch0]) := by
  subst hz
  show Pipeline.scopedRest spec0 c = _
  rw [scopedRest0_split]; simp only [scM0, owns_whole]; try rfl

theorem Phi0_succ (c : Dev nD) (n : ℕ) (hn : n < cfg0.N) :
    Phi0 V c (n + 1) hn = iprop(owns (c : Thread nD τ) scM0 fullShare (accAt0 V c n hn)
      ∗ Pipeline.scopedRestBut (Ix := Unit) (Name := ℕ) (U := UR sig nD τ) (Lvl := ℕ) (Val := Elt F) spec0 c [cc0_scratch0]) := rfl

theorem Phi0_pos (c : Dev nD) (n : ℕ) (h : n ≤ cfg0.N) (hz : n ≠ 0) :
    Phi0 V c n h = iprop(owns (c : Thread nD τ) scM0 fullShare (accAt0 V c (n - 1) (by omega))
      ∗ Pipeline.scopedRestBut (Ix := Unit) (Name := ℕ) (U := UR sig nD τ) (Lvl := ℕ) (Val := Elt F) spec0 c [cc0_scratch0]) := by
  cases n with
  | zero => exact absurd rfl hz
  | succ n => rfl

/-! ## The pipeline's proof data -/

/-- The first call's proof data on core `c`: the arrays as the region finds them; after the body each input's
    buffer still at its block, the output's at accumulator + bias (consulted at last points only); the invariant
    above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outAt0 V c t
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) :
    (dat0 V c).Φ t.castSucc = Phi0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outAt0 V c t := by dsimp only [dat0]

/-- Each input's current staging buffer holds its block at every point, fetched there or not: an input that is
    not fetched has not moved, and the body leaves it in place. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t)

theorem leaves0_0 (c : Dev nD) (t : Fin cfg0.N) :
    (dat0 V c).leavesExact 0 t = owns (c : Thread nD τ) (st0_0 t) fullShare (xblk0 V c t) := by
  unfold Dat.leavesExact; rw [live0_0 t, after0_0]
theorem leaves0_1 (c : Dev nD) (t : Fin cfg0.N) :
    (dat0 V c).leavesExact 1 t = owns (c : Thread nD τ) (st0_1 t) fullShare (wblk0 V c t) := by
  unfold Dat.leavesExact; rw [live0_1 t, after0_1]
theorem leaves0_2 (c : Dev nD) (t : Fin cfg0.N) :
    (dat0 V c).leavesExact 2 t = owns (c : Thread nD τ) (st0_2 t) fullShare (bblk0 V c t) := by
  unfold Dat.leavesExact; rw [live0_2 t, after0_2]

set_option maxHeartbeats 1600000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = Phi0 V c (t.val + 1) t.isLt from rfl, Phi0_succ]
  rw [leaves0_0, leaves0_1, leaves0_2, Phi0_castSucc]
  have hN : t.val < 32 := lt_of_lt_of_eq t.isLt (show cfg0.N = 32 from N_0)
  by_cases h1 : t.val % 4 = 3
  · -- a last point
    have h0 : ¬t.val % 4 = 0 := by omega
    have hz : t.val ≠ 0 := by omega
    have hL : condLast0 (grid0.coords t) := (hcondLast0 t).mpr h1
    have hF : ¬condFirst0 (grid0.coords t) := fun h => h0 ((hcondFirst0 t).mp h)
    rw [show (dat0 V c).leavesExact 3 t = owns (c : Thread nD τ) (st0_3 t) fullShare ((dat0 V c).after 3 t) from by
      unfold Dat.leavesExact; rw [live0_3 t hL], after0_3]
    unfold outAt0
    rw [accAt0_next V c t h0, Phi0_pos V c _ _ hz]
    iintro ⟨⟨HS, Hr⟩, Ho, ⟨%d0, H0⟩, ⟨%d1, H1⟩, ⟨%d2, H2⟩, ⟨%d3, H3⟩⟩
    iapply (bodyLast0 c (grid0.coords t) _ _ _ _ _ _ _ _ scM0 (Memref.isWhole_whole _) hF hL (xblk0 V c t) (wblk0 V c t) (bblk0 V c t)
      (accAt0 V c (t.val - 1) (Nat.lt_of_le_of_lt (Nat.sub_le _ _) t.isLt)) Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hr]
    · isplitl [HS]; · iexact HS
      iexact Hr
    isplitl [Ho]; · iexact Ho
    isplitl [H0]; · iexact H0
    isplitl [H1]; · iexact H1
    isplitl [H2]; · iexact H2
    iexact H3
  · have hL : ¬condLast0 (grid0.coords t) := fun h => h1 ((hcondLast0 t).mp h)
    rw [Dat.leavesExact_idle (dat0 V c) 3 t (idle0_3 t hL) (noFlush0_3 t hL)]
    by_cases h0 : t.val % 4 = 0
    · -- a first point
      have hF : condFirst0 (grid0.coords t) := (hcondFirst0 t).mpr h0
      rw [accAt0_first V c t h0]
      have hS : Phi0 V c t.val (Nat.le_of_lt t.isLt) ⊢ iprop(iprop(∃ d, owns (c : Thread nD τ) scM0 fullShare d)
          ∗ Pipeline.scopedRestBut (Ix := Unit) (Name := ℕ) (U := UR sig nD τ) (Lvl := ℕ) (Val := Elt F) spec0 c [cc0_scratch0]) := by
        by_cases hz : t.val = 0
        · rw [Phi0_zero V c _ _ hz]
        · rw [Phi0_pos V c _ _ hz]
          iintro ⟨HS, Hr⟩
          isplitl [HS]; · iexists _; iexact HS
          iexact Hr
      iintro ⟨HP, Ho, ⟨%d0, H0⟩, ⟨%d1, H1⟩, ⟨%d2, H2⟩, ⟨%d3, H3⟩⟩
      ihave HP' := hS $$ HP
      icases HP' with ⟨HS, Hr⟩
      iapply (bodyFirst0 c (grid0.coords t) _ _ _ _ _ _ _ _ scM0 (Memref.isWhole_whole _) hF hL (xblk0 V c t) (wblk0 V c t) (bblk0 V c t)
        ((dat0 V c).before 3 t d3) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr]
      · isplitl [HS]; · iexact HS
        iexact Hr
      isplitl [Ho]; · iexact Ho
      isplitl [H0]; · iexact H0
      isplitl [H1]; · iexact H1
      isplitl [H2]; · iexact H2
      iexists _; iexact H3
    · -- a middle point
      have hz : t.val ≠ 0 := fun e => h0 (by rw [e])
      have hF : ¬condFirst0 (grid0.coords t) := fun h => h0 ((hcondFirst0 t).mp h)
      rw [accAt0_next V c t h0, Phi0_pos V c _ _ hz]
      iintro ⟨⟨HS, Hr⟩, Ho, ⟨%d0, H0⟩, ⟨%d1, H1⟩, ⟨%d2, H2⟩, ⟨%d3, H3⟩⟩
      iapply (bodyMid0 c (grid0.coords t) _ _ _ _ _ _ _ _ scM0 (Memref.isWhole_whole _) hF hL (xblk0 V c t) (wblk0 V c t) (bblk0 V c t)
        ((dat0 V c).before 3 t d3) (accAt0 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr]
      · isplitl [HS]; · iexact HS
        iexact Hr
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- After any point but none the invariant gives the scoped rest back: the accumulator's named contents are forgotten. -/
theorem Phi0_out (c : Dev nD) : (dat0 V c).Φ (Fin.last cfg0.N) ⊢ (Pipeline.scopedRest spec0 c : sProp 𝕄) := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 32 := N_0; omega), scopedRest0_split]
  iintro ⟨HS, Hr⟩
  isplitl [HS]
  · simp only [scM0, owns_whole]; iexists _; iexact HS
  iexact Hr

end Region

end Cert.KernelIdeal.Hand

end
-- ==== Proof.KernelIdeal.Body1.lean ====
/-
  The matmul kernel's body at one grid point of the second call, in its three control cases.

  The body keeps a running block product in a scratch accumulator. At a point where the reduction coordinate
  `k` is 0 it first zeroes the accumulator; at every point it adds the product of the current activation block
  and weight block to it; at the point where `k` is the last (3) it also stores accumulator + bias row into the
  output block. So with `x`, `w`, `b` the three input blocks and `a` what the accumulator held:
    first  point (k = 0):       accumulator ends at  step x w zero;                 output block untouched
    middle point (0 < k < 3):   accumulator ends at  step x w a;                    output block untouched
    last   point (k = 3):       accumulator ends at  step x w a, and the output block at  (step x w a) + b
  where `step` is the printed payload `k1_pay2`, `zero` is `k1_pay1`, and the biased sum is `k1_pay3`.
  Each case is one run of the symbolic executor over the printed body; what the run leaves in a buffer is a
  list of whole-buffer stores, read back by the lemmas on whole-buffer rectangles.
-/
import proofs.«109952_j48137993453602_1_alg».proof.Proof.Gen.KernelIdeal.Launch
import proofs.«109952_j48137993453602_1_alg».proof.Proof.Gen.KernelIdeal.Skeleton
import proofs.«109952_j48137993453602_1_alg».proof.Proof.Gen.KernelIdeal.Points
import proofs.«109952_j48137993453602_1_alg».proof.Proof.LibWholeBuffer
import Idealize.ShloMosaic.Lib.Pipeline.FrameBody
import Idealize.ShloMosaic.Lib.Tactic

set_option maxRecDepth 16384

noncomputable section

namespace Cert.KernelIdeal.Hand

open Cert.KernelIdeal Cert.KernelIdeal.Gen Cert.LibWholeBuffer
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The reduction coordinate is 0: the accumulator is zeroed at this point (the body's first conditional). -/
abbrev condFirst1 (i : grid1.Coords) : Prop := (Scalar.cmpi .ne (Scalar.extui (Scalar.cmpi .eq (BitVec.ofNat 32 (i 2).val) 0#32)) 0#32) = 1#1
/-- The reduction coordinate is the last: the output block is stored at this point (the body's second conditional). -/
abbrev condLast1 (i : grid1.Coords) : Prop := k1_cond2 i = 1#1

/-- A middle point: the accumulator goes from `xs` to `step x0 w0 xs`; every other buffer is handed back as found. -/
theorem bodyMid1 (c : Dev nD) (i : grid1.Coords)
    (arg3 : Memref sig .tc .vmem S512x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S512x1024 .f32) (harg6 : arg6.IsWhole)
    (arg7 : Memref sig .tc .vmem S512x1024 .f32) (harg7 : arg7.IsWhole)
    (hc0 : ¬condFirst1 i) (hc1 : ¬condLast1 i)
    (x0 : Vec F S512x1024 .f32) (w0 : Vec F S1024x1024 .f32) (b0 : Vec F S1x1024 .f32) (xi : Vec F S512x1024 .f32) (xs : Vec F S512x1024 .f32)
    (E : Set ℕ) (K : PUnit → sProp 𝕄) :
    iprop(owns (c : Thread nD τ) arg3 fullShare x0 ∗ owns (c : Thread nD τ) arg4 fullShare w0 ∗ owns (c : Thread nD τ) arg5 fullShare b0
        ∗ owns (c : Thread nD τ) arg6 fullShare xi ∗ owns (c : Thread nD τ) arg7 fullShare xs
        ∗ (iprop(owns (c : Thread nD τ) arg3 fullShare x0 ∗ owns (c : Thread nD τ) arg4 fullShare w0 ∗ owns (c : Thread nD τ) arg5 fullShare b0
            ∗ owns (c : Thread nD τ) arg6 fullShare xi ∗ owns (c : Thread nD τ) arg7 fullShare (k1_pay2 x0 w0 xs)) -∗ K ⟨⟩))
      ⊢ wp frame (wpE (defs₀ (F := F)) Variants.none c none) E (cc1__patch_matmul_kernel i arg3 harg3 arg4 harg4 arg5 harg5 arg6 harg6 arg7 harg7) K := by
  simp only [cc1__patch_matmul_kernel_eq_skeleton]; unfold cc1__patch_matmul_kernel_skel
  unfold owns
  iintro ⟨⟨%f3, %hf3, H3⟩, ⟨%f4, %hf4, H4⟩, ⟨%f5, %hf5, H5⟩, ⟨%f6, %hf6, H6⟩, ⟨%f7, %hf7, H7⟩, Hk⟩
  obtain rfl := harg3.eq_unread hf3; obtain rfl := harg4.eq_unread hf4; obtain rfl := harg5.eq_unread hf5
  obtain rfl := harg6.eq_unread hf6; obtain rfl := harg7.eq_unread hf7
  sl_exec (disch := first | exact hc0 | exact hc1)
  sl_step
  iapply Hk
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  iexists _; isplitr; swap; · iexact H7
  ipureintro
  refine (read_after_whole_store (S := S512x1024) _ _ zeros2 _ _ _).trans ?_
  exact congr (congr (congrArg k1_pay2 (load_whole harg3 zeros2 _ x0)) (load_whole harg4 zeros2 _ w0)) (load_whole harg7 zeros2 _ xs)

/-- A first point: whatever the accumulator held, it ends at `step x0 w0 zero`; every other buffer is handed back as found. -/
theorem bodyFirst1 (c : Dev nD) (i : grid1.Coords)
    (arg3 : Memref sig .tc .vmem S512x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S512x1024 .f32) (harg6 : arg6.IsWhole)
    (arg7 : Memref sig .tc .vmem S512x1024 .f32) (harg7 : arg7.IsWhole)
    (hc0 : condFirst1 i) (hc1 : ¬condLast1 i)
    (x0 : Vec F S512x1024 .f32) (w0 : Vec F S1024x1024 .f32) (b0 : Vec F S1x1024 .f32) (xi : Vec F S512x1024 .f32)
    (E : Set ℕ) (K : PUnit → sProp 𝕄) :
    iprop(owns (c : Thread nD τ) arg3 fullShare x0 ∗ owns (c : Thread nD τ) arg4 fullShare w0 ∗ owns (c : Thread nD τ) arg5 fullShare b0
        ∗ owns (c : Thread nD τ) arg6 fullShare xi ∗ (∃ d, owns (c : Thread nD τ) arg7 fullShare d)
        ∗ (iprop(owns (c : Thread nD τ) arg3 fullShare x0 ∗ owns (c : Thread nD τ) arg4 fullShare w0 ∗ owns (c : Thread nD τ) arg5 fullShare b0
            ∗ owns (c : Thread nD τ) arg6 fullShare xi ∗ owns (c : Thread nD τ) arg7 fullShare (k1_pay2 x0 w0 (k1_pay1 (F := F)))) -∗ K ⟨⟩))
      ⊢ wp frame (wpE (defs₀ (F := F)) Variants.none c none) E (cc1__patch_matmul_kernel i arg3 harg3 arg4 harg4 arg5 harg5 arg6 harg6 arg7 harg7) K := by
  simp only [cc1__patch_matmul_kernel_eq_skeleton]; unfold cc1__patch_matmul_kernel_skel
  unfold owns
  iintro ⟨⟨%f3, %hf3, H3⟩, ⟨%f4, %hf4, H4⟩, ⟨%f5, %hf5, H5⟩, ⟨%f6, %hf6, H6⟩, ⟨%d7, %f7, %hf7, H7⟩, Hk⟩
  obtain rfl := harg3.eq_unread hf3; obtain rfl := harg4.eq_unread hf4; obtain rfl := harg5.eq_unread hf5
  obtain rfl := harg6.eq_unread hf6
  sl_exec (disch := first | exact hc0 | exact hc1)
  sl_step
  iapply Hk
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  iexists _; isplitr; swap; · iexact H7
  ipureintro
  sl_unfold_run_names
  refine (read_after_whole_store (S := S512x1024) _ _ zeros2 _ _ _).trans ?_
  exact congr (congr (congrArg k1_pay2 (load_whole harg3 zeros2 _ x0)) (load_whole harg4 zeros2 _ w0)) (load_after_whole_store (S := S512x1024) _ zeros2 _ _)

/-- A last point: the accumulator goes from `xs` to `step x0 w0 xs`, and the output block, whatever it held, ends at that plus the bias row. -/
theorem bodyLast1 (c : Dev nD) (i : grid1.Coords)
    (arg3 : Memref sig .tc .vmem S512x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S512x1024 .f32) (harg6 : arg6.IsWhole)
    (arg7 : Memref sig .tc .vmem S512x1024 .f32) (harg7 : arg7.IsWhole)
    (hc0 : ¬condFirst1 i) (hc1 : condLast1 i)
    (x0 : Vec F S512x1024 .f32) (w0 : Vec F S1024x1024 .f32) (b0 : Vec F S1x1024 .f32) (xs : Vec F S512x1024 .f32)
    (E : Set ℕ) (K : PUnit → sProp 𝕄) :
    iprop(owns (c : Thread nD τ) arg3 fullShare x0 ∗ owns (c : Thread nD τ) arg4 fullShare w0 ∗ owns (c : Thread nD τ) arg5 fullShare b0
        ∗ (∃ d, owns (c : Thread nD τ) arg6 fullShare d) ∗ owns (c : Thread nD τ) arg7 fullShare xs
        ∗ (iprop(owns (c : Thread nD τ) arg3 fullShare x0 ∗ owns (c : Thread nD τ) arg4 fullShare w0 ∗ owns (c : Thread nD τ) arg5 fullShare b0
            ∗ owns (c : Thread nD τ) arg6 fullShare (k1_pay3 (k1_pay2 x0 w0 xs) b0) ∗ owns (c : Thread nD τ) arg7 fullShare (k1_pay2 x0 w0 xs)) -∗ K ⟨⟩))
      ⊢ wp frame (wpE (defs₀ (F := F)) Variants.none c none) E (cc1__patch_matmul_kernel i arg3 harg3 arg4 harg4 arg5 harg5 arg6 harg6 arg7 harg7) K := by
  simp only [cc1__patch_matmul_kernel_eq_skeleton]; unfold cc1__patch_matmul_kernel_skel
  unfold owns
  iintro ⟨⟨%f3, %hf3, H3⟩, ⟨%f4, %hf4, H4⟩, ⟨%f5, %hf5, H5⟩, ⟨%d6, %f6, %hf6, H6⟩, ⟨%f7, %hf7, H7⟩, Hk⟩
  obtain rfl := harg3.eq_unread hf3; obtain rfl := harg4.eq_unread hf4; obtain rfl := harg5.eq_unread hf5
  obtain rfl := harg7.eq_unread hf7
  sl_exec (disch := first | exact hc0 | exact hc1)
  sl_step
  iapply Hk
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  have hacc : k1_pay2 (View.readAt (Elt F) arg3.view (Rect.unit ![0, 0] S512x1024.size inb_S512x1024_S512x1024_0_0).toLoadRect (harg3.unread x0))
      (View.readAt (Elt F) arg4.view (Rect.unit ![0, 0] S1024x1024.size inb_S1024x1024_S1024x1024_0_0).toLoadRect (harg4.unread w0))
      (View.readAt (Elt F) arg7.view (Rect.unit ![0, 0] S512x1024.size inb_S512x1024_S512x1024_0_0).toLoadRect (harg7.unread xs))
      = k1_pay2 x0 w0 xs :=
    congr (congr (congrArg k1_pay2 (load_whole harg3 zeros2 _ x0)) (load_whole harg4 zeros2 _ w0)) (load_whole harg7 zeros2 _ xs)
  isplitl [H6]
  · iexists _; isplitr; swap; · iexact H6
    ipureintro
    sl_unfold_run_names
    refine (read_after_whole_store (S := S512x1024) _ _ zeros2 _ _ _).trans ?_
    exact congr (congrArg k1_pay3 ((load_after_whole_store (S := S512x1024) _ zeros2 _ _).trans hacc)) (load_whole harg5 zeros2 _ b0)
  iexists _; isplitr; swap; · iexact H7
  ipureintro
  sl_unfold_run_names
  exact (read_after_whole_store (S := S512x1024) _ _ zeros2 _ _ _).trans hacc

end Cert.KernelIdeal.Hand

end
-- ==== Proof.KernelIdeal.Region1.lean ====
/-
  The second call's pipeline: what the scratch accumulator and the output block hold point by point, the proof
  data, and the body obligation.

  The grid is 2 x 4 x 4 (row block i, column block j, reduction block k, k fastest): position n has k = n mod 4.
  The accumulator after position n is the sum of the block products of the reduction blocks 0..k of its (i, j);
  the output block is stored, as accumulator + bias row, at the positions with k = 3 and is idle elsewhere (the
  pipeline neither writes it back nor refetches it there). The body obligation at a point is the matching case
  of the body's three runs, the invariant handing the accumulator over at what the point before left.
-/
import proofs.«109952_j48137993453602_1_alg».proof.Proof.KernelIdeal.Body1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## When the two conditions hold, decided over the grid; where the windows are idle -/

theorem hcondFirst1 : ∀ t : Fin cfg1.N, condFirst1 (grid1.coords t) ↔ t.val % 4 = 0 :=
  (by decide +kernel : ∀ t : Fin grid1.N, condFirst1 (grid1.coords t) ↔ t.val % 4 = 0)
theorem hcondLast1 : ∀ t : Fin cfg1.N, condLast1 (grid1.coords t) ↔ t.val % 4 = 3 :=
  (by decide +kernel : ∀ t : Fin grid1.N, condLast1 (grid1.coords t) ↔ t.val % 4 = 3)

/-- The three input windows are never idle. -/
theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
/-- Away from a last point the output window is idle and is not written back; at a last point it is live. -/
theorem idle1_3 : ∀ t : Fin cfg1.N, ¬condLast1 (grid1.coords t) → cfg1.idle 3 (grid1.coords t) = true := by decide +kernel
theorem noFlush1_3 : ∀ t : Fin cfg1.N, ¬condLast1 (grid1.coords t) → (cfg1.win 3).flush t = false := by decide +kernel
theorem live1_3 : ∀ t : Fin cfg1.N, condLast1 (grid1.coords t) → cfg1.idle 3 (grid1.coords t) = false := by decide +kernel

section Region

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activation block, the weight block and the bias row at point `t`, at their literal shapes. -/
abbrev xblk1 (c : Dev nD) (t : Fin cfg1.N) : Vec F S512x1024 .f32 := iblk1 V c 0 t
abbrev wblk1 (c : Dev nD) (t : Fin cfg1.N) : Vec F S1024x1024 .f32 := iblk1 V c 1 t
abbrev bblk1 (c : Dev nD) (t : Fin cfg1.N) : Vec F S1x1024 .f32 := iblk1 V c 2 t

/-! ## The running block product -/

/-- What the scratch accumulator holds after the body at position `n`: one more block product added to what
    the position before left, restarting from zero wherever the reduction coordinate is 0 (every fourth position). -/
def accAt1 (c : Dev nD) : (n : ℕ) → n < cfg1.N → Vec F S512x1024 .f32
  | 0, hn => k1_pay2 (xblk1 V c ⟨0, hn⟩) (wblk1 V c ⟨0, hn⟩) (k1_pay1 (F := F))
  | n + 1, hn => k1_pay2 (xblk1 V c ⟨n + 1, hn⟩) (wblk1 V c ⟨n + 1, hn⟩)
      (if (n + 1) % 4 = 0 then k1_pay1 (F := F) else accAt1 c n (Nat.lt_of_succ_lt hn))

theorem accAt1_first (c : Dev nD) (t : Fin cfg1.N) (h0 : t.val % 4 = 0) :
    accAt1 V c t.val t.isLt = k1_pay2 (xblk1 V c t) (wblk1 V c t) (k1_pay1 (F := F)) := by
  obtain ⟨n, hn⟩ := t
  cases n with
  | zero => rfl
  | succ n => exact congrArg (k1_pay2 (xblk1 V c ⟨n + 1, hn⟩) (wblk1 V c ⟨n + 1, hn⟩)) (if_pos h0)

theorem accAt1_next (c : Dev nD) (t : Fin cfg1.N) (h0 : ¬t.val % 4 = 0) :
    accAt1 V c t.val t.isLt = k1_pay2 (xblk1 V c t) (wblk1 V c t)
      (accAt1 V c (t.val - 1) (Nat.lt_of_le_of_lt (Nat.sub_le _ _) t.isLt)) := by
  obtain ⟨n, hn⟩ := t
  cases n with
  | zero => exact absurd (Nat.zero_mod _) h0
  | succ n => exact congrArg (k1_pay2 (xblk1 V c ⟨n + 1, hn⟩) (wblk1 V c ⟨n + 1, hn⟩)) (if_neg h0)

/-- What a last point stores into the output block: the accumulator's block product plus the bias row. -/
def outAt1 (c : Dev nD) (t : Fin cfg1.N) : Vec F S512x1024 .f32 := k1_pay3 (accAt1 V c t.val t.isLt) (bblk1 V c t)

/-! ## The invariant between points -/

/-- The kernel's scratch accumulator, as a whole-buffer memref. -/
abbrev scM1 : Memref sig .tc .vmem S512x1024 .f32 := Memref.whole cc1_scratch0

/-- Before position `n`: at the first position every scoped buffer no window stages is at anything; afterwards the
    accumulator holds the running block product of the position before, the other such buffers anything. -/
def Phi1 (c : Dev nD) : (n : ℕ) → n ≤ cfg1.N → sProp 𝕄
  | 0, _ => Pipeline.scopedRest spec1 c
  | n + 1, hn => iprop(owns (c : Thread nD τ) scM1 fullShare (accAt1 V c n hn)
      ∗ Pipeline.scopedRestBut (Ix := Unit) (Name := ℕ) (U := UR sig nD τ) (Lvl := ℕ) (Val := Elt F) spec1 c [cc1_scratch0])

theorem Phi1_zero (c : Dev nD) (n : ℕ) (h : n ≤ cfg1.N) (hz : n = 0) :
    Phi1 V c n h = iprop(iprop(∃ d, owns (c : Thread nD τ) scM1 fullShare d)
      ∗ Pipeline.scopedRestBut (Ix := Unit) (Name := ℕ) (U := UR sig nD τ) (Lvl := ℕ) (Val := Elt F) spec1 c [cc1_scratch0]) := by
  subst hz
  show Pipeline.scopedRest spec1 c = _
  rw [scopedRest1_split]; simp only [scM1, owns_whole]; try rfl

theorem Phi1_succ (c : Dev nD) (n : ℕ) (hn : n < cfg1.N) :
    Phi1 V c (n + 1) hn = iprop(owns (c : Thread nD τ) scM1 fullShare (accAt1 V c n hn)
      ∗ Pipeline.scopedRestBut (Ix := Unit) (Name := ℕ) (U := UR sig nD τ) (Lvl := ℕ) (Val := Elt F) spec1 c [cc1_scratch0]) := rfl

theorem Phi1_pos (c : Dev nD) (n : ℕ) (h : n ≤ cfg1.N) (hz : n ≠ 0) :
    Phi1 V c n h = iprop(owns (c : Thread nD τ) scM1 fullShare (accAt1 V c (n - 1) (by omega))
      ∗ Pipeline.scopedRestBut (Ix := Unit) (Name := ℕ) (U := UR sig nD τ) (Lvl := ℕ) (Val := Elt F) spec1 c [cc1_scratch0]) := by
  cases n with
  | zero => exact absurd rfl hz
  | succ n => rfl

/-! ## The pipeline's proof data -/

/-- The second call's proof data on core `c`: the arrays as the region finds them; after the body each input's
    buffer still at its block, the output's at accumulator + bias (consulted at last points only); the invariant
    above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt1 V c t
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt1 V c t := by dsimp only [dat1]

/-- Each input's current staging buffer holds its block at every point, fetched there or not: an input that is
    not fetched has not moved, and the body leaves it in place. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

theorem leaves1_0 (c : Dev nD) (t : Fin cfg1.N) :
    (dat1 V c).leavesExact 0 t = owns (c : Thread nD τ) (st1_0 t) fullShare (xblk1 V c t) := by
  unfold Dat.leavesExact; rw [live1_0 t, after1_0]
theorem leaves1_1 (c : Dev nD) (t : Fin cfg1.N) :
    (dat1 V c).leavesExact 1 t = owns (c : Thread nD τ) (st1_1 t) fullShare (wblk1 V c t) := by
  unfold Dat.leavesExact; rw [live1_1 t, after1_1]
theorem leaves1_2 (c : Dev nD) (t : Fin cfg1.N) :
    (dat1 V c).leavesExact 2 t = owns (c : Thread nD τ) (st1_2 t) fullShare (bblk1 V c t) := by
  unfold Dat.leavesExact; rw [live1_2 t, after1_2]

set_option maxHeartbeats 1600000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = Phi1 V c (t.val + 1) t.isLt from rfl, Phi1_succ]
  rw [leaves1_0, leaves1_1, leaves1_2, Phi1_castSucc]
  have hN : t.val < 32 := lt_of_lt_of_eq t.isLt (show cfg1.N = 32 from N_1)
  by_cases h1 : t.val % 4 = 3
  · -- a last point
    have h0 : ¬t.val % 4 = 0 := by omega
    have hz : t.val ≠ 0 := by omega
    have hL : condLast1 (grid1.coords t) := (hcondLast1 t).mpr h1
    have hF : ¬condFirst1 (grid1.coords t) := fun h => h0 ((hcondFirst1 t).mp h)
    rw [show (dat1 V c).leavesExact 3 t = owns (c : Thread nD τ) (st1_3 t) fullShare ((dat1 V c).after 3 t) from by
      unfold Dat.leavesExact; rw [live1_3 t hL], after1_3]
    unfold outAt1
    rw [accAt1_next V c t h0, Phi1_pos V c _ _ hz]
    iintro ⟨⟨HS, Hr⟩, Ho, ⟨%d0, H0⟩, ⟨%d1, H1⟩, ⟨%d2, H2⟩, ⟨%d3, H3⟩⟩
    iapply (bodyLast1 c (grid1.coords t) _ _ _ _ _ _ _ _ scM1 (Memref.isWhole_whole _) hF hL (xblk1 V c t) (wblk1 V c t) (bblk1 V c t)
      (accAt1 V c (t.val - 1) (Nat.lt_of_le_of_lt (Nat.sub_le _ _) t.isLt)) Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hr]
    · isplitl [HS]; · iexact HS
      iexact Hr
    isplitl [Ho]; · iexact Ho
    isplitl [H0]; · iexact H0
    isplitl [H1]; · iexact H1
    isplitl [H2]; · iexact H2
    iexact H3
  · have hL : ¬condLast1 (grid1.coords t) := fun h => h1 ((hcondLast1 t).mp h)
    rw [Dat.leavesExact_idle (dat1 V c) 3 t (idle1_3 t hL) (noFlush1_3 t hL)]
    by_cases h0 : t.val % 4 = 0
    · -- a first point
      have hF : condFirst1 (grid1.coords t) := (hcondFirst1 t).mpr h0
      rw [accAt1_first V c t h0]
      have hS : Phi1 V c t.val (Nat.le_of_lt t.isLt) ⊢ iprop(iprop(∃ d, owns (c : Thread nD τ) scM1 fullShare d)
          ∗ Pipeline.scopedRestBut (Ix := Unit) (Name := ℕ) (U := UR sig nD τ) (Lvl := ℕ) (Val := Elt F) spec1 c [cc1_scratch0]) := by
        by_cases hz : t.val = 0
        · rw [Phi1_zero V c _ _ hz]
        · rw [Phi1_pos V c _ _ hz]
          iintro ⟨HS, Hr⟩
          isplitl [HS]; · iexists _; iexact HS
          iexact Hr
      iintro ⟨HP, Ho, ⟨%d0, H0⟩, ⟨%d1, H1⟩, ⟨%d2, H2⟩, ⟨%d3, H3⟩⟩
      ihave HP' := hS $$ HP
      icases HP' with ⟨HS, Hr⟩
      iapply (bodyFirst1 c (grid1.coords t) _ _ _ _ _ _ _ _ scM1 (Memref.isWhole_whole _) hF hL (xblk1 V c t) (wblk1 V c t) (bblk1 V c t)
        ((dat1 V c).before 3 t d3) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr]
      · isplitl [HS]; · iexact HS
        iexact Hr
      isplitl [Ho]; · iexact Ho
      isplitl [H0]; · iexact H0
      isplitl [H1]; · iexact H1
      isplitl [H2]; · iexact H2
      iexists _; iexact H3
    · -- a middle point
      have hz : t.val ≠ 0 := fun e => h0 (by rw [e])
      have hF : ¬condFirst1 (grid1.coords t) := fun h => h0 ((hcondFirst1 t).mp h)
      rw [accAt1_next V c t h0, Phi1_pos V c _ _ hz]
      iintro ⟨⟨HS, Hr⟩, Ho, ⟨%d0, H0⟩, ⟨%d1, H1⟩, ⟨%d2, H2⟩, ⟨%d3, H3⟩⟩
      iapply (bodyMid1 c (grid1.coords t) _ _ _ _ _ _ _ _ scM1 (Memref.isWhole_whole _) hF hL (xblk1 V c t) (wblk1 V c t) (bblk1 V c t)
        ((dat1 V c).before 3 t d3) (accAt1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr]
      · isplitl [HS]; · iexact HS
        iexact Hr
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- After any point but none the invariant gives the scoped rest back: the accumulator's named contents are forgotten. -/
theorem Phi1_out (c : Dev nD) : (dat1 V c).Φ (Fin.last cfg1.N) ⊢ (Pipeline.scopedRest spec1 c : sProp 𝕄) := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 32 := N_1; omega), scopedRest1_split]
  iintro ⟨HS, Hr⟩
  isplitl [HS]
  · simp only [scM1, owns_whole]; iexists _; iexact HS
  iexact Hr

end Region

end Cert.KernelIdeal.Hand

end
-- ==== Proof.KernelIdeal.Body2.lean ====
/-
  The matmul kernel's body at one grid point of the third call, in its three control cases.

  The body keeps a running block product in a scratch accumulator. At a point where the reduction coordinate
  `k` is 0 it first zeroes the accumulator; at every point it adds the product of the current activation block
  and weight block to it; at the point where `k` is the last (3) it also stores accumulator + bias row into the
  output block. So with `x`, `w`, `b` the three input blocks and `a` what the accumulator held:
    first  point (k = 0):       accumulator ends at  step x w zero;                 output block untouched
    middle point (0 < k < 3):   accumulator ends at  step x w a;                    output block untouched
    last   point (k = 3):       accumulator ends at  step x w a, and the output block at  (step x w a) + b
  where `step` is the printed payload `k2_pay2`, `zero` is `k2_pay1`, and the biased sum is `k2_pay3`.
  Each case is one run of the symbolic executor over the printed body; what the run leaves in a buffer is a
  list of whole-buffer stores, read back by the lemmas on whole-buffer rectangles.
-/
import proofs.«109952_j48137993453602_1_alg».proof.Proof.Gen.KernelIdeal.Launch
import proofs.«109952_j48137993453602_1_alg».proof.Proof.Gen.KernelIdeal.Skeleton
import proofs.«109952_j48137993453602_1_alg».proof.Proof.Gen.KernelIdeal.Points
import proofs.«109952_j48137993453602_1_alg».proof.Proof.LibWholeBuffer
import Idealize.ShloMosaic.Lib.Pipeline.FrameBody
import Idealize.ShloMosaic.Lib.Tactic

set_option maxRecDepth 16384

noncomputable section

namespace Cert.KernelIdeal.Hand

open Cert.KernelIdeal Cert.KernelIdeal.Gen Cert.LibWholeBuffer
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The reduction coordinate is 0: the accumulator is zeroed at this point (the body's first conditional). -/
abbrev condFirst2 (i : grid2.Coords) : Prop := (Scalar.cmpi .ne (Scalar.extui (Scalar.cmpi .eq (BitVec.ofNat 32 (i 2).val) 0#32)) 0#32) = 1#1
/-- The reduction coordinate is the last: the output block is stored at this point (the body's second conditional). -/
abbrev condLast2 (i : grid2.Coords) : Prop := k2_cond2 i = 1#1

/-- A middle point: the accumulator goes from `xs` to `step x0 w0 xs`; every other buffer is handed back as found. -/
theorem bodyMid2 (c : Dev nD) (i : grid2.Coords)
    (arg3 : Memref sig .tc .vmem S512x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S512x1024 .f32) (harg6 : arg6.IsWhole)
    (arg7 : Memref sig .tc .vmem S512x1024 .f32) (harg7 : arg7.IsWhole)
    (hc0 : ¬condFirst2 i) (hc1 : ¬condLast2 i)
    (x0 : Vec F S512x1024 .f32) (w0 : Vec F S1024x1024 .f32) (b0 : Vec F S1x1024 .f32) (xi : Vec F S512x1024 .f32) (xs : Vec F S512x1024 .f32)
    (E : Set ℕ) (K : PUnit → sProp 𝕄) :
    iprop(owns (c : Thread nD τ) arg3 fullShare x0 ∗ owns (c : Thread nD τ) arg4 fullShare w0 ∗ owns (c : Thread nD τ) arg5 fullShare b0
        ∗ owns (c : Thread nD τ) arg6 fullShare xi ∗ owns (c : Thread nD τ) arg7 fullShare xs
        ∗ (iprop(owns (c : Thread nD τ) arg3 fullShare x0 ∗ owns (c : Thread nD τ) arg4 fullShare w0 ∗ owns (c : Thread nD τ) arg5 fullShare b0
            ∗ owns (c : Thread nD τ) arg6 fullShare xi ∗ owns (c : Thread nD τ) arg7 fullShare (k2_pay2 x0 w0 xs)) -∗ K ⟨⟩))
      ⊢ wp frame (wpE (defs₀ (F := F)) Variants.none c none) E (cc2__patch_matmul_kernel i arg3 harg3 arg4 harg4 arg5 harg5 arg6 harg6 arg7 harg7) K := by
  simp only [cc2__patch_matmul_kernel_eq_skeleton]; unfold cc2__patch_matmul_kernel_skel
  unfold owns
  iintro ⟨⟨%f3, %hf3, H3⟩, ⟨%f4, %hf4, H4⟩, ⟨%f5, %hf5, H5⟩, ⟨%f6, %hf6, H6⟩, ⟨%f7, %hf7, H7⟩, Hk⟩
  obtain rfl := harg3.eq_unread hf3; obtain rfl := harg4.eq_unread hf4; obtain rfl := harg5.eq_unread hf5
  obtain rfl := harg6.eq_unread hf6; obtain rfl := harg7.eq_unread hf7
  sl_exec (disch := first | exact hc0 | exact hc1)
  sl_step
  iapply Hk
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  iexists _; isplitr; swap; · iexact H7
  ipureintro
  refine (read_after_whole_store (S := S512x1024) _ _ zeros2 _ _ _).trans ?_
  exact congr (congr (congrArg k2_pay2 (load_whole harg3 zeros2 _ x0)) (load_whole harg4 zeros2 _ w0)) (load_whole harg7 zeros2 _ xs)

/-- A first point: whatever the accumulator held, it ends at `step x0 w0 zero`; every other buffer is handed back as found. -/
theorem bodyFirst2 (c : Dev nD) (i : grid2.Coords)
    (arg3 : Memref sig .tc .vmem S512x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S512x1024 .f32) (harg6 : arg6.IsWhole)
    (arg7 : Memref sig .tc .vmem S512x1024 .f32) (harg7 : arg7.IsWhole)
    (hc0 : condFirst2 i) (hc1 : ¬condLast2 i)
    (x0 : Vec F S512x1024 .f32) (w0 : Vec F S1024x1024 .f32) (b0 : Vec F S1x1024 .f32) (xi : Vec F S512x1024 .f32)
    (E : Set ℕ) (K : PUnit → sProp 𝕄) :
    iprop(owns (c : Thread nD τ) arg3 fullShare x0 ∗ owns (c : Thread nD τ) arg4 fullShare w0 ∗ owns (c : Thread nD τ) arg5 fullShare b0
        ∗ owns (c : Thread nD τ) arg6 fullShare xi ∗ (∃ d, owns (c : Thread nD τ) arg7 fullShare d)
        ∗ (iprop(owns (c : Thread nD τ) arg3 fullShare x0 ∗ owns (c : Thread nD τ) arg4 fullShare w0 ∗ owns (c : Thread nD τ) arg5 fullShare b0
            ∗ owns (c : Thread nD τ) arg6 fullShare xi ∗ owns (c : Thread nD τ) arg7 fullShare (k2_pay2 x0 w0 (k2_pay1 (F := F)))) -∗ K ⟨⟩))
      ⊢ wp frame (wpE (defs₀ (F := F)) Variants.none c none) E (cc2__patch_matmul_kernel i arg3 harg3 arg4 harg4 arg5 harg5 arg6 harg6 arg7 harg7) K := by
  simp only [cc2__patch_matmul_kernel_eq_skeleton]; unfold cc2__patch_matmul_kernel_skel
  unfold owns
  iintro ⟨⟨%f3, %hf3, H3⟩, ⟨%f4, %hf4, H4⟩, ⟨%f5, %hf5, H5⟩, ⟨%f6, %hf6, H6⟩, ⟨%d7, %f7, %hf7, H7⟩, Hk⟩
  obtain rfl := harg3.eq_unread hf3; obtain rfl := harg4.eq_unread hf4; obtain rfl := harg5.eq_unread hf5
  obtain rfl := harg6.eq_unread hf6
  sl_exec (disch := first | exact hc0 | exact hc1)
  sl_step
  iapply Hk
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  iexists _; isplitr; swap; · iexact H7
  ipureintro
  sl_unfold_run_names
  refine (read_after_whole_store (S := S512x1024) _ _ zeros2 _ _ _).trans ?_
  exact congr (congr (congrArg k2_pay2 (load_whole harg3 zeros2 _ x0)) (load_whole harg4 zeros2 _ w0)) (load_after_whole_store (S := S512x1024) _ zeros2 _ _)

/-- A last point: the accumulator goes from `xs` to `step x0 w0 xs`, and the output block, whatever it held, ends at that plus the bias row. -/
theorem bodyLast2 (c : Dev nD) (i : grid2.Coords)
    (arg3 : Memref sig .tc .vmem S512x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S512x1024 .f32) (harg6 : arg6.IsWhole)
    (arg7 : Memref sig .tc .vmem S512x1024 .f32) (harg7 : arg7.IsWhole)
    (hc0 : ¬condFirst2 i) (hc1 : condLast2 i)
    (x0 : Vec F S512x1024 .f32) (w0 : Vec F S1024x1024 .f32) (b0 : Vec F S1x1024 .f32) (xs : Vec F S512x1024 .f32)
    (E : Set ℕ) (K : PUnit → sProp 𝕄) :
    iprop(owns (c : Thread nD τ) arg3 fullShare x0 ∗ owns (c : Thread nD τ) arg4 fullShare w0 ∗ owns (c : Thread nD τ) arg5 fullShare b0
        ∗ (∃ d, owns (c : Thread nD τ) arg6 fullShare d) ∗ owns (c : Thread nD τ) arg7 fullShare xs
        ∗ (iprop(owns (c : Thread nD τ) arg3 fullShare x0 ∗ owns (c : Thread nD τ) arg4 fullShare w0 ∗ owns (c : Thread nD τ) arg5 fullShare b0
            ∗ owns (c : Thread nD τ) arg6 fullShare (k2_pay3 (k2_pay2 x0 w0 xs) b0) ∗ owns (c : Thread nD τ) arg7 fullShare (k2_pay2 x0 w0 xs)) -∗ K ⟨⟩))
      ⊢ wp frame (wpE (defs₀ (F := F)) Variants.none c none) E (cc2__patch_matmul_kernel i arg3 harg3 arg4 harg4 arg5 harg5 arg6 harg6 arg7 harg7) K := by
  simp only [cc2__patch_matmul_kernel_eq_skeleton]; unfold cc2__patch_matmul_kernel_skel
  unfold owns
  iintro ⟨⟨%f3, %hf3, H3⟩, ⟨%f4, %hf4, H4⟩, ⟨%f5, %hf5, H5⟩, ⟨%d6, %f6, %hf6, H6⟩, ⟨%f7, %hf7, H7⟩, Hk⟩
  obtain rfl := harg3.eq_unread hf3; obtain rfl := harg4.eq_unread hf4; obtain rfl := harg5.eq_unread hf5
  obtain rfl := harg7.eq_unread hf7
  sl_exec (disch := first | exact hc0 | exact hc1)
  sl_step
  iapply Hk
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  have hacc : k2_pay2 (View.readAt (Elt F) arg3.view (Rect.unit ![0, 0] S512x1024.size inb_S512x1024_S512x1024_0_0).toLoadRect (harg3.unread x0))
      (View.readAt (Elt F) arg4.view (Rect.unit ![0, 0] S1024x1024.size inb_S1024x1024_S1024x1024_0_0).toLoadRect (harg4.unread w0))
      (View.readAt (Elt F) arg7.view (Rect.unit ![0, 0] S512x1024.size inb_S512x1024_S512x1024_0_0).toLoadRect (harg7.unread xs))
      = k2_pay2 x0 w0 xs :=
    congr (congr (congrArg k2_pay2 (load_whole harg3 zeros2 _ x0)) (load_whole harg4 zeros2 _ w0)) (load_whole harg7 zeros2 _ xs)
  isplitl [H6]
  · iexists _; isplitr; swap; · iexact H6
    ipureintro
    sl_unfold_run_names
    refine (read_after_whole_store (S := S512x1024) _ _ zeros2 _ _ _).trans ?_
    exact congr (congrArg k2_pay3 ((load_after_whole_store (S := S512x1024) _ zeros2 _ _).trans hacc)) (load_whole harg5 zeros2 _ b0)
  iexists _; isplitr; swap; · iexact H7
  ipureintro
  sl_unfold_run_names
  exact (read_after_whole_store (S := S512x1024) _ _ zeros2 _ _ _).trans hacc

end Cert.KernelIdeal.Hand

end
-- ==== Proof.KernelIdeal.Region2.lean ====
/-
  The third call's pipeline: what the scratch accumulator and the output block hold point by point, the proof
  data, and the body obligation.

  The grid is 2 x 4 x 4 (row block i, column block j, reduction block k, k fastest): position n has k = n mod 4.
  The accumulator after position n is the sum of the block products of the reduction blocks 0..k of its (i, j);
  the output block is stored, as accumulator + bias row, at the positions with k = 3 and is idle elsewhere (the
  pipeline neither writes it back nor refetches it there). The body obligation at a point is the matching case
  of the body's three runs, the invariant handing the accumulator over at what the point before left.
-/
import proofs.«109952_j48137993453602_1_alg».proof.Proof.KernelIdeal.Body2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## When the two conditions hold, decided over the grid; where the windows are idle -/

theorem hcondFirst2 : ∀ t : Fin cfg2.N, condFirst2 (grid2.coords t) ↔ t.val % 4 = 0 :=
  (by decide +kernel : ∀ t : Fin grid2.N, condFirst2 (grid2.coords t) ↔ t.val % 4 = 0)
theorem hcondLast2 : ∀ t : Fin cfg2.N, condLast2 (grid2.coords t) ↔ t.val % 4 = 3 :=
  (by decide +kernel : ∀ t : Fin grid2.N, condLast2 (grid2.coords t) ↔ t.val % 4 = 3)

/-- The three input windows are never idle. -/
theorem live2_0 : ∀ t : Fin cfg2.N, cfg2.idle 0 (grid2.coords t) = false := by decide +kernel
theorem live2_1 : ∀ t : Fin cfg2.N, cfg2.idle 1 (grid2.coords t) = false := by decide +kernel
theorem live2_2 : ∀ t : Fin cfg2.N, cfg2.idle 2 (grid2.coords t) = false := by decide +kernel
/-- Away from a last point the output window is idle and is not written back; at a last point it is live. -/
theorem idle2_3 : ∀ t : Fin cfg2.N, ¬condLast2 (grid2.coords t) → cfg2.idle 3 (grid2.coords t) = true := by decide +kernel
theorem noFlush2_3 : ∀ t : Fin cfg2.N, ¬condLast2 (grid2.coords t) → (cfg2.win 3).flush t = false := by decide +kernel
theorem live2_3 : ∀ t : Fin cfg2.N, condLast2 (grid2.coords t) → cfg2.idle 3 (grid2.coords t) = false := by decide +kernel

section Region

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The activation block, the weight block and the bias row at point `t`, at their literal shapes. -/
abbrev xblk2 (c : Dev nD) (t : Fin cfg2.N) : Vec F S512x1024 .f32 := iblk2 V c 0 t
abbrev wblk2 (c : Dev nD) (t : Fin cfg2.N) : Vec F S1024x1024 .f32 := iblk2 V c 1 t
abbrev bblk2 (c : Dev nD) (t : Fin cfg2.N) : Vec F S1x1024 .f32 := iblk2 V c 2 t

/-! ## The running block product -/

/-- What the scratch accumulator holds after the body at position `n`: one more block product added to what
    the position before left, restarting from zero wherever the reduction coordinate is 0 (every fourth position). -/
def accAt2 (c : Dev nD) : (n : ℕ) → n < cfg2.N → Vec F S512x1024 .f32
  | 0, hn => k2_pay2 (xblk2 V c ⟨0, hn⟩) (wblk2 V c ⟨0, hn⟩) (k2_pay1 (F := F))
  | n + 1, hn => k2_pay2 (xblk2 V c ⟨n + 1, hn⟩) (wblk2 V c ⟨n + 1, hn⟩)
      (if (n + 1) % 4 = 0 then k2_pay1 (F := F) else accAt2 c n (Nat.lt_of_succ_lt hn))

theorem accAt2_first (c : Dev nD) (t : Fin cfg2.N) (h0 : t.val % 4 = 0) :
    accAt2 V c t.val t.isLt = k2_pay2 (xblk2 V c t) (wblk2 V c t) (k2_pay1 (F := F)) := by
  obtain ⟨n, hn⟩ := t
  cases n with
  | zero => rfl
  | succ n => exact congrArg (k2_pay2 (xblk2 V c ⟨n + 1, hn⟩) (wblk2 V c ⟨n + 1, hn⟩)) (if_pos h0)

theorem accAt2_next (c : Dev nD) (t : Fin cfg2.N) (h0 : ¬t.val % 4 = 0) :
    accAt2 V c t.val t.isLt = k2_pay2 (xblk2 V c t) (wblk2 V c t)
      (accAt2 V c (t.val - 1) (Nat.lt_of_le_of_lt (Nat.sub_le _ _) t.isLt)) := by
  obtain ⟨n, hn⟩ := t
  cases n with
  | zero => exact absurd (Nat.zero_mod _) h0
  | succ n => exact congrArg (k2_pay2 (xblk2 V c ⟨n + 1, hn⟩) (wblk2 V c ⟨n + 1, hn⟩)) (if_neg h0)

/-- What a last point stores into the output block: the accumulator's block product plus the bias row. -/
def outAt2 (c : Dev nD) (t : Fin cfg2.N) : Vec F S512x1024 .f32 := k2_pay3 (accAt2 V c t.val t.isLt) (bblk2 V c t)

/-! ## The invariant between points -/

/-- The kernel's scratch accumulator, as a whole-buffer memref. -/
abbrev scM2 : Memref sig .tc .vmem S512x1024 .f32 := Memref.whole cc2_scratch0

/-- Before position `n`: at the first position every scoped buffer no window stages is at anything; afterwards the
    accumulator holds the running block product of the position before, the other such buffers anything. -/
def Phi2 (c : Dev nD) : (n : ℕ) → n ≤ cfg2.N → sProp 𝕄
  | 0, _ => Pipeline.scopedRest spec2 c
  | n + 1, hn => iprop(owns (c : Thread nD τ) scM2 fullShare (accAt2 V c n hn)
      ∗ Pipeline.scopedRestBut (Ix := Unit) (Name := ℕ) (U := UR sig nD τ) (Lvl := ℕ) (Val := Elt F) spec2 c [cc2_scratch0])

theorem Phi2_zero (c : Dev nD) (n : ℕ) (h : n ≤ cfg2.N) (hz : n = 0) :
    Phi2 V c n h = iprop(iprop(∃ d, owns (c : Thread nD τ) scM2 fullShare d)
      ∗ Pipeline.scopedRestBut (Ix := Unit) (Name := ℕ) (U := UR sig nD τ) (Lvl := ℕ) (Val := Elt F) spec2 c [cc2_scratch0]) := by
  subst hz
  show Pipeline.scopedRest spec2 c = _
  rw [scopedRest2_split]; simp only [scM2, owns_whole]; try rfl

theorem Phi2_succ (c : Dev nD) (n : ℕ) (hn : n < cfg2.N) :
    Phi2 V c (n + 1) hn = iprop(owns (c : Thread nD τ) scM2 fullShare (accAt2 V c n hn)
      ∗ Pipeline.scopedRestBut (Ix := Unit) (Name := ℕ) (U := UR sig nD τ) (Lvl := ℕ) (Val := Elt F) spec2 c [cc2_scratch0]) := rfl

theorem Phi2_pos (c : Dev nD) (n : ℕ) (h : n ≤ cfg2.N) (hz : n ≠ 0) :
    Phi2 V c n h = iprop(owns (c : Thread nD τ) scM2 fullShare (accAt2 V c (n - 1) (by omega))
      ∗ Pipeline.scopedRestBut (Ix := Unit) (Name := ℕ) (U := UR sig nD τ) (Lvl := ℕ) (Val := Elt F) spec2 c [cc2_scratch0]) := by
  cases n with
  | zero => exact absurd rfl hz
  | succ n => rfl

/-! ## The pipeline's proof data -/

/-- The third call's proof data on core `c`: the arrays as the region finds them; after the body each input's
    buffer still at its block, the output's at accumulator + bias (consulted at last points only); the invariant
    above; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => outAt2 V c t
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem Phi2_castSucc (c : Dev nD) (t : Fin cfg2.N) :
    (dat2 V c).Φ t.castSucc = Phi2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = outAt2 V c t := by dsimp only [dat2]

/-- Each input's current staging buffer holds its block at every point, fetched there or not: an input that is
    not fetched has not moved, and the body leaves it in place. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t ∗ (dat2 V c).leavesExact 3 t)

theorem leaves2_0 (c : Dev nD) (t : Fin cfg2.N) :
    (dat2 V c).leavesExact 0 t = owns (c : Thread nD τ) (st2_0 t) fullShare (xblk2 V c t) := by
  unfold Dat.leavesExact; rw [live2_0 t, after2_0]
theorem leaves2_1 (c : Dev nD) (t : Fin cfg2.N) :
    (dat2 V c).leavesExact 1 t = owns (c : Thread nD τ) (st2_1 t) fullShare (wblk2 V c t) := by
  unfold Dat.leavesExact; rw [live2_1 t, after2_1]
theorem leaves2_2 (c : Dev nD) (t : Fin cfg2.N) :
    (dat2 V c).leavesExact 2 t = owns (c : Thread nD τ) (st2_2 t) fullShare (bblk2 V c t) := by
  unfold Dat.leavesExact; rw [live2_2 t, after2_2]

set_option maxHeartbeats 1600000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = Phi2 V c (t.val + 1) t.isLt from rfl, Phi2_succ]
  rw [leaves2_0, leaves2_1, leaves2_2, Phi2_castSucc]
  have hN : t.val < 32 := lt_of_lt_of_eq t.isLt (show cfg2.N = 32 from N_2)
  by_cases h1 : t.val % 4 = 3
  · -- a last point
    have h0 : ¬t.val % 4 = 0 := by omega
    have hz : t.val ≠ 0 := by omega
    have hL : condLast2 (grid2.coords t) := (hcondLast2 t).mpr h1
    have hF : ¬condFirst2 (grid2.coords t) := fun h => h0 ((hcondFirst2 t).mp h)
    rw [show (dat2 V c).leavesExact 3 t = owns (c : Thread nD τ) (st2_3 t) fullShare ((dat2 V c).after 3 t) from by
      unfold Dat.leavesExact; rw [live2_3 t hL], after2_3]
    unfold outAt2
    rw [accAt2_next V c t h0, Phi2_pos V c _ _ hz]
    iintro ⟨⟨HS, Hr⟩, Ho, ⟨%d0, H0⟩, ⟨%d1, H1⟩, ⟨%d2, H2⟩, ⟨%d3, H3⟩⟩
    iapply (bodyLast2 c (grid2.coords t) _ _ _ _ _ _ _ _ scM2 (Memref.isWhole_whole _) hF hL (xblk2 V c t) (wblk2 V c t) (bblk2 V c t)
      (accAt2 V c (t.val - 1) (Nat.lt_of_le_of_lt (Nat.sub_le _ _) t.isLt)) Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hr]
    · isplitl [HS]; · iexact HS
      iexact Hr
    isplitl [Ho]; · iexact Ho
    isplitl [H0]; · iexact H0
    isplitl [H1]; · iexact H1
    isplitl [H2]; · iexact H2
    iexact H3
  · have hL : ¬condLast2 (grid2.coords t) := fun h => h1 ((hcondLast2 t).mp h)
    rw [Dat.leavesExact_idle (dat2 V c) 3 t (idle2_3 t hL) (noFlush2_3 t hL)]
    by_cases h0 : t.val % 4 = 0
    · -- a first point
      have hF : condFirst2 (grid2.coords t) := (hcondFirst2 t).mpr h0
      rw [accAt2_first V c t h0]
      have hS : Phi2 V c t.val (Nat.le_of_lt t.isLt) ⊢ iprop(iprop(∃ d, owns (c : Thread nD τ) scM2 fullShare d)
          ∗ Pipeline.scopedRestBut (Ix := Unit) (Name := ℕ) (U := UR sig nD τ) (Lvl := ℕ) (Val := Elt F) spec2 c [cc2_scratch0]) := by
        by_cases hz : t.val = 0
        · rw [Phi2_zero V c _ _ hz]
        · rw [Phi2_pos V c _ _ hz]
          iintro ⟨HS, Hr⟩
          isplitl [HS]; · iexists _; iexact HS
          iexact Hr
      iintro ⟨HP, Ho, ⟨%d0, H0⟩, ⟨%d1, H1⟩, ⟨%d2, H2⟩, ⟨%d3, H3⟩⟩
      ihave HP' := hS $$ HP
      icases HP' with ⟨HS, Hr⟩
      iapply (bodyFirst2 c (grid2.coords t) _ _ _ _ _ _ _ _ scM2 (Memref.isWhole_whole _) hF hL (xblk2 V c t) (wblk2 V c t) (bblk2 V c t)
        ((dat2 V c).before 3 t d3) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr]
      · isplitl [HS]; · iexact HS
        iexact Hr
      isplitl [Ho]; · iexact Ho
      isplitl [H0]; · iexact H0
      isplitl [H1]; · iexact H1
      isplitl [H2]; · iexact H2
      iexists _; iexact H3
    · -- a middle point
      have hz : t.val ≠ 0 := fun e => h0 (by rw [e])
      have hF : ¬condFirst2 (grid2.coords t) := fun h => h0 ((hcondFirst2 t).mp h)
      rw [accAt2_next V c t h0, Phi2_pos V c _ _ hz]
      iintro ⟨⟨HS, Hr⟩, Ho, ⟨%d0, H0⟩, ⟨%d1, H1⟩, ⟨%d2, H2⟩, ⟨%d3, H3⟩⟩
      iapply (bodyMid2 c (grid2.coords t) _ _ _ _ _ _ _ _ scM2 (Memref.isWhole_whole _) hF hL (xblk2 V c t) (wblk2 V c t) (bblk2 V c t)
        ((dat2 V c).before 3 t d3) (accAt2 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr]
      · isplitl [HS]; · iexact HS
        iexact Hr
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- After any point but none the invariant gives the scoped rest back: the accumulator's named contents are forgotten. -/
theorem Phi2_out (c : Dev nD) : (dat2 V c).Φ (Fin.last cfg2.N) ⊢ (Pipeline.scopedRest spec2 c : sProp 𝕄) := by
  rw [show (dat2 V c).Φ (Fin.last cfg2.N) = Phi2 V c (Fin.last cfg2.N).val (Nat.le_of_lt_succ (Fin.last cfg2.N).isLt) from rfl,
    Phi2_pos V c _ _ (by rw [Fin.val_last]; have : cfg2.N = 32 := N_2; omega), scopedRest2_split]
  iintro ⟨HS, Hr⟩
  isplitl [HS]
  · simp only [scM2, owns_whole]; iexists _; iexact HS
  iexact Hr

end Region

end Cert.KernelIdeal.Hand

end
-- ==== Proof.KernelIdeal.Body3.lean ====
/-
  The matmul kernel's body at one grid point of the fourth call, in its three control cases.

  The body keeps a running block product in a scratch accumulator. At a point where the reduction coordinate
  `k` is 0 it first zeroes the accumulator; at every point it adds the product of the current activation block
  and weight block to it; at the point where `k` is the last (3) it also stores accumulator + bias row into the
  output block. So with `x`, `w`, `b` the three input blocks and `a` what the accumulator held:
    first  point (k = 0):       accumulator ends at  step x w zero;                 output block untouched
    middle point (0 < k < 3):   accumulator ends at  step x w a;                    output block untouched
    last   point (k = 3):       accumulator ends at  step x w a, and the output block at  (step x w a) + b
  where `step` is the printed payload `k3_pay2`, `zero` is `k3_pay1`, and the biased sum is `k3_pay3`.
  Each case is one run of the symbolic executor over the printed body; what the run leaves in a buffer is a
  list of whole-buffer stores, read back by the lemmas on whole-buffer rectangles.
-/
import proofs.«109952_j48137993453602_1_alg».proof.Proof.Gen.KernelIdeal.Launch
import proofs.«109952_j48137993453602_1_alg».proof.Proof.Gen.KernelIdeal.Skeleton
import proofs.«109952_j48137993453602_1_alg».proof.Proof.Gen.KernelIdeal.Points
import proofs.«109952_j48137993453602_1_alg».proof.Proof.LibWholeBuffer
import Idealize.ShloMosaic.Lib.Pipeline.FrameBody
import Idealize.ShloMosaic.Lib.Tactic

set_option maxRecDepth 16384

noncomputable section

namespace Cert.KernelIdeal.Hand

open Cert.KernelIdeal Cert.KernelIdeal.Gen Cert.LibWholeBuffer
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The reduction coordinate is 0: the accumulator is zeroed at this point (the body's first conditional). -/
abbrev condFirst3 (i : grid3.Coords) : Prop := (Scalar.cmpi .ne (Scalar.extui (Scalar.cmpi .eq (BitVec.ofNat 32 (i 2).val) 0#32)) 0#32) = 1#1
/-- The reduction coordinate is the last: the output block is stored at this point (the body's second conditional). -/
abbrev condLast3 (i : grid3.Coords) : Prop := k3_cond2 i = 1#1

/-- A middle point: the accumulator goes from `xs` to `step x0 w0 xs`; every other buffer is handed back as found. -/
theorem bodyMid3 (c : Dev nD) (i : grid3.Coords)
    (arg3 : Memref sig .tc .vmem S512x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S512x1024 .f32) (harg6 : arg6.IsWhole)
    (arg7 : Memref sig .tc .vmem S512x1024 .f32) (harg7 : arg7.IsWhole)
    (hc0 : ¬condFirst3 i) (hc1 : ¬condLast3 i)
    (x0 : Vec F S512x1024 .f32) (w0 : Vec F S1024x1024 .f32) (b0 : Vec F S1x1024 .f32) (xi : Vec F S512x1024 .f32) (xs : Vec F S512x1024 .f32)
    (E : Set ℕ) (K : PUnit → sProp 𝕄) :
    iprop(owns (c : Thread nD τ) arg3 fullShare x0 ∗ owns (c : Thread nD τ) arg4 fullShare w0 ∗ owns (c : Thread nD τ) arg5 fullShare b0
        ∗ owns (c : Thread nD τ) arg6 fullShare xi ∗ owns (c : Thread nD τ) arg7 fullShare xs
        ∗ (iprop(owns (c : Thread nD τ) arg3 fullShare x0 ∗ owns (c : Thread nD τ) arg4 fullShare w0 ∗ owns (c : Thread nD τ) arg5 fullShare b0
            ∗ owns (c : Thread nD τ) arg6 fullShare xi ∗ owns (c : Thread nD τ) arg7 fullShare (k3_pay2 x0 w0 xs)) -∗ K ⟨⟩))
      ⊢ wp frame (wpE (defs₀ (F := F)) Variants.none c none) E (cc3__patch_matmul_kernel i arg3 harg3 arg4 harg4 arg5 harg5 arg6 harg6 arg7 harg7) K := by
  simp only [cc3__patch_matmul_kernel_eq_skeleton]; unfold cc3__patch_matmul_kernel_skel
  unfold owns
  iintro ⟨⟨%f3, %hf3, H3⟩, ⟨%f4, %hf4, H4⟩, ⟨%f5, %hf5, H5⟩, ⟨%f6, %hf6, H6⟩, ⟨%f7, %hf7, H7⟩, Hk⟩
  obtain rfl := harg3.eq_unread hf3; obtain rfl := harg4.eq_unread hf4; obtain rfl := harg5.eq_unread hf5
  obtain rfl := harg6.eq_unread hf6; obtain rfl := harg7.eq_unread hf7
  sl_exec (disch := first | exact hc0 | exact hc1)
  sl_step
  iapply Hk
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  iexists _; isplitr; swap; · iexact H7
  ipureintro
  refine (read_after_whole_store (S := S512x1024) _ _ zeros2 _ _ _).trans ?_
  exact congr (congr (congrArg k3_pay2 (load_whole harg3 zeros2 _ x0)) (load_whole harg4 zeros2 _ w0)) (load_whole harg7 zeros2 _ xs)

/-- A first point: whatever the accumulator held, it ends at `step x0 w0 zero`; every other buffer is handed back as found. -/
theorem bodyFirst3 (c : Dev nD) (i : grid3.Coords)
    (arg3 : Memref sig .tc .vmem S512x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S512x1024 .f32) (harg6 : arg6.IsWhole)
    (arg7 : Memref sig .tc .vmem S512x1024 .f32) (harg7 : arg7.IsWhole)
    (hc0 : condFirst3 i) (hc1 : ¬condLast3 i)
    (x0 : Vec F S512x1024 .f32) (w0 : Vec F S1024x1024 .f32) (b0 : Vec F S1x1024 .f32) (xi : Vec F S512x1024 .f32)
    (E : Set ℕ) (K : PUnit → sProp 𝕄) :
    iprop(owns (c : Thread nD τ) arg3 fullShare x0 ∗ owns (c : Thread nD τ) arg4 fullShare w0 ∗ owns (c : Thread nD τ) arg5 fullShare b0
        ∗ owns (c : Thread nD τ) arg6 fullShare xi ∗ (∃ d, owns (c : Thread nD τ) arg7 fullShare d)
        ∗ (iprop(owns (c : Thread nD τ) arg3 fullShare x0 ∗ owns (c : Thread nD τ) arg4 fullShare w0 ∗ owns (c : Thread nD τ) arg5 fullShare b0
            ∗ owns (c : Thread nD τ) arg6 fullShare xi ∗ owns (c : Thread nD τ) arg7 fullShare (k3_pay2 x0 w0 (k3_pay1 (F := F)))) -∗ K ⟨⟩))
      ⊢ wp frame (wpE (defs₀ (F := F)) Variants.none c none) E (cc3__patch_matmul_kernel i arg3 harg3 arg4 harg4 arg5 harg5 arg6 harg6 arg7 harg7) K := by
  simp only [cc3__patch_matmul_kernel_eq_skeleton]; unfold cc3__patch_matmul_kernel_skel
  unfold owns
  iintro ⟨⟨%f3, %hf3, H3⟩, ⟨%f4, %hf4, H4⟩, ⟨%f5, %hf5, H5⟩, ⟨%f6, %hf6, H6⟩, ⟨%d7, %f7, %hf7, H7⟩, Hk⟩
  obtain rfl := harg3.eq_unread hf3; obtain rfl := harg4.eq_unread hf4; obtain rfl := harg5.eq_unread hf5
  obtain rfl := harg6.eq_unread hf6
  sl_exec (disch := first | exact hc0 | exact hc1)
  sl_step
  iapply Hk
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  isplitl [H6]; · iexists _; isplitr; · ipureintro; exact hf6
                  iexact H6
  iexists _; isplitr; swap; · iexact H7
  ipureintro
  sl_unfold_run_names
  refine (read_after_whole_store (S := S512x1024) _ _ zeros2 _ _ _).trans ?_
  exact congr (congr (congrArg k3_pay2 (load_whole harg3 zeros2 _ x0)) (load_whole harg4 zeros2 _ w0)) (load_after_whole_store (S := S512x1024) _ zeros2 _ _)

/-- A last point: the accumulator goes from `xs` to `step x0 w0 xs`, and the output block, whatever it held, ends at that plus the bias row. -/
theorem bodyLast3 (c : Dev nD) (i : grid3.Coords)
    (arg3 : Memref sig .tc .vmem S512x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S512x1024 .f32) (harg6 : arg6.IsWhole)
    (arg7 : Memref sig .tc .vmem S512x1024 .f32) (harg7 : arg7.IsWhole)
    (hc0 : ¬condFirst3 i) (hc1 : condLast3 i)
    (x0 : Vec F S512x1024 .f32) (w0 : Vec F S1024x1024 .f32) (b0 : Vec F S1x1024 .f32) (xs : Vec F S512x1024 .f32)
    (E : Set ℕ) (K : PUnit → sProp 𝕄) :
    iprop(owns (c : Thread nD τ) arg3 fullShare x0 ∗ owns (c : Thread nD τ) arg4 fullShare w0 ∗ owns (c : Thread nD τ) arg5 fullShare b0
        ∗ (∃ d, owns (c : Thread nD τ) arg6 fullShare d) ∗ owns (c : Thread nD τ) arg7 fullShare xs
        ∗ (iprop(owns (c : Thread nD τ) arg3 fullShare x0 ∗ owns (c : Thread nD τ) arg4 fullShare w0 ∗ owns (c : Thread nD τ) arg5 fullShare b0
            ∗ owns (c : Thread nD τ) arg6 fullShare (k3_pay3 (k3_pay2 x0 w0 xs) b0) ∗ owns (c : Thread nD τ) arg7 fullShare (k3_pay2 x0 w0 xs)) -∗ K ⟨⟩))
      ⊢ wp frame (wpE (defs₀ (F := F)) Variants.none c none) E (cc3__patch_matmul_kernel i arg3 harg3 arg4 harg4 arg5 harg5 arg6 harg6 arg7 harg7) K := by
  simp only [cc3__patch_matmul_kernel_eq_skeleton]; unfold cc3__patch_matmul_kernel_skel
  unfold owns
  iintro ⟨⟨%f3, %hf3, H3⟩, ⟨%f4, %hf4, H4⟩, ⟨%f5, %hf5, H5⟩, ⟨%d6, %f6, %hf6, H6⟩, ⟨%f7, %hf7, H7⟩, Hk⟩
  obtain rfl := harg3.eq_unread hf3; obtain rfl := harg4.eq_unread hf4; obtain rfl := harg5.eq_unread hf5
  obtain rfl := harg7.eq_unread hf7
  sl_exec (disch := first | exact hc0 | exact hc1)
  sl_step
  iapply Hk
  isplitl [H3]; · iexists _; isplitr; · ipureintro; exact hf3
                  iexact H3
  isplitl [H4]; · iexists _; isplitr; · ipureintro; exact hf4
                  iexact H4
  isplitl [H5]; · iexists _; isplitr; · ipureintro; exact hf5
                  iexact H5
  have hacc : k3_pay2 (View.readAt (Elt F) arg3.view (Rect.unit ![0, 0] S512x1024.size inb_S512x1024_S512x1024_0_0).toLoadRect (harg3.unread x0))
      (View.readAt (Elt F) arg4.view (Rect.unit ![0, 0] S1024x1024.size inb_S1024x1024_S1024x1024_0_0).toLoadRect (harg4.unread w0))
      (View.readAt (Elt F) arg7.view (Rect.unit ![0, 0] S512x1024.size inb_S512x1024_S512x1024_0_0).toLoadRect (harg7.unread xs))
      = k3_pay2 x0 w0 xs :=
    congr (congr (congrArg k3_pay2 (load_whole harg3 zeros2 _ x0)) (load_whole harg4 zeros2 _ w0)) (load_whole harg7 zeros2 _ xs)
  isplitl [H6]
  · iexists _; isplitr; swap; · iexact H6
    ipureintro
    sl_unfold_run_names
    refine (read_after_whole_store (S := S512x1024) _ _ zeros2 _ _ _).trans ?_
    exact congr (congrArg k3_pay3 ((load_after_whole_store (S := S512x1024) _ zeros2 _ _).trans hacc)) (load_whole harg5 zeros2 _ b0)
  iexists _; isplitr; swap; · iexact H7
  ipureintro
  sl_unfold_run_names
  exact (read_after_whole_store (S := S512x1024) _ _ zeros2 _ _ _).trans hacc

end Cert.KernelIdeal.Hand

end
-- ==== Proof.KernelIdeal.Region3.lean ====
/-
  The fourth call's pipeline: what the scratch accumulator and the output block hold point by point, the proof
  data, and the body obligation.

  The grid is 2 x 4 x 4 (row block i, column block j, reduction block k, k fastest): position n has k = n mod 4.
  The accumulator after position n is the sum of the block products of the reduction blocks 0..k of its (i, j);
  the output block is stored, as accumulator + bias row, at the positions with k = 3 and is idle elsewhere (the
  pipeline neither writes it back nor refetches it there). The body obligation at a point is the matching case
  of the body's three runs, the invariant handing the accumulator over at what the point before left.
-/
import proofs.«109952_j48137993453602_1_alg».proof.Proof.KernelIdeal.Body3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## When the two conditions hold, decided over the grid; where the windows are idle -/

theorem hcondFirst3 : ∀ t : Fin cfg3.N, condFirst3 (grid3.coords t) ↔ t.val % 4 = 0 :=
  (by decide +kernel : ∀ t : Fin grid3.N, condFirst3 (grid3.coords t) ↔ t.val % 4 = 0)
theorem hcondLast3 : ∀ t : Fin cfg3.N, condLast3 (grid3.coords t) ↔ t.val % 4 = 3 :=
  (by decide +kernel : ∀ t : Fin grid3.N, condLast3 (grid3.coords t) ↔ t.val % 4 = 3)

/-- The three input windows are never idle. -/
theorem live3_0 : ∀ t : Fin cfg3.N, cfg3.idle 0 (grid3.coords t) = false := by decide +kernel
theorem live3_1 : ∀ t : Fin cfg3.N, cfg3.idle 1 (grid3.coords t) = false := by decide +kernel
theorem live3_2 : ∀ t : Fin cfg3.N, cfg3.idle 2 (grid3.coords t) = false := by decide +kernel
/-- Away from a last point the output window is idle and is not written back; at a last point it is live. -/
theorem idle3_3 : ∀ t : Fin cfg3.N, ¬condLast3 (grid3.coords t) → cfg3.idle 3 (grid3.coords t) = true := by decide +kernel
theorem noFlush3_3 : ∀ t : Fin cfg3.N, ¬condLast3 (grid3.coords t) → (cfg3.win 3).flush t = false := by decide +kernel
theorem live3_3 : ∀ t : Fin cfg3.N, condLast3 (grid3.coords t) → cfg3.idle 3 (grid3.coords t) = false := by decide +kernel

section Region

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The activation block, the weight block and the bias row at point `t`, at their literal shapes. -/
abbrev xblk3 (c : Dev nD) (t : Fin cfg3.N) : Vec F S512x1024 .f32 := iblk3 V c 0 t
abbrev wblk3 (c : Dev nD) (t : Fin cfg3.N) : Vec F S1024x1024 .f32 := iblk3 V c 1 t
abbrev bblk3 (c : Dev nD) (t : Fin cfg3.N) : Vec F S1x1024 .f32 := iblk3 V c 2 t

/-! ## The running block product -/

/-- What the scratch accumulator holds after the body at position `n`: one more block product added to what
    the position before left, restarting from zero wherever the reduction coordinate is 0 (every fourth position). -/
def accAt3 (c : Dev nD) : (n : ℕ) → n < cfg3.N → Vec F S512x1024 .f32
  | 0, hn => k3_pay2 (xblk3 V c ⟨0, hn⟩) (wblk3 V c ⟨0, hn⟩) (k3_pay1 (F := F))
  | n + 1, hn => k3_pay2 (xblk3 V c ⟨n + 1, hn⟩) (wblk3 V c ⟨n + 1, hn⟩)
      (if (n + 1) % 4 = 0 then k3_pay1 (F := F) else accAt3 c n (Nat.lt_of_succ_lt hn))

theorem accAt3_first (c : Dev nD) (t : Fin cfg3.N) (h0 : t.val % 4 = 0) :
    accAt3 V c t.val t.isLt = k3_pay2 (xblk3 V c t) (wblk3 V c t) (k3_pay1 (F := F)) := by
  obtain ⟨n, hn⟩ := t
  cases n with
  | zero => rfl
  | succ n => exact congrArg (k3_pay2 (xblk3 V c ⟨n + 1, hn⟩) (wblk3 V c ⟨n + 1, hn⟩)) (if_pos h0)

theorem accAt3_next (c : Dev nD) (t : Fin cfg3.N) (h0 : ¬t.val % 4 = 0) :
    accAt3 V c t.val t.isLt = k3_pay2 (xblk3 V c t) (wblk3 V c t)
      (accAt3 V c (t.val - 1) (Nat.lt_of_le_of_lt (Nat.sub_le _ _) t.isLt)) := by
  obtain ⟨n, hn⟩ := t
  cases n with
  | zero => exact absurd (Nat.zero_mod _) h0
  | succ n => exact congrArg (k3_pay2 (xblk3 V c ⟨n + 1, hn⟩) (wblk3 V c ⟨n + 1, hn⟩)) (if_neg h0)

/-- What a last point stores into the output block: the accumulator's block product plus the bias row. -/
def outAt3 (c : Dev nD) (t : Fin cfg3.N) : Vec F S512x1024 .f32 := k3_pay3 (accAt3 V c t.val t.isLt) (bblk3 V c t)

/-! ## The invariant between points -/

/-- The kernel's scratch accumulator, as a whole-buffer memref. -/
abbrev scM3 : Memref sig .tc .vmem S512x1024 .f32 := Memref.whole cc3_scratch0

/-- Before position `n`: at the first position every scoped buffer no window stages is at anything; afterwards the
    accumulator holds the running block product of the position before, the other such buffers anything. -/
def Phi3 (c : Dev nD) : (n : ℕ) → n ≤ cfg3.N → sProp 𝕄
  | 0, _ => Pipeline.scopedRest spec3 c
  | n + 1, hn => iprop(owns (c : Thread nD τ) scM3 fullShare (accAt3 V c n hn)
      ∗ Pipeline.scopedRestBut (Ix := Unit) (Name := ℕ) (U := UR sig nD τ) (Lvl := ℕ) (Val := Elt F) spec3 c [cc3_scratch0])

theorem Phi3_zero (c : Dev nD) (n : ℕ) (h : n ≤ cfg3.N) (hz : n = 0) :
    Phi3 V c n h = iprop(iprop(∃ d, owns (c : Thread nD τ) scM3 fullShare d)
      ∗ Pipeline.scopedRestBut (Ix := Unit) (Name := ℕ) (U := UR sig nD τ) (Lvl := ℕ) (Val := Elt F) spec3 c [cc3_scratch0]) := by
  subst hz
  show Pipeline.scopedRest spec3 c = _
  rw [scopedRest3_split]; simp only [scM3, owns_whole]; try rfl

theorem Phi3_succ (c : Dev nD) (n : ℕ) (hn : n < cfg3.N) :
    Phi3 V c (n + 1) hn = iprop(owns (c : Thread nD τ) scM3 fullShare (accAt3 V c n hn)
      ∗ Pipeline.scopedRestBut (Ix := Unit) (Name := ℕ) (U := UR sig nD τ) (Lvl := ℕ) (Val := Elt F) spec3 c [cc3_scratch0]) := rfl

theorem Phi3_pos (c : Dev nD) (n : ℕ) (h : n ≤ cfg3.N) (hz : n ≠ 0) :
    Phi3 V c n h = iprop(owns (c : Thread nD τ) scM3 fullShare (accAt3 V c (n - 1) (by omega))
      ∗ Pipeline.scopedRestBut (Ix := Unit) (Name := ℕ) (U := UR sig nD τ) (Lvl := ℕ) (Val := Elt F) spec3 c [cc3_scratch0]) := by
  cases n with
  | zero => exact absurd rfl hz
  | succ n => rfl

/-! ## The pipeline's proof data -/

/-- The fourth call's proof data on core `c`: the arrays as the region finds them; after the body each input's
    buffer still at its block, the output's at accumulator + bias (consulted at last points only); the invariant
    above; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => outAt3 V c t
  Φ t := Phi3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem Phi3_castSucc (c : Dev nD) (t : Fin cfg3.N) :
    (dat3 V c).Φ t.castSucc = Phi3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = outAt3 V c t := by dsimp only [dat3]

/-- Each input's current staging buffer holds its block at every point, fetched there or not: an input that is
    not fetched has not moved, and the body leaves it in place. -/
theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t ∗ (dat3 V c).leavesExact 1 t ∗ (dat3 V c).leavesExact 2 t ∗ (dat3 V c).leavesExact 3 t)

theorem leaves3_0 (c : Dev nD) (t : Fin cfg3.N) :
    (dat3 V c).leavesExact 0 t = owns (c : Thread nD τ) (st3_0 t) fullShare (xblk3 V c t) := by
  unfold Dat.leavesExact; rw [live3_0 t, after3_0]
theorem leaves3_1 (c : Dev nD) (t : Fin cfg3.N) :
    (dat3 V c).leavesExact 1 t = owns (c : Thread nD τ) (st3_1 t) fullShare (wblk3 V c t) := by
  unfold Dat.leavesExact; rw [live3_1 t, after3_1]
theorem leaves3_2 (c : Dev nD) (t : Fin cfg3.N) :
    (dat3 V c).leavesExact 2 t = owns (c : Thread nD τ) (st3_2 t) fullShare (bblk3 V c t) := by
  unfold Dat.leavesExact; rw [live3_2 t, after3_2]

set_option maxHeartbeats 1600000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = Phi3 V c (t.val + 1) t.isLt from rfl, Phi3_succ]
  rw [leaves3_0, leaves3_1, leaves3_2, Phi3_castSucc]
  have hN : t.val < 32 := lt_of_lt_of_eq t.isLt (show cfg3.N = 32 from N_3)
  by_cases h1 : t.val % 4 = 3
  · -- a last point
    have h0 : ¬t.val % 4 = 0 := by omega
    have hz : t.val ≠ 0 := by omega
    have hL : condLast3 (grid3.coords t) := (hcondLast3 t).mpr h1
    have hF : ¬condFirst3 (grid3.coords t) := fun h => h0 ((hcondFirst3 t).mp h)
    rw [show (dat3 V c).leavesExact 3 t = owns (c : Thread nD τ) (st3_3 t) fullShare ((dat3 V c).after 3 t) from by
      unfold Dat.leavesExact; rw [live3_3 t hL], after3_3]
    unfold outAt3
    rw [accAt3_next V c t h0, Phi3_pos V c _ _ hz]
    iintro ⟨⟨HS, Hr⟩, Ho, ⟨%d0, H0⟩, ⟨%d1, H1⟩, ⟨%d2, H2⟩, ⟨%d3, H3⟩⟩
    iapply (bodyLast3 c (grid3.coords t) _ _ _ _ _ _ _ _ scM3 (Memref.isWhole_whole _) hF hL (xblk3 V c t) (wblk3 V c t) (bblk3 V c t)
      (accAt3 V c (t.val - 1) (Nat.lt_of_le_of_lt (Nat.sub_le _ _) t.isLt)) Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hr]
    · isplitl [HS]; · iexact HS
      iexact Hr
    isplitl [Ho]; · iexact Ho
    isplitl [H0]; · iexact H0
    isplitl [H1]; · iexact H1
    isplitl [H2]; · iexact H2
    iexact H3
  · have hL : ¬condLast3 (grid3.coords t) := fun h => h1 ((hcondLast3 t).mp h)
    rw [Dat.leavesExact_idle (dat3 V c) 3 t (idle3_3 t hL) (noFlush3_3 t hL)]
    by_cases h0 : t.val % 4 = 0
    · -- a first point
      have hF : condFirst3 (grid3.coords t) := (hcondFirst3 t).mpr h0
      rw [accAt3_first V c t h0]
      have hS : Phi3 V c t.val (Nat.le_of_lt t.isLt) ⊢ iprop(iprop(∃ d, owns (c : Thread nD τ) scM3 fullShare d)
          ∗ Pipeline.scopedRestBut (Ix := Unit) (Name := ℕ) (U := UR sig nD τ) (Lvl := ℕ) (Val := Elt F) spec3 c [cc3_scratch0]) := by
        by_cases hz : t.val = 0
        · rw [Phi3_zero V c _ _ hz]
        · rw [Phi3_pos V c _ _ hz]
          iintro ⟨HS, Hr⟩
          isplitl [HS]; · iexists _; iexact HS
          iexact Hr
      iintro ⟨HP, Ho, ⟨%d0, H0⟩, ⟨%d1, H1⟩, ⟨%d2, H2⟩, ⟨%d3, H3⟩⟩
      ihave HP' := hS $$ HP
      icases HP' with ⟨HS, Hr⟩
      iapply (bodyFirst3 c (grid3.coords t) _ _ _ _ _ _ _ _ scM3 (Memref.isWhole_whole _) hF hL (xblk3 V c t) (wblk3 V c t) (bblk3 V c t)
        ((dat3 V c).before 3 t d3) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr]
      · isplitl [HS]; · iexact HS
        iexact Hr
      isplitl [Ho]; · iexact Ho
      isplitl [H0]; · iexact H0
      isplitl [H1]; · iexact H1
      isplitl [H2]; · iexact H2
      iexists _; iexact H3
    · -- a middle point
      have hz : t.val ≠ 0 := fun e => h0 (by rw [e])
      have hF : ¬condFirst3 (grid3.coords t) := fun h => h0 ((hcondFirst3 t).mp h)
      rw [accAt3_next V c t h0, Phi3_pos V c _ _ hz]
      iintro ⟨⟨HS, Hr⟩, Ho, ⟨%d0, H0⟩, ⟨%d1, H1⟩, ⟨%d2, H2⟩, ⟨%d3, H3⟩⟩
      iapply (bodyMid3 c (grid3.coords t) _ _ _ _ _ _ _ _ scM3 (Memref.isWhole_whole _) hF hL (xblk3 V c t) (wblk3 V c t) (bblk3 V c t)
        ((dat3 V c).before 3 t d3) (accAt3 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr]
      · isplitl [HS]; · iexact HS
        iexact Hr
      isplitl [Ho]; · iexact Ho
      isplitl [H0]; · iexact H0
      isplitl [H1]; · iexact H1
      isplitl [H2]; · iexact H2
      iexists _; iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- After any point but none the invariant gives the scoped rest back: the accumulator's named contents are forgotten. -/
theorem Phi3_out (c : Dev nD) : (dat3 V c).Φ (Fin.last cfg3.N) ⊢ (Pipeline.scopedRest spec3 c : sProp 𝕄) := by
  rw [show (dat3 V c).Φ (Fin.last cfg3.N) = Phi3 V c (Fin.last cfg3.N).val (Nat.le_of_lt_succ (Fin.last cfg3.N).isLt) from rfl,
    Phi3_pos V c _ _ (by rw [Fin.val_last]; have : cfg3.N = 32 := N_3; omega), scopedRest3_split]
  iintro ⟨HS, Hr⟩
  isplitl [HS]
  · simp only [scM3, owns_whole]; iexists _; iexact HS
  iexact Hr

end Region

end Cert.KernelIdeal.Hand

end
-- ==== Proof.KernelIdeal.Chain.lean ====
/-
  What the TensorCore's unscoped buffers hold between the items of @main, and every pipeline's proof data.

  @main is: nine host operations (the two patch matrices and the first bias row), then four times a matmul call
  followed by host operations (the next call's bias row; after the last call the two sums and the two
  re-assemblies). The contents fold through it: a host stretch applies its operations; a call leaves its three
  input arrays as they were and its output array at what the pipeline's write-backs make of it
  (`Dat.arrAt` at the last point), every other buffer untouched.
-/
import proofs.«109952_j48137993453602_1_alg».proof.Proof.KernelIdeal.Region0
import proofs.«109952_j48137993453602_1_alg».proof.Proof.KernelIdeal.Region1
import proofs.«109952_j48137993453602_1_alg».proof.Proof.KernelIdeal.Region2
import proofs.«109952_j48137993453602_1_alg».proof.Proof.KernelIdeal.Region3
import proofs.«109952_j48137993453602_1_alg».proof.Proof.Gen.KernelIdeal.Regions
import Idealize.ShloMosaic.Lib.Pipeline.FrameSuffix
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev Ulaunch : Dev nD → Valuation τ sig (Elt F) := fun c b => m (c, b)

/-- When the first call is entered: the first nine host operations have run. -/
abbrev Uin0 : Dev nD → Valuation τ sig (Elt F) := fun c => StableHlo.after hostOps0 (Ulaunch m c)
abbrev Rin0 : (c : Dev nD) → (b : Ref sig .tc) → Buf (Elt F) ((c : Thread nD τ).loc b) := fun c b => Uin0 m c b
/-- When the first call returns. -/
def Uout0 (c : Dev nD) : Valuation τ sig (Elt F) :=
  Pipeline.withArrays spec0 c (Uin0 m c) fun w => (dat0 (Rin0 m) c).arrAt w cfg0.N

abbrev Uin1 : Dev nD → Valuation τ sig (Elt F) := fun c => StableHlo.after hostOps1 (Uout0 m c)
abbrev Rin1 : (c : Dev nD) → (b : Ref sig .tc) → Buf (Elt F) ((c : Thread nD τ).loc b) := fun c b => Uin1 m c b
def Uout1 (c : Dev nD) : Valuation τ sig (Elt F) :=
  Pipeline.withArrays spec1 c (Uin1 m c) fun w => (dat1 (Rin1 m) c).arrAt w cfg1.N

abbrev Uin2 : Dev nD → Valuation τ sig (Elt F) := fun c => StableHlo.after hostOps2 (Uout1 m c)
abbrev Rin2 : (c : Dev nD) → (b : Ref sig .tc) → Buf (Elt F) ((c : Thread nD τ).loc b) := fun c b => Uin2 m c b
def Uout2 (c : Dev nD) : Valuation τ sig (Elt F) :=
  Pipeline.withArrays spec2 c (Uin2 m c) fun w => (dat2 (Rin2 m) c).arrAt w cfg2.N

abbrev Uin3 : Dev nD → Valuation τ sig (Elt F) := fun c => StableHlo.after hostOps3 (Uout2 m c)
abbrev Rin3 : (c : Dev nD) → (b : Ref sig .tc) → Buf (Elt F) ((c : Thread nD τ).loc b) := fun c b => Uin3 m c b
def Uout3 (c : Dev nD) : Valuation τ sig (Elt F) :=
  Pipeline.withArrays spec3 c (Uin3 m c) fun w => (dat3 (Rin3 m) c).arrAt w cfg3.N

/-- At the return: the last eight host operations have run. -/
abbrev Uend : Dev nD → Valuation τ sig (Elt F) := fun c => StableHlo.after hostOps4 (Uout3 m c)

/-- Every pipeline's proof data, each at its call's entry contents (a literal match on the pipeline, so that the
    launch theorem's configuration at a numeral reduces to the printed one). -/
def pdats : (p : Fin 4) → (c : Dev nD) → Dat τ (Elt F) Unit ℕ (UR sig nD τ) ℕ (Pipeline.pin (pcfgs (F := F)) adm p) c
  | ⟨0, _⟩ => fun c => dat0 (Rin0 m) c
  | ⟨1, _⟩ => fun c => dat1 (Rin1 m) c
  | ⟨2, _⟩ => fun c => dat2 (Rin2 m) c
  | ⟨3, _⟩ => fun c => dat3 (Rin3 m) c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every item: the core's generator register at some state and its debts, none. -/
abbrev Ride (c : Dev nD) : sProp 𝕄 := iprop((∃ r, prngReg c r) ∗ ∃ W, owes (c : Thread nD τ) (0 : CellTallies nD τ sig Unit) W)

/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Ride

end Cert.KernelIdeal.Hand

end
-- ==== Proof.KernelIdeal.Seg0.lean ====
/-
  The first call as a segment of @main: entered with every unscoped buffer at the entry contents, left with the
  call's output array replaced by what the pipeline's write-backs make of it and every other buffer as entered.
  Entry sorts the call's four arrays out of the unscoped buffers; the rest, and the generator register, pass the
  call by. The kernel's invariant starts from the scoped buffers no window stages (its scratch accumulator among
  them) and hands them back at the end. The kernel has no semaphore of its own and owes nothing.
-/
import proofs.«109952_j48137993453602_1_alg».proof.Proof.KernelIdeal.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- After the call each of its arrays holds what the pipeline leaves there, every other buffer what it held. -/
theorem Uout0_arr (c : Dev nD) (w : Fin cfg0.W) :
    Uout0 m c (Proc.devRef .tc (Pipeline.arrRef spec0 w)) = (dat0 (Rin0 m) c).arrAt w cfg0.N := by
  unfold Uout0; exact Pipeline.withArrays_arr spec0 launch0.win.arr_inj c _ _ w
theorem Uout0_of_ne (c : Dev nD) (b : Ref sig .tc) (hb : ∀ w, Pipeline.arrRef spec0 w ≠ b) :
    Uout0 m c (Proc.devRef .tc b) = Uin0 m c (Proc.devRef .tc b) := by
  unfold Uout0; exact Pipeline.withArrays_of_ne spec0 c _ _ b hb

abbrev Rout0 : (c : Dev nD) → (b : Ref sig .tc) → Buf (Elt F) ((c : Thread nD τ).loc b) := fun c b => Uout0 m c b

theorem hF0 (c : Dev nD) (w : Fin cfg0.W) : (dat0 (Rin0 m) c).arrAt w cfg0.N = Rout0 m c (Pipeline.arrRef spec0 w) :=
  (Uout0_arr m c w).symm
theorem hrest0 (c : Dev nD) : ∀ b, b ∉ Finset.univ.image (Pipeline.arrRef spec0) → Rout0 m c b = Rin0 m c b :=
  fun b hb => Uout0_of_ne m c b fun w e => hb (Finset.mem_image.mpr ⟨w, Finset.mem_univ _, e⟩)

/-- The call changes only its output array: an input array ends as the pipeline's account of an input says (as entered),
    and a buffer that is no array of the call is not touched. -/
theorem Uout0_keep (c : Dev nD) (r : Ref sig .tc) (h : r ≠ Pipeline.arrRef spec0 3) : Uout0 m c r = Uin0 m c r := by
  by_cases hw : ∃ w, Pipeline.arrRef spec0 w = r
  · obtain ⟨w, rfl⟩ := hw
    have hin : (cfg0.win w).isOut = false := by
      fin_cases w
      · rfl
      · rfl
      · rfl
      · exact absurd rfl h
    exact (Uout0_arr m c w).trans (((dat0 (Rin0 m) c).arrAt_in w hin _).trans (A_eq0 (Rin0 m) c w))
  · exact Uout0_of_ne m c r fun w e => hw ⟨w, e⟩

-- a library lemma stated over the pinned configuration unifies with the printed one only when unification may unfold
-- plain definitions in a metavariable's type
set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Rin0 m) c).loose
  hwaits := Pipeline.hwaits_of_owed_zero _ _ _ _ L lv 0 fun _ _ => rfl
  pre c := iprop(StableHlo.held (c : Thread nD τ) (Pipeline.ucRefs τ sig) (Uin0 m c) ∗ Ride c)
  post c := iprop(StableHlo.held (c : Thread nD τ) (Pipeline.ucRefs τ sig) (Uout0 m c) ∗ Ride c)
  X c := iprop(emp)
  Y c := iprop(emp)
  Z c := iprop(Pipeline.unscopedRest (Ix := Unit) (Name := ℕ) (U := UR sig nD τ) (Lvl := ℕ) spec0 c (Rin0 m c) ∗ ∃ r, prngReg c r)
  hentry c := by
    rw [Pipeline.ownSems0_none]
    have hsplit := Pipeline.arrays_of_unscopedBufs (p := 0) (pcfgs (F := F)) adm (pdats m) launch0.win launch0.arr_whole c
      ((pdats m 0 c).share_full fun _ => rfl) (Rin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 0 c).Φ 0 = (Pipeline.scopedRest spec0 c : sProp 𝕄) from rfl]
    iintro ⟨-, -, Hr⟩
    iexact Hr
  hout c := by
    rw [Pipeline.ownSems0_none]
    refine (show (pdats m 0 c).Φ (Fin.last _) ⊢ (Pipeline.scopedRest spec0 c : sProp 𝕄) from Phi0_out (Rin0 m) c).trans ?_
    iintro Hr
    isplitr; · iempintro
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Rin0 m c) (Rout0 m c) ((pdats m 0 c).arrAt · cfg0.N) (hF0 m c) (hrest0 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.KernelIdeal.Hand

end
-- ==== Proof.KernelIdeal.Seg1.lean ====
/-
  The second call as a segment of @main: entered with every unscoped buffer at the entry contents, left with the
  call's output array replaced by what the pipeline's write-backs make of it and every other buffer as entered.
  Entry sorts the call's four arrays out of the unscoped buffers; the rest, and the generator register, pass the
  call by. The kernel's invariant starts from the scoped buffers no window stages (its scratch accumulator among
  them) and hands them back at the end. The kernel has no semaphore of its own and owes nothing.
-/
import proofs.«109952_j48137993453602_1_alg».proof.Proof.KernelIdeal.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- After the call each of its arrays holds what the pipeline leaves there, every other buffer what it held. -/
theorem Uout1_arr (c : Dev nD) (w : Fin cfg1.W) :
    Uout1 m c (Proc.devRef .tc (Pipeline.arrRef spec1 w)) = (dat1 (Rin1 m) c).arrAt w cfg1.N := by
  unfold Uout1; exact Pipeline.withArrays_arr spec1 launch1.win.arr_inj c _ _ w
theorem Uout1_of_ne (c : Dev nD) (b : Ref sig .tc) (hb : ∀ w, Pipeline.arrRef spec1 w ≠ b) :
    Uout1 m c (Proc.devRef .tc b) = Uin1 m c (Proc.devRef .tc b) := by
  unfold Uout1; exact Pipeline.withArrays_of_ne spec1 c _ _ b hb

abbrev Rout1 : (c : Dev nD) → (b : Ref sig .tc) → Buf (Elt F) ((c : Thread nD τ).loc b) := fun c b => Uout1 m c b

theorem hF1 (c : Dev nD) (w : Fin cfg1.W) : (dat1 (Rin1 m) c).arrAt w cfg1.N = Rout1 m c (Pipeline.arrRef spec1 w) :=
  (Uout1_arr m c w).symm
theorem hrest1 (c : Dev nD) : ∀ b, b ∉ Finset.univ.image (Pipeline.arrRef spec1) → Rout1 m c b = Rin1 m c b :=
  fun b hb => Uout1_of_ne m c b fun w e => hb (Finset.mem_image.mpr ⟨w, Finset.mem_univ _, e⟩)

/-- The call changes only its output array: an input array ends as the pipeline's account of an input says (as entered),
    and a buffer that is no array of the call is not touched. -/
theorem Uout1_keep (c : Dev nD) (r : Ref sig .tc) (h : r ≠ Pipeline.arrRef spec1 3) : Uout1 m c r = Uin1 m c r := by
  by_cases hw : ∃ w, Pipeline.arrRef spec1 w = r
  · obtain ⟨w, rfl⟩ := hw
    have hin : (cfg1.win w).isOut = false := by
      fin_cases w
      · rfl
      · rfl
      · rfl
      · exact absurd rfl h
    exact (Uout1_arr m c w).trans (((dat1 (Rin1 m) c).arrAt_in w hin _).trans (A_eq1 (Rin1 m) c w))
  · exact Uout1_of_ne m c r fun w e => hw ⟨w, e⟩

-- a library lemma stated over the pinned configuration unifies with the printed one only when unification may unfold
-- plain definitions in a metavariable's type
set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Rin1 m) c).loose
  hwaits := Pipeline.hwaits_of_owed_zero _ _ _ _ L lv 1 fun _ _ => rfl
  pre c := iprop(StableHlo.held (c : Thread nD τ) (Pipeline.ucRefs τ sig) (Uin1 m c) ∗ Ride c)
  post c := iprop(StableHlo.held (c : Thread nD τ) (Pipeline.ucRefs τ sig) (Uout1 m c) ∗ Ride c)
  X c := iprop(emp)
  Y c := iprop(emp)
  Z c := iprop(Pipeline.unscopedRest (Ix := Unit) (Name := ℕ) (U := UR sig nD τ) (Lvl := ℕ) spec1 c (Rin1 m c) ∗ ∃ r, prngReg c r)
  hentry c := by
    rw [Pipeline.ownSems0_none]
    have hsplit := Pipeline.arrays_of_unscopedBufs (p := 1) (pcfgs (F := F)) adm (pdats m) launch1.win launch1.arr_whole c
      ((pdats m 1 c).share_full fun _ => rfl) (Rin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 1 c).Φ 0 = (Pipeline.scopedRest spec1 c : sProp 𝕄) from rfl]
    iintro ⟨-, -, Hr⟩
    iexact Hr
  hout c := by
    rw [Pipeline.ownSems0_none]
    refine (show (pdats m 1 c).Φ (Fin.last _) ⊢ (Pipeline.scopedRest spec1 c : sProp 𝕄) from Phi1_out (Rin1 m) c).trans ?_
    iintro Hr
    isplitr; · iempintro
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Rin1 m c) (Rout1 m c) ((pdats m 1 c).arrAt · cfg1.N) (hF1 m c) (hrest1 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.KernelIdeal.Hand

end
-- ==== Proof.KernelIdeal.Seg2.lean ====
/-
  The third call as a segment of @main: entered with every unscoped buffer at the entry contents, left with the
  call's output array replaced by what the pipeline's write-backs make of it and every other buffer as entered.
  Entry sorts the call's four arrays out of the unscoped buffers; the rest, and the generator register, pass the
  call by. The kernel's invariant starts from the scoped buffers no window stages (its scratch accumulator among
  them) and hands them back at the end. The kernel has no semaphore of its own and owes nothing.
-/
import proofs.«109952_j48137993453602_1_alg».proof.Proof.KernelIdeal.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- After the call each of its arrays holds what the pipeline leaves there, every other buffer what it held. -/
theorem Uout2_arr (c : Dev nD) (w : Fin cfg2.W) :
    Uout2 m c (Proc.devRef .tc (Pipeline.arrRef spec2 w)) = (dat2 (Rin2 m) c).arrAt w cfg2.N := by
  unfold Uout2; exact Pipeline.withArrays_arr spec2 launch2.win.arr_inj c _ _ w
theorem Uout2_of_ne (c : Dev nD) (b : Ref sig .tc) (hb : ∀ w, Pipeline.arrRef spec2 w ≠ b) :
    Uout2 m c (Proc.devRef .tc b) = Uin2 m c (Proc.devRef .tc b) := by
  unfold Uout2; exact Pipeline.withArrays_of_ne spec2 c _ _ b hb

abbrev Rout2 : (c : Dev nD) → (b : Ref sig .tc) → Buf (Elt F) ((c : Thread nD τ).loc b) := fun c b => Uout2 m c b

theorem hF2 (c : Dev nD) (w : Fin cfg2.W) : (dat2 (Rin2 m) c).arrAt w cfg2.N = Rout2 m c (Pipeline.arrRef spec2 w) :=
  (Uout2_arr m c w).symm
theorem hrest2 (c : Dev nD) : ∀ b, b ∉ Finset.univ.image (Pipeline.arrRef spec2) → Rout2 m c b = Rin2 m c b :=
  fun b hb => Uout2_of_ne m c b fun w e => hb (Finset.mem_image.mpr ⟨w, Finset.mem_univ _, e⟩)

/-- The call changes only its output array: an input array ends as the pipeline's account of an input says (as entered),
    and a buffer that is no array of the call is not touched. -/
theorem Uout2_keep (c : Dev nD) (r : Ref sig .tc) (h : r ≠ Pipeline.arrRef spec2 3) : Uout2 m c r = Uin2 m c r := by
  by_cases hw : ∃ w, Pipeline.arrRef spec2 w = r
  · obtain ⟨w, rfl⟩ := hw
    have hin : (cfg2.win w).isOut = false := by
      fin_cases w
      · rfl
      · rfl
      · rfl
      · exact absurd rfl h
    exact (Uout2_arr m c w).trans (((dat2 (Rin2 m) c).arrAt_in w hin _).trans (A_eq2 (Rin2 m) c w))
  · exact Uout2_of_ne m c r fun w e => hw ⟨w, e⟩

-- a library lemma stated over the pinned configuration unifies with the printed one only when unification may unfold
-- plain definitions in a metavariable's type
set_option backward.isDefEq.respectTransparency.types false in
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Rin2 m) c).loose
  hwaits := Pipeline.hwaits_of_owed_zero _ _ _ _ L lv 2 fun _ _ => rfl
  pre c := iprop(StableHlo.held (c : Thread nD τ) (Pipeline.ucRefs τ sig) (Uin2 m c) ∗ Ride c)
  post c := iprop(StableHlo.held (c : Thread nD τ) (Pipeline.ucRefs τ sig) (Uout2 m c) ∗ Ride c)
  X c := iprop(emp)
  Y c := iprop(emp)
  Z c := iprop(Pipeline.unscopedRest (Ix := Unit) (Name := ℕ) (U := UR sig nD τ) (Lvl := ℕ) spec2 c (Rin2 m c) ∗ ∃ r, prngReg c r)
  hentry c := by
    rw [Pipeline.ownSems0_none]
    have hsplit := Pipeline.arrays_of_unscopedBufs (p := 2) (pcfgs (F := F)) adm (pdats m) launch2.win launch2.arr_whole c
      ((pdats m 2 c).share_full fun _ => rfl) (Rin2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 2 c).Φ 0 = (Pipeline.scopedRest spec2 c : sProp 𝕄) from rfl]
    iintro ⟨-, -, Hr⟩
    iexact Hr
  hout c := by
    rw [Pipeline.ownSems0_none]
    refine (show (pdats m 2 c).Φ (Fin.last _) ⊢ (Pipeline.scopedRest spec2 c : sProp 𝕄) from Phi2_out (Rin2 m) c).trans ?_
    iintro Hr
    isplitr; · iempintro
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Rin2 m c) (Rout2 m c) ((pdats m 2 c).arrAt · cfg2.N) (hF2 m c) (hrest2 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.KernelIdeal.Hand

end
-- ==== Proof.KernelIdeal.Seg3.lean ====
/-
  The fourth call as a segment of @main: entered with every unscoped buffer at the entry contents, left with the
  call's output array replaced by what the pipeline's write-backs make of it and every other buffer as entered.
  Entry sorts the call's four arrays out of the unscoped buffers; the rest, and the generator register, pass the
  call by. The kernel's invariant starts from the scoped buffers no window stages (its scratch accumulator among
  them) and hands them back at the end. The kernel has no semaphore of its own and owes nothing.
-/
import proofs.«109952_j48137993453602_1_alg».proof.Proof.KernelIdeal.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- After the call each of its arrays holds what the pipeline leaves there, every other buffer what it held. -/
theorem Uout3_arr (c : Dev nD) (w : Fin cfg3.W) :
    Uout3 m c (Proc.devRef .tc (Pipeline.arrRef spec3 w)) = (dat3 (Rin3 m) c).arrAt w cfg3.N := by
  unfold Uout3; exact Pipeline.withArrays_arr spec3 launch3.win.arr_inj c _ _ w
theorem Uout3_of_ne (c : Dev nD) (b : Ref sig .tc) (hb : ∀ w, Pipeline.arrRef spec3 w ≠ b) :
    Uout3 m c (Proc.devRef .tc b) = Uin3 m c (Proc.devRef .tc b) := by
  unfold Uout3; exact Pipeline.withArrays_of_ne spec3 c _ _ b hb

abbrev Rout3 : (c : Dev nD) → (b : Ref sig .tc) → Buf (Elt F) ((c : Thread nD τ).loc b) := fun c b => Uout3 m c b

theorem hF3 (c : Dev nD) (w : Fin cfg3.W) : (dat3 (Rin3 m) c).arrAt w cfg3.N = Rout3 m c (Pipeline.arrRef spec3 w) :=
  (Uout3_arr m c w).symm
theorem hrest3 (c : Dev nD) : ∀ b, b ∉ Finset.univ.image (Pipeline.arrRef spec3) → Rout3 m c b = Rin3 m c b :=
  fun b hb => Uout3_of_ne m c b fun w e => hb (Finset.mem_image.mpr ⟨w, Finset.mem_univ _, e⟩)

/-- The call changes only its output array: an input array ends as the pipeline's account of an input says (as entered),
    and a buffer that is no array of the call is not touched. -/
theorem Uout3_keep (c : Dev nD) (r : Ref sig .tc) (h : r ≠ Pipeline.arrRef spec3 3) : Uout3 m c r = Uin3 m c r := by
  by_cases hw : ∃ w, Pipeline.arrRef spec3 w = r
  · obtain ⟨w, rfl⟩ := hw
    have hin : (cfg3.win w).isOut = false := by
      fin_cases w
      · rfl
      · rfl
      · rfl
      · exact absurd rfl h
    exact (Uout3_arr m c w).trans (((dat3 (Rin3 m) c).arrAt_in w hin _).trans (A_eq3 (Rin3 m) c w))
  · exact Uout3_of_ne m c r fun w e => hw ⟨w, e⟩

-- a library lemma stated over the pinned configuration unifies with the printed one only when unification may unfold
-- plain definitions in a metavariable's type
set_option backward.isDefEq.respectTransparency.types false in
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Rin3 m) c).loose
  hwaits := Pipeline.hwaits_of_owed_zero _ _ _ _ L lv 3 fun _ _ => rfl
  pre c := iprop(StableHlo.held (c : Thread nD τ) (Pipeline.ucRefs τ sig) (Uin3 m c) ∗ Ride c)
  post c := iprop(StableHlo.held (c : Thread nD τ) (Pipeline.ucRefs τ sig) (Uout3 m c) ∗ Ride c)
  X c := iprop(emp)
  Y c := iprop(emp)
  Z c := iprop(Pipeline.unscopedRest (Ix := Unit) (Name := ℕ) (U := UR sig nD τ) (Lvl := ℕ) spec3 c (Rin3 m c) ∗ ∃ r, prngReg c r)
  hentry c := by
    rw [Pipeline.ownSems0_none]
    have hsplit := Pipeline.arrays_of_unscopedBufs (p := 3) (pcfgs (F := F)) adm (pdats m) launch3.win launch3.arr_whole c
      ((pdats m 3 c).share_full fun _ => rfl) (Rin3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 3 c).Φ 0 = (Pipeline.scopedRest spec3 c : sProp 𝕄) from rfl]
    iintro ⟨-, -, Hr⟩
    iexact Hr
  hout c := by
    rw [Pipeline.ownSems0_none]
    refine (show (pdats m 3 c).Φ (Fin.last _) ⊢ (Pipeline.scopedRest spec3 c : sProp 𝕄) from Phi3_out (Rin3 m) c).trans ?_
    iintro Hr
    isplitr; · iempintro
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (Rin3 m c) (Rout3 m c) ((pdats m 3 c).arrAt · cfg3.N) (hF3 m c) (hrest3 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.KernelIdeal.Hand

end
-- ==== Proof.KernelIdeal.Run.lean ====
/-
  The run of @main: the four matmul calls and the host operations around them as the launch theorem's list of
  segments, from the launch to the return. Its conclusion reads EVERY unscoped buffer at the end against the fold
  of the contents through @main (`Uend`); the frame claim (each argument ends as launched) follows because no host
  operation writes an argument and a call changes only its own output array.
-/
import proofs.«109952_j48137993453602_1_alg».proof.Proof.KernelIdeal.Seg0
import proofs.«109952_j48137993453602_1_alg».proof.Proof.KernelIdeal.Seg1
import proofs.«109952_j48137993453602_1_alg».proof.Proof.KernelIdeal.Seg2
import proofs.«109952_j48137993453602_1_alg».proof.Proof.KernelIdeal.Seg3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's nine items in order. -/
abbrev segs : List (Pipeline.Seg (pcfgs (F := F)) adm (pdats m) () defs₀ 𝒱₀ L lv) :=
  [ .host (hseg hostOps0 hostOps0_sub hostOps0_fresh (Ulaunch m)),
    .region (reg0 m),
    .host (hseg hostOps1 hostOps1_sub hostOps1_fresh (Uout0 m)),
    .region (reg1 m),
    .host (hseg hostOps2 hostOps2_sub hostOps2_fresh (Uout1 m)),
    .region (reg2 m),
    .host (hseg hostOps3 hostOps3_sub hostOps3_fresh (Uout2 m)),
    .region (reg3 m),
    .host (hseg hostOps4 hostOps4_sub hostOps4_fresh (Uout3 m)) ]

/-- @main IS the run of those segments. -/
theorem main_run (c : Dev nD) : main (F := F) c = Pipeline.Seg.run (segs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state, without the debts: every unscoped buffer at the final contents, the generator register. -/
abbrev Tend (c : Dev nD) : sProp 𝕄 := iprop(StableHlo.held (c : Thread nD τ) (Pipeline.ucRefs τ sig) (Uend m c) ∗ ∃ r, prngReg c r)

-- the launch theorem's implicit arguments are found by unifying its conclusion with this one, which takes unfolding
-- plain definitions in a metavariable's type
set_option backward.isDefEq.respectTransparency.types false in
/-- From any memory with zero counters every weakly fair execution of @main terminates, nothing faulting, and every
    unscoped buffer ends at the fold of the contents through @main. -/
theorem run_all : θ_run defs (onTc (τ := τ) (main (F := F))) ⟨m, fun _ => 0, ρ⟩
    (fun r => ∀ c : Dev nD, ∀ b ∈ Pipeline.ucRefs τ sig, r.2.mem (((c : Thread nD τ)).1, b) = Uend m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Ulaunch m c) ∗ Ride c)) (Tₙ := Tend m)
    (hch := ⟨fun _ => .rfl, fun _ => .rfl, fun _ => .rfl, fun _ => .rfl, fun _ => .rfl, fun _ => .rfl, fun _ => .rfl,
      fun _ => .rfl, fun _ => .rfl, fun c => by
        show iprop(StableHlo.held (c : Thread nD τ) (Pipeline.ucRefs τ sig) (Uend m c) ∗ Ride c)
          ⊢ iprop(Tend m c ∗ ∃ W, owes (c : Thread nD τ) (0 : CellTallies nD τ sig Unit) W)
        iintro ⟨Hh, Hp, HO⟩
        isplitr [HO]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (Ulaunch m c)
        from Pipeline.unscopedBufs_held c (Ulaunch m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Uend m c b)
    (hfin := fun c s' => by
      iintro ⟨⟨Hh, -⟩, HSI⟩
      unfold StableHlo.held
      imodintro
      iapply (pointsTo_read_all (Pipeline.ucRefs τ sig) (fun b => (((c : Thread nD τ)).1, b)) (Uend m c) s')
      isplitl [Hh] <;> iassumption)
    (hQ := fun s h => h)

/-- A buffer that no host operation writes and that is no call's output array ends as launched. -/
theorem Uend_keep (c : Dev nD) (r : Ref sig .tc)
    (h0 : r ∉ hostOps0_W) (h1 : r ∉ hostOps1_W) (h2 : r ∉ hostOps2_W) (h3 : r ∉ hostOps3_W) (h4 : r ∉ hostOps4_W)
    (k0 : r ≠ Pipeline.arrRef spec0 3) (k1 : r ≠ Pipeline.arrRef spec1 3) (k2 : r ≠ Pipeline.arrRef spec2 3) (k3 : r ≠ Pipeline.arrRef spec3 3) :
    Uend m c r = m ((c : Thread nD τ).loc r) :=
  (StableHlo.after_of_writes_sub hostOps4 _ hostOps4_writes h4).trans <| (Uout3_keep m c r k3).trans <|
  (StableHlo.after_of_writes_sub hostOps3 _ hostOps3_writes h3).trans <| (Uout2_keep m c r k2).trans <|
  (StableHlo.after_of_writes_sub hostOps2 _ hostOps2_writes h2).trans <| (Uout1_keep m c r k1).trans <|
  (StableHlo.after_of_writes_sub hostOps1 _ hostOps1_writes h1).trans <| (Uout0_keep m c r k0).trans <|
  (StableHlo.after_of_writes_sub hostOps0 _ hostOps0_writes h0).trans rfl

/-- A final memory that holds every unscoped buffer at the fold of the contents holds each argument as launched. -/
theorem args_of_all (r : MemSt nD τ sig (Elt F))
    (h : ∀ c : Dev nD, ∀ b ∈ Pipeline.ucRefs τ sig, r.mem (((c : Thread nD τ)).1, b) = Uend m c b) (c : Dev nD) :
      r.mem ((c.tc : Thread nD τ).loc main_arg0) = m ((c.tc : Thread nD τ).loc main_arg0)
      ∧ r.mem ((c.tc : Thread nD τ).loc main_arg1) = m ((c.tc : Thread nD τ).loc main_arg1)
      ∧ r.mem ((c.tc : Thread nD τ).loc main_arg2) = m ((c.tc : Thread nD τ).loc main_arg2)
      ∧ r.mem ((c.tc : Thread nD τ).loc main_arg3) = m ((c.tc : Thread nD τ).loc main_arg3)
      ∧ r.mem ((c.tc : Thread nD τ).loc main_arg4) = m ((c.tc : Thread nD τ).loc main_arg4)
      ∧ r.mem ((c.tc : Thread nD τ).loc main_arg5) = m ((c.tc : Thread nD τ).loc main_arg5)
      ∧ r.mem ((c.tc : Thread nD τ).loc main_arg6) = m ((c.tc : Thread nD τ).loc main_arg6)
      ∧ r.mem ((c.tc : Thread nD τ).loc main_arg7) = m ((c.tc : Thread nD τ).loc main_arg7)
      ∧ r.mem ((c.tc : Thread nD τ).loc main_arg8) = m ((c.tc : Thread nD τ).loc main_arg8)
      ∧ r.mem ((c.tc : Thread nD τ).loc main_arg9) = m ((c.tc : Thread nD τ).loc main_arg9) :=
  ⟨(h c _ (mem_uc main_arg0 (by decide))).trans (Uend_keep m c main_arg0 (by decide) (by decide) (by decide) (by decide) (by decide) (by decide) (by decide) (by decide) (by decide)),
   (h c _ (mem_uc main_arg1 (by decide))).trans (Uend_keep m c main_arg1 (by decide) (by decide) (by decide) (by decide) (by decide) (by decide) (by decide) (by decide) (by decide)),
   (h c _ (mem_uc main_arg2 (by decide))).trans (Uend_keep m c main_arg2 (by decide) (by decide) (by decide) (by decide) (by decide) (by decide) (by decide) (by decide) (by decide)),
   (h c _ (mem_uc main_arg3 (by decide))).trans (Uend_keep m c main_arg3 (by decide) (by decide) (by decide) (by decide) (by decide) (by decide) (by decide) (by decide) (by decide)),
   (h c _ (mem_uc main_arg4 (by decide))).trans (Uend_keep m c main_arg4 (by decide) (by decide) (by decide) (by decide) (by decide) (by decide) (by decide) (by decide) (by decide)),
   (h c _ (mem_uc main_arg5 (by decide))).trans (Uend_keep m c main_arg5 (by decide) (by decide) (by decide) (by decide) (by decide) (by decide) (by decide) (by decide) (by decide)),
   (h c _ (mem_uc main_arg6 (by decide))).trans (Uend_keep m c main_arg6 (by decide) (by decide) (by decide) (by decide) (by decide) (by decide) (by decide) (by decide) (by decide)),
   (h c _ (mem_uc main_arg7 (by decide))).trans (Uend_keep m c main_arg7 (by decide) (by decide) (by decide) (by decide) (by decide) (by decide) (by decide) (by decide) (by decide)),
   (h c _ (mem_uc main_arg8 (by decide))).trans (Uend_keep m c main_arg8 (by decide) (by decide) (by decide) (by decide) (by decide) (by decide) (by decide) (by decide) (by decide)),
   (h c _ (mem_uc main_arg9 (by decide))).trans (Uend_keep m c main_arg9 (by decide) (by decide) (by decide) (by decide) (by decide) (by decide) (by decide) (by decide) (by decide))⟩

/-- THE FRAME: every weakly fair execution of @main terminates, nothing faulting, and every argument array ends as launched. -/
theorem frame_run : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => args_of_all m r.2 h c) (run_all m ρ)

end Cert.KernelIdeal.Hand

end
-- ==== Proof.KernelIdeal.MatmulBias.lean ====
/-
  What one matmul call computes, as a function of its whole arrays, at the extended reals: entry (R, N) of the
  [1024, 4096] result is the sum, in the kernel's order, of the four block dot products of row R of the activations
  with row N of the weights (1024 reduction indices each), started from zero, plus entry N of the bias row.
-/
import proofs.«109952_j48137993453602_1_alg».proof.Proof.Gen.KernelIdeal
import Idealize.ShloMosaic.Lib.ValueIdx
import Idealize.ShloMosaic.PureOps.Ideal

set_option maxRecDepth 16384

noncomputable section

namespace Cert.KernelIdeal.Hand

open Cert.KernelIdeal Idealize.ShloMosaic Idealize.ShloMosaic.ValueIdx

/-- The dot product of row `R` of the activations with row `N` of the weights over reduction block `k`
    (1024 consecutive reduction indices). -/
def blockDot (P : Vec Ideal S1024x4096 .f32) (W : Vec Ideal S4096x4096 .f32) (R : Fin 1024) (N : Fin 4096) (k : Fin 4) : EReal :=
  ∑ q : Fin 1024, P (ix2 R ⟨1024 * k.val + q.val, by omega⟩) * W (ix2 N ⟨1024 * k.val + q.val, by omega⟩)

/-- One entry of a call's result: the four block dot products added in order to zero, then the bias. -/
def outAtIdx (P : Vec Ideal S1024x4096 .f32) (W : Vec Ideal S4096x4096 .f32) (B : Vec Ideal S1x4096 .f32) (R : Fin 1024) (N : Fin 4096) : EReal :=
  ((((0 + blockDot P W R N 0) + blockDot P W R N 1) + blockDot P W R N 2) + blockDot P W R N 3) + B (ix2 0 N)

/-- A call's whole result as a function of its three arrays. -/
def mmBias (P : Vec Ideal S1024x4096 .f32) (W : Vec Ideal S4096x4096 .f32) (B : Vec Ideal S1x4096 .f32) : Vec Ideal S1024x4096 .f32 :=
  fun j => outAtIdx P W B ⟨(j 0).val, idx2_lt0 j⟩ ⟨(j 1).val, idx2_lt1 j⟩

/-- `mmBias` at an index whose coordinates are `R` and `N`. -/
theorem mmBias_at (P : Vec Ideal S1024x4096 .f32) (W : Vec Ideal S4096x4096 .f32) (B : Vec Ideal S1x4096 .f32)
    (j : S1024x4096.Idx) (R : Fin 1024) (N : Fin 4096) (h0 : (j 0).val = R.val) (h1 : (j 1).val = N.val) :
    mmBias P W B j = outAtIdx P W B R N := by
  unfold mmBias
  have e0 : (⟨(j 0).val, idx2_lt0 j⟩ : Fin 1024) = R := Fin.ext h0
  have e1 : (⟨(j 1).val, idx2_lt1 j⟩ : Fin 4096) = N := Fin.ext h1
  rw [e0, e1]

end Cert.KernelIdeal.Hand

end
-- ==== Proof.KernelIdeal.Value0.lean ====
/-
  The first call's result array at the extended reals.

  At the ideal instance the bf16 casts are the identity and the matrix unit's product into a zero accumulator is a
  plain sum, so one step adds, at row r and column n of the block, the sum over the 1024 reduction indices q of
  x[r, q] * w[n, q] (both operands are contracted along their second axis). The accumulator after the four steps of
  a (row block, column block) is ((((0 + s0) + s1) + s2) + s3), and the stored block adds the bias row. Read
  through the windows' blocks — block (i, k) of the [1024, 4096] activations, block (j, k) of the [4096, 4096]
  weights, block (0, j) of the [1, 4096] bias, block (i, j) of the result — that is ONE function of the whole
  arrays: out[R, N] = ((((0 + S0) + S1) + S2) + S3) + b[0, N] with S_k the sum over q of P[R, 1024 k + q] * W[N, 1024 k + q].
  The write-backs happen at the positions with k = 3 and their blocks tile the result, so the array ends holding it.
-/
import proofs.«109952_j48137993453602_1_alg».proof.Proof.KernelIdeal.Region0
import proofs.«109952_j48137993453602_1_alg».proof.Proof.KernelIdeal.MatmulBias
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/-! ## The matrix unit's product at an index -/

theorem mm0_lhs_0 (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem mm0_lhs_1 (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q
theorem mm0_rhs_0 (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
theorem mm0_rhs_1 (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

/-- Into a zero accumulator the product at (p, n) is the sum over the reduction index k of l[p, k] * r[n, k]. -/
theorem mm0_apply (l : FVec Ideal S512x1024 .bf16) (r : FVec Ideal S1024x1024 .bf16) (p : Fin 512) (n : Fin 1024) :
    matmul dot_S512x1024_S1024x1024_S512x1024_1_1_0_0_n_n none l r (constant (F := Ideal) S512x1024 .f32 0x00000000#32) (ix2 p n)
      = ∑ k : Fin 1024, l (ix2 p k) * r (ix2 n k) := by
  show FloatOps.matmul dot_S512x1024_S1024x1024_S512x1024_1_1_0_0_n_n none l r (constant (F := Ideal) S512x1024 .f32 0x00000000#32) (ix2 p n) = _
  rw [Ideal.matmul_constant_zero_apply, ← Equiv.sum_comp (ValueIdx.contrEquiv1 dot_S512x1024_S1024x1024_S512x1024_1_1_0_0_n_n 1024 rfl rfl).symm]
  refine Finset.sum_congr rfl fun k _ => ?_
  have hk := ValueIdx.contrEquiv1_symm_val dot_S512x1024_S1024x1024_S512x1024_1_1_0_0_n_n 1024 rfl rfl k
  have el : dot_S512x1024_S1024x1024_S512x1024_1_1_0_0_n_n.lhsIdx (ix2 p n) ((ValueIdx.contrEquiv1 dot_S512x1024_S1024x1024_S512x1024_1_1_0_0_n_n 1024 rfl rfl).symm k) = ix2 p k := funext fun a => Fin.ext (by
    match a with
    | ⟨0, _⟩ => exact mm0_lhs_0 _ _
    | ⟨1, _⟩ => exact (mm0_lhs_1 _ _).trans hk)
  have er : dot_S512x1024_S1024x1024_S512x1024_1_1_0_0_n_n.rhsIdx (ix2 p n) ((ValueIdx.contrEquiv1 dot_S512x1024_S1024x1024_S512x1024_1_1_0_0_n_n 1024 rfl rfl).symm k) = ix2 n k := funext fun a => Fin.ext (by
    match a with
    | ⟨0, _⟩ => exact mm0_rhs_0 _ _
    | ⟨1, _⟩ => exact (mm0_rhs_1 _ _).trans hk)
  rw [el, er]

/-! ## The three payloads at an index -/

/-- The zeroed accumulator reads 0. -/
theorem pay1_0_apply (j : S512x1024.Idx) : k0_pay1 (F := Ideal) j = 0 := by
  unfold k0_pay1
  simp only [shapeCast_self]
  show Ideal.ofBits .f32 0x00000000#32 = 0
  exact Ideal.ofBits_zero_f32

/-- One step adds the block product. -/
theorem pay2_0_apply (x : Vec Ideal S512x1024 .f32) (w : Vec Ideal S1024x1024 .f32) (a : Vec Ideal S512x1024 .f32) (p : Fin 512) (n : Fin 1024) :
    k0_pay2 (F := Ideal) x w a (ix2 p n) = a (ix2 p n) + ∑ k : Fin 1024, x (ix2 p k) * w (ix2 n k) := by
  unfold k0_pay2
  simp only [shapeCast_self]
  refine (addf_apply _ _ _).trans ?_
  exact congrArg (a (ix2 p n) + ·) (mm0_apply _ _ p n)

/-- The stored block is the accumulator plus the bias row. -/
theorem pay3_0_apply (a : Vec Ideal S512x1024 .f32) (b : Vec Ideal S1x1024 .f32) (p : Fin 512) (n : Fin 1024) :
    k0_pay3 (F := Ideal) a b (ix2 p n) = a (ix2 p n) + b (ix2 0 n) := by
  unfold k0_pay3
  simp only [shapeCast_self]
  refine (addf_apply _ _ _).trans ?_
  refine congrArg (a (ix2 p n) + ·) ?_
  exact broadcastTo_apply _ _ _ (ix2 0 n) (fun d => by
    match d with
    | ⟨0, _⟩ => rfl
    | ⟨1, _⟩ => rfl)

/-! ## Where the windows' blocks sit: position t is (row block t / 16, column block (t / 4) % 4, reduction block t % 4) -/

theorem idx0_0 (t : Fin cfg0.N) : win0_0.index t 0 = t.val / 16 ∧ win0_0.index t 1 = t.val % 4 :=
  (by decide +kernel : ∀ t : Fin grid0.N, win0_0.index t 0 = t.val / 16 ∧ win0_0.index t 1 = t.val % 4) t
theorem idx0_1 (t : Fin cfg0.N) : win0_1.index t 0 = (t.val / 4) % 4 ∧ win0_1.index t 1 = t.val % 4 :=
  (by decide +kernel : ∀ t : Fin grid0.N, win0_1.index t 0 = (t.val / 4) % 4 ∧ win0_1.index t 1 = t.val % 4) t
theorem idx0_2 (t : Fin cfg0.N) : win0_2.index t 0 = 0 ∧ win0_2.index t 1 = (t.val / 4) % 4 :=
  (by decide +kernel : ∀ t : Fin grid0.N, win0_2.index t 0 = 0 ∧ win0_2.index t 1 = (t.val / 4) % 4) t
theorem idx0_3 (t : Fin cfg0.N) : win0_3.index t 0 = t.val / 16 ∧ win0_3.index t 1 = (t.val / 4) % 4 :=
  (by decide +kernel : ∀ t : Fin grid0.N, win0_3.index t 0 = t.val / 16 ∧ win0_3.index t 1 = (t.val / 4) % 4) t

/-- An entry of the result array is in position t's block iff each coordinate is in the block's range on its axis. -/
theorem mem_blk0 (t : Fin cfg0.N) (i : S1024x4096.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole (Pipeline.arrRef spec0 3)).slice (win0_3.rect t)).set ↔ _
  rw [View.set_slice_whole, Rect.mem_set_unit]
  exact Iff.rfl

section Region

variable (V : (c : Dev nD) → (b : Ref sig .tc) → Buf (Elt Ideal) ((c : Thread nD τ).loc b))

/-- The call's three input arrays as the region finds them, at their literal shapes. -/
abbrev Parr0 (c : Dev nD) : Vec Ideal S1024x4096 .f32 := V c (Pipeline.arrRef spec0 0)
abbrev Warr0 (c : Dev nD) : Vec Ideal S4096x4096 .f32 := V c (Pipeline.arrRef spec0 1)
abbrev Barr0 (c : Dev nD) : Vec Ideal S1x4096 .f32 := V c (Pipeline.arrRef spec0 2)

/-- The activation block at position t holds rows 512 (t / 16) + p and reduction indices 1024 (t % 4) + q. -/
theorem xblk0_apply (c : Dev nD) (t : Fin cfg0.N) (p : Fin 512) (q : Fin 1024) (R : Fin 1024) (K : Fin 4096)
    (hR : R.val = 512 * (t.val / 16) + p.val) (hK : K.val = 1024 * (t.val % 4) + q.val) :
    xblk0 V c t (ix2 p q) = Parr0 V c (ix2 R K) := by
  show iblk0 V c 0 t (ix2 p q) = _
  unfold iblk0
  rw [View.read_apply]
  show V c (Pipeline.arrRef spec0 0) (((cfg0.win 0).blk t).view.emb (ix2 p q)) = V c (Pipeline.arrRef spec0 0) (ix2 R K)
  refine congrArg (V c (Pipeline.arrRef spec0 0)) (funext fun a => Fin.ext ?_)
  match a with
  | ⟨0, _⟩ => show win0_0.index t 0 * 512 + 1 * p.val = R.val; rw [(idx0_0 t).1, hR]; omega
  | ⟨1, _⟩ => show win0_0.index t 1 * 1024 + 1 * q.val = K.val; rw [(idx0_0 t).2, hK]; omega

/-- The weight block at position t holds rows 1024 ((t / 4) % 4) + n and reduction indices 1024 (t % 4) + q. -/
theorem wblk0_apply (c : Dev nD) (t : Fin cfg0.N) (n : Fin 1024) (q : Fin 1024) (N : Fin 4096) (K : Fin 4096)
    (hN : N.val = 1024 * ((t.val / 4) % 4) + n.val) (hK : K.val = 1024 * (t.val % 4) + q.val) :
    wblk0 V c t (ix2 n q) = Warr0 V c (ix2 N K) := by
  show iblk0 V c 1 t (ix2 n q) = _
  unfold iblk0
  rw [View.read_apply]
  show V c (Pipeline.arrRef spec0 1) (((cfg0.win 1).blk t).view.emb (ix2 n q)) = V c (Pipeline.arrRef spec0 1) (ix2 N K)
  refine congrArg (V c (Pipeline.arrRef spec0 1)) (funext fun a => Fin.ext ?_)
  match a with
  | ⟨0, _⟩ => show win0_1.index t 0 * 1024 + 1 * n.val = N.val; rw [(idx0_1 t).1, hN]; omega
  | ⟨1, _⟩ => show win0_1.index t 1 * 1024 + 1 * q.val = K.val; rw [(idx0_1 t).2, hK]; omega

/-- The bias block at position t holds entries 1024 ((t / 4) % 4) + n of the one bias row. -/
theorem bblk0_apply (c : Dev nD) (t : Fin cfg0.N) (n : Fin 1024) (N : Fin 4096)
    (hN : N.val = 1024 * ((t.val / 4) % 4) + n.val) :
    bblk0 V c t (ix2 0 n) = Barr0 V c (ix2 0 N) := by
  show iblk0 V c 2 t (ix2 0 n) = _
  unfold iblk0
  rw [View.read_apply]
  show V c (Pipeline.arrRef spec0 2) (((cfg0.win 2).blk t).view.emb (ix2 0 n)) = V c (Pipeline.arrRef spec0 2) (ix2 0 N)
  refine congrArg (V c (Pipeline.arrRef spec0 2)) (funext fun a => Fin.ext ?_)
  match a with
  | ⟨0, _⟩ => show win0_2.index t 0 * 1 + 1 * 0 = 0; rw [(idx0_2 t).1]
  | ⟨1, _⟩ => show win0_2.index t 1 * 1024 + 1 * n.val = N.val; rw [(idx0_2 t).2, hN]; omega

/-- At a position with reduction coordinate 3 the accumulator is four steps from zero: those of this position and the three before. -/
theorem accAt0_last (c : Dev nD) (t : Fin cfg0.N) (h3 : t.val % 4 = 3) :
    accAt0 V c t.val t.isLt
      = k0_pay2 (xblk0 V c t) (wblk0 V c t)
          (k0_pay2 (xblk0 V c ⟨t.val - 1, by omega⟩) (wblk0 V c ⟨t.val - 1, by omega⟩)
            (k0_pay2 (xblk0 V c ⟨t.val - 1 - 1, by omega⟩) (wblk0 V c ⟨t.val - 1 - 1, by omega⟩)
              (k0_pay2 (xblk0 V c ⟨t.val - 1 - 1 - 1, by omega⟩) (wblk0 V c ⟨t.val - 1 - 1 - 1, by omega⟩) (k0_pay1 (F := Ideal))))) := by
  have e0 := accAt0_next V c t (by omega)
  have e1 := accAt0_next V c ⟨t.val - 1, by omega⟩ (by show ¬(t.val - 1) % 4 = 0; omega)
  have e2 := accAt0_next V c ⟨t.val - 1 - 1, by omega⟩ (by show ¬(t.val - 1 - 1) % 4 = 0; omega)
  have e3 := accAt0_first V c ⟨t.val - 1 - 1 - 1, by omega⟩ (by show (t.val - 1 - 1 - 1) % 4 = 0; omega)
  exact e0.trans (congrArg _ (e1.trans (congrArg _ (e2.trans (congrArg _ e3)))))

/-- One step's sum, read off the whole arrays: the block dot product of the position's reduction block. -/
theorem step0_sum (c : Dev nD) (t : Fin cfg0.N) (p : Fin 512) (n : Fin 1024) (R : Fin 1024) (N : Fin 4096) (k : Fin 4)
    (hR : R.val = 512 * (t.val / 16) + p.val) (hN : N.val = 1024 * ((t.val / 4) % 4) + n.val) (hk : k.val = t.val % 4) :
    (∑ q : Fin 1024, xblk0 V c t (ix2 p q) * wblk0 V c t (ix2 n q)) = blockDot (Parr0 V c) (Warr0 V c) R N k := by
  unfold blockDot
  refine Finset.sum_congr rfl fun q _ => ?_
  rw [xblk0_apply V c t p q R ⟨1024 * k.val + q.val, by omega⟩ hR (by show 1024 * k.val + q.val = _; rw [hk]),
    wblk0_apply V c t n q N ⟨1024 * k.val + q.val, by omega⟩ hN (by show 1024 * k.val + q.val = _; rw [hk])]

/-- What a write-back position writes is its block of `mmBias` of the whole arrays. -/
theorem flushed0_eq (c : Dev nD) (t : Fin cfg0.N) (hf : (cfg0.win 3).flush t = true) :
    (dat0 V c).flushed 3 t = ((cfg0.win 3).blk t).view.read (Elt Ideal) (mmBias (Parr0 V c) (Warr0 V c) (Barr0 V c)) := by
  have h3 : t.val % 4 = 3 := (flush0_3 t).mp hf
  have hN32 : t.val < 32 := lt_of_lt_of_eq t.isLt (show cfg0.N = 32 from N_0)
  funext y
  obtain ⟨p, n, rfl⟩ : ∃ (p : Fin 512) (n : Fin 1024), y = ix2 p n := ⟨y 0, y 1, eq_ix2 y⟩
  rw [View.read_apply]
  have hR : 512 * (t.val / 16) + p.val < 1024 := by have := p.isLt; omega
  have hNn : 1024 * ((t.val / 4) % 4) + n.val < 4096 := by have := n.isLt; omega
  refine Eq.trans ?_ (mmBias_at _ _ _ _ ⟨512 * (t.val / 16) + p.val, hR⟩ ⟨1024 * ((t.val / 4) % 4) + n.val, hNn⟩ ?_ ?_).symm
  · show (dat0 V c).after 3 t (ix2 p n) = _
    rw [after0_3]; unfold outAt0
    rw [pay3_0_apply, accAt0_last V c t h3, pay2_0_apply, pay2_0_apply, pay2_0_apply, pay2_0_apply, pay1_0_apply]
    unfold outAtIdx
    rw [step0_sum V c t p n ⟨512 * (t.val / 16) + p.val, hR⟩ ⟨1024 * ((t.val / 4) % 4) + n.val, hNn⟩ 3 rfl rfl (by show 3 = t.val % 4; omega),
      step0_sum V c ⟨t.val - 1, by omega⟩ p n ⟨512 * (t.val / 16) + p.val, hR⟩ ⟨1024 * ((t.val / 4) % 4) + n.val, hNn⟩ 2
        (by show 512 * (t.val / 16) + p.val = 512 * ((t.val - 1) / 16) + p.val; omega)
        (by show 1024 * ((t.val / 4) % 4) + n.val = 1024 * (((t.val - 1) / 4) % 4) + n.val; omega) (by show 2 = (t.val - 1) % 4; omega),
      step0_sum V c ⟨t.val - 1 - 1, by omega⟩ p n ⟨512 * (t.val / 16) + p.val, hR⟩ ⟨1024 * ((t.val / 4) % 4) + n.val, hNn⟩ 1
        (by show 512 * (t.val / 16) + p.val = 512 * ((t.val - 1 - 1) / 16) + p.val; omega)
        (by show 1024 * ((t.val / 4) % 4) + n.val = 1024 * (((t.val - 1 - 1) / 4) % 4) + n.val; omega) (by show 1 = (t.val - 1 - 1) % 4; omega),
      step0_sum V c ⟨t.val - 1 - 1 - 1, by omega⟩ p n ⟨512 * (t.val / 16) + p.val, hR⟩ ⟨1024 * ((t.val / 4) % 4) + n.val, hNn⟩ 0
        (by show 512 * (t.val / 16) + p.val = 512 * ((t.val - 1 - 1 - 1) / 16) + p.val; omega)
        (by show 1024 * ((t.val / 4) % 4) + n.val = 1024 * (((t.val - 1 - 1 - 1) / 4) % 4) + n.val; omega) (by show 0 = (t.val - 1 - 1 - 1) % 4; omega),
      bblk0_apply V c t n ⟨1024 * ((t.val / 4) % 4) + n.val, hNn⟩ rfl]
  · show win0_3.index t 0 * 512 + 1 * p.val = 512 * (t.val / 16) + p.val
    rw [(idx0_3 t).1]; omega
  · show win0_3.index t 1 * 1024 + 1 * n.val = 1024 * ((t.val / 4) % 4) + n.val
    rw [(idx0_3 t).2]; omega

/-- Every entry of the result lies in the block of a write-back position: the one of its row block and column block with reduction coordinate 3. -/
theorem cover0 (c : Dev nD) (i : ((cfg0.win 3).arr.view.loc (c.tc : Thread nD τ)).2.ty.Idx) :
    ∃ t : Fin cfg0.N, (cfg0.win 3).flush t = true ∧ i ∈ ((cfg0.win 3).blk t).view.set := by
  have hi0 : (i 0).val < 1024 := (i 0).isLt
  have hi1 : (i 1).val < 4096 := (i 1).isLt
  have hlt : 16 * ((i 0).val / 512) + 4 * ((i 1).val / 1024) + 3 < cfg0.N := by
    rw [show cfg0.N = 32 from N_0]; omega
  refine ⟨⟨16 * ((i 0).val / 512) + 4 * ((i 1).val / 1024) + 3, hlt⟩, (flush0_3 _).mpr (by show (16 * ((i 0).val / 512) + 4 * ((i 1).val / 1024) + 3) % 4 = 3; omega), ?_⟩
  rw [mem_blk0]
  intro a
  match a with
  | ⟨0, _⟩ =>
    show win0_3.index ⟨16 * ((i 0).val / 512) + 4 * ((i 1).val / 1024) + 3, hlt⟩ 0 * 512 ≤ (i 0).val
      ∧ (i 0).val < win0_3.index ⟨16 * ((i 0).val / 512) + 4 * ((i 1).val / 1024) + 3, hlt⟩ 0 * 512 + 512
    rw [(idx0_3 _).1]
    show (16 * ((i 0).val / 512) + 4 * ((i 1).val / 1024) + 3) / 16 * 512 ≤ (i 0).val
      ∧ (i 0).val < (16 * ((i 0).val / 512) + 4 * ((i 1).val / 1024) + 3) / 16 * 512 + 512
    omega
  | ⟨1, _⟩ =>
    show win0_3.index ⟨16 * ((i 0).val / 512) + 4 * ((i 1).val / 1024) + 3, hlt⟩ 1 * 1024 ≤ (i 1).val
      ∧ (i 1).val < win0_3.index ⟨16 * ((i 0).val / 512) + 4 * ((i 1).val / 1024) + 3, hlt⟩ 1 * 1024 + 1024
    rw [(idx0_3 _).2]
    show (16 * ((i 0).val / 512) + 4 * ((i 1).val / 1024) + 3) / 4 % 4 * 1024 ≤ (i 1).val
      ∧ (i 1).val < (16 * ((i 0).val / 512) + 4 * ((i 1).val / 1024) + 3) / 4 % 4 * 1024 + 1024
    omega

/-- THE CALL'S RESULT: after the run the output array holds `mmBias` of the three input arrays as the region found them. -/
theorem regionOut0 (c : Dev nD) :
    (dat0 V c).arrAt 3 cfg0.N = mmBias (Parr0 V c) (Warr0 V c) (Barr0 V c) :=
  (dat0 V c).arrAt_eq_of_cover 3 _ (fun t hf => flushed0_eq V c t hf) (cover0 c)

end Region

end Cert.KernelIdeal.Hand

end
-- ==== Proof.KernelIdeal.Value1.lean ====
/-
  The second call's result array at the extended reals.

  At the ideal instance the bf16 casts are the identity and the matrix unit's product into a zero accumulator is a
  plain sum, so one step adds, at row r and column n of the block, the sum over the 1024 reduction indices q of
  x[r, q] * w[n, q] (both operands are contracted along their second axis). The accumulator after the four steps of
  a (row block, column block) is ((((0 + s0) + s1) + s2) + s3), and the stored block adds the bias row. Read
  through the windows' blocks — block (i, k) of the [1024, 4096] activations, block (j, k) of the [4096, 4096]
  weights, block (0, j) of the [1, 4096] bias, block (i, j) of the result — that is ONE function of the whole
  arrays: out[R, N] = ((((0 + S0) + S1) + S2) + S3) + b[0, N] with S_k the sum over q of P[R, 1024 k + q] * W[N, 1024 k + q].
  The write-backs happen at the positions with k = 3 and their blocks tile the result, so the array ends holding it.
-/
import proofs.«109952_j48137993453602_1_alg».proof.Proof.KernelIdeal.Region1
import proofs.«109952_j48137993453602_1_alg».proof.Proof.KernelIdeal.MatmulBias
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/-! ## The matrix unit's product at an index -/

theorem mm1_lhs_0 (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem mm1_lhs_1 (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q
theorem mm1_rhs_0 (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
theorem mm1_rhs_1 (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

/-- Into a zero accumulator the product at (p, n) is the sum over the reduction index k of l[p, k] * r[n, k]. -/
theorem mm1_apply (l : FVec Ideal S512x1024 .bf16) (r : FVec Ideal S1024x1024 .bf16) (p : Fin 512) (n : Fin 1024) :
    matmul dot_S512x1024_S1024x1024_S512x1024_1_1_0_0_n_n none l r (constant (F := Ideal) S512x1024 .f32 0x00000000#32) (ix2 p n)
      = ∑ k : Fin 1024, l (ix2 p k) * r (ix2 n k) := by
  show FloatOps.matmul dot_S512x1024_S1024x1024_S512x1024_1_1_0_0_n_n none l r (constant (F := Ideal) S512x1024 .f32 0x00000000#32) (ix2 p n) = _
  rw [Ideal.matmul_constant_zero_apply, ← Equiv.sum_comp (ValueIdx.contrEquiv1 dot_S512x1024_S1024x1024_S512x1024_1_1_0_0_n_n 1024 rfl rfl).symm]
  refine Finset.sum_congr rfl fun k _ => ?_
  have hk := ValueIdx.contrEquiv1_symm_val dot_S512x1024_S1024x1024_S512x1024_1_1_0_0_n_n 1024 rfl rfl k
  have el : dot_S512x1024_S1024x1024_S512x1024_1_1_0_0_n_n.lhsIdx (ix2 p n) ((ValueIdx.contrEquiv1 dot_S512x1024_S1024x1024_S512x1024_1_1_0_0_n_n 1024 rfl rfl).symm k) = ix2 p k := funext fun a => Fin.ext (by
    match a with
    | ⟨0, _⟩ => exact mm1_lhs_0 _ _
    | ⟨1, _⟩ => exact (mm1_lhs_1 _ _).trans hk)
  have er : dot_S512x1024_S1024x1024_S512x1024_1_1_0_0_n_n.rhsIdx (ix2 p n) ((ValueIdx.contrEquiv1 dot_S512x1024_S1024x1024_S512x1024_1_1_0_0_n_n 1024 rfl rfl).symm k) = ix2 n k := funext fun a => Fin.ext (by
    match a with
    | ⟨0, _⟩ => exact mm1_rhs_0 _ _
    | ⟨1, _⟩ => exact (mm1_rhs_1 _ _).trans hk)
  rw [el, er]

/-! ## The three payloads at an index -/

/-- The zeroed accumulator reads 0. -/
theorem pay1_1_apply (j : S512x1024.Idx) : k1_pay1 (F := Ideal) j = 0 := by
  unfold k1_pay1
  simp only [shapeCast_self]
  show Ideal.ofBits .f32 0x00000000#32 = 0
  exact Ideal.ofBits_zero_f32

/-- One step adds the block product. -/
theorem pay2_1_apply (x : Vec Ideal S512x1024 .f32) (w : Vec Ideal S1024x1024 .f32) (a : Vec Ideal S512x1024 .f32) (p : Fin 512) (n : Fin 1024) :
    k1_pay2 (F := Ideal) x w a (ix2 p n) = a (ix2 p n) + ∑ k : Fin 1024, x (ix2 p k) * w (ix2 n k) := by
  unfold k1_pay2
  simp only [shapeCast_self]
  refine (addf_apply _ _ _).trans ?_
  exact congrArg (a (ix2 p n) + ·) (mm1_apply _ _ p n)

/-- The stored block is the accumulator plus the bias row. -/
theorem pay3_1_apply (a : Vec Ideal S512x1024 .f32) (b : Vec Ideal S1x1024 .f32) (p : Fin 512) (n : Fin 1024) :
    k1_pay3 (F := Ideal) a b (ix2 p n) = a (ix2 p n) + b (ix2 0 n) := by
  unfold k1_pay3
  simp only [shapeCast_self]
  refine (addf_apply _ _ _).trans ?_
  refine congrArg (a (ix2 p n) + ·) ?_
  exact broadcastTo_apply _ _ _ (ix2 0 n) (fun d => by
    match d with
    | ⟨0, _⟩ => rfl
    | ⟨1, _⟩ => rfl)

/-! ## Where the windows' blocks sit: position t is (row block t / 16, column block (t / 4) % 4, reduction block t % 4) -/

theorem idx1_0 (t : Fin cfg1.N) : win1_0.index t 0 = t.val / 16 ∧ win1_0.index t 1 = t.val % 4 :=
  (by decide +kernel : ∀ t : Fin grid1.N, win1_0.index t 0 = t.val / 16 ∧ win1_0.index t 1 = t.val % 4) t
theorem idx1_1 (t : Fin cfg1.N) : win1_1.index t 0 = (t.val / 4) % 4 ∧ win1_1.index t 1 = t.val % 4 :=
  (by decide +kernel : ∀ t : Fin grid1.N, win1_1.index t 0 = (t.val / 4) % 4 ∧ win1_1.index t 1 = t.val % 4) t
theorem idx1_2 (t : Fin cfg1.N) : win1_2.index t 0 = 0 ∧ win1_2.index t 1 = (t.val / 4) % 4 :=
  (by decide +kernel : ∀ t : Fin grid1.N, win1_2.index t 0 = 0 ∧ win1_2.index t 1 = (t.val / 4) % 4) t
theorem idx1_3 (t : Fin cfg1.N) : win1_3.index t 0 = t.val / 16 ∧ win1_3.index t 1 = (t.val / 4) % 4 :=
  (by decide +kernel : ∀ t : Fin grid1.N, win1_3.index t 0 = t.val / 16 ∧ win1_3.index t 1 = (t.val / 4) % 4) t

/-- An entry of the result array is in position t's block iff each coordinate is in the block's range on its axis. -/
theorem mem_blk1 (t : Fin cfg1.N) (i : S1024x4096.Idx) :
    i ∈ ((cfg1.win 3).blk t).view.set ↔ ∀ a : Fin 2, win1_3.index t a * S512x1024.size a ≤ (i a).val ∧ (i a).val < win1_3.index t a * S512x1024.size a + S512x1024.size a := by
  show i ∈ ((View.whole (Pipeline.arrRef spec1 3)).slice (win1_3.rect t)).set ↔ _
  rw [View.set_slice_whole, Rect.mem_set_unit]
  exact Iff.rfl

section Region

variable (V : (c : Dev nD) → (b : Ref sig .tc) → Buf (Elt Ideal) ((c : Thread nD τ).loc b))

/-- The call's three input arrays as the region finds them, at their literal shapes. -/
abbrev Parr1 (c : Dev nD) : Vec Ideal S1024x4096 .f32 := V c (Pipeline.arrRef spec1 0)
abbrev Warr1 (c : Dev nD) : Vec Ideal S4096x4096 .f32 := V c (Pipeline.arrRef spec1 1)
abbrev Barr1 (c : Dev nD) : Vec Ideal S1x4096 .f32 := V c (Pipeline.arrRef spec1 2)

/-- The activation block at position t holds rows 512 (t / 16) + p and reduction indices 1024 (t % 4) + q. -/
theorem xblk1_apply (c : Dev nD) (t : Fin cfg1.N) (p : Fin 512) (q : Fin 1024) (R : Fin 1024) (K : Fin 4096)
    (hR : R.val = 512 * (t.val / 16) + p.val) (hK : K.val = 1024 * (t.val % 4) + q.val) :
    xblk1 V c t (ix2 p q) = Parr1 V c (ix2 R K) := by
  show iblk1 V c 0 t (ix2 p q) = _
  unfold iblk1
  rw [View.read_apply]
  show V c (Pipeline.arrRef spec1 0) (((cfg1.win 0).blk t).view.emb (ix2 p q)) = V c (Pipeline.arrRef spec1 0) (ix2 R K)
  refine congrArg (V c (Pipeline.arrRef spec1 0)) (funext fun a => Fin.ext ?_)
  match a with
  | ⟨0, _⟩ => show win1_0.index t 0 * 512 + 1 * p.val = R.val; rw [(idx1_0 t).1, hR]; omega
  | ⟨1, _⟩ => show win1_0.index t 1 * 1024 + 1 * q.val = K.val; rw [(idx1_0 t).2, hK]; omega

/-- The weight block at position t holds rows 1024 ((t / 4) % 4) + n and reduction indices 1024 (t % 4) + q. -/
theorem wblk1_apply (c : Dev nD) (t : Fin cfg1.N) (n : Fin 1024) (q : Fin 1024) (N : Fin 4096) (K : Fin 4096)
    (hN : N.val = 1024 * ((t.val / 4) % 4) + n.val) (hK : K.val = 1024 * (t.val % 4) + q.val) :
    wblk1 V c t (ix2 n q) = Warr1 V c (ix2 N K) := by
  show iblk1 V c 1 t (ix2 n q) = _
  unfold iblk1
  rw [View.read_apply]
  show V c (Pipeline.arrRef spec1 1) (((cfg1.win 1).blk t).view.emb (ix2 n q)) = V c (Pipeline.arrRef spec1 1) (ix2 N K)
  refine congrArg (V c (Pipeline.arrRef spec1 1)) (funext fun a => Fin.ext ?_)
  match a with
  | ⟨0, _⟩ => show win1_1.index t 0 * 1024 + 1 * n.val = N.val; rw [(idx1_1 t).1, hN]; omega
  | ⟨1, _⟩ => show win1_1.index t 1 * 1024 + 1 * q.val = K.val; rw [(idx1_1 t).2, hK]; omega

/-- The bias block at position t holds entries 1024 ((t / 4) % 4) + n of the one bias row. -/
theorem bblk1_apply (c : Dev nD) (t : Fin cfg1.N) (n : Fin 1024) (N : Fin 4096)
    (hN : N.val = 1024 * ((t.val / 4) % 4) + n.val) :
    bblk1 V c t (ix2 0 n) = Barr1 V c (ix2 0 N) := by
  show iblk1 V c 2 t (ix2 0 n) = _
  unfold iblk1
  rw [View.read_apply]
  show V c (Pipeline.arrRef spec1 2) (((cfg1.win 2).blk t).view.emb (ix2 0 n)) = V c (Pipeline.arrRef spec1 2) (ix2 0 N)
  refine congrArg (V c (Pipeline.arrRef spec1 2)) (funext fun a => Fin.ext ?_)
  match a with
  | ⟨0, _⟩ => show win1_2.index t 0 * 1 + 1 * 0 = 0; rw [(idx1_2 t).1]
  | ⟨1, _⟩ => show win1_2.index t 1 * 1024 + 1 * n.val = N.val; rw [(idx1_2 t).2, hN]; omega

/-- At a position with reduction coordinate 3 the accumulator is four steps from zero: those of this position and the three before. -/
theorem accAt1_last (c : Dev nD) (t : Fin cfg1.N) (h3 : t.val % 4 = 3) :
    accAt1 V c t.val t.isLt
      = k1_pay2 (xblk1 V c t) (wblk1 V c t)
          (k1_pay2 (xblk1 V c ⟨t.val - 1, by omega⟩) (wblk1 V c ⟨t.val - 1, by omega⟩)
            (k1_pay2 (xblk1 V c ⟨t.val - 1 - 1, by omega⟩) (wblk1 V c ⟨t.val - 1 - 1, by omega⟩)
              (k1_pay2 (xblk1 V c ⟨t.val - 1 - 1 - 1, by omega⟩) (wblk1 V c ⟨t.val - 1 - 1 - 1, by omega⟩) (k1_pay1 (F := Ideal))))) := by
  have e0 := accAt1_next V c t (by omega)
  have e1 := accAt1_next V c ⟨t.val - 1, by omega⟩ (by show ¬(t.val - 1) % 4 = 0; omega)
  have e2 := accAt1_next V c ⟨t.val - 1 - 1, by omega⟩ (by show ¬(t.val - 1 - 1) % 4 = 0; omega)
  have e3 := accAt1_first V c ⟨t.val - 1 - 1 - 1, by omega⟩ (by show (t.val - 1 - 1 - 1) % 4 = 0; omega)
  exact e0.trans (congrArg _ (e1.trans (congrArg _ (e2.trans (congrArg _ e3)))))

/-- One step's sum, read off the whole arrays: the block dot product of the position's reduction block. -/
theorem step1_sum (c : Dev nD) (t : Fin cfg1.N) (p : Fin 512) (n : Fin 1024) (R : Fin 1024) (N : Fin 4096) (k : Fin 4)
    (hR : R.val = 512 * (t.val / 16) + p.val) (hN : N.val = 1024 * ((t.val / 4) % 4) + n.val) (hk : k.val = t.val % 4) :
    (∑ q : Fin 1024, xblk1 V c t (ix2 p q) * wblk1 V c t (ix2 n q)) = blockDot (Parr1 V c) (Warr1 V c) R N k := by
  unfold blockDot
  refine Finset.sum_congr rfl fun q _ => ?_
  rw [xblk1_apply V c t p q R ⟨1024 * k.val + q.val, by omega⟩ hR (by show 1024 * k.val + q.val = _; rw [hk]),
    wblk1_apply V c t n q N ⟨1024 * k.val + q.val, by omega⟩ hN (by show 1024 * k.val + q.val = _; rw [hk])]

/-- What a write-back position writes is its block of `mmBias` of the whole arrays. -/
theorem flushed1_eq (c : Dev nD) (t : Fin cfg1.N) (hf : (cfg1.win 3).flush t = true) :
    (dat1 V c).flushed 3 t = ((cfg1.win 3).blk t).view.read (Elt Ideal) (mmBias (Parr1 V c) (Warr1 V c) (Barr1 V c)) := by
  have h3 : t.val % 4 = 3 := (flush1_3 t).mp hf
  have hN32 : t.val < 32 := lt_of_lt_of_eq t.isLt (show cfg1.N = 32 from N_1)
  funext y
  obtain ⟨p, n, rfl⟩ : ∃ (p : Fin 512) (n : Fin 1024), y = ix2 p n := ⟨y 0, y 1, eq_ix2 y⟩
  rw [View.read_apply]
  have hR : 512 * (t.val / 16) + p.val < 1024 := by have := p.isLt; omega
  have hNn : 1024 * ((t.val / 4) % 4) + n.val < 4096 := by have := n.isLt; omega
  refine Eq.trans ?_ (mmBias_at _ _ _ _ ⟨512 * (t.val / 16) + p.val, hR⟩ ⟨1024 * ((t.val / 4) % 4) + n.val, hNn⟩ ?_ ?_).symm
  · show (dat1 V c).after 3 t (ix2 p n) = _
    rw [after1_3]; unfold outAt1
    rw [pay3_1_apply, accAt1_last V c t h3, pay2_1_apply, pay2_1_apply, pay2_1_apply, pay2_1_apply, pay1_1_apply]
    unfold outAtIdx
    rw [step1_sum V c t p n ⟨512 * (t.val / 16) + p.val, hR⟩ ⟨1024 * ((t.val / 4) % 4) + n.val, hNn⟩ 3 rfl rfl (by show 3 = t.val % 4; omega),
      step1_sum V c ⟨t.val - 1, by omega⟩ p n ⟨512 * (t.val / 16) + p.val, hR⟩ ⟨1024 * ((t.val / 4) % 4) + n.val, hNn⟩ 2
        (by show 512 * (t.val / 16) + p.val = 512 * ((t.val - 1) / 16) + p.val; omega)
        (by show 1024 * ((t.val / 4) % 4) + n.val = 1024 * (((t.val - 1) / 4) % 4) + n.val; omega) (by show 2 = (t.val - 1) % 4; omega),
      step1_sum V c ⟨t.val - 1 - 1, by omega⟩ p n ⟨512 * (t.val / 16) + p.val, hR⟩ ⟨1024 * ((t.val / 4) % 4) + n.val, hNn⟩ 1
        (by show 512 * (t.val / 16) + p.val = 512 * ((t.val - 1 - 1) / 16) + p.val; omega)
        (by show 1024 * ((t.val / 4) % 4) + n.val = 1024 * (((t.val - 1 - 1) / 4) % 4) + n.val; omega) (by show 1 = (t.val - 1 - 1) % 4; omega),
      step1_sum V c ⟨t.val - 1 - 1 - 1, by omega⟩ p n ⟨512 * (t.val / 16) + p.val, hR⟩ ⟨1024 * ((t.val / 4) % 4) + n.val, hNn⟩ 0
        (by show 512 * (t.val / 16) + p.val = 512 * ((t.val - 1 - 1 - 1) / 16) + p.val; omega)
        (by show 1024 * ((t.val / 4) % 4) + n.val = 1024 * (((t.val - 1 - 1 - 1) / 4) % 4) + n.val; omega) (by show 0 = (t.val - 1 - 1 - 1) % 4; omega),
      bblk1_apply V c t n ⟨1024 * ((t.val / 4) % 4) + n.val, hNn⟩ rfl]
  · show win1_3.index t 0 * 512 + 1 * p.val = 512 * (t.val / 16) + p.val
    rw [(idx1_3 t).1]; omega
  · show win1_3.index t 1 * 1024 + 1 * n.val = 1024 * ((t.val / 4) % 4) + n.val
    rw [(idx1_3 t).2]; omega

/-- Every entry of the result lies in the block of a write-back position: the one of its row block and column block with reduction coordinate 3. -/
theorem cover1 (c : Dev nD) (i : ((cfg1.win 3).arr.view.loc (c.tc : Thread nD τ)).2.ty.Idx) :
    ∃ t : Fin cfg1.N, (cfg1.win 3).flush t = true ∧ i ∈ ((cfg1.win 3).blk t).view.set := by
  have hi0 : (i 0).val < 1024 := (i 0).isLt
  have hi1 : (i 1).val < 4096 := (i 1).isLt
  have hlt : 16 * ((i 0).val / 512) + 4 * ((i 1).val / 1024) + 3 < cfg1.N := by
    rw [show cfg1.N = 32 from N_1]; omega
  refine ⟨⟨16 * ((i 0).val / 512) + 4 * ((i 1).val / 1024) + 3, hlt⟩, (flush1_3 _).mpr (by show (16 * ((i 0).val / 512) + 4 * ((i 1).val / 1024) + 3) % 4 = 3; omega), ?_⟩
  rw [mem_blk1]
  intro a
  match a with
  | ⟨0, _⟩ =>
    show win1_3.index ⟨16 * ((i 0).val / 512) + 4 * ((i 1).val / 1024) + 3, hlt⟩ 0 * 512 ≤ (i 0).val
      ∧ (i 0).val < win1_3.index ⟨16 * ((i 0).val / 512) + 4 * ((i 1).val / 1024) + 3, hlt⟩ 0 * 512 + 512
    rw [(idx1_3 _).1]
    show (16 * ((i 0).val / 512) + 4 * ((i 1).val / 1024) + 3) / 16 * 512 ≤ (i 0).val
      ∧ (i 0).val < (16 * ((i 0).val / 512) + 4 * ((i 1).val / 1024) + 3) / 16 * 512 + 512
    omega
  | ⟨1, _⟩ =>
    show win1_3.index ⟨16 * ((i 0).val / 512) + 4 * ((i 1).val / 1024) + 3, hlt⟩ 1 * 1024 ≤ (i 1).val
      ∧ (i 1).val < win1_3.index ⟨16 * ((i 0).val / 512) + 4 * ((i 1).val / 1024) + 3, hlt⟩ 1 * 1024 + 1024
    rw [(idx1_3 _).2]
    show (16 * ((i 0).val / 512) + 4 * ((i 1).val / 1024) + 3) / 4 % 4 * 1024 ≤ (i 1).val
      ∧ (i 1).val < (16 * ((i 0).val / 512) + 4 * ((i 1).val / 1024) + 3) / 4 % 4 * 1024 + 1024
    omega

/-- THE CALL'S RESULT: after the run the output array holds `mmBias` of the three input arrays as the region found them. -/
theorem regionOut1 (c : Dev nD) :
    (dat1 V c).arrAt 3 cfg1.N = mmBias (Parr1 V c) (Warr1 V c) (Barr1 V c) :=
  (dat1 V c).arrAt_eq_of_cover 3 _ (fun t hf => flushed1_eq V c t hf) (cover1 c)

end Region

end Cert.KernelIdeal.Hand

end
-- ==== Proof.KernelIdeal.Value2.lean ====
/-
  The third call's result array at the extended reals.

  At the ideal instance the bf16 casts are the identity and the matrix unit's product into a zero accumulator is a
  plain sum, so one step adds, at row r and column n of the block, the sum over the 1024 reduction indices q of
  x[r, q] * w[n, q] (both operands are contracted along their second axis). The accumulator after the four steps of
  a (row block, column block) is ((((0 + s0) + s1) + s2) + s3), and the stored block adds the bias row. Read
  through the windows' blocks — block (i, k) of the [1024, 4096] activations, block (j, k) of the [4096, 4096]
  weights, block (0, j) of the [1, 4096] bias, block (i, j) of the result — that is ONE function of the whole
  arrays: out[R, N] = ((((0 + S0) + S1) + S2) + S3) + b[0, N] with S_k the sum over q of P[R, 1024 k + q] * W[N, 1024 k + q].
  The write-backs happen at the positions with k = 3 and their blocks tile the result, so the array ends holding it.
-/
import proofs.«109952_j48137993453602_1_alg».proof.Proof.KernelIdeal.Region2
import proofs.«109952_j48137993453602_1_alg».proof.Proof.KernelIdeal.MatmulBias
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/-! ## The matrix unit's product at an index -/

theorem mm2_lhs_0 (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem mm2_lhs_1 (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q
theorem mm2_rhs_0 (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
theorem mm2_rhs_1 (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

/-- Into a zero accumulator the product at (p, n) is the sum over the reduction index k of l[p, k] * r[n, k]. -/
theorem mm2_apply (l : FVec Ideal S512x1024 .bf16) (r : FVec Ideal S1024x1024 .bf16) (p : Fin 512) (n : Fin 1024) :
    matmul dot_S512x1024_S1024x1024_S512x1024_1_1_0_0_n_n none l r (constant (F := Ideal) S512x1024 .f32 0x00000000#32) (ix2 p n)
      = ∑ k : Fin 1024, l (ix2 p k) * r (ix2 n k) := by
  show FloatOps.matmul dot_S512x1024_S1024x1024_S512x1024_1_1_0_0_n_n none l r (constant (F := Ideal) S512x1024 .f32 0x00000000#32) (ix2 p n) = _
  rw [Ideal.matmul_constant_zero_apply, ← Equiv.sum_comp (ValueIdx.contrEquiv1 dot_S512x1024_S1024x1024_S512x1024_1_1_0_0_n_n 1024 rfl rfl).symm]
  refine Finset.sum_congr rfl fun k _ => ?_
  have hk := ValueIdx.contrEquiv1_symm_val dot_S512x1024_S1024x1024_S512x1024_1_1_0_0_n_n 1024 rfl rfl k
  have el : dot_S512x1024_S1024x1024_S512x1024_1_1_0_0_n_n.lhsIdx (ix2 p n) ((ValueIdx.contrEquiv1 dot_S512x1024_S1024x1024_S512x1024_1_1_0_0_n_n 1024 rfl rfl).symm k) = ix2 p k := funext fun a => Fin.ext (by
    match a with
    | ⟨0, _⟩ => exact mm2_lhs_0 _ _
    | ⟨1, _⟩ => exact (mm2_lhs_1 _ _).trans hk)
  have er : dot_S512x1024_S1024x1024_S512x1024_1_1_0_0_n_n.rhsIdx (ix2 p n) ((ValueIdx.contrEquiv1 dot_S512x1024_S1024x1024_S512x1024_1_1_0_0_n_n 1024 rfl rfl).symm k) = ix2 n k := funext fun a => Fin.ext (by
    match a with
    | ⟨0, _⟩ => exact mm2_rhs_0 _ _
    | ⟨1, _⟩ => exact (mm2_rhs_1 _ _).trans hk)
  rw [el, er]

/-! ## The three payloads at an index -/

/-- The zeroed accumulator reads 0. -/
theorem pay1_2_apply (j : S512x1024.Idx) : k2_pay1 (F := Ideal) j = 0 := by
  unfold k2_pay1
  simp only [shapeCast_self]
  show Ideal.ofBits .f32 0x00000000#32 = 0
  exact Ideal.ofBits_zero_f32

/-- One step adds the block product. -/
theorem pay2_2_apply (x : Vec Ideal S512x1024 .f32) (w : Vec Ideal S1024x1024 .f32) (a : Vec Ideal S512x1024 .f32) (p : Fin 512) (n : Fin 1024) :
    k2_pay2 (F := Ideal) x w a (ix2 p n) = a (ix2 p n) + ∑ k : Fin 1024, x (ix2 p k) * w (ix2 n k) := by
  unfold k2_pay2
  simp only [shapeCast_self]
  refine (addf_apply _ _ _).trans ?_
  exact congrArg (a (ix2 p n) + ·) (mm2_apply _ _ p n)

/-- The stored block is the accumulator plus the bias row. -/
theorem pay3_2_apply (a : Vec Ideal S512x1024 .f32) (b : Vec Ideal S1x1024 .f32) (p : Fin 512) (n : Fin 1024) :
    k2_pay3 (F := Ideal) a b (ix2 p n) = a (ix2 p n) + b (ix2 0 n) := by
  unfold k2_pay3
  simp only [shapeCast_self]
  refine (addf_apply _ _ _).trans ?_
  refine congrArg (a (ix2 p n) + ·) ?_
  exact broadcastTo_apply _ _ _ (ix2 0 n) (fun d => by
    match d with
    | ⟨0, _⟩ => rfl
    | ⟨1, _⟩ => rfl)

/-! ## Where the windows' blocks sit: position t is (row block t / 16, column block (t / 4) % 4, reduction block t % 4) -/

theorem idx2_0 (t : Fin cfg2.N) : win2_0.index t 0 = t.val / 16 ∧ win2_0.index t 1 = t.val % 4 :=
  (by decide +kernel : ∀ t : Fin grid2.N, win2_0.index t 0 = t.val / 16 ∧ win2_0.index t 1 = t.val % 4) t
theorem idx2_1 (t : Fin cfg2.N) : win2_1.index t 0 = (t.val / 4) % 4 ∧ win2_1.index t 1 = t.val % 4 :=
  (by decide +kernel : ∀ t : Fin grid2.N, win2_1.index t 0 = (t.val / 4) % 4 ∧ win2_1.index t 1 = t.val % 4) t
theorem idx2_2 (t : Fin cfg2.N) : win2_2.index t 0 = 0 ∧ win2_2.index t 1 = (t.val / 4) % 4 :=
  (by decide +kernel : ∀ t : Fin grid2.N, win2_2.index t 0 = 0 ∧ win2_2.index t 1 = (t.val / 4) % 4) t
theorem idx2_3 (t : Fin cfg2.N) : win2_3.index t 0 = t.val / 16 ∧ win2_3.index t 1 = (t.val / 4) % 4 :=
  (by decide +kernel : ∀ t : Fin grid2.N, win2_3.index t 0 = t.val / 16 ∧ win2_3.index t 1 = (t.val / 4) % 4) t

/-- An entry of the result array is in position t's block iff each coordinate is in the block's range on its axis. -/
theorem mem_blk2 (t : Fin cfg2.N) (i : S1024x4096.Idx) :
    i ∈ ((cfg2.win 3).blk t).view.set ↔ ∀ a : Fin 2, win2_3.index t a * S512x1024.size a ≤ (i a).val ∧ (i a).val < win2_3.index t a * S512x1024.size a + S512x1024.size a := by
  show i ∈ ((View.whole (Pipeline.arrRef spec2 3)).slice (win2_3.rect t)).set ↔ _
  rw [View.set_slice_whole, Rect.mem_set_unit]
  exact Iff.rfl

section Region

variable (V : (c : Dev nD) → (b : Ref sig .tc) → Buf (Elt Ideal) ((c : Thread nD τ).loc b))

/-- The call's three input arrays as the region finds them, at their literal shapes. -/
abbrev Parr2 (c : Dev nD) : Vec Ideal S1024x4096 .f32 := V c (Pipeline.arrRef spec2 0)
abbrev Warr2 (c : Dev nD) : Vec Ideal S4096x4096 .f32 := V c (Pipeline.arrRef spec2 1)
abbrev Barr2 (c : Dev nD) : Vec Ideal S1x4096 .f32 := V c (Pipeline.arrRef spec2 2)

/-- The activation block at position t holds rows 512 (t / 16) + p and reduction indices 1024 (t % 4) + q. -/
theorem xblk2_apply (c : Dev nD) (t : Fin cfg2.N) (p : Fin 512) (q : Fin 1024) (R : Fin 1024) (K : Fin 4096)
    (hR : R.val = 512 * (t.val / 16) + p.val) (hK : K.val = 1024 * (t.val % 4) + q.val) :
    xblk2 V c t (ix2 p q) = Parr2 V c (ix2 R K) := by
  show iblk2 V c 0 t (ix2 p q) = _
  unfold iblk2
  rw [View.read_apply]
  show V c (Pipeline.arrRef spec2 0) (((cfg2.win 0).blk t).view.emb (ix2 p q)) = V c (Pipeline.arrRef spec2 0) (ix2 R K)
  refine congrArg (V c (Pipeline.arrRef spec2 0)) (funext fun a => Fin.ext ?_)
  match a with
  | ⟨0, _⟩ => show win2_0.index t 0 * 512 + 1 * p.val = R.val; rw [(idx2_0 t).1, hR]; omega
  | ⟨1, _⟩ => show win2_0.index t 1 * 1024 + 1 * q.val = K.val; rw [(idx2_0 t).2, hK]; omega

/-- The weight block at position t holds rows 1024 ((t / 4) % 4) + n and reduction indices 1024 (t % 4) + q. -/
theorem wblk2_apply (c : Dev nD) (t : Fin cfg2.N) (n : Fin 1024) (q : Fin 1024) (N : Fin 4096) (K : Fin 4096)
    (hN : N.val = 1024 * ((t.val / 4) % 4) + n.val) (hK : K.val = 1024 * (t.val % 4) + q.val) :
    wblk2 V c t (ix2 n q) = Warr2 V c (ix2 N K) := by
  show iblk2 V c 1 t (ix2 n q) = _
  unfold iblk2
  rw [View.read_apply]
  show V c (Pipeline.arrRef spec2 1) (((cfg2.win 1).blk t).view.emb (ix2 n q)) = V c (Pipeline.arrRef spec2 1) (ix2 N K)
  refine congrArg (V c (Pipeline.arrRef spec2 1)) (funext fun a => Fin.ext ?_)
  match a with
  | ⟨0, _⟩ => show win2_1.index t 0 * 1024 + 1 * n.val = N.val; rw [(idx2_1 t).1, hN]; omega
  | ⟨1, _⟩ => show win2_1.index t 1 * 1024 + 1 * q.val = K.val; rw [(idx2_1 t).2, hK]; omega

/-- The bias block at position t holds entries 1024 ((t / 4) % 4) + n of the one bias row. -/
theorem bblk2_apply (c : Dev nD) (t : Fin cfg2.N) (n : Fin 1024) (N : Fin 4096)
    (hN : N.val = 1024 * ((t.val / 4) % 4) + n.val) :
    bblk2 V c t (ix2 0 n) = Barr2 V c (ix2 0 N) := by
  show iblk2 V c 2 t (ix2 0 n) = _
  unfold iblk2
  rw [View.read_apply]
  show V c (Pipeline.arrRef spec2 2) (((cfg2.win 2).blk t).view.emb (ix2 0 n)) = V c (Pipeline.arrRef spec2 2) (ix2 0 N)
  refine congrArg (V c (Pipeline.arrRef spec2 2)) (funext fun a => Fin.ext ?_)
  match a with
  | ⟨0, _⟩ => show win2_2.index t 0 * 1 + 1 * 0 = 0; rw [(idx2_2 t).1]
  | ⟨1, _⟩ => show win2_2.index t 1 * 1024 + 1 * n.val = N.val; rw [(idx2_2 t).2, hN]; omega

/-- At a position with reduction coordinate 3 the accumulator is four steps from zero: those of this position and the three before. -/
theorem accAt2_last (c : Dev nD) (t : Fin cfg2.N) (h3 : t.val % 4 = 3) :
    accAt2 V c t.val t.isLt
      = k2_pay2 (xblk2 V c t) (wblk2 V c t)
          (k2_pay2 (xblk2 V c ⟨t.val - 1, by omega⟩) (wblk2 V c ⟨t.val - 1, by omega⟩)
            (k2_pay2 (xblk2 V c ⟨t.val - 1 - 1, by omega⟩) (wblk2 V c ⟨t.val - 1 - 1, by omega⟩)
              (k2_pay2 (xblk2 V c ⟨t.val - 1 - 1 - 1, by omega⟩) (wblk2 V c ⟨t.val - 1 - 1 - 1, by omega⟩) (k2_pay1 (F := Ideal))))) := by
  have e0 := accAt2_next V c t (by omega)
  have e1 := accAt2_next V c ⟨t.val - 1, by omega⟩ (by show ¬(t.val - 1) % 4 = 0; omega)
  have e2 := accAt2_next V c ⟨t.val - 1 - 1, by omega⟩ (by show ¬(t.val - 1 - 1) % 4 = 0; omega)
  have e3 := accAt2_first V c ⟨t.val - 1 - 1 - 1, by omega⟩ (by show (t.val - 1 - 1 - 1) % 4 = 0; omega)
  exact e0.trans (congrArg _ (e1.trans (congrArg _ (e2.trans (congrArg _ e3)))))

/-- One step's sum, read off the whole arrays: the block dot product of the position's reduction block. -/
theorem step2_sum (c : Dev nD) (t : Fin cfg2.N) (p : Fin 512) (n : Fin 1024) (R : Fin 1024) (N : Fin 4096) (k : Fin 4)
    (hR : R.val = 512 * (t.val / 16) + p.val) (hN : N.val = 1024 * ((t.val / 4) % 4) + n.val) (hk : k.val = t.val % 4) :
    (∑ q : Fin 1024, xblk2 V c t (ix2 p q) * wblk2 V c t (ix2 n q)) = blockDot (Parr2 V c) (Warr2 V c) R N k := by
  unfold blockDot
  refine Finset.sum_congr rfl fun q _ => ?_
  rw [xblk2_apply V c t p q R ⟨1024 * k.val + q.val, by omega⟩ hR (by show 1024 * k.val + q.val = _; rw [hk]),
    wblk2_apply V c t n q N ⟨1024 * k.val + q.val, by omega⟩ hN (by show 1024 * k.val + q.val = _; rw [hk])]

/-- What a write-back position writes is its block of `mmBias` of the whole arrays. -/
theorem flushed2_eq (c : Dev nD) (t : Fin cfg2.N) (hf : (cfg2.win 3).flush t = true) :
    (dat2 V c).flushed 3 t = ((cfg2.win 3).blk t).view.read (Elt Ideal) (mmBias (Parr2 V c) (Warr2 V c) (Barr2 V c)) := by
  have h3 : t.val % 4 = 3 := (flush2_3 t).mp hf
  have hN32 : t.val < 32 := lt_of_lt_of_eq t.isLt (show cfg2.N = 32 from N_2)
  funext y
  obtain ⟨p, n, rfl⟩ : ∃ (p : Fin 512) (n : Fin 1024), y = ix2 p n := ⟨y 0, y 1, eq_ix2 y⟩
  rw [View.read_apply]
  have hR : 512 * (t.val / 16) + p.val < 1024 := by have := p.isLt; omega
  have hNn : 1024 * ((t.val / 4) % 4) + n.val < 4096 := by have := n.isLt; omega
  refine Eq.trans ?_ (mmBias_at _ _ _ _ ⟨512 * (t.val / 16) + p.val, hR⟩ ⟨1024 * ((t.val / 4) % 4) + n.val, hNn⟩ ?_ ?_).symm
  · show (dat2 V c).after 3 t (ix2 p n) = _
    rw [after2_3]; unfold outAt2
    rw [pay3_2_apply, accAt2_last V c t h3, pay2_2_apply, pay2_2_apply, pay2_2_apply, pay2_2_apply, pay1_2_apply]
    unfold outAtIdx
    rw [step2_sum V c t p n ⟨512 * (t.val / 16) + p.val, hR⟩ ⟨1024 * ((t.val / 4) % 4) + n.val, hNn⟩ 3 rfl rfl (by show 3 = t.val % 4; omega),
      step2_sum V c ⟨t.val - 1, by omega⟩ p n ⟨512 * (t.val / 16) + p.val, hR⟩ ⟨1024 * ((t.val / 4) % 4) + n.val, hNn⟩ 2
        (by show 512 * (t.val / 16) + p.val = 512 * ((t.val - 1) / 16) + p.val; omega)
        (by show 1024 * ((t.val / 4) % 4) + n.val = 1024 * (((t.val - 1) / 4) % 4) + n.val; omega) (by show 2 = (t.val - 1) % 4; omega),
      step2_sum V c ⟨t.val - 1 - 1, by omega⟩ p n ⟨512 * (t.val / 16) + p.val, hR⟩ ⟨1024 * ((t.val / 4) % 4) + n.val, hNn⟩ 1
        (by show 512 * (t.val / 16) + p.val = 512 * ((t.val - 1 - 1) / 16) + p.val; omega)
        (by show 1024 * ((t.val / 4) % 4) + n.val = 1024 * (((t.val - 1 - 1) / 4) % 4) + n.val; omega) (by show 1 = (t.val - 1 - 1) % 4; omega),
      step2_sum V c ⟨t.val - 1 - 1 - 1, by omega⟩ p n ⟨512 * (t.val / 16) + p.val, hR⟩ ⟨1024 * ((t.val / 4) % 4) + n.val, hNn⟩ 0
        (by show 512 * (t.val / 16) + p.val = 512 * ((t.val - 1 - 1 - 1) / 16) + p.val; omega)
        (by show 1024 * ((t.val / 4) % 4) + n.val = 1024 * (((t.val - 1 - 1 - 1) / 4) % 4) + n.val; omega) (by show 0 = (t.val - 1 - 1 - 1) % 4; omega),
      bblk2_apply V c t n ⟨1024 * ((t.val / 4) % 4) + n.val, hNn⟩ rfl]
  · show win2_3.index t 0 * 512 + 1 * p.val = 512 * (t.val / 16) + p.val
    rw [(idx2_3 t).1]; omega
  · show win2_3.index t 1 * 1024 + 1 * n.val = 1024 * ((t.val / 4) % 4) + n.val
    rw [(idx2_3 t).2]; omega

/-- Every entry of the result lies in the block of a write-back position: the one of its row block and column block with reduction coordinate 3. -/
theorem cover2 (c : Dev nD) (i : ((cfg2.win 3).arr.view.loc (c.tc : Thread nD τ)).2.ty.Idx) :
    ∃ t : Fin cfg2.N, (cfg2.win 3).flush t = true ∧ i ∈ ((cfg2.win 3).blk t).view.set := by
  have hi0 : (i 0).val < 1024 := (i 0).isLt
  have hi1 : (i 1).val < 4096 := (i 1).isLt
  have hlt : 16 * ((i 0).val / 512) + 4 * ((i 1).val / 1024) + 3 < cfg2.N := by
    rw [show cfg2.N = 32 from N_2]; omega
  refine ⟨⟨16 * ((i 0).val / 512) + 4 * ((i 1).val / 1024) + 3, hlt⟩, (flush2_3 _).mpr (by show (16 * ((i 0).val / 512) + 4 * ((i 1).val / 1024) + 3) % 4 = 3; omega), ?_⟩
  rw [mem_blk2]
  intro a
  match a with
  | ⟨0, _⟩ =>
    show win2_3.index ⟨16 * ((i 0).val / 512) + 4 * ((i 1).val / 1024) + 3, hlt⟩ 0 * 512 ≤ (i 0).val
      ∧ (i 0).val < win2_3.index ⟨16 * ((i 0).val / 512) + 4 * ((i 1).val / 1024) + 3, hlt⟩ 0 * 512 + 512
    rw [(idx2_3 _).1]
    show (16 * ((i 0).val / 512) + 4 * ((i 1).val / 1024) + 3) / 16 * 512 ≤ (i 0).val
      ∧ (i 0).val < (16 * ((i 0).val / 512) + 4 * ((i 1).val / 1024) + 3) / 16 * 512 + 512
    omega
  | ⟨1, _⟩ =>
    show win2_3.index ⟨16 * ((i 0).val / 512) + 4 * ((i 1).val / 1024) + 3, hlt⟩ 1 * 1024 ≤ (i 1).val
      ∧ (i 1).val < win2_3.index ⟨16 * ((i 0).val / 512) + 4 * ((i 1).val / 1024) + 3, hlt⟩ 1 * 1024 + 1024
    rw [(idx2_3 _).2]
    show (16 * ((i 0).val / 512) + 4 * ((i 1).val / 1024) + 3) / 4 % 4 * 1024 ≤ (i 1).val
      ∧ (i 1).val < (16 * ((i 0).val / 512) + 4 * ((i 1).val / 1024) + 3) / 4 % 4 * 1024 + 1024
    omega

/-- THE CALL'S RESULT: after the run the output array holds `mmBias` of the three input arrays as the region found them. -/
theorem regionOut2 (c : Dev nD) :
    (dat2 V c).arrAt 3 cfg2.N = mmBias (Parr2 V c) (Warr2 V c) (Barr2 V c) :=
  (dat2 V c).arrAt_eq_of_cover 3 _ (fun t hf => flushed2_eq V c t hf) (cover2 c)

end Region

end Cert.KernelIdeal.Hand

end
-- ==== Proof.KernelIdeal.Value3.lean ====
/-
  The fourth call's result array at the extended reals.

  At the ideal instance the bf16 casts are the identity and the matrix unit's product into a zero accumulator is a
  plain sum, so one step adds, at row r and column n of the block, the sum over the 1024 reduction indices q of
  x[r, q] * w[n, q] (both operands are contracted along their second axis). The accumulator after the four steps of
  a (row block, column block) is ((((0 + s0) + s1) + s2) + s3), and the stored block adds the bias row. Read
  through the windows' blocks — block (i, k) of the [1024, 4096] activations, block (j, k) of the [4096, 4096]
  weights, block (0, j) of the [1, 4096] bias, block (i, j) of the result — that is ONE function of the whole
  arrays: out[R, N] = ((((0 + S0) + S1) + S2) + S3) + b[0, N] with S_k the sum over q of P[R, 1024 k + q] * W[N, 1024 k + q].
  The write-backs happen at the positions with k = 3 and their blocks tile the result, so the array ends holding it.
-/
import proofs.«109952_j48137993453602_1_alg».proof.Proof.KernelIdeal.Region3
import proofs.«109952_j48137993453602_1_alg».proof.Proof.KernelIdeal.MatmulBias
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/-! ## The matrix unit's product at an index -/

theorem mm3_lhs_0 (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem mm3_lhs_1 (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q
theorem mm3_rhs_0 (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
theorem mm3_rhs_1 (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

/-- Into a zero accumulator the product at (p, n) is the sum over the reduction index k of l[p, k] * r[n, k]. -/
theorem mm3_apply (l : FVec Ideal S512x1024 .bf16) (r : FVec Ideal S1024x1024 .bf16) (p : Fin 512) (n : Fin 1024) :
    matmul dot_S512x1024_S1024x1024_S512x1024_1_1_0_0_n_n none l r (constant (F := Ideal) S512x1024 .f32 0x00000000#32) (ix2 p n)
      = ∑ k : Fin 1024, l (ix2 p k) * r (ix2 n k) := by
  show FloatOps.matmul dot_S512x1024_S1024x1024_S512x1024_1_1_0_0_n_n none l r (constant (F := Ideal) S512x1024 .f32 0x00000000#32) (ix2 p n) = _
  rw [Ideal.matmul_constant_zero_apply, ← Equiv.sum_comp (ValueIdx.contrEquiv1 dot_S512x1024_S1024x1024_S512x1024_1_1_0_0_n_n 1024 rfl rfl).symm]
  refine Finset.sum_congr rfl fun k _ => ?_
  have hk := ValueIdx.contrEquiv1_symm_val dot_S512x1024_S1024x1024_S512x1024_1_1_0_0_n_n 1024 rfl rfl k
  have el : dot_S512x1024_S1024x1024_S512x1024_1_1_0_0_n_n.lhsIdx (ix2 p n) ((ValueIdx.contrEquiv1 dot_S512x1024_S1024x1024_S512x1024_1_1_0_0_n_n 1024 rfl rfl).symm k) = ix2 p k := funext fun a => Fin.ext (by
    match a with
    | ⟨0, _⟩ => exact mm3_lhs_0 _ _
    | ⟨1, _⟩ => exact (mm3_lhs_1 _ _).trans hk)
  have er : dot_S512x1024_S1024x1024_S512x1024_1_1_0_0_n_n.rhsIdx (ix2 p n) ((ValueIdx.contrEquiv1 dot_S512x1024_S1024x1024_S512x1024_1_1_0_0_n_n 1024 rfl rfl).symm k) = ix2 n k := funext fun a => Fin.ext (by
    match a with
    | ⟨0, _⟩ => exact mm3_rhs_0 _ _
    | ⟨1, _⟩ => exact (mm3_rhs_1 _ _).trans hk)
  rw [el, er]

/-! ## The three payloads at an index -/

/-- The zeroed accumulator reads 0. -/
theorem pay1_3_apply (j : S512x1024.Idx) : k3_pay1 (F := Ideal) j = 0 := by
  unfold k3_pay1
  simp only [shapeCast_self]
  show Ideal.ofBits .f32 0x00000000#32 = 0
  exact Ideal.ofBits_zero_f32

/-- One step adds the block product. -/
theorem pay2_3_apply (x : Vec Ideal S512x1024 .f32) (w : Vec Ideal S1024x1024 .f32) (a : Vec Ideal S512x1024 .f32) (p : Fin 512) (n : Fin 1024) :
    k3_pay2 (F := Ideal) x w a (ix2 p n) = a (ix2 p n) + ∑ k : Fin 1024, x (ix2 p k) * w (ix2 n k) := by
  unfold k3_pay2
  simp only [shapeCast_self]
  refine (addf_apply _ _ _).trans ?_
  exact congrArg (a (ix2 p n) + ·) (mm3_apply _ _ p n)

/-- The stored block is the accumulator plus the bias row. -/
theorem pay3_3_apply (a : Vec Ideal S512x1024 .f32) (b : Vec Ideal S1x1024 .f32) (p : Fin 512) (n : Fin 1024) :
    k3_pay3 (F := Ideal) a b (ix2 p n) = a (ix2 p n) + b (ix2 0 n) := by
  unfold k3_pay3
  simp only [shapeCast_self]
  refine (addf_apply _ _ _).trans ?_
  refine congrArg (a (ix2 p n) + ·) ?_
  exact broadcastTo_apply _ _ _ (ix2 0 n) (fun d => by
    match d with
    | ⟨0, _⟩ => rfl
    | ⟨1, _⟩ => rfl)

/-! ## Where the windows' blocks sit: position t is (row block t / 16, column block (t / 4) % 4, reduction block t % 4) -/

theorem idx3_0 (t : Fin cfg3.N) : win3_0.index t 0 = t.val / 16 ∧ win3_0.index t 1 = t.val % 4 :=
  (by decide +kernel : ∀ t : Fin grid3.N, win3_0.index t 0 = t.val / 16 ∧ win3_0.index t 1 = t.val % 4) t
theorem idx3_1 (t : Fin cfg3.N) : win3_1.index t 0 = (t.val / 4) % 4 ∧ win3_1.index t 1 = t.val % 4 :=
  (by decide +kernel : ∀ t : Fin grid3.N, win3_1.index t 0 = (t.val / 4) % 4 ∧ win3_1.index t 1 = t.val % 4) t
theorem idx3_2 (t : Fin cfg3.N) : win3_2.index t 0 = 0 ∧ win3_2.index t 1 = (t.val / 4) % 4 :=
  (by decide +kernel : ∀ t : Fin grid3.N, win3_2.index t 0 = 0 ∧ win3_2.index t 1 = (t.val / 4) % 4) t
theorem idx3_3 (t : Fin cfg3.N) : win3_3.index t 0 = t.val / 16 ∧ win3_3.index t 1 = (t.val / 4) % 4 :=
  (by decide +kernel : ∀ t : Fin grid3.N, win3_3.index t 0 = t.val / 16 ∧ win3_3.index t 1 = (t.val / 4) % 4) t

/-- An entry of the result array is in position t's block iff each coordinate is in the block's range on its axis. -/
theorem mem_blk3 (t : Fin cfg3.N) (i : S1024x4096.Idx) :
    i ∈ ((cfg3.win 3).blk t).view.set ↔ ∀ a : Fin 2, win3_3.index t a * S512x1024.size a ≤ (i a).val ∧ (i a).val < win3_3.index t a * S512x1024.size a + S512x1024.size a := by
  show i ∈ ((View.whole (Pipeline.arrRef spec3 3)).slice (win3_3.rect t)).set ↔ _
  rw [View.set_slice_whole, Rect.mem_set_unit]
  exact Iff.rfl

section Region

variable (V : (c : Dev nD) → (b : Ref sig .tc) → Buf (Elt Ideal) ((c : Thread nD τ).loc b))

/-- The call's three input arrays as the region finds them, at their literal shapes. -/
abbrev Parr3 (c : Dev nD) : Vec Ideal S1024x4096 .f32 := V c (Pipeline.arrRef spec3 0)
abbrev Warr3 (c : Dev nD) : Vec Ideal S4096x4096 .f32 := V c (Pipeline.arrRef spec3 1)
abbrev Barr3 (c : Dev nD) : Vec Ideal S1x4096 .f32 := V c (Pipeline.arrRef spec3 2)

/-- The activation block at position t holds rows 512 (t / 16) + p and reduction indices 1024 (t % 4) + q. -/
theorem xblk3_apply (c : Dev nD) (t : Fin cfg3.N) (p : Fin 512) (q : Fin 1024) (R : Fin 1024) (K : Fin 4096)
    (hR : R.val = 512 * (t.val / 16) + p.val) (hK : K.val = 1024 * (t.val % 4) + q.val) :
    xblk3 V c t (ix2 p q) = Parr3 V c (ix2 R K) := by
  show iblk3 V c 0 t (ix2 p q) = _
  unfold iblk3
  rw [View.read_apply]
  show V c (Pipeline.arrRef spec3 0) (((cfg3.win 0).blk t).view.emb (ix2 p q)) = V c (Pipeline.arrRef spec3 0) (ix2 R K)
  refine congrArg (V c (Pipeline.arrRef spec3 0)) (funext fun a => Fin.ext ?_)
  match a with
  | ⟨0, _⟩ => show win3_0.index t 0 * 512 + 1 * p.val = R.val; rw [(idx3_0 t).1, hR]; omega
  | ⟨1, _⟩ => show win3_0.index t 1 * 1024 + 1 * q.val = K.val; rw [(idx3_0 t).2, hK]; omega

/-- The weight block at position t holds rows 1024 ((t / 4) % 4) + n and reduction indices 1024 (t % 4) + q. -/
theorem wblk3_apply (c : Dev nD) (t : Fin cfg3.N) (n : Fin 1024) (q : Fin 1024) (N : Fin 4096) (K : Fin 4096)
    (hN : N.val = 1024 * ((t.val / 4) % 4) + n.val) (hK : K.val = 1024 * (t.val % 4) + q.val) :
    wblk3 V c t (ix2 n q) = Warr3 V c (ix2 N K) := by
  show iblk3 V c 1 t (ix2 n q) = _
  unfold iblk3
  rw [View.read_apply]
  show V c (Pipeline.arrRef spec3 1) (((cfg3.win 1).blk t).view.emb (ix2 n q)) = V c (Pipeline.arrRef spec3 1) (ix2 N K)
  refine congrArg (V c (Pipeline.arrRef spec3 1)) (funext fun a => Fin.ext ?_)
  match a with
  | ⟨0, _⟩ => show win3_1.index t 0 * 1024 + 1 * n.val = N.val; rw [(idx3_1 t).1, hN]; omega
  | ⟨1, _⟩ => show win3_1.index t 1 * 1024 + 1 * q.val = K.val; rw [(idx3_1 t).2, hK]; omega

/-- The bias block at position t holds entries 1024 ((t / 4) % 4) + n of the one bias row. -/
theorem bblk3_apply (c : Dev nD) (t : Fin cfg3.N) (n : Fin 1024) (N : Fin 4096)
    (hN : N.val = 1024 * ((t.val / 4) % 4) + n.val) :
    bblk3 V c t (ix2 0 n) = Barr3 V c (ix2 0 N) := by
  show iblk3 V c 2 t (ix2 0 n) = _
  unfold iblk3
  rw [View.read_apply]
  show V c (Pipeline.arrRef spec3 2) (((cfg3.win 2).blk t).view.emb (ix2 0 n)) = V c (Pipeline.arrRef spec3 2) (ix2 0 N)
  refine congrArg (V c (Pipeline.arrRef spec3 2)) (funext fun a => Fin.ext ?_)
  match a with
  | ⟨0, _⟩ => show win3_2.index t 0 * 1 + 1 * 0 = 0; rw [(idx3_2 t).1]
  | ⟨1, _⟩ => show win3_2.index t 1 * 1024 + 1 * n.val = N.val; rw [(idx3_2 t).2, hN]; omega

/-- At a position with reduction coordinate 3 the accumulator is four steps from zero: those of this position and the three before. -/
theorem accAt3_last (c : Dev nD) (t : Fin cfg3.N) (h3 : t.val % 4 = 3) :
    accAt3 V c t.val t.isLt
      = k3_pay2 (xblk3 V c t) (wblk3 V c t)
          (k3_pay2 (xblk3 V c ⟨t.val - 1, by omega⟩) (wblk3 V c ⟨t.val - 1, by omega⟩)
            (k3_pay2 (xblk3 V c ⟨t.val - 1 - 1, by omega⟩) (wblk3 V c ⟨t.val - 1 - 1, by omega⟩)
              (k3_pay2 (xblk3 V c ⟨t.val - 1 - 1 - 1, by omega⟩) (wblk3 V c ⟨t.val - 1 - 1 - 1, by omega⟩) (k3_pay1 (F := Ideal))))) := by
  have e0 := accAt3_next V c t (by omega)
  have e1 := accAt3_next V c ⟨t.val - 1, by omega⟩ (by show ¬(t.val - 1) % 4 = 0; omega)
  have e2 := accAt3_next V c ⟨t.val - 1 - 1, by omega⟩ (by show ¬(t.val - 1 - 1) % 4 = 0; omega)
  have e3 := accAt3_first V c ⟨t.val - 1 - 1 - 1, by omega⟩ (by show (t.val - 1 - 1 - 1) % 4 = 0; omega)
  exact e0.trans (congrArg _ (e1.trans (congrArg _ (e2.trans (congrArg _ e3)))))

/-- One step's sum, read off the whole arrays: the block dot product of the position's reduction block. -/
theorem step3_sum (c : Dev nD) (t : Fin cfg3.N) (p : Fin 512) (n : Fin 1024) (R : Fin 1024) (N : Fin 4096) (k : Fin 4)
    (hR : R.val = 512 * (t.val / 16) + p.val) (hN : N.val = 1024 * ((t.val / 4) % 4) + n.val) (hk : k.val = t.val % 4) :
    (∑ q : Fin 1024, xblk3 V c t (ix2 p q) * wblk3 V c t (ix2 n q)) = blockDot (Parr3 V c) (Warr3 V c) R N k := by
  unfold blockDot
  refine Finset.sum_congr rfl fun q _ => ?_
  rw [xblk3_apply V c t p q R ⟨1024 * k.val + q.val, by omega⟩ hR (by show 1024 * k.val + q.val = _; rw [hk]),
    wblk3_apply V c t n q N ⟨1024 * k.val + q.val, by omega⟩ hN (by show 1024 * k.val + q.val = _; rw [hk])]

/-- What a write-back position writes is its block of `mmBias` of the whole arrays. -/
theorem flushed3_eq (c : Dev nD) (t : Fin cfg3.N) (hf : (cfg3.win 3).flush t = true) :
    (dat3 V c).flushed 3 t = ((cfg3.win 3).blk t).view.read (Elt Ideal) (mmBias (Parr3 V c) (Warr3 V c) (Barr3 V c)) := by
  have h3 : t.val % 4 = 3 := (flush3_3 t).mp hf
  have hN32 : t.val < 32 := lt_of_lt_of_eq t.isLt (show cfg3.N = 32 from N_3)
  funext y
  obtain ⟨p, n, rfl⟩ : ∃ (p : Fin 512) (n : Fin 1024), y = ix2 p n := ⟨y 0, y 1, eq_ix2 y⟩
  rw [View.read_apply]
  have hR : 512 * (t.val / 16) + p.val < 1024 := by have := p.isLt; omega
  have hNn : 1024 * ((t.val / 4) % 4) + n.val < 4096 := by have := n.isLt; omega
  refine Eq.trans ?_ (mmBias_at _ _ _ _ ⟨512 * (t.val / 16) + p.val, hR⟩ ⟨1024 * ((t.val / 4) % 4) + n.val, hNn⟩ ?_ ?_).symm
  · show (dat3 V c).after 3 t (ix2 p n) = _
    rw [after3_3]; unfold outAt3
    rw [pay3_3_apply, accAt3_last V c t h3, pay2_3_apply, pay2_3_apply, pay2_3_apply, pay2_3_apply, pay1_3_apply]
    unfold outAtIdx
    rw [step3_sum V c t p n ⟨512 * (t.val / 16) + p.val, hR⟩ ⟨1024 * ((t.val / 4) % 4) + n.val, hNn⟩ 3 rfl rfl (by show 3 = t.val % 4; omega),
      step3_sum V c ⟨t.val - 1, by omega⟩ p n ⟨512 * (t.val / 16) + p.val, hR⟩ ⟨1024 * ((t.val / 4) % 4) + n.val, hNn⟩ 2
        (by show 512 * (t.val / 16) + p.val = 512 * ((t.val - 1) / 16) + p.val; omega)
        (by show 1024 * ((t.val / 4) % 4) + n.val = 1024 * (((t.val - 1) / 4) % 4) + n.val; omega) (by show 2 = (t.val - 1) % 4; omega),
      step3_sum V c ⟨t.val - 1 - 1, by omega⟩ p n ⟨512 * (t.val / 16) + p.val, hR⟩ ⟨1024 * ((t.val / 4) % 4) + n.val, hNn⟩ 1
        (by show 512 * (t.val / 16) + p.val = 512 * ((t.val - 1 - 1) / 16) + p.val; omega)
        (by show 1024 * ((t.val / 4) % 4) + n.val = 1024 * (((t.val - 1 - 1) / 4) % 4) + n.val; omega) (by show 1 = (t.val - 1 - 1) % 4; omega),
      step3_sum V c ⟨t.val - 1 - 1 - 1, by omega⟩ p n ⟨512 * (t.val / 16) + p.val, hR⟩ ⟨1024 * ((t.val / 4) % 4) + n.val, hNn⟩ 0
        (by show 512 * (t.val / 16) + p.val = 512 * ((t.val - 1 - 1 - 1) / 16) + p.val; omega)
        (by show 1024 * ((t.val / 4) % 4) + n.val = 1024 * (((t.val - 1 - 1 - 1) / 4) % 4) + n.val; omega) (by show 0 = (t.val - 1 - 1 - 1) % 4; omega),
      bblk3_apply V c t n ⟨1024 * ((t.val / 4) % 4) + n.val, hNn⟩ rfl]
  · show win3_3.index t 0 * 512 + 1 * p.val = 512 * (t.val / 16) + p.val
    rw [(idx3_3 t).1]; omega
  · show win3_3.index t 1 * 1024 + 1 * n.val = 1024 * ((t.val / 4) % 4) + n.val
    rw [(idx3_3 t).2]; omega

/-- Every entry of the result lies in the block of a write-back position: the one of its row block and column block with reduction coordinate 3. -/
theorem cover3 (c : Dev nD) (i : ((cfg3.win 3).arr.view.loc (c.tc : Thread nD τ)).2.ty.Idx) :
    ∃ t : Fin cfg3.N, (cfg3.win 3).flush t = true ∧ i ∈ ((cfg3.win 3).blk t).view.set := by
  have hi0 : (i 0).val < 1024 := (i 0).isLt
  have hi1 : (i 1).val < 4096 := (i 1).isLt
  have hlt : 16 * ((i 0).val / 512) + 4 * ((i 1).val / 1024) + 3 < cfg3.N := by
    rw [show cfg3.N = 32 from N_3]; omega
  refine ⟨⟨16 * ((i 0).val / 512) + 4 * ((i 1).val / 1024) + 3, hlt⟩, (flush3_3 _).mpr (by show (16 * ((i 0).val / 512) + 4 * ((i 1).val / 1024) + 3) % 4 = 3; omega), ?_⟩
  rw [mem_blk3]
  intro a
  match a with
  | ⟨0, _⟩ =>
    show win3_3.index ⟨16 * ((i 0).val / 512) + 4 * ((i 1).val / 1024) + 3, hlt⟩ 0 * 512 ≤ (i 0).val
      ∧ (i 0).val < win3_3.index ⟨16 * ((i 0).val / 512) + 4 * ((i 1).val / 1024) + 3, hlt⟩ 0 * 512 + 512
    rw [(idx3_3 _).1]
    show (16 * ((i 0).val / 512) + 4 * ((i 1).val / 1024) + 3) / 16 * 512 ≤ (i 0).val
      ∧ (i 0).val < (16 * ((i 0).val / 512) + 4 * ((i 1).val / 1024) + 3) / 16 * 512 + 512
    omega
  | ⟨1, _⟩ =>
    show win3_3.index ⟨16 * ((i 0).val / 512) + 4 * ((i 1).val / 1024) + 3, hlt⟩ 1 * 1024 ≤ (i 1).val
      ∧ (i 1).val < win3_3.index ⟨16 * ((i 0).val / 512) + 4 * ((i 1).val / 1024) + 3, hlt⟩ 1 * 1024 + 1024
    rw [(idx3_3 _).2]
    show (16 * ((i 0).val / 512) + 4 * ((i 1).val / 1024) + 3) / 4 % 4 * 1024 ≤ (i 1).val
      ∧ (i 1).val < (16 * ((i 0).val / 512) + 4 * ((i 1).val / 1024) + 3) / 4 % 4 * 1024 + 1024
    omega

/-- THE CALL'S RESULT: after the run the output array holds `mmBias` of the three input arrays as the region found them. -/
theorem regionOut3 (c : Dev nD) :
    (dat3 V c).arrAt 3 cfg3.N = mmBias (Parr3 V c) (Warr3 V c) (Barr3 V c) :=
  (dat3 V c).arrAt_eq_of_cover 3 _ (fun t hf => flushed3_eq V c t hf) (cover3 c)

end Region

end Cert.KernelIdeal.Hand

end
-- ==== Proof.KernelIdeal.HostValue.lean ====
/-
  The idealized kernel's two results as functions of its ten arguments.

  Before the calls the host flattens each input volume into its 1024 x 4096 matrix of 16^3 patches (`patchify`:
  two reshapes, a transposition of the block and offset axes, a reshape) and turns each bias vector into a one-row
  matrix; each call's three arrays are such values of the launch arguments, carried unchanged past the calls that do
  not write them; after the calls it adds the call results in pairs and re-assembles each sum into a volume
  (`unpatchify`: the inverse reshapes and transposition). With each call's result `mmBias` of its arrays:
    result 0 = unpatchify (mmBias (patchify x_r) W_rr b_rr + mmBias (patchify x_i) W_ir b_ir)
    result 1 = unpatchify (mmBias (patchify x_i) W_ii b_ii + mmBias (patchify x_r) W_ri b_ri).
-/
import proofs.«109952_j48137993453602_1_alg».proof.Proof.KernelIdeal.Run
import proofs.«109952_j48137993453602_1_alg».proof.Proof.KernelIdeal.Value0
import proofs.«109952_j48137993453602_1_alg».proof.Proof.KernelIdeal.Value1
import proofs.«109952_j48137993453602_1_alg».proof.Proof.KernelIdeal.Value2
import proofs.«109952_j48137993453602_1_alg».proof.Proof.KernelIdeal.Value3
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

/-! ## The host's layout operations, named -/

section Layout
variable {F : FTy → Type} [FloatOps F]

/-- A volume as its matrix of flattened 16 x 16 x 16 patches, one patch per row. -/
def patchify (x : Vec F S2x1x128x128x128 .f32) : Vec F S1024x4096 .f32 :=
  shapeCast S1024x4096
    (transpose S2x8x8x8x16x16x16 [0, 1, 3, 5, 2, 4, 6]
      (shapeCast S2x8x16x8x16x8x16 (shapeCast S2x128x128x128 x shapeCasts_S2x1x128x128x128_S2x128x128x128)
        shapeCasts_S2x128x128x128_S2x8x16x8x16x8x16)
      transposes_S2x8x16x8x16x8x16_S2x8x8x8x16x16x16_0_1_3_5_2_4_6)
    shapeCasts_S2x8x8x8x16x16x16_S1024x4096

/-- A bias vector as a one-row matrix. -/
def biasRow (b : Vec F S4096 .f32) : Vec F S1x4096 .f32 := shapeCast S1x4096 b shapeCasts_S4096_S1x4096

/-- A matrix of flattened patches re-assembled into a volume. -/
def unpatchify (y : Vec F S1024x4096 .f32) : Vec F S2x1x128x128x128 .f32 :=
  shapeCast S2x1x128x128x128
    (transpose S2x8x16x8x16x8x16 [0, 1, 4, 2, 5, 3, 6]
      (shapeCast S2x8x8x8x16x16x16 y shapeCasts_S1024x4096_S2x8x8x8x16x16x16)
      transposes_S2x8x8x8x16x16x16_S2x8x16x8x16x8x16_0_1_4_2_5_3_6)
    shapeCasts_S2x8x16x8x16x8x16_S2x1x128x128x128

end Layout

variable (m : (ℓ : Loc nD τ sig) → Buf (Elt Ideal) ℓ)

/-! ## What passes a host stretch or a call unchanged -/

theorem Uin0_keep (c : Dev nD) (r : Ref sig .tc) (h : r ∉ hostOps0_W) : Uin0 m c r = m ((c : Thread nD τ).loc r) :=
  (StableHlo.after_of_writes_sub hostOps0 _ hostOps0_writes h).trans rfl
theorem Uin1_keep (c : Dev nD) (r : Ref sig .tc) (h : r ∉ hostOps1_W) (k : r ≠ Pipeline.arrRef spec0 3) : Uin1 m c r = Uin0 m c r :=
  (StableHlo.after_of_writes_sub hostOps1 _ hostOps1_writes h).trans (Uout0_keep m c r k)
theorem Uin2_keep (c : Dev nD) (r : Ref sig .tc) (h : r ∉ hostOps2_W) (k : r ≠ Pipeline.arrRef spec1 3) : Uin2 m c r = Uin1 m c r :=
  (StableHlo.after_of_writes_sub hostOps2 _ hostOps2_writes h).trans (Uout1_keep m c r k)
theorem Uin3_keep (c : Dev nD) (r : Ref sig .tc) (h : r ∉ hostOps3_W) (k : r ≠ Pipeline.arrRef spec2 3) : Uin3 m c r = Uin2 m c r :=
  (StableHlo.after_of_writes_sub hostOps3 _ hostOps3_writes h).trans (Uout2_keep m c r k)

/-! ## The host's values before the calls -/

theorem Uin0_v3 (c : Dev nD) : (Uin0 m c main_v3 : Vec Ideal S1024x4096 .f32) = patchify (m ((c : Thread nD τ).loc main_arg0)) := by
  show StableHlo.after hostOps0 (fun b => m (c, b)) (Proc.devRef .tc main_v3) = _
  after_results
  rfl
theorem Uin0_v7 (c : Dev nD) : (Uin0 m c main_v7 : Vec Ideal S1024x4096 .f32) = patchify (m ((c : Thread nD τ).loc main_arg1)) := by
  show StableHlo.after hostOps0 (fun b => m (c, b)) (Proc.devRef .tc main_v7) = _
  after_results
  rfl
theorem Uin0_v8 (c : Dev nD) : (Uin0 m c main_v8 : Vec Ideal S1x4096 .f32) = biasRow (m ((c : Thread nD τ).loc main_arg3)) := by
  show StableHlo.after hostOps0 (fun b => m (c, b)) (Proc.devRef .tc main_v8) = _
  after_results
  rfl
theorem Uin1_v10 (c : Dev nD) : (Uin1 m c main_v10 : Vec Ideal S1x4096 .f32) = biasRow (Uout0 m c main_arg5) := by
  show StableHlo.after hostOps1 (Uout0 m c) (Proc.devRef .tc main_v10) = _
  after_results
  rfl
theorem Uin2_v12 (c : Dev nD) : (Uin2 m c main_v12 : Vec Ideal S1x4096 .f32) = biasRow (Uout1 m c main_arg7) := by
  show StableHlo.after hostOps2 (Uout1 m c) (Proc.devRef .tc main_v12) = _
  after_results
  rfl
theorem Uin3_v14 (c : Dev nD) : (Uin3 m c main_v14 : Vec Ideal S1x4096 .f32) = biasRow (Uout2 m c main_arg9) := by
  show StableHlo.after hostOps3 (Uout2 m c) (Proc.devRef .tc main_v14) = _
  after_results
  rfl

/-! ## Each call's three arrays, as values of the launch arguments -/

theorem P0_eq (c : Dev nD) : Parr0 (Rin0 m) c = patchify (m ((c : Thread nD τ).loc main_arg0)) := Uin0_v3 m c
theorem W0_eq (c : Dev nD) : Warr0 (Rin0 m) c = m ((c : Thread nD τ).loc main_arg2) := Uin0_keep m c main_arg2 (by decide)
theorem B0_eq (c : Dev nD) : Barr0 (Rin0 m) c = biasRow (m ((c : Thread nD τ).loc main_arg3)) := Uin0_v8 m c

theorem P1_eq (c : Dev nD) : Parr1 (Rin1 m) c = patchify (m ((c : Thread nD τ).loc main_arg0)) :=
  (Uin1_keep m c main_v3 (by decide) (by decide)).trans (Uin0_v3 m c)
theorem W1_eq (c : Dev nD) : Warr1 (Rin1 m) c = m ((c : Thread nD τ).loc main_arg4) :=
  (Uin1_keep m c main_arg4 (by decide) (by decide)).trans (Uin0_keep m c main_arg4 (by decide))
theorem B1_eq (c : Dev nD) : Barr1 (Rin1 m) c = biasRow (m ((c : Thread nD τ).loc main_arg5)) :=
  (Uin1_v10 m c).trans (congrArg biasRow ((Uout0_keep m c main_arg5 (by decide)).trans (Uin0_keep m c main_arg5 (by decide))))

theorem P2_eq (c : Dev nD) : Parr2 (Rin2 m) c = patchify (m ((c : Thread nD τ).loc main_arg1)) :=
  (Uin2_keep m c main_v7 (by decide) (by decide)).trans ((Uin1_keep m c main_v7 (by decide) (by decide)).trans (Uin0_v7 m c))
theorem W2_eq (c : Dev nD) : Warr2 (Rin2 m) c = m ((c : Thread nD τ).loc main_arg6) :=
  (Uin2_keep m c main_arg6 (by decide) (by decide)).trans ((Uin1_keep m c main_arg6 (by decide) (by decide)).trans (Uin0_keep m c main_arg6 (by decide)))
theorem B2_eq (c : Dev nD) : Barr2 (Rin2 m) c = biasRow (m ((c : Thread nD τ).loc main_arg7)) :=
  (Uin2_v12 m c).trans (congrArg biasRow ((Uout1_keep m c main_arg7 (by decide)).trans
    ((Uin1_keep m c main_arg7 (by decide) (by decide)).trans (Uin0_keep m c main_arg7 (by decide)))))

theorem P3_eq (c : Dev nD) : Parr3 (Rin3 m) c = patchify (m ((c : Thread nD τ).loc main_arg1)) :=
  (Uin3_keep m c main_v7 (by decide) (by decide)).trans ((Uin2_keep m c main_v7 (by decide) (by decide)).trans
    ((Uin1_keep m c main_v7 (by decide) (by decide)).trans (Uin0_v7 m c)))
theorem W3_eq (c : Dev nD) : Warr3 (Rin3 m) c = m ((c : Thread nD τ).loc main_arg8) :=
  (Uin3_keep m c main_arg8 (by decide) (by decide)).trans ((Uin2_keep m c main_arg8 (by decide) (by decide)).trans
    ((Uin1_keep m c main_arg8 (by decide) (by decide)).trans (Uin0_keep m c main_arg8 (by decide))))
theorem B3_eq (c : Dev nD) : Barr3 (Rin3 m) c = biasRow (m ((c : Thread nD τ).loc main_arg9)) :=
  (Uin3_v14 m c).trans (congrArg biasRow ((Uout2_keep m c main_arg9 (by decide)).trans
    ((Uin2_keep m c main_arg9 (by decide) (by decide)).trans ((Uin1_keep m c main_arg9 (by decide) (by decide)).trans (Uin0_keep m c main_arg9 (by decide))))))

/-! ## Each call's result, as it stands when the last host stretch reads it -/

/-- The four call results as functions of the launch arguments. -/
abbrev Yrr (c : Dev nD) : Vec Ideal S1024x4096 .f32 :=
  mmBias (patchify (m ((c : Thread nD τ).loc main_arg0))) (m ((c : Thread nD τ).loc main_arg2)) (biasRow (m ((c : Thread nD τ).loc main_arg3)))
abbrev Yri (c : Dev nD) : Vec Ideal S1024x4096 .f32 :=
  mmBias (patchify (m ((c : Thread nD τ).loc main_arg0))) (m ((c : Thread nD τ).loc main_arg4)) (biasRow (m ((c : Thread nD τ).loc main_arg5)))
abbrev Yii (c : Dev nD) : Vec Ideal S1024x4096 .f32 :=
  mmBias (patchify (m ((c : Thread nD τ).loc main_arg1))) (m ((c : Thread nD τ).loc main_arg6)) (biasRow (m ((c : Thread nD τ).loc main_arg7)))
abbrev Yir (c : Dev nD) : Vec Ideal S1024x4096 .f32 :=
  mmBias (patchify (m ((c : Thread nD τ).loc main_arg1))) (m ((c : Thread nD τ).loc main_arg8)) (biasRow (m ((c : Thread nD τ).loc main_arg9)))

theorem out0_eq (c : Dev nD) : (Uout0 m c main_v9 : Vec Ideal S1024x4096 .f32) = Yrr m c :=
  (Uout0_arr m c 3).trans ((regionOut0 (Rin0 m) c).trans (by rw [P0_eq, W0_eq, B0_eq]))
theorem out1_eq (c : Dev nD) : (Uout1 m c main_v11 : Vec Ideal S1024x4096 .f32) = Yri m c :=
  (Uout1_arr m c 3).trans ((regionOut1 (Rin1 m) c).trans (by rw [P1_eq, W1_eq, B1_eq]))
theorem out2_eq (c : Dev nD) : (Uout2 m c main_v13 : Vec Ideal S1024x4096 .f32) = Yii m c :=
  (Uout2_arr m c 3).trans ((regionOut2 (Rin2 m) c).trans (by rw [P2_eq, W2_eq, B2_eq]))
theorem out3_eq (c : Dev nD) : (Uout3 m c main_v15 : Vec Ideal S1024x4096 .f32) = Yir m c :=
  (Uout3_arr m c 3).trans ((regionOut3 (Rin3 m) c).trans (by rw [P3_eq, W3_eq, B3_eq]))

theorem end_v9 (c : Dev nD) : (Uout3 m c main_v9 : Vec Ideal S1024x4096 .f32) = Yrr m c :=
  (Uout3_keep m c main_v9 (by decide)).trans ((Uin3_keep m c main_v9 (by decide) (by decide)).trans
    ((Uin2_keep m c main_v9 (by decide) (by decide)).trans ((StableHlo.after_of_writes_sub hostOps1 _ hostOps1_writes (by decide)).trans (out0_eq m c))))
theorem end_v11 (c : Dev nD) : (Uout3 m c main_v11 : Vec Ideal S1024x4096 .f32) = Yri m c :=
  (Uout3_keep m c main_v11 (by decide)).trans ((Uin3_keep m c main_v11 (by decide) (by decide)).trans
    ((StableHlo.after_of_writes_sub hostOps2 _ hostOps2_writes (by decide)).trans (out1_eq m c)))
theorem end_v13 (c : Dev nD) : (Uout3 m c main_v13 : Vec Ideal S1024x4096 .f32) = Yii m c :=
  (Uout3_keep m c main_v13 (by decide)).trans ((StableHlo.after_of_writes_sub hostOps3 _ hostOps3_writes (by decide)).trans (out2_eq m c))
theorem end_v15 (c : Dev nD) : (Uout3 m c main_v15 : Vec Ideal S1024x4096 .f32) = Yir m c := out3_eq m c

/-! ## The two results -/

theorem result0_eq (c : Dev nD) :
    (Uend m c main_v20 : Vec Ideal S2x1x128x128x128 .f32) = unpatchify (addf (Yrr m c) (Yir m c)) := by
  have e : (Uend m c main_v20 : Vec Ideal S2x1x128x128x128 .f32)
      = unpatchify (addf (Uout3 m c main_v9 : Vec Ideal S1024x4096 .f32) (Uout3 m c main_v15 : Vec Ideal S1024x4096 .f32)) := by
    show StableHlo.after hostOps4 (Uout3 m c) (Proc.devRef .tc main_v20) = _
    after_results
    rfl
  rw [e, end_v9, end_v15]

theorem result1_eq (c : Dev nD) :
    (Uend m c main_v23 : Vec Ideal S2x1x128x128x128 .f32) = unpatchify (addf (Yii m c) (Yri m c)) := by
  have e : (Uend m c main_v23 : Vec Ideal S2x1x128x128x128 .f32)
      = unpatchify (addf (Uout3 m c main_v13 : Vec Ideal S1024x4096 .f32) (Uout3 m c main_v11 : Vec Ideal S1024x4096 .f32)) := by
    show StableHlo.after hostOps4 (Uout3 m c) (Proc.devRef .tc main_v23) = _
    after_results
    rfl
  rw [e, end_v13, end_v11]

end Cert.KernelIdeal.Hand

end
-- ==== Proof.LibLayoutLaws.lean ====
/-
  Two general laws the comparison of a blocked kernel with an unblocked reference uses.

  A reshape re-reads the same elements in row-major order, so a reshape of a reshape is the reshape to the last
  shape. A sum over 4096 consecutive indices is the sum of its four consecutive blocks of 1024, added one after the
  other to zero — in any additive commutative monoid (the extended reals among them: no finiteness is needed to
  regroup a sum).
-/
import Idealize.ShloMosaic.Lib.Pipeline.Value
import Mathlib.Algebra.BigOperators.Fin

noncomputable section

namespace Cert.LibLayoutLaws

open Idealize.ShloMosaic

/-- A reshape of a reshape is the reshape. -/
theorem shapeCast_trans {s t u : Shape} {α : Type} (v : s.Idx → α) (h : s.ShapeCasts t) (h' : t.ShapeCasts u) (h'' : s.ShapeCasts u) :
    shapeCast u (shapeCast t v h) h' = shapeCast u v h'' :=
  funext fun j => congrArg v (by
    show Shape.reshapeEquiv _ (Shape.reshapeEquiv _ j) = Shape.reshapeEquiv _ j
    rw [Shape.reshapeEquiv_reshapeEquiv])

/-- A sum over 4096 indices, block by block: four blocks of 1024 added in order to zero. -/
theorem sum_four_blocks {M : Type*} [AddCommMonoid M] (f : Fin 4096 → M) :
    ∑ K : Fin 4096, f K
      = (((0 + ∑ q : Fin 1024, f ⟨1024 * 0 + q.val, by omega⟩) + ∑ q : Fin 1024, f ⟨1024 * 1 + q.val, by omega⟩)
          + ∑ q : Fin 1024, f ⟨1024 * 2 + q.val, by omega⟩) + ∑ q : Fin 1024, f ⟨1024 * 3 + q.val, by omega⟩ := by
  have e : (∑ K : Fin 4096, f K) = ∑ K : Fin (1024 + 1024 + 1024 + 1024), f K := rfl
  rw [e, Fin.sum_univ_add, Fin.sum_univ_add, Fin.sum_univ_add, zero_add]
  refine congrArg₂ (· + ·) (congrArg₂ (· + ·) (congrArg₂ (· + ·) ?_ ?_) ?_) ?_
  all_goals
    refine Finset.sum_congr rfl fun q _ => congrArg f (Fin.ext ?_)
    (try simp only [Fin.val_castAdd, Fin.val_natAdd]) <;> (try omega)

end Cert.LibLayoutLaws

end
-- ==== Proof.Bridge.lean ====
/-
  The idealized kernel and the idealized reference compute the same two volumes.

  The reference keeps the patches of a volume as a [2, 512, 4096] array (sample, patch, entry) where the kernel keeps
  them as a [1024, 4096] matrix: the same elements in the same row-major order, so each is a reshape of the other, and
  likewise each call's [1024, 4096] result is the reshape of the reference's [2, 512, 4096] product-plus-bias: at row
  R = 512 s + p and column N both are the sum over the 4096 reduction indices K of patch[s, p, K] * W[N, K], plus
  b[N] — the kernel adds that sum in four consecutive blocks of 1024 starting from zero, which is the same extended
  real (a sum may be regrouped; nothing here needs a finite input). The re-assembly into a volume is a gather, so it
  commutes with the elementwise sum of two call results: the kernel sums first and re-assembles once, the reference
  re-assembles each and sums.
-/
import proofs.«109952_j48137993453602_1_alg».proof.Proof.KernelIdeal.HostValue
import proofs.«109952_j48137993453602_1_alg».proof.Proof.Gen.ReferenceIdeal.Read
import proofs.«109952_j48137993453602_1_alg».proof.Proof.LibLayoutLaws
import Idealize.ShloMosaic.Lib.ValueIdx
import Idealize.ShloMosaic.Lib.Pipeline.Value
import Idealize.ShloMosaic.PureOps.Ideal.Laws

set_option maxRecDepth 16384

noncomputable section

namespace Cert.Bridge

open Idealize.ShloMosaic Idealize.ShloMosaic.TcCoe Idealize.SL.Sem
open Idealize.ShloMosaic.ValueIdx
open Cert.KernelIdeal Cert.KernelIdeal.Gen Cert.KernelIdeal.Hand Cert.LibLayoutLaws
open Cert.ReferenceIdeal.Read

/-- The two patch layouts hold the same number of elements. -/
theorem casts32 : Cert.ReferenceIdeal.S2x512x4096.ShapeCasts S1024x4096 := by decide

/-- The kernel's patch matrix is the reshape of the reference's patch array. -/
theorem patchify_eq (x : Vec Ideal S2x1x128x128x128 .f32) :
    patchify x = shapeCast S1024x4096 (val_main_v3 (F := Ideal) x) casts32 := by
  unfold patchify val_main_v3 val_main_v2 val_main_v1 val_main_v0
  exact (shapeCast_trans _ _ _ _).symm

/-- The reference's product-plus-bias at (s, p, N): the sum over the reduction index plus the bias entry. -/
theorem ref_apply (x : Vec Ideal S2x1x128x128x128 .f32) (W : Vec Ideal S4096x4096 .f32) (b : Vec Ideal S4096 .f32)
    (s : Fin 2) (p : Fin 512) (N : Fin 4096) :
    val_main_v7 (F := Ideal) x W b (ix3 s p N)
      = (∑ K : Fin 4096, val_main_v3 (F := Ideal) x (ix3 s p K) * W (ix2 N K)) + b (ix1 N) := by
  rw [val_main_v7_apply, val_main_v4_apply, val_main_v6_apply, val_main_v5_apply]
  refine congrArg₂ (· + ·) (Finset.sum_congr rfl fun K _ => congrArg₂ (· * ·) (congrArg _ ?_) (congrArg _ ?_)) (congrArg b ?_)
  · funext a; match a with | ⟨0, _⟩ => rfl | ⟨1, _⟩ => rfl | ⟨2, _⟩ => rfl
  · funext a; match a with | ⟨0, _⟩ => rfl | ⟨1, _⟩ => rfl
  · funext a; match a with | ⟨0, _⟩ => rfl

/-- ONE CALL: the kernel's result matrix is the reshape of the reference's product-plus-bias. -/
theorem call_eq (x : Vec Ideal S2x1x128x128x128 .f32) (W : Vec Ideal S4096x4096 .f32) (b : Vec Ideal S4096 .f32) :
    mmBias (patchify x) W (biasRow b) = shapeCast S1024x4096 (val_main_v7 (F := Ideal) x W b) casts32 := by
  funext j
  obtain ⟨R, N, rfl⟩ : ∃ (R : Fin 1024) (N : Fin 4096), j = ix2 R N := ⟨j 0, j 1, eq_ix2 j⟩
  have hs : R.val / 512 < 2 := by have := R.isLt; omega
  have hp : R.val % 512 < 512 := Nat.mod_lt _ (by decide)
  -- the reference's index with the same row-major position
  have hpos : ∀ K : Fin 4096, (Cert.ReferenceIdeal.S2x512x4096.rowMajor (ix3 (⟨R.val / 512, hs⟩ : Fin 2) (⟨R.val % 512, hp⟩ : Fin 512) K)).val
      = (S1024x4096.rowMajor (ix2 R K)).val := by
    intro K
    rw [Shape.rowMajor_val_three, Shape.rowMajor_val_two]
    show (R.val / 512 * 512 + R.val % 512) * 4096 + K.val = R.val * 4096 + K.val
    have := Nat.div_add_mod R.val 512
    omega
  rw [shapeCast_apply _ casts32 (ix2 R N) (ix3 ⟨R.val / 512, hs⟩ ⟨R.val % 512, hp⟩ N) (hpos N), ref_apply,
    mmBias_at _ _ _ (ix2 R N) R N rfl rfl]
  unfold outAtIdx
  refine congrArg₂ (· + ·) ?_ ?_
  · -- the four block sums are the whole sum
    rw [sum_four_blocks]
    have hP : ∀ K : Fin 4096, patchify x (ix2 R K) = val_main_v3 (F := Ideal) x (ix3 ⟨R.val / 512, hs⟩ ⟨R.val % 512, hp⟩ K) := fun K => by
      rw [patchify_eq]
      exact shapeCast_apply _ casts32 (ix2 R K) _ (hpos K)
    unfold blockDot
    simp only [hP]
    rfl
  · -- the bias row's entry
    unfold biasRow
    refine shapeCast_apply _ _ (ix2 0 N) (ix1 N) ?_
    rw [Shape.rowMajor_val_one, Shape.rowMajor_val_two]
    show N.val = 0 * 4096 + N.val
    omega

/-! ## The re-assembly, on the reference's layout -/

/-- A [2, 512, 4096] array of flattened patches re-assembled into a volume (the reference's three layout operations). -/
def unpatchify3 (z : Vec Ideal Cert.ReferenceIdeal.S2x512x4096 .f32) : Vec Ideal S2x1x128x128x128 .f32 :=
  shapeCast S2x1x128x128x128
    (transpose S2x8x16x8x16x8x16 [0, 1, 4, 2, 5, 3, 6]
      (shapeCast S2x8x8x8x16x16x16 z Cert.ReferenceIdeal.Gen.shapeCasts_S2x512x4096_S2x8x8x8x16x16x16)
      transposes_S2x8x8x8x16x16x16_S2x8x16x8x16x8x16_0_1_4_2_5_3_6)
    shapeCasts_S2x8x16x8x16x8x16_S2x1x128x128x128

/-- Re-assembling the reshaped matrix is re-assembling the array. -/
theorem unpatchify_reshape (z : Vec Ideal Cert.ReferenceIdeal.S2x512x4096 .f32) :
    unpatchify (shapeCast S1024x4096 z casts32) = unpatchify3 z := by
  unfold unpatchify unpatchify3
  rw [shapeCast_trans z casts32 shapeCasts_S1024x4096_S2x8x8x8x16x16x16 Cert.ReferenceIdeal.Gen.shapeCasts_S2x512x4096_S2x8x8x8x16x16x16]

/-- Re-assembly commutes with the elementwise sum, and so does the reshape. -/
theorem unpatchify3_add (z z' : FVec Ideal Cert.ReferenceIdeal.S2x512x4096 .f32) :
    unpatchify3 (addf z z')
      = (addf (unpatchify3 z : FVec Ideal S2x1x128x128x128 .f32) (unpatchify3 z' : FVec Ideal S2x1x128x128x128 .f32) : FVec Ideal S2x1x128x128x128 .f32) := rfl
theorem reshape_add (z z' : FVec Ideal Cert.ReferenceIdeal.S2x512x4096 .f32) :
    (addf (shapeCast S1024x4096 z casts32 : FVec Ideal S1024x4096 .f32) (shapeCast S1024x4096 z' casts32 : FVec Ideal S1024x4096 .f32) : FVec Ideal S1024x4096 .f32)
      = shapeCast S1024x4096 (addf z z') casts32 := rfl

/-- The sum of two call results, re-assembled: the reference's sum of two re-assembled products. -/
theorem pair_eq (x x' : Vec Ideal S2x1x128x128x128 .f32) (W W' : Vec Ideal S4096x4096 .f32) (b b' : Vec Ideal S4096 .f32) :
    unpatchify (F := Ideal) (addf (F := Ideal) (s := S1024x4096) (φ := .f32) (mmBias (patchify x) W (biasRow b) : FVec Ideal S1024x4096 .f32) (mmBias (patchify x') W' (biasRow b') : FVec Ideal S1024x4096 .f32))
      = (addf (unpatchify3 (val_main_v7 (F := Ideal) x W b) : FVec Ideal S2x1x128x128x128 .f32)
          (unpatchify3 (val_main_v7 (F := Ideal) x' W' b') : FVec Ideal S2x1x128x128x128 .f32) : FVec Ideal S2x1x128x128x128 .f32) := by
  rw [call_eq, call_eq]
  exact (congrArg unpatchify (reshape_add _ _)).trans ((unpatchify_reshape _).trans (unpatchify3_add _ _))

/-! ## The reference's two results in that form -/

theorem ref_result0 (x0 x1 : Vec Ideal S2x1x128x128x128 .f32) (x2 : Vec Ideal S4096x4096 .f32) (x3 : Vec Ideal S4096 .f32)
    (x8 : Vec Ideal S4096x4096 .f32) (x9 : Vec Ideal S4096 .f32) :
    val_main_v44 (F := Ideal) x0 x1 x2 x3 x8 x9
      = (addf (unpatchify3 (val_main_v7 (F := Ideal) x0 x2 x3) : FVec Ideal S2x1x128x128x128 .f32)
          (unpatchify3 (val_main_v7 (F := Ideal) x1 x8 x9) : FVec Ideal S2x1x128x128x128 .f32) : FVec Ideal S2x1x128x128x128 .f32) := rfl

theorem ref_result1 (x0 x1 : Vec Ideal S2x1x128x128x128 .f32) (x4 : Vec Ideal S4096x4096 .f32) (x5 : Vec Ideal S4096 .f32)
    (x6 : Vec Ideal S4096x4096 .f32) (x7 : Vec Ideal S4096 .f32) :
    val_main_v45 (F := Ideal) x0 x1 x4 x5 x6 x7
      = (addf (unpatchify3 (val_main_v7 (F := Ideal) x1 x6 x7) : FVec Ideal S2x1x128x128x128 .f32)
          (unpatchify3 (val_main_v7 (F := Ideal) x0 x4 x5) : FVec Ideal S2x1x128x128x128 .f32) : FVec Ideal S2x1x128x128x128 .f32) := rfl

/-- RESULT 0: the kernel's first volume is the reference's. -/
theorem result0 (x0 x1 : Vec Ideal S2x1x128x128x128 .f32) (x2 : Vec Ideal S4096x4096 .f32) (x3 : Vec Ideal S4096 .f32)
    (x8 : Vec Ideal S4096x4096 .f32) (x9 : Vec Ideal S4096 .f32) :
    unpatchify (F := Ideal) (addf (F := Ideal) (s := S1024x4096) (φ := .f32) (mmBias (patchify x0) x2 (biasRow x3) : FVec Ideal S1024x4096 .f32) (mmBias (patchify x1) x8 (biasRow x9) : FVec Ideal S1024x4096 .f32))
      = val_main_v44 (F := Ideal) x0 x1 x2 x3 x8 x9 :=
  (pair_eq x0 x1 x2 x8 x3 x9).trans (ref_result0 x0 x1 x2 x3 x8 x9).symm

/-- RESULT 1: the kernel's second volume is the reference's. -/
theorem result1 (x0 x1 : Vec Ideal S2x1x128x128x128 .f32) (x4 : Vec Ideal S4096x4096 .f32) (x5 : Vec Ideal S4096 .f32)
    (x6 : Vec Ideal S4096x4096 .f32) (x7 : Vec Ideal S4096 .f32) :
    unpatchify (F := Ideal) (addf (F := Ideal) (s := S1024x4096) (φ := .f32) (mmBias (patchify x1) x6 (biasRow x7) : FVec Ideal S1024x4096 .f32) (mmBias (patchify x0) x4 (biasRow x5) : FVec Ideal S1024x4096 .f32))
      = val_main_v45 (F := Ideal) x0 x1 x4 x5 x6 x7 :=
  (pair_eq x1 x0 x6 x4 x7 x5).trans (ref_result1 x0 x1 x4 x5 x6 x7).symm

end Cert.Bridge

end
-- ==== Proof.lean ====
/-
  The certificate of the patch matmul kernel against its reference.

  The kernel flattens each of two input volumes into a 1024 x 4096 matrix of 16^3 patches, runs four matmul calls
  (each: patches times a 4096 x 4096 weight matrix transposed, plus a bias row, the 4096-long reduction accumulated
  in four blocks of 1024 along the grid's last axis), adds the call results in pairs and re-assembles each sum into
  a volume. The reference does the same with one whole product per call on a [2, 512, 4096] patch array and
  re-assembles before it adds.

  Frames. Each program of the kernel (the word-level one and the idealized one) runs as nine segments — host
  operations, call, host operations, ... — and every argument ends as launched because no host operation writes an
  argument and a call writes only its own result array; the same text serves both programs. The reference's frame
  is its generated run.
  Preserves. The idealization rewrote nothing, so there is nothing to restate.
  Algebraic. At the extended reals the casts to bf16 are the identity, each call's result is the kernel-ordered sum
  of four block dot products plus bias, which is the reference's whole dot product plus bias (a sum regrouped), the
  two patch layouts are reshapes of one another, and the re-assembly commutes with the elementwise sum. No step
  uses that the inputs are finite.
-/
import proofs.«109952_j48137993453602_1_alg».proof.Defs
import proofs.«109952_j48137993453602_1_alg».proof.Proof.Gen.Kernel
import proofs.«109952_j48137993453602_1_alg».proof.Proof.Gen.KernelIdeal
import proofs.«109952_j48137993453602_1_alg».proof.Proof.Gen.ReferenceIdeal
import proofs.«109952_j48137993453602_1_alg».proof.Proof.Gen.ReferenceIdeal.Run
import proofs.«109952_j48137993453602_1_alg».proof.Proof.Gen.ReferenceIdeal.Read
import proofs.«109952_j48137993453602_1_alg».proof.Proof.Gen.Pre_finite_inputs
import proofs.«109952_j48137993453602_1_alg».proof.Proof.Kernel.Run
import proofs.«109952_j48137993453602_1_alg».proof.Proof.KernelIdeal.Run
import proofs.«109952_j48137993453602_1_alg».proof.Proof.KernelIdeal.HostValue
import proofs.«109952_j48137993453602_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and leaves its arguments as launched. -/
theorem frame_kernel [hPre_finite_inputs : Cert.Pre_finite_inputs.Facts] :
    Cert.frame_Kernel (hKernel := Cert.Kernel.Gen.facts) :=
  fun m ρ _ => Cert.Kernel.Hand.frame_run (F := Bits) m ρ

/-- The idealized kernel runs and leaves its arguments as launched. -/
theorem frame_kernelIdeal [hPre_finite_inputs : Cert.Pre_finite_inputs.Facts] :
    Cert.frame_KernelIdeal (hKernelIdeal := Cert.KernelIdeal.Gen.facts) :=
  fun m ρ _ => Cert.KernelIdeal.Hand.frame_run (F := Ideal) m ρ

/-- The idealized reference runs and leaves its arguments as launched: its generated run, the results dropped. -/
theorem frame_reference [hPre_finite_inputs : Cert.Pre_finite_inputs.Facts] :
    Cert.frame_ReferenceIdeal (hReferenceIdeal := Cert.ReferenceIdeal.Gen.facts) :=
  fun m ρ _ => (θ_run Cert.ReferenceIdeal.defs _ _).mono (fun _ h c => (h c).2.2)
    (Cert.ReferenceIdeal.Value.run (F := Ideal) m ρ)

/-- The idealization rewrote no operation. -/
theorem preserves : Cert.preserves_Kernel_KernelIdeal := trivial

open Cert.KernelIdeal Cert.KernelIdeal.Gen Cert.KernelIdeal.Hand in
/-- At the extended reals the two programs end with equal volumes: the kernel's two results (the fold of the buffers'
    contents through its nine segments, read at the two result buffers) are the reference's two result terms. -/
theorem algebraic [hPre_finite_inputs : Cert.Pre_finite_inputs.Facts] :
    Cert.algebraic_KernelIdeal_ReferenceIdeal (hKernelIdeal := Cert.KernelIdeal.Gen.facts) (hReferenceIdeal := Cert.ReferenceIdeal.Gen.facts) := by
  intro m ρ m' ρ' _ hagree
  refine ⟨fun c => Uend m c main_v20, fun c => Uend m c main_v23, ?_, ?_⟩
  · exact (θ_run Cert.KernelIdeal.defs _ _).mono
      (fun r h c => ⟨h c _ (mem_uc main_v20 (by decide)), h c _ (mem_uc main_v23 (by decide)), args_of_all m r.2 h c⟩)
      (run_all (F := Ideal) m ρ)
  · refine (θ_run Cert.ReferenceIdeal.defs _ _).mono (fun r h c => ⟨?_, ?_, (h c).2.2⟩)
      (Cert.ReferenceIdeal.Value.run (F := Ideal) m' ρ')
    · obtain ⟨e0, e1, e2, e3, e4, e5, e6, e7, e8, e9⟩ := hagree c
      refine ((h c).1.trans (Cert.ReferenceIdeal.Read.val_main_v44_eq _ _ _ _ _ _)).trans ?_
      rw [e0, e1, e2, e3, e8, e9]
      exact ((result0_eq m c).trans (Cert.Bridge.result0 _ _ _ _ _ _)).symm
    · obtain ⟨e0, e1, e2, e3, e4, e5, e6, e7, e8, e9⟩ := hagree c
      refine ((h c).2.1.trans (Cert.ReferenceIdeal.Read.val_main_v45_eq _ _ _ _ _ _)).trans ?_
      rw [e0, e1, e4, e5, e6, e7]
      exact ((result1_eq m c).trans (Cert.Bridge.result1 _ _ _ _ _ _)).symm

theorem claim : Cert.Claim :=
  ⟨Cert.Kernel.Gen.facts, Cert.KernelIdeal.Gen.facts, Cert.ReferenceIdeal.Gen.facts, Cert.Pre_finite_inputs.Gen.facts,
    frame_kernel (hPre_finite_inputs := Cert.Pre_finite_inputs.Gen.facts),
    frame_kernelIdeal (hPre_finite_inputs := Cert.Pre_finite_inputs.Gen.facts),
    frame_reference (hPre_finite_inputs := Cert.Pre_finite_inputs.Gen.facts),
    preserves,
    algebraic (hPre_finite_inputs := Cert.Pre_finite_inputs.Gen.facts)⟩

end Cert.Proof

end
